-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x28x28 : Shape := ⟨4, ![8, 256, 28, 28]⟩
abbrev S64x256x1x1 : Shape := ⟨4, ![64, 256, 1, 1]⟩
abbrev S64x1x3x3 : Shape := ⟨4, ![64, 1, 3, 3]⟩
abbrev S64x64x3x3 : Shape := ⟨4, ![64, 64, 3, 3]⟩
abbrev S256x64x1x1 : Shape := ⟨4, ![256, 64, 1, 1]⟩
abbrev S64 : Shape := ⟨1, ![64]⟩
abbrev S256 : Shape := ⟨1, ![256]⟩
abbrev S_ : Shape := ⟨0, ![]⟩

class Facts : Prop where
  bcast_S_S8x256x28x28 : S_.BroadcastsInDim S8x256x28x28 (![] : Fin 0 → Fin S8x256x28x28.rank)
  reducesTo_S8x256x28x28_S_d0_1_2_3 : S8x256x28x28.ReducesTo [0, 1, 2, 3] S_
  h_S_ : 0 < S_.numel
  bcast_S_S64x256x1x1 : S_.BroadcastsInDim S64x256x1x1 (![] : Fin 0 → Fin S64x256x1x1.rank)
  reducesTo_S64x256x1x1_S_d0_1_2_3 : S64x256x1x1.ReducesTo [0, 1, 2, 3] S_
  bcast_S_S64x1x3x3 : S_.BroadcastsInDim S64x1x3x3 (![] : Fin 0 → Fin S64x1x3x3.rank)
  reducesTo_S64x1x3x3_S_d0_1_2_3 : S64x1x3x3.ReducesTo [0, 1, 2, 3] S_
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S256x64x1x1 : S_.BroadcastsInDim S256x64x1x1 (![] : Fin 0 → Fin S256x64x1x1.rank)
  reducesTo_S256x64x1x1_S_d0_1_2_3 : S256x64x1x1.ReducesTo [0, 1, 2, 3] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_

variable [Facts]

def fn_part6 {F : FTy → Type} [FloatOps F] (main_v95 : IVec S_ 1) (main_v100 : IVec S_ 1) : IVec S_ 1 :=
  let main_v101 : IVec S_ 1 := andi main_v95 main_v100
  main_v101

def fn_part5 {F : FTy → Type} [FloatOps F] (main_arg8 : FVec F S64 .f32) (main_arg12 : FVec F S64 .f32) (main_arg16 : FVec F S256 .f32) (main_v83 : IVec S_ 1) (main_v84 : FVec F S64 .f32) : IVec S_ 1 :=
  let main_v85 : FVec F S64 .f32 := addf main_arg8 main_v84
  let main_cst_33 : FVec F S_ .f32 := constant S_ .f32 0x00000000#32
  let main_v86 : FVec F S64 .f32 := broadcastInDim S64 ![] bcast_S_S64 main_cst_33
  let main_v87 : IVec S64 1 := cmpf .ogt main_v85 main_v86
  let main_c_34 : IVec S_ 1 := constantI S_ 1 1#1
  let main_v88 : IVec S_ 1 := (fun x v => Host.reduce IntOp.andi x v reducesTo_S64_S_d0 h_S_) main_v87 main_c_34
  let main_v89 : IVec S_ 1 := andi main_v83 main_v88
  let main_cst_35 : FVec F S_ .f32 := constant S_ .f32 0x3727C5AC#32
  let main_v90 : FVec F S64 .f32 := broadcastInDim S64 ![] bcast_S_S64 main_cst_35
  let main_v91 : FVec F S64 .f32 := addf main_arg12 main_v90
  let main_cst_36 : FVec F S_ .f32 := constant S_ .f32 0x00000000#32
  let main_v92 : FVec F S64 .f32 := broadcastInDim S64 ![] bcast_S_S64 main_cst_36
  let main_v93 : IVec S64 1 := cmpf .ogt main_v91 main_v92
  let main_c_37 : IVec S_ 1 := constantI S_ 1 1#1
  let main_v94 : IVec S_ 1 := (fun x v => Host.reduce IntOp.andi x v reducesTo_S64_S_d0 h_S_) main_v93 main_c_37
  let main_v95 : IVec S_ 1 := andi main_v89 main_v94
  let main_cst_38 : FVec F S_ .f32 := constant S_ .f32 0x3727C5AC#32
  let main_v96 : FVec F S256 .f32 := broadcastInDim S256 ![] bcast_S_S256 main_cst_38
  let main_v97 : FVec F S256 .f32 := addf main_arg16 main_v96
  let main_cst_39 : FVec F S_ .f32 := constant S_ .f32 0x00000000#32
  let main_v98 : FVec F S256 .f32 := broadcastInDim S256 ![] bcast_S_S256 main_cst_39
  let main_v99 : IVec S256 1 := cmpf .ogt main_v97 main_v98
  let main_c_40 : IVec S_ 1 := constantI S_ 1 1#1
  let main_v100 : IVec S_ 1 := (fun x v => Host.reduce IntOp.andi x v reducesTo_S256_S_d0 h_S_) main_v99 main_c_40
  fn_part6 (F := F) main_v95 main_v100

def fn_part4 {F : FTy → Type} [FloatOps F] (main_arg8 : FVec F S64 .f32) (main_arg12 : FVec F S64 .f32) (main_arg14 : FVec F S256 .f32) (main_arg15 : FVec F S256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_cst_32 : FVec F S_ .f32 := constant S_ .f32 0x3727C5AC#32
  let main_v84 : FVec F S64 .f32 := broadcastInDim S64 ![] bcast_S_S64 main_cst_32
  fn_part5 (F := F) main_arg8 main_arg12 main_arg16 main_v83 main_v84

def fn_part3 {F : FTy → Type} [FloatOps F] (main_arg8 : FVec F S64 .f32) (main_arg11 : FVec F S64 .f32) (main_arg12 : FVec F S64 .f32) (main_arg13 : FVec F S256 .f32) (main_arg14 : FVec F S256 .f32) (main_arg15 : FVec F S256 .f32) (main_arg16 : FVec F S256 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg12 main_arg14 main_arg15 main_arg16 main_v63 main_v67

def fn_part2 {F : FTy → Type} [FloatOps F] (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S256 .f32) (main_arg14 : FVec F S256 .f32) (main_arg15 : FVec F S256 .f32) (main_arg16 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg8 main_arg11 main_arg12 main_arg13 main_arg14 main_arg15 main_arg16 main_v48 main_v49 main_v50

def fn_part1 {F : FTy → Type} [FloatOps F] (main_arg4 : FVec F S256x64x1x1 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S256 .f32) (main_arg14 : FVec F S256 .f32) (main_arg15 : FVec F S256 .f32) (main_arg16 : FVec F S256 .f32) (main_v13 : IVec S_ 1) (main_v16 : IVec S64x64x3x3 1) : IVec S_ 1 :=
  let main_c_5 : IVec S_ 1 := constantI S_ 1 1#1
  let main_v17 : IVec S_ 1 := (fun x v => Host.reduce IntOp.andi x v reducesTo_S64x64x3x3_S_d0_1_2_3 h_S_) main_v16 main_c_5
  let main_v18 : IVec S_ 1 := andi main_v13 main_v17
  let main_v19 : FVec F S256x64x1x1 .f32 := Host.absf main_arg4
  let main_cst_6 : FVec F S_ .f32 := constant S_ .f32 0x7F800000#32
  let main_v20 : FVec F S256x64x1x1 .f32 := broadcastInDim S256x64x1x1 ![] bcast_S_S256x64x1x1 main_cst_6
  let main_v21 : IVec S256x64x1x1 1 := cmpf .olt main_v19 main_v20
  let main_c_7 : IVec S_ 1 := constantI S_ 1 1#1
  let main_v22 : IVec S_ 1 := (fun x v => Host.reduce IntOp.andi x v reducesTo_S256x64x1x1_S_d0_1_2_3 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x256x28x28 .f32) (main_arg1 : FVec F S64x256x1x1 .f32) (main_arg2 : FVec F S64x1x3x3 .f32) (main_arg3 : FVec F S64x64x3x3 .f32) (main_arg4 : FVec F S256x64x1x1 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S256 .f32) (main_arg14 : FVec F S256 .f32) (main_arg15 : FVec F S256 .f32) (main_arg16 : FVec F S256 .f32) : IVec S_ 1 :=
  let main_v0 : FVec F S8x256x28x28 .f32 := Host.absf main_arg0
  let main_cst : FVec F S_ .f32 := constant S_ .f32 0x7F800000#32
  let main_v1 : FVec F S8x256x28x28 .f32 := broadcastInDim S8x256x28x28 ![] bcast_S_S8x256x28x28 main_cst
  let main_v2 : IVec S8x256x28x28 1 := cmpf .olt main_v0 main_v1
  let main_c : IVec S_ 1 := constantI S_ 1 1#1
  let main_v3 : IVec S_ 1 := (fun x v => Host.reduce IntOp.andi x v reducesTo_S8x256x28x28_S_d0_1_2_3 h_S_) main_v2 main_c
  let main_v4 : FVec F S64x256x1x1 .f32 := Host.absf main_arg1
  let main_cst_0 : FVec F S_ .f32 := constant S_ .f32 0x7F800000#32
  let main_v5 : FVec F S64x256x1x1 .f32 := broadcastInDim S64x256x1x1 ![] bcast_S_S64x256x1x1 main_cst_0
  let main_v6 : IVec S64x256x1x1 1 := cmpf .olt main_v4 main_v5
  let main_c_1 : IVec S_ 1 := constantI S_ 1 1#1
  let main_v7 : IVec S_ 1 := (fun x v => Host.reduce IntOp.andi x v reducesTo_S64x256x1x1_S_d0_1_2_3 h_S_) main_v6 main_c_1
  let main_v8 : IVec S_ 1 := andi main_v3 main_v7
  let main_v9 : FVec F S64x1x3x3 .f32 := Host.absf main_arg2
  let main_cst_2 : FVec F S_ .f32 := constant S_ .f32 0x7F800000#32
  let main_v10 : FVec F S64x1x3x3 .f32 := broadcastInDim S64x1x3x3 ![] bcast_S_S64x1x3x3 main_cst_2
  let main_v11 : IVec S64x1x3x3 1 := cmpf .olt main_v9 main_v10
  let main_c_3 : IVec S_ 1 := constantI S_ 1 1#1
  let main_v12 : IVec S_ 1 := (fun x v => Host.reduce IntOp.andi x v reducesTo_S64x1x3x3_S_d0_1_2_3 h_S_) main_v11 main_c_3
  let main_v13 : IVec S_ 1 := andi main_v8 main_v12
  let main_v14 : FVec F S64x64x3x3 .f32 := Host.absf main_arg3
  let main_cst_4 : FVec F S_ .f32 := constant S_ .f32 0x7F800000#32
  let main_v15 : FVec F S64x64x3x3 .f32 := broadcastInDim S64x64x3x3 ![] bcast_S_S64x64x3x3 main_cst_4
  let main_v16 : IVec S64x64x3x3 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x256x28x28 : Shape := ⟨4, ![8, 256, 28, 28]⟩
abbrev S64x256x1x1 : Shape := ⟨4, ![64, 256, 1, 1]⟩
abbrev S64x1x3x3 : Shape := ⟨4, ![64, 1, 3, 3]⟩
abbrev S64x64x3x3 : Shape := ⟨4, ![64, 64, 3, 3]⟩
abbrev S256x64x1x1 : Shape := ⟨4, ![256, 64, 1, 1]⟩
abbrev S64 : Shape := ⟨1, ![64]⟩
abbrev S256 : Shape := ⟨1, ![256]⟩
abbrev S8x28x28x256 : Shape := ⟨4, ![8, 28, 28, 256]⟩
abbrev S64x256 : Shape := ⟨2, ![64, 256]⟩
abbrev S64x3x3 : Shape := ⟨3, ![64, 3, 3]⟩
abbrev S3x3x64 : Shape := ⟨3, ![3, 3, 64]⟩
abbrev S3x3x64x64 : Shape := ⟨4, ![3, 3, 64, 64]⟩
abbrev S256x64 : Shape := ⟨2, ![256, 64]⟩
abbrev S1x28x28x256 : Shape := ⟨4, ![1, 28, 28, 256]⟩
abbrev S28x28x256 : Shape := ⟨3, ![28, 28, 256]⟩
abbrev S16x256 : Shape := ⟨2, ![16, 256]⟩
abbrev S28x28x1x256 : Shape := ⟨4, ![28, 28, 1, 256]⟩
abbrev S1x1x16x256 : Shape := ⟨4, ![1, 1, 16, 256]⟩
abbrev S28x28x16x256 : Shape := ⟨4, ![28, 28, 16, 256]⟩
abbrev S28x28x16 : Shape := ⟨3, ![28, 28, 16]⟩
abbrev S28x28x64 : Shape := ⟨3, ![28, 28, 64]⟩
abbrev S1x28x64 : Shape := ⟨3, ![1, 28, 64]⟩
abbrev S29x28x64 : Shape := ⟨3, ![29, 28, 64]⟩
abbrev S30x28x64 : Shape := ⟨3, ![30, 28, 64]⟩
abbrev S30x1x64 : Shape := ⟨3, ![30, 1, 64]⟩
abbrev S30x29x64 : Shape := ⟨3, ![30, 29, 64]⟩
abbrev S30x30x64 : Shape := ⟨3, ![30, 30, 64]⟩
abbrev S1x1x64 : Shape := ⟨3, ![1, 1, 64]⟩
abbrev S1x1x64x64 : Shape := ⟨4, ![1, 1, 64, 64]⟩
abbrev S64x64 : Shape := ⟨2, ![64, 64]⟩
abbrev S32x64 : Shape := ⟨2, ![32, 64]⟩
abbrev S28x28x1x64 : Shape := ⟨4, ![28, 28, 1, 64]⟩
abbrev S1x1x32x64 : Shape := ⟨4, ![1, 1, 32, 64]⟩
abbrev S28x28x32x64 : Shape := ⟨4, ![28, 28, 32, 64]⟩
abbrev S28x28x32 : Shape := ⟨3, ![28, 28, 32]⟩
abbrev S1x1x256 : Shape := ⟨3, ![1, 1, 256]⟩

abbrev nBuf : Space → Nat
  | .hbm => 25
  | .vmem => 20
  | .smem => 0
  | _ => 0

abbrev bufTy : (tb : Table) → Fin (tcTables nBuf tb) → BufTy
  | .hbm, ⟨0, _⟩ => ⟨S8x256x28x28, .f32⟩
  | .hbm, ⟨1, _⟩ => ⟨S64x256x1x1, .f32⟩
  | .hbm, ⟨2, _⟩ => ⟨S64x1x3x3, .f32⟩
  | .hbm, ⟨3, _⟩ => ⟨S64x64x3x3, .f32⟩
  | .hbm, ⟨4, _⟩ => ⟨S256x64x1x1, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S8x28x28x256, .f32⟩
  | .hbm, ⟨18, _⟩ => ⟨S64x256, .f32⟩
  | .hbm, ⟨19, _⟩ => ⟨S64x3x3, .f32⟩
  | .hbm, ⟨20, _⟩ => ⟨S3x3x64, .f32⟩
  | .hbm, ⟨21, _⟩ => ⟨S3x3x64x64, .f32⟩
  | .hbm, ⟨22, _⟩ => ⟨S256x64, .f32⟩
  | .hbm, ⟨23, _⟩ => ⟨S8x28x28x256, .f32⟩
  | .hbm, ⟨24, _⟩ => ⟨S8x256x28x28, .f32⟩
  | .local _ .vmem, ⟨0, _⟩ => ⟨S1x28x28x256, .f32⟩
  | .local _ .vmem, ⟨1, _⟩ => ⟨S1x28x28x256, .f32⟩
  | .local _ .vmem, ⟨2, _⟩ => ⟨S64x256, .f32⟩
  | .local _ .vmem, ⟨3, _⟩ => ⟨S3x3x64, .f32⟩
  | .local _ .vmem, ⟨4, _⟩ => ⟨S3x3x64x64, .f32⟩
  | .local _ .vmem, ⟨5, _⟩ => ⟨S256x64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S1x28x28x256, .f32⟩
  | .local _ .vmem, ⟨19, _⟩ => ⟨S1x28x28x256, .f32⟩
  | _, _ => ⟨S8x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x28x28x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x28x28x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S8x256x28x28_S8x28x28x256_0_2_3_1 : S8x256x28x28.Transposes [0, 2, 3, 1] S8x28x28x256
  shapeCasts_S64x256x1x1_S64x256 : S64x256x1x1.ShapeCasts S64x256
  shapeCasts_S64x1x3x3_S64x3x3 : S64x1x3x3.ShapeCasts S64x3x3
  transposes_S64x3x3_S3x3x64_1_2_0 : S64x3x3.Transposes [1, 2, 0] S3x3x64
  transposes_S64x64x3x3_S3x3x64x64_2_3_0_1 : S64x64x3x3.Transposes [2, 3, 0, 1] S3x3x64x64
  shapeCasts_S256x64x1x1_S256x64 : S256x64x1x1.ShapeCasts S256x64
  inb_S1x28x28x256_S1x28x28x256_0_0_0_0 : ∀ a, (![0, 0, 0, 0] : Fin 4 → Nat) a + S1x28x28x256.size a ≤ S1x28x28x256.size a
  h_S1x28x28x256 : 0 < S1x28x28x256.numel
  shapeCasts_S1x28x28x256_S28x28x256 : S1x28x28x256.ShapeCasts S28x28x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  slices_S64x256_o0_0_S16x256 : S64x256.Slices ![0, 0] S16x256
  shapeCasts_S28x28x256_S28x28x1x256 : S28x28x256.ShapeCasts S28x28x1x256
  shapeCasts_S16x256_S1x1x16x256 : S16x256.ShapeCasts S1x1x16x256
  broadcasts_S28x28x1x256_S28x28x16x256 : S28x28x1x256.Broadcasts S28x28x16x256
  broadcasts_S1x1x16x256_S28x28x16x256 : S1x1x16x256.Broadcasts S28x28x16x256
  reduces_S28x28x16x256_S28x28x16 : S28x28x16x256.Reduces [3] S28x28x16
  slices_S64x256_o16_0_S16x256 : S64x256.Slices ![16, 0] S16x256
  slices_S64x256_o32_0_S16x256 : S64x256.Slices ![32, 0] S16x256
  slices_S64x256_o48_0_S16x256 : S64x256.Slices ![48, 0] S16x256
  concatenates_S28x28x16_S28x28x16_S28x28x16_S28x28x16_S28x28x64_d2 : Shape.Concatenates [S28x28x16, S28x28x16, S28x28x16, S28x28x16] S28x28x64 2
  concatenates_S1x28x64_S28x28x64_S29x28x64_d0 : Shape.Concatenates [S1x28x64, S28x28x64] S29x28x64 0
  concatenates_S29x28x64_S1x28x64_S30x28x64_d0 : Shape.Concatenates [S29x28x64, S1x28x64] S30x28x64 0
  concatenates_S30x1x64_S30x28x64_S30x29x64_d1 : Shape.Concatenates [S30x1x64, S30x28x64] S30x29x64 1
  concatenates_S30x29x64_S30x1x64_S30x30x64_d1 : Shape.Concatenates [S30x29x64, S30x1x64] S30x30x64 1
  slices_S30x30x64_o0_0_0_S28x28x64 : S30x30x64.Slices ![0, 0, 0] S28x28x64
  inb_S3x3x64_S1x1x64_0_0_0 : ∀ a, (![0, 0, 0] : Fin 3 → Nat) a + S1x1x64.size a ≤ S3x3x64.size a
  h_S1x1x64 : 0 < S1x1x64.numel
  shapeCasts_S1x1x64_S64 : S1x1x64.ShapeCasts S64
  shapeCasts_S64_S1x1x64 : S64.ShapeCasts S1x1x64
  broadcasts_S1x1x64_S28x28x64 : S1x1x64.Broadcasts S28x28x64
  slices_S30x30x64_o0_1_0_S28x28x64 : S30x30x64.Slices ![0, 1, 0] S28x28x64
  inb_S3x3x64_S1x1x64_0_1_0 : ∀ a, (![0, 1, 0] : Fin 3 → Nat) a + S1x1x64.size a ≤ S3x3x64.size a
  slices_S30x30x64_o0_2_0_S28x28x64 : S30x30x64.Slices ![0, 2, 0] S28x28x64
  inb_S3x3x64_S1x1x64_0_2_0 : ∀ a, (![0, 2, 0] : Fin 3 → Nat) a + S1x1x64.size a ≤ S3x3x64.size a
  slices_S30x30x64_o1_0_0_S28x28x64 : S30x30x64.Slices ![1, 0, 0] S28x28x64
  inb_S3x3x64_S1x1x64_1_0_0 : ∀ a, (![1, 0, 0] : Fin 3 → Nat) a + S1x1x64.size a ≤ S3x3x64.size a
  slices_S30x30x64_o1_1_0_S28x28x64 : S30x30x64.Slices ![1, 1, 0] S28x28x64
  inb_S3x3x64_S1x1x64_1_1_0 : ∀ a, (![1, 1, 0] : Fin 3 → Nat) a + S1x1x64.size a ≤ S3x3x64.size a
  slices_S30x30x64_o1_2_0_S28x28x64 : S30x30x64.Slices ![1, 2, 0] S28x28x64
  inb_S3x3x64_S1x1x64_1_2_0 : ∀ a, (![1, 2, 0] : Fin 3 → Nat) a + S1x1x64.size a ≤ S3x3x64.size a
  slices_S30x30x64_o2_0_0_S28x28x64 : S30x30x64.Slices ![2, 0, 0] S28x28x64
  inb_S3x3x64_S1x1x64_2_0_0 : ∀ a, (![2, 0, 0] : Fin 3 → Nat) a + S1x1x64.size a ≤ S3x3x64.size a
  slices_S30x30x64_o2_1_0_S28x28x64 : S30x30x64.Slices ![2, 1, 0] S28x28x64
  inb_S3x3x64_S1x1x64_2_1_0 : ∀ a, (![2, 1, 0] : Fin 3 → Nat) a + S1x1x64.size a ≤ S3x3x64.size a
  slices_S30x30x64_o2_2_0_S28x28x64 : S30x30x64.Slices ![2, 2, 0] S28x28x64
  inb_S3x3x64_S1x1x64_2_2_0 : ∀ a, (![2, 2, 0] : Fin 3 → Nat) a + S1x1x64.size a ≤ S3x3x64.size a
  inb_S64_S64_0 : ∀ a, (![0] : Fin 1 → Nat) a + S64.size a ≤ S64.size a
  h_S64 : 0 < S64.numel
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  slices_S64x64_o0_0_S32x64 : S64x64.Slices ![0, 0] S32x64
  shapeCasts_S28x28x64_S28x28x1x64 : S28x28x64.ShapeCasts S28x28x1x64
  shapeCasts_S32x64_S1x1x32x64 : S32x64.ShapeCasts S1x1x32x64
  broadcasts_S28x28x1x64_S28x28x32x64 : S28x28x1x64.Broadcasts S28x28x32x64
  broadcasts_S1x1x32x64_S28x28x32x64 : S1x1x32x64.Broadcasts S28x28x32x64
  reduces_S28x28x32x64_S28x28x32 : S28x28x32x64.Reduces [3] S28x28x32
  slices_S64x64_o32_0_S32x64 : S64x64.Slices ![32, 0] S32x64
  concatenates_S28x28x32_S28x28x32_S28x28x64_d2 : Shape.Concatenates [S28x28x32, S28x28x32] S28x28x64 2
  inb_S3x3x64x64_S1x1x64x64_0_1_0_0 : ∀ a, (![0, 1, 0, 0] : Fin 4 → Nat) a + S1x1x64x64.size a ≤ S3x3x64x64.size a
  inb_S3x3x64x64_S1x1x64x64_0_2_0_0 : ∀ a, (![0, 2, 0, 0] : Fin 4 → Nat) a + S1x1x64x64.size a ≤ S3x3x64x64.size a
  inb_S3x3x64x64_S1x1x64x64_1_0_0_0 : ∀ a, (![1, 0, 0, 0] : Fin 4 → Nat) a + S1x1x64x64.size a ≤ S3x3x64x64.size a
  inb_S3x3x64x64_S1x1x64x64_1_1_0_0 : ∀ a, (![1, 1, 0, 0] : Fin 4 → Nat) a + S1x1x64x64.size a ≤ S3x3x64x64.size a
  inb_S3x3x64x64_S1x1x64x64_1_2_0_0 : ∀ a, (![1, 2, 0, 0] : Fin 4 → Nat) a + S1x1x64x64.size a ≤ S3x3x64x64.size a
  inb_S3x3x64x64_S1x1x64x64_2_0_0_0 : ∀ a, (![2, 0, 0, 0] : Fin 4 → Nat) a + S1x1x64x64.size a ≤ S3x3x64x64.size a
  inb_S3x3x64x64_S1x1x64x64_2_1_0_0 : ∀ a, (![2, 1, 0, 0] : Fin 4 → Nat) a + S1x1x64x64.size a ≤ S3x3x64x64.size a
  inb_S3x3x64x64_S1x1x64x64_2_2_0_0 : ∀ a, (![2, 2, 0, 0] : Fin 4 → Nat) a + S1x1x64x64.size a ≤ S3x3x64x64.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S256x64_o0_0_S32x64 : S256x64.Slices ![0, 0] S32x64
  slices_S256x64_o32_0_S32x64 : S256x64.Slices ![32, 0] S32x64
  slices_S256x64_o64_0_S32x64 : S256x64.Slices ![64, 0] S32x64
  slices_S256x64_o96_0_S32x64 : S256x64.Slices ![96, 0] S32x64
  slices_S256x64_o128_0_S32x64 : S256x64.Slices ![128, 0] S32x64
  slices_S256x64_o160_0_S32x64 : S256x64.Slices ![160, 0] S32x64
  slices_S256x64_o192_0_S32x64 : S256x64.Slices ![192, 0] S32x64
  slices_S256x64_o224_0_S32x64 : S256x64.Slices ![224, 0] S32x64
  concatenates_S28x28x32_S28x28x32_S28x28x32_S28x28x32_S28x28x32_S28x28x32_S28x28x32_S28x28x32_S28x28x256_d2 : Shape.Concatenates [S28x28x32, S28x28x32, S28x28x32, S28x28x32, S28x28x32, S28x28x32, S28x28x32, S28x28x32] S28x28x256 2
  inb_S256_S256_0 : ∀ a, (![0] : Fin 1 → Nat) a + S256.size a ≤ S256.size a
  h_S256 : 0 < S256.numel
  shapeCasts_S256_S1x1x256 : S256.ShapeCasts S1x1x256
  broadcasts_S1x1x256_S28x28x256 : S1x1x256.Broadcasts S28x28x256
  shapeCasts_S28x28x256_S1x28x28x256 : S28x28x256.ShapeCasts S1x28x28x256
  transposes_S8x28x28x256_S8x256x28x28_0_3_1_2 : S8x28x28x256.Transposes [0, 3, 1, 2] S8x256x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x28x256.size a ≤ S8x28x28x256.size a
  hwx0_0 : ∀ i : grid0.Coords, EltTy.bits .f32 = 32 ∨ (Rect.block (s := S8x28x28x256) S1x28x28x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3x64.size a ≤ S3x3x64.size a
  hwx0_2 : ∀ i : grid0.Coords, EltTy.bits .f32 = 32 ∨ (Rect.block (s := S3x3x64) S3x3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3x64x64.size a ≤ S3x3x64x64.size a
  hwx0_3 : ∀ i : grid0.Coords, EltTy.bits .f32 = 32 ∨ (Rect.block (s := S3x3x64x64) S3x3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x28x28x256.size a ≤ S8x28x28x256.size a
  hwx0_17 : ∀ i : grid0.Coords, EltTy.bits .f32 = 32 ∨ (Rect.block (s := S8x28x28x256) S1x28x28x256.size (cc0_transform_17 i) (hinb0_17 i)).WholeWords (EltTy.packing .f32)

variable [Facts₀]

abbrev win0_0 : Pipeline.Window sig grid0 :=
  Pipeline.Window.ofSpec (Memref.whole main_v0) S1x28x28x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x28x28x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8x256x28x28 : Shape := ⟨4, ![8, 256, 28, 28]⟩
abbrev S64x256x1x1 : Shape := ⟨4, ![64, 256, 1, 1]⟩
abbrev S64x1x3x3 : Shape := ⟨4, ![64, 1, 3, 3]⟩
abbrev S64x64x3x3 : Shape := ⟨4, ![64, 64, 3, 3]⟩
abbrev S256x64x1x1 : Shape := ⟨4, ![256, 64, 1, 1]⟩
abbrev S64 : Shape := ⟨1, ![64]⟩
abbrev S256 : Shape := ⟨1, ![256]⟩
abbrev S_ : Shape := ⟨0, ![]⟩
abbrev S1x64x256x1x1 : Shape := ⟨5, ![1, 64, 256, 1, 1]⟩
abbrev S8x64x28x28 : Shape := ⟨4, ![8, 64, 28, 28]⟩
abbrev S8x1x1x256x28x28 : Shape := ⟨6, ![8, 1, 1, 256, 28, 28]⟩
abbrev S1x64x256 : Shape := ⟨3, ![1, 64, 256]⟩
abbrev S1x1x64x256x1x1 : Shape := ⟨6, ![1, 1, 64, 256, 1, 1]⟩
abbrev S8x1x64x256x28x28 : Shape := ⟨6, ![8, 1, 64, 256, 28, 28]⟩
abbrev S8x1x64x28x28 : Shape := ⟨5, ![8, 1, 64, 28, 28]⟩
abbrev S8x64x30x30 : Shape := ⟨4, ![8, 64, 30, 30]⟩
abbrev S64x1x1x3x3 : Shape := ⟨5, ![64, 1, 1, 3, 3]⟩
abbrev S8x64x1x1x28x28 : Shape := ⟨6, ![8, 64, 1, 1, 28, 28]⟩
abbrev S64x1x1x1x1 : Shape := ⟨5, ![64, 1, 1, 1, 1]⟩
abbrev S64x1x1 : Shape := ⟨3, ![64, 1, 1]⟩
abbrev S1x64x1x1x1x1 : Shape := ⟨6, ![1, 64, 1, 1, 1, 1]⟩
abbrev S8x64x1x28x28 : Shape := ⟨5, ![8, 64, 1, 28, 28]⟩
abbrev S1x64x1x1 : Shape := ⟨4, ![1, 64, 1, 1]⟩
abbrev S1x64x64x3x3 : Shape := ⟨5, ![1, 64, 64, 3, 3]⟩
abbrev S8x1x1x64x28x28 : Shape := ⟨6, ![8, 1, 1, 64, 28, 28]⟩
abbrev S1x64x64x1x1 : Shape := ⟨5, ![1, 64, 64, 1, 1]⟩
abbrev S1x64x64 : Shape := ⟨3, ![1, 64, 64]⟩
abbrev S1x1x64x64x1x1 : Shape := ⟨6, ![1, 1, 64, 64, 1, 1]⟩
abbrev S8x1x64x64x28x28 : Shape := ⟨6, ![8, 1, 64, 64, 28, 28]⟩
abbrev S1x256x64x1x1 : Shape := ⟨5, ![1, 256, 64, 1, 1]⟩
abbrev S1x256x64 : Shape := ⟨3, ![1, 256, 64]⟩
abbrev S1x1x256x64x1x1 : Shape := ⟨6, ![1, 1, 256, 64, 1, 1]⟩
abbrev S8x1x256x64x28x28 : Shape := ⟨6, ![8, 1, 256, 64, 28, 28]⟩
abbrev S8x1x256x28x28 : Shape := ⟨5, ![8, 1, 256, 28, 28]⟩
abbrev S1x256x1x1 : Shape := ⟨4, ![1, 256, 1, 1]⟩

abbrev nBuf : Space → Nat
  | .hbm => 339
  | .vmem => 0
  | .smem => 0
  | _ => 0

abbrev hbmTy0_0 (i : Nat) : BufTy := match i % 128 with
  | 0 => ⟨S8x256x28x28, .f32⟩
  | 1 => ⟨S64x256x1x1, .f32⟩
  | 2 => ⟨S64x1x3x3, .f32⟩
  | 3 => ⟨S64x64x3x3, .f32⟩
  | 4 => ⟨S256x64x1x1, .f32⟩
  | 5 => ⟨S64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S256, .f32⟩
  | 14 => ⟨S256, .f32⟩
  | 15 => ⟨S256, .f32⟩
  | 16 => ⟨S256, .f32⟩
  | 17 => ⟨S_, .i32⟩
  | 18 => ⟨S_, .f32⟩
  | 19 => ⟨S8x256x28x28, .f32⟩
  | 20 => ⟨S1x64x256x1x1, .f32⟩
  | 21 => ⟨S_, .f32⟩
  | 22 => ⟨S8x64x28x28, .f32⟩
  | 23 => ⟨S8x256x28x28, .f32⟩
  | 24 => ⟨S8x1x1x256x28x28, .f32⟩
  | 25 => ⟨S1x64x256, .f32⟩
  | 26 => ⟨S1x1x64x256x1x1, .f32⟩
  | 27 => ⟨S8x1x64x256x28x28, .f32⟩
  | 28 => ⟨S8x1x64x256x28x28, .f32⟩
  | 29 => ⟨S8x1x64x256x28x28, .f32⟩
  | 30 => ⟨S8x1x64x256x28x28, .f32⟩
  | 31 => ⟨S_, .f32⟩
  | 32 => ⟨S8x1x64x28x28, .f32⟩
  | 33 => ⟨S8x64x28x28, .f32⟩
  | 34 => ⟨S8x64x28x28, .f32⟩
  | 35 => ⟨S_, .i32⟩
  | 36 => ⟨S_, .f32⟩
  | 37 => ⟨S8x64x30x30, .f32⟩
  | 38 => ⟨S64x1x1x3x3, .f32⟩
  | 39 => ⟨S_, .f32⟩
  | 40 => ⟨S8x64x28x28, .f32⟩
  | 41 => ⟨S8x64x28x28, .f32⟩
  | 42 => ⟨S8x64x1x1x28x28, .f32⟩
  | 43 => ⟨S64x1x1x1x1, .f32⟩
  | 44 => ⟨S64x1x1, .f32⟩
  | 45 => ⟨S1x64x1x1x1x1, .f32⟩
  | 46 => ⟨S8x64x1x1x28x28, .f32⟩
  | 47 => ⟨S8x64x1x1x28x28, .f32⟩
  | 48 => ⟨S8x64x1x1x28x28, .f32⟩
  | 49 => ⟨S_, .f32⟩
  | 50 => ⟨S8x64x1x28x28, .f32⟩
  | 51 => ⟨S8x64x28x28, .f32⟩
  | 52 => ⟨S8x64x28x28, .f32⟩
  | 53 => ⟨S8x64x28x28, .f32⟩
  | 54 => ⟨S8x64x1x1x28x28, .f32⟩
  | 55 => ⟨S64x1x1x1x1, .f32⟩
  | 56 => ⟨S64x1x1, .f32⟩
  | 57 => ⟨S1x64x1x1x1x1, .f32⟩
  | 58 => ⟨S8x64x1x1x28x28, .f32⟩
  | 59 => ⟨S8x64x1x1x28x28, .f32⟩
  | 60 => ⟨S8x64x1x1x28x28, .f32⟩
  | 61 => ⟨S_, .f32⟩
  | 62 => ⟨S8x64x1x28x28, .f32⟩
  | 63 => ⟨S8x64x28x28, .f32⟩
  | 64 => ⟨S8x64x28x28, .f32⟩
  | 65 => ⟨S8x64x28x28, .f32⟩
  | 66 => ⟨S8x64x1x1x28x28, .f32⟩
  | 67 => ⟨S64x1x1x1x1, .f32⟩
  | 68 => ⟨S64x1x1, .f32⟩
  | 69 => ⟨S1x64x1x1x1x1, .f32⟩
  | 70 => ⟨S8x64x1x1x28x28, .f32⟩
  | 71 => ⟨S8x64x1x1x28x28, .f32⟩
  | 72 => ⟨S8x64x1x1x28x28, .f32⟩
  | 73 => ⟨S_, .f32⟩
  | 74 => ⟨S8x64x1x28x28, .f32⟩
  | 75 => ⟨S8x64x28x28, .f32⟩
  | 76 => ⟨S8x64x28x28, .f32⟩
  | 77 => ⟨S8x64x28x28, .f32⟩
  | 78 => ⟨S8x64x1x1x28x28, .f32⟩
  | 79 => ⟨S64x1x1x1x1, .f32⟩
  | 80 => ⟨S64x1x1, .f32⟩
  | 81 => ⟨S1x64x1x1x1x1, .f32⟩
  | 82 => ⟨S8x64x1x1x28x28, .f32⟩
  | 83 => ⟨S8x64x1x1x28x28, .f32⟩
  | 84 => ⟨S8x64x1x1x28x28, .f32⟩
  | 85 => ⟨S_, .f32⟩
  | 86 => ⟨S8x64x1x28x28, .f32⟩
  | 87 => ⟨S8x64x28x28, .f32⟩
  | 88 => ⟨S8x64x28x28, .f32⟩
  | 89 => ⟨S8x64x28x28, .f32⟩
  | 90 => ⟨S8x64x1x1x28x28, .f32⟩
  | 91 => ⟨S64x1x1x1x1, .f32⟩
  | 92 => ⟨S64x1x1, .f32⟩
  | 93 => ⟨S1x64x1x1x1x1, .f32⟩
  | 94 => ⟨S8x64x1x1x28x28, .f32⟩
  | 95 => ⟨S8x64x1x1x28x28, .f32⟩
  | 96 => ⟨S8x64x1x1x28x28, .f32⟩
  | 97 => ⟨S_, .f32⟩
  | 98 => ⟨S8x64x1x28x28, .f32⟩
  | 99 => ⟨S8x64x28x28, .f32⟩
  | 100 => ⟨S8x64x28x28, .f32⟩
  | 101 => ⟨S8x64x28x28, .f32⟩
  | 102 => ⟨S8x64x1x1x28x28, .f32⟩
  | 103 => ⟨S64x1x1x1x1, .f32⟩
  | 104 => ⟨S64x1x1, .f32⟩
  | 105 => ⟨S1x64x1x1x1x1, .f32⟩
  | 106 => ⟨S8x64x1x1x28x28, .f32⟩
  | 107 => ⟨S8x64x1x1x28x28, .f32⟩
  | 108 => ⟨S8x64x1x1x28x28, .f32⟩
  | 109 => ⟨S_, .f32⟩
  | 110 => ⟨S8x64x1x28x28, .f32⟩
  | 111 => ⟨S8x64x28x28, .f32⟩
  | 112 => ⟨S8x64x28x28, .f32⟩
  | 113 => ⟨S8x64x28x28, .f32⟩
  | 114 => ⟨S8x64x1x1x28x28, .f32⟩
  | 115 => ⟨S64x1x1x1x1, .f32⟩
  | 116 => ⟨S64x1x1, .f32⟩
  | 117 => ⟨S1x64x1x1x1x1, .f32⟩
  | 118 => ⟨S8x64x1x1x28x28, .f32⟩
  | 119 => ⟨S8x64x1x1x28x28, .f32⟩
  | 120 => ⟨S8x64x1x1x28x28, .f32⟩
  | 121 => ⟨S_, .f32⟩
  | 122 => ⟨S8x64x1x28x28, .f32⟩
  | 123 => ⟨S8x64x28x28, .f32⟩
  | 124 => ⟨S8x64x28x28, .f32⟩
  | 125 => ⟨S8x64x28x28, .f32⟩
  | 126 => ⟨S8x64x1x1x28x28, .f32⟩
  | 127 => ⟨S64x1x1x1x1, .f32⟩
  | _ => ⟨S8x256x28x28, .f32⟩

abbrev hbmTy0_1 (i : Nat) : BufTy := match i % 128 with
  | 0 => ⟨S64x1x1, .f32⟩
  | 1 => ⟨S1x64x1x1x1x1, .f32⟩
  | 2 => ⟨S8x64x1x1x28x28, .f32⟩
  | 3 => ⟨S8x64x1x1x28x28, .f32⟩
  | 4 => ⟨S8x64x1x1x28x28, .f32⟩
  | 5 => ⟨S_, .f32⟩
  | 6 => ⟨S8x64x1x28x28, .f32⟩
  | 7 => ⟨S8x64x28x28, .f32⟩
  | 8 => ⟨S8x64x28x28, .f32⟩
  | 9 => ⟨S8x64x28x28, .f32⟩
  | 10 => ⟨S8x64x1x1x28x28, .f32⟩
  | 11 => ⟨S64x1x1x1x1, .f32⟩
  | 12 => ⟨S64x1x1, .f32⟩
  | 13 => ⟨S1x64x1x1x1x1, .f32⟩
  | 14 => ⟨S8x64x1x1x28x28, .f32⟩
  | 15 => ⟨S8x64x1x1x28x28, .f32⟩
  | 16 => ⟨S8x64x1x1x28x28, .f32⟩
  | 17 => ⟨S_, .f32⟩
  | 18 => ⟨S8x64x1x28x28, .f32⟩
  | 19 => ⟨S8x64x28x28, .f32⟩
  | 20 => ⟨S8x64x28x28, .f32⟩
  | 21 => ⟨S_, .f32⟩
  | 22 => ⟨S64, .f32⟩
  | 23 => ⟨S64, .f32⟩
  | 24 => ⟨S64, .f32⟩
  | 25 => ⟨S64, .f32⟩
  | 26 => ⟨S1x64x1x1, .f32⟩
  | 27 => ⟨S8x64x28x28, .f32⟩
  | 28 => ⟨S8x64x28x28, .f32⟩
  | 29 => ⟨S64, .f32⟩
  | 30 => ⟨S64, .f32⟩
  | 31 => ⟨S1x64x1x1, .f32⟩
  | 32 => ⟨S8x64x28x28, .f32⟩
  | 33 => ⟨S8x64x28x28, .f32⟩
  | 34 => ⟨S_, .f32⟩
  | 35 => ⟨S8x64x28x28, .f32⟩
  | 36 => ⟨S8x64x28x28, .f32⟩
  | 37 => ⟨S_, .i32⟩
  | 38 => ⟨S_, .f32⟩
  | 39 => ⟨S8x64x30x30, .f32⟩
  | 40 => ⟨S1x64x64x3x3, .f32⟩
  | 41 => ⟨S_, .f32⟩
  | 42 => ⟨S8x64x28x28, .f32⟩
  | 43 => ⟨S8x64x28x28, .f32⟩
  | 44 => ⟨S8x1x1x64x28x28, .f32⟩
  | 45 => ⟨S1x64x64x1x1, .f32⟩
  | 46 => ⟨S1x64x64, .f32⟩
  | 47 => ⟨S1x1x64x64x1x1, .f32⟩
  | 48 => ⟨S8x1x64x64x28x28, .f32⟩
  | 49 => ⟨S8x1x64x64x28x28, .f32⟩
  | 50 => ⟨S8x1x64x64x28x28, .f32⟩
  | 51 => ⟨S8x1x64x64x28x28, .f32⟩
  | 52 => ⟨S_, .f32⟩
  | 53 => ⟨S8x1x64x28x28, .f32⟩
  | 54 => ⟨S8x64x28x28, .f32⟩
  | 55 => ⟨S8x64x28x28, .f32⟩
  | 56 => ⟨S8x64x28x28, .f32⟩
  | 57 => ⟨S8x1x1x64x28x28, .f32⟩
  | 58 => ⟨S1x64x64x1x1, .f32⟩
  | 59 => ⟨S1x64x64, .f32⟩
  | 60 => ⟨S1x1x64x64x1x1, .f32⟩
  | 61 => ⟨S8x1x64x64x28x28, .f32⟩
  | 62 => ⟨S8x1x64x64x28x28, .f32⟩
  | 63 => ⟨S8x1x64x64x28x28, .f32⟩
  | 64 => ⟨S8x1x64x64x28x28, .f32⟩
  | 65 => ⟨S_, .f32⟩
  | 66 => ⟨S8x1x64x28x28, .f32⟩
  | 67 => ⟨S8x64x28x28, .f32⟩
  | 68 => ⟨S8x64x28x28, .f32⟩
  | 69 => ⟨S8x64x28x28, .f32⟩
  | 70 => ⟨S8x1x1x64x28x28, .f32⟩
  | 71 => ⟨S1x64x64x1x1, .f32⟩
  | 72 => ⟨S1x64x64, .f32⟩
  | 73 => ⟨S1x1x64x64x1x1, .f32⟩
  | 74 => ⟨S8x1x64x64x28x28, .f32⟩
  | 75 => ⟨S8x1x64x64x28x28, .f32⟩
  | 76 => ⟨S8x1x64x64x28x28, .f32⟩
  | 77 => ⟨S8x1x64x64x28x28, .f32⟩
  | 78 => ⟨S_, .f32⟩
  | 79 => ⟨S8x1x64x28x28, .f32⟩
  | 80 => ⟨S8x64x28x28, .f32⟩
  | 81 => ⟨S8x64x28x28, .f32⟩
  | 82 => ⟨S8x64x28x28, .f32⟩
  | 83 => ⟨S8x1x1x64x28x28, .f32⟩
  | 84 => ⟨S1x64x64x1x1, .f32⟩
  | 85 => ⟨S1x64x64, .f32⟩
  | 86 => ⟨S1x1x64x64x1x1, .f32⟩
  | 87 => ⟨S8x1x64x64x28x28, .f32⟩
  | 88 => ⟨S8x1x64x64x28x28, .f32⟩
  | 89 => ⟨S8x1x64x64x28x28, .f32⟩
  | 90 => ⟨S8x1x64x64x28x28, .f32⟩
  | 91 => ⟨S_, .f32⟩
  | 92 => ⟨S8x1x64x28x28, .f32⟩
  | 93 => ⟨S8x64x28x28, .f32⟩
  | 94 => ⟨S8x64x28x28, .f32⟩
  | 95 => ⟨S8x64x28x28, .f32⟩
  | 96 => ⟨S8x1x1x64x28x28, .f32⟩
  | 97 => ⟨S1x64x64x1x1, .f32⟩
  | 98 => ⟨S1x64x64, .f32⟩
  | 99 => ⟨S1x1x64x64x1x1, .f32⟩
  | 100 => ⟨S8x1x64x64x28x28, .f32⟩
  | 101 => ⟨S8x1x64x64x28x28, .f32⟩
  | 102 => ⟨S8x1x64x64x28x28, .f32⟩
  | 103 => ⟨S8x1x64x64x28x28, .f32⟩
  | 104 => ⟨S_, .f32⟩
  | 105 => ⟨S8x1x64x28x28, .f32⟩
  | 106 => ⟨S8x64x28x28, .f32⟩
  | 107 => ⟨S8x64x28x28, .f32⟩
  | 108 => ⟨S8x64x28x28, .f32⟩
  | 109 => ⟨S8x1x1x64x28x28, .f32⟩
  | 110 => ⟨S1x64x64x1x1, .f32⟩
  | 111 => ⟨S1x64x64, .f32⟩
  | 112 => ⟨S1x1x64x64x1x1, .f32⟩
  | 113 => ⟨S8x1x64x64x28x28, .f32⟩
  | 114 => ⟨S8x1x64x64x28x28, .f32⟩
  | 115 => ⟨S8x1x64x64x28x28, .f32⟩
  | 116 => ⟨S8x1x64x64x28x28, .f32⟩
  | 117 => ⟨S_, .f32⟩
  | 118 => ⟨S8x1x64x28x28, .f32⟩
  | 119 => ⟨S8x64x28x28, .f32⟩
  | 120 => ⟨S8x64x28x28, .f32⟩
  | 121 => ⟨S8x64x28x28, .f32⟩
  | 122 => ⟨S8x1x1x64x28x28, .f32⟩
  | 123 => ⟨S1x64x64x1x1, .f32⟩
  | 124 => ⟨S1x64x64, .f32⟩
  | 125 => ⟨S1x1x64x64x1x1, .f32⟩
  | 126 => ⟨S8x1x64x64x28x28, .f32⟩
  | 127 => ⟨S8x1x64x64x28x28, .f32⟩
  | _ => ⟨S8x256x28x28, .f32⟩

abbrev hbmTy0_2 (i : Nat) : BufTy := match i % 128 with
  | 0 => ⟨S8x1x64x64x28x28, .f32⟩
  | 1 => ⟨S8x1x64x64x28x28, .f32⟩
  | 2 => ⟨S_, .f32⟩
  | 3 => ⟨S8x1x64x28x28, .f32⟩
  | 4 => ⟨S8x64x28x28, .f32⟩
  | 5 => ⟨S8x64x28x28, .f32⟩
  | 6 => ⟨S8x64x28x28, .f32⟩
  | 7 => ⟨S8x1x1x64x28x28, .f32⟩
  | 8 => ⟨S1x64x64x1x1, .f32⟩
  | 9 => ⟨S1x64x64, .f32⟩
  | 10 => ⟨S1x1x64x64x1x1, .f32⟩
  | 11 => ⟨S8x1x64x64x28x28, .f32⟩
  | 12 => ⟨S8x1x64x64x28x28, .f32⟩
  | 13 => ⟨S8x1x64x64x28x28, .f32⟩
  | 14 => ⟨S8x1x64x64x28x28, .f32⟩
  | 15 => ⟨S_, .f32⟩
  | 16 => ⟨S8x1x64x28x28, .f32⟩
  | 17 => ⟨S8x64x28x28, .f32⟩
  | 18 => ⟨S8x64x28x28, .f32⟩
  | 19 => ⟨S8x64x28x28, .f32⟩
  | 20 => ⟨S8x1x1x64x28x28, .f32⟩
  | 21 => ⟨S1x64x64x1x1, .f32⟩
  | 22 => ⟨S1x64x64, .f32⟩
  | 23 => ⟨S1x1x64x64x1x1, .f32⟩
  | 24 => ⟨S8x1x64x64x28x28, .f32⟩
  | 25 => ⟨S8x1x64x64x28x28, .f32⟩
  | 26 => ⟨S8x1x64x64x28x28, .f32⟩
  | 27 => ⟨S8x1x64x64x28x28, .f32⟩
  | 28 => ⟨S_, .f32⟩
  | 29 => ⟨S8x1x64x28x28, .f32⟩
  | 30 => ⟨S8x64x28x28, .f32⟩
  | 31 => ⟨S8x64x28x28, .f32⟩
  | 32 => ⟨S_, .f32⟩
  | 33 => ⟨S64, .f32⟩
  | 34 => ⟨S64, .f32⟩
  | 35 => ⟨S64, .f32⟩
  | 36 => ⟨S64, .f32⟩
  | 37 => ⟨S1x64x1x1, .f32⟩
  | 38 => ⟨S8x64x28x28, .f32⟩
  | 39 => ⟨S8x64x28x28, .f32⟩
  | 40 => ⟨S64, .f32⟩
  | 41 => ⟨S64, .f32⟩
  | 42 => ⟨S1x64x1x1, .f32⟩
  | 43 => ⟨S8x64x28x28, .f32⟩
  | 44 => ⟨S8x64x28x28, .f32⟩
  | 45 => ⟨S_, .f32⟩
  | 46 => ⟨S8x64x28x28, .f32⟩
  | 47 => ⟨S8x64x28x28, .f32⟩
  | 48 => ⟨S_, .i32⟩
  | 49 => ⟨S_, .f32⟩
  | 50 => ⟨S8x64x28x28, .f32⟩
  | 51 => ⟨S1x256x64x1x1, .f32⟩
  | 52 => ⟨S_, .f32⟩
  | 53 => ⟨S8x256x28x28, .f32⟩
  | 54 => ⟨S8x64x28x28, .f32⟩
  | 55 => ⟨S8x1x1x64x28x28, .f32⟩
  | 56 => ⟨S1x256x64, .f32⟩
  | 57 => ⟨S1x1x256x64x1x1, .f32⟩
  | 58 => ⟨S8x1x256x64x28x28, .f32⟩
  | 59 => ⟨S8x1x256x64x28x28, .f32⟩
  | 60 => ⟨S8x1x256x64x28x28, .f32⟩
  | 61 => ⟨S8x1x256x64x28x28, .f32⟩
  | 62 => ⟨S_, .f32⟩
  | 63 => ⟨S8x1x256x28x28, .f32⟩
  | 64 => ⟨S8x256x28x28, .f32⟩
  | 65 => ⟨S8x256x28x28, .f32⟩
  | 66 => ⟨S_, .f32⟩
  | 67 => ⟨S256, .f32⟩
  | 68 => ⟨S256, .f32⟩
  | 69 => ⟨S256, .f32⟩
  | 70 => ⟨S256, .f32⟩
  | 71 => ⟨S1x256x1x1, .f32⟩
  | 72 => ⟨S8x256x28x28, .f32⟩
  | 73 => ⟨S8x256x28x28, .f32⟩
  | 74 => ⟨S256, .f32⟩
  | 75 => ⟨S256, .f32⟩
  | 76 => ⟨S1x256x1x1, .f32⟩
  | 77 => ⟨S8x256x28x28, .f32⟩
  | 78 => ⟨S8x256x28x28, .f32⟩
  | 79 => ⟨S8x256x28x28, .f32⟩
  | 80 => ⟨S_, .f32⟩
  | 81 => ⟨S8x256x28x28, .f32⟩
  | 82 => ⟨S8x256x28x28, .f32⟩
  | _ => ⟨S8x256x28x28, .f32⟩

abbrev hbmTy (i : Nat) : BufTy := match i / 128 with
  | 0 => hbmTy0_0 i
  | 1 => hbmTy0_1 i
  | 2 => hbmTy0_2 i
  | _ => ⟨S8x256x28x28, .f32⟩

abbrev bufTy : (tb : Table) → Fin (tcTables nBuf tb) → BufTy
  | .hbm, ⟨i, _⟩ => hbmTy i
  | _, _ => ⟨S8x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_call1_v0 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_7 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_8 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_9 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_10 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_11 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_12 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_call2_cst : Ref sig .tc := ⟨.hbm, 162, rfl⟩
abbrev main_call2_v0 : Ref sig .tc := ⟨.hbm, 163, rfl⟩
abbrev main_v128 : Ref sig .tc := ⟨.hbm, 164, rfl⟩
abbrev main_c_13 : Ref sig .tc := ⟨.hbm, 165, rfl⟩
abbrev main_call3_v0 : Ref sig .tc := ⟨.hbm, 166, rfl⟩
abbrev main_v129 : Ref sig .tc := ⟨.hbm, 167, rfl⟩
abbrev main_v130 : Ref sig .tc := ⟨.hbm, 168, rfl⟩
abbrev main_cst_14 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_15 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_16 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_17 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_18 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_19 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_cst_20 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_cst_21 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_cst_22 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_cst_23 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_24 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_call4_cst : Ref sig .tc := ⟨.hbm, 301, rfl⟩
abbrev main_call4_v0 : Ref sig .tc := ⟨.hbm, 302, rfl⟩
abbrev main_v252 : Ref sig .tc := ⟨.hbm, 303, rfl⟩
abbrev main_c_25 : Ref sig .tc := ⟨.hbm, 304, rfl⟩
abbrev main_call5_v0 : Ref sig .tc := ⟨.hbm, 305, rfl⟩
abbrev main_v253 : Ref sig .tc := ⟨.hbm, 306, rfl⟩
abbrev main_v254 : Ref sig .tc := ⟨.hbm, 307, rfl⟩
abbrev main_cst_26 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_cst_27 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_cst_28 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_call6_cst : Ref sig .tc := ⟨.hbm, 336, rfl⟩
abbrev main_call6_v0 : Ref sig .tc := ⟨.hbm, 337, rfl⟩
abbrev main_v280 : Ref sig .tc := ⟨.hbm, 338, rfl⟩

abbrev nD : Nat := 1
abbrev τ : Topo := Topo.v7x

variable {F : FTy → Type} [FloatOps F]

class Facts₀ : Prop where
  pads_S8x256x28x28_S8x256x28x28_000_000_000_000 : S8x256x28x28.Pads (![0, 0, 0, 0] : Fin 4 → Nat) ![0, 0, 0, 0] ![0, 0, 0, 0] S8x256x28x28
  h_S_ : 0 < S_.numel
  shapeCasts_S64x256x1x1_S1x64x256x1x1 : S64x256x1x1.ShapeCasts S1x64x256x1x1
  bcast_S_S8x64x28x28 : S_.BroadcastsInDim S8x64x28x28 (![] : Fin 0 → Fin S8x64x28x28.rank)
  slices_S8x256x28x28_S8x256x28x28_0_0_0_0 : S8x256x28x28.Slices ![0, 0, 0, 0] S8x256x28x28
  shapeCasts_S8x256x28x28_S8x1x1x256x28x28 : S8x256x28x28.ShapeCasts S8x1x1x256x28x28
  shapeCasts_S1x64x256x1x1_S1x64x256 : S1x64x256x1x1.ShapeCasts S1x64x256
  bcast_S1x64x256_S1x1x64x256x1x1_1_2_3 : S1x64x256.BroadcastsInDim S1x1x64x256x1x1 (![1, 2, 3] : Fin 3 → Fin S1x1x64x256x1x1.rank)
  bcast_S8x1x1x256x28x28_S8x1x64x256x28x28_0_1_2_3_4_5 : S8x1x1x256x28x28.BroadcastsInDim S8x1x64x256x28x28 (![0, 1, 2, 3, 4, 5] : Fin 6 → Fin S8x1x64x256x28x28.rank)
  bcast_S1x1x64x256x1x1_S8x1x64x256x28x28_0_1_2_3_4_5 : S1x1x64x256x1x1.BroadcastsInDim S8x1x64x256x28x28 (![0, 1, 2, 3, 4, 5] : Fin 6 → Fin S8x1x64x256x28x28.rank)
  reducesTo_S8x1x64x256x28x28_S8x1x64x28x28_d3 : S8x1x64x256x28x28.ReducesTo [3] S8x1x64x28x28
  shapeCasts_S8x1x64x28x28_S8x64x28x28 : S8x1x64x28x28.ShapeCasts S8x64x28x28
  pads_S8x64x28x28_S8x64x30x30_000_000_110_110 : S8x64x28x28.Pads (![0, 0, 1, 1] : Fin 4 → Nat) ![0, 0, 1, 1] ![0, 0, 0, 0] S8x64x30x30
  shapeCasts_S64x1x3x3_S64x1x1x3x3 : S64x1x3x3.ShapeCasts S64x1x1x3x3
  slices_S8x64x30x30_S8x64x28x28_0_0_0_0 : S8x64x30x30.Slices ![0, 0, 0, 0] S8x64x28x28
  shapeCasts_S8x64x28x28_S8x64x1x1x28x28 : S8x64x28x28.ShapeCasts S8x64x1x1x28x28
  slices_S64x1x1x3x3_S64x1x1x1x1_0_0_0_0_0 : S64x1x1x3x3.Slices ![0, 0, 0, 0, 0] S64x1x1x1x1
  shapeCasts_S64x1x1x1x1_S64x1x1 : S64x1x1x1x1.ShapeCasts S64x1x1
  bcast_S64x1x1_S1x64x1x1x1x1_1_2_3 : S64x1x1.BroadcastsInDim S1x64x1x1x1x1 (![1, 2, 3] : Fin 3 → Fin S1x64x1x1x1x1.rank)
  bcast_S1x64x1x1x1x1_S8x64x1x1x28x28_0_1_2_3_4_5 : S1x64x1x1x1x1.BroadcastsInDim S8x64x1x1x28x28 (![0, 1, 2, 3, 4, 5] : Fin 6 → Fin S8x64x1x1x28x28.rank)
  reducesTo_S8x64x1x1x28x28_S8x64x1x28x28_d3 : S8x64x1x1x28x28.ReducesTo [3] S8x64x1x28x28
  shapeCasts_S8x64x1x28x28_S8x64x28x28 : S8x64x1x28x28.ShapeCasts S8x64x28x28
  slices_S8x64x30x30_S8x64x28x28_0_0_0_1 : S8x64x30x30.Slices ![0, 0, 0, 1] S8x64x28x28
  slices_S64x1x1x3x3_S64x1x1x1x1_0_0_0_0_1 : S64x1x1x3x3.Slices ![0, 0, 0, 0, 1] S64x1x1x1x1
  slices_S8x64x30x30_S8x64x28x28_0_0_0_2 : S8x64x30x30.Slices ![0, 0, 0, 2] S8x64x28x28
  slices_S64x1x1x3x3_S64x1x1x1x1_0_0_0_0_2 : S64x1x1x3x3.Slices ![0, 0, 0, 0, 2] S64x1x1x1x1
  slices_S8x64x30x30_S8x64x28x28_0_0_1_0 : S8x64x30x30.Slices ![0, 0, 1, 0] S8x64x28x28
  slices_S64x1x1x3x3_S64x1x1x1x1_0_0_0_1_0 : S64x1x1x3x3.Slices ![0, 0, 0, 1, 0] S64x1x1x1x1
  slices_S8x64x30x30_S8x64x28x28_0_0_1_1 : S8x64x30x30.Slices ![0, 0, 1, 1] S8x64x28x28
  slices_S64x1x1x3x3_S64x1x1x1x1_0_0_0_1_1 : S64x1x1x3x3.Slices ![0, 0, 0, 1, 1] S64x1x1x1x1
  slices_S8x64x30x30_S8x64x28x28_0_0_1_2 : S8x64x30x30.Slices ![0, 0, 1, 2] S8x64x28x28
  slices_S64x1x1x3x3_S64x1x1x1x1_0_0_0_1_2 : S64x1x1x3x3.Slices ![0, 0, 0, 1, 2] S64x1x1x1x1
  slices_S8x64x30x30_S8x64x28x28_0_0_2_0 : S8x64x30x30.Slices ![0, 0, 2, 0] S8x64x28x28
  slices_S64x1x1x3x3_S64x1x1x1x1_0_0_0_2_0 : S64x1x1x3x3.Slices ![0, 0, 0, 2, 0] S64x1x1x1x1
  slices_S8x64x30x30_S8x64x28x28_0_0_2_1 : S8x64x30x30.Slices ![0, 0, 2, 1] S8x64x28x28
  slices_S64x1x1x3x3_S64x1x1x1x1_0_0_0_2_1 : S64x1x1x3x3.Slices ![0, 0, 0, 2, 1] S64x1x1x1x1
  slices_S8x64x30x30_S8x64x28x28_0_0_2_2 : S8x64x30x30.Slices ![0, 0, 2, 2] S8x64x28x28
  slices_S64x1x1x3x3_S64x1x1x1x1_0_0_0_2_2 : S64x1x1x3x3.Slices ![0, 0, 0, 2, 2] S64x1x1x1x1
  bcast_S_S64 : S_.BroadcastsInDim S64 (![] : Fin 0 → Fin S64.rank)
  bcast_S64_S1x64x1x1_1 : S64.BroadcastsInDim S1x64x1x1 (![1] : Fin 1 → Fin S1x64x1x1.rank)
  bcast_S1x64x1x1_S8x64x28x28_0_1_2_3 : S1x64x1x1.BroadcastsInDim S8x64x28x28 (![0, 1, 2, 3] : Fin 4 → Fin S8x64x28x28.rank)
  shapeCasts_S64x64x3x3_S1x64x64x3x3 : S64x64x3x3.ShapeCasts S1x64x64x3x3
  shapeCasts_S8x64x28x28_S8x1x1x64x28x28 : S8x64x28x28.ShapeCasts S8x1x1x64x28x28
  slices_S1x64x64x3x3_S1x64x64x1x1_0_0_0_0_0 : S1x64x64x3x3.Slices ![0, 0, 0, 0, 0] S1x64x64x1x1
  shapeCasts_S1x64x64x1x1_S1x64x64 : S1x64x64x1x1.ShapeCasts S1x64x64
  bcast_S1x64x64_S1x1x64x64x1x1_1_2_3 : S1x64x64.BroadcastsInDim S1x1x64x64x1x1 (![1, 2, 3] : Fin 3 → Fin S1x1x64x64x1x1.rank)
  bcast_S8x1x1x64x28x28_S8x1x64x64x28x28_0_1_2_3_4_5 : S8x1x1x64x28x28.BroadcastsInDim S8x1x64x64x28x28 (![0, 1, 2, 3, 4, 5] : Fin 6 → Fin S8x1x64x64x28x28.rank)
  bcast_S1x1x64x64x1x1_S8x1x64x64x28x28_0_1_2_3_4_5 : S1x1x64x64x1x1.BroadcastsInDim S8x1x64x64x28x28 (![0, 1, 2, 3, 4, 5] : Fin 6 → Fin S8x1x64x64x28x28.rank)
  reducesTo_S8x1x64x64x28x28_S8x1x64x28x28_d3 : S8x1x64x64x28x28.ReducesTo [3] S8x1x64x28x28
  slices_S1x64x64x3x3_S1x64x64x1x1_0_0_0_0_1 : S1x64x64x3x3.Slices ![0, 0, 0, 0, 1] S1x64x64x1x1
  slices_S1x64x64x3x3_S1x64x64x1x1_0_0_0_0_2 : S1x64x64x3x3.Slices ![0, 0, 0, 0, 2] S1x64x64x1x1
  slices_S1x64x64x3x3_S1x64x64x1x1_0_0_0_1_0 : S1x64x64x3x3.Slices ![0, 0, 0, 1, 0] S1x64x64x1x1
  slices_S1x64x64x3x3_S1x64x64x1x1_0_0_0_1_1 : S1x64x64x3x3.Slices ![0, 0, 0, 1, 1] S1x64x64x1x1
  slices_S1x64x64x3x3_S1x64x64x1x1_0_0_0_1_2 : S1x64x64x3x3.Slices ![0, 0, 0, 1, 2] S1x64x64x1x1
  slices_S1x64x64x3x3_S1x64x64x1x1_0_0_0_2_0 : S1x64x64x3x3.Slices ![0, 0, 0, 2, 0] S1x64x64x1x1
  slices_S1x64x64x3x3_S1x64x64x1x1_0_0_0_2_1 : S1x64x64x3x3.Slices ![0, 0, 0, 2, 1] S1x64x64x1x1
  slices_S1x64x64x3x3_S1x64x64x1x1_0_0_0_2_2 : S1x64x64x3x3.Slices ![0, 0, 0, 2, 2] S1x64x64x1x1
  pads_S8x64x28x28_S8x64x28x28_000_000_000_000 : S8x64x28x28.Pads (![0, 0, 0, 0] : Fin 4 → Nat) ![0, 0, 0, 0] ![0, 0, 0, 0] S8x64x28x28
  shapeCasts_S256x64x1x1_S1x256x64x1x1 : S256x64x1x1.ShapeCasts S1x256x64x1x1
  bcast_S_S8x256x28x28 : S_.BroadcastsInDim S8x256x28x28 (![] : Fin 0 → Fin S8x256x28x28.rank)
  slices_S8x64x28x28_S8x64x28x28_0_0_0_0 : S8x64x28x28.Slices ![0, 0, 0, 0] S8x64x28x28
  shapeCasts_S1x256x64x1x1_S1x256x64 : S1x256x64x1x1.ShapeCasts S1x256x64
  bcast_S1x256x64_S1x1x256x64x1x1_1_2_3 : S1x256x64.BroadcastsInDim S1x1x256x64x1x1 (![1, 2, 3] : Fin 3 → Fin S1x1x256x64x1x1.rank)
  bcast_S8x1x1x64x28x28_S8x1x256x64x28x28_0_1_2_3_4_5 : S8x1x1x64x28x28.BroadcastsInDim S8x1x256x64x28x28 (![0, 1, 2, 3, 4, 5] : Fin 6 → Fin S8x1x256x64x28x28.rank)
  bcast_S1x1x256x64x1x1_S8x1x256x64x28x28_0_1_2_3_4_5 : S1x1x256x64x1x1.BroadcastsInDim S8x1x256x64x28x28 (![0, 1, 2, 3, 4, 5] : Fin 6 → Fin S8x1x256x64x28x28.rank)
  reducesTo_S8x1x256x64x28x28_S8x1x256x28x28_d3 : S8x1x256x64x28x28.ReducesTo [3] S8x1x256x28x28
  shapeCasts_S8x1x256x28x28_S8x256x28x28 : S8x1x256x28x28.ShapeCasts S8x256x28x28
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S8x256x28x28_0_1_2_3 : S1x256x1x1.BroadcastsInDim S8x256x28x28 (![0, 1, 2, 3] : Fin 4 → Fin S8x256x28x28.rank)

variable [Facts₀]

class Facts : Prop extends Facts₀ where

variable [Facts]
-- ==== Proof.Spec.lean ====
/-
  The bottleneck block with L1-distance ("adder") convolutions, for ONE batch sample, as a function of the
  sample and the weights read through coordinate accessors — no array layout appears here.

  For a sample `X k h w` (channel k, row h, column w) the block computes, with `|a|` the absolute value,
  `z` the zero constant, `pz` the padding value and every sum starting from `z`:
    a1 c h w  = z - Σ_k |X k h w - W1 c k|                                    (1×1, 256 → 64)
    a2 c h w  = nine sequential subtractions from z of |pad(a1 c)(h+kh)(w+kw) - WP c kh kw|   (depthwise 3×3)
    r2        = max (a2 · I1 + (B1 - M1 · I1)) z                               (scale, shift, clamp at zero)
    a3 c h w  = nine sequential subtractions from z of Σ_k |pad(r2 k)(h+kh)(w+kw) - W2 c k kh kw|   (3×3, 64 → 64)
    r3        = max (a3 · I2 + (B2 - M2 · I2)) z
    a4 c h w  = z - Σ_k |r3 k h w - W3 c k|                                    (1×1, 64 → 256)
    out c h w = max ((a4 · I3 + (B3 - M3 · I3)) + X c h w) z                   (residual, clamp at zero)
  The per-channel scale `I` is `g · (v + ε)^(-1/2)`, spelled either as a product with the reciprocal square
  root or as a quotient by the square root; on the extended reals the two agree as soon as `0 < v + ε`
  (`scaleMul_eq_scaleDiv`): at `⊤` both are `g · 0`, at a positive real the inverse of the root is the
  root's inverse.
-/
import Idealize.ShloMosaic.PureOps.Ideal
import Idealize.ShloMosaic.Lib.ValueIdx

noncomputable section

namespace Cert.ResAdd

open Idealize.ShloMosaic

/-- The zero constant both programs carry (never evaluated except where a one-term sum is collapsed). -/
abbrev zc : EReal := Ideal.ofBits .f32 0x00000000#32
/-- The variance offset ε both programs carry, as its binary word's value. -/
abbrev ep : EReal := Ideal.ofBits .f32 0x3727C5AC#32
/-- The padding value: the integer zero converted. -/
abbrev pz : EReal := Scalar.sitofp (F := Ideal) .f32 (0#32 : BitVec 32)
/-- Absolute value, as the instance has it (kernel and host share it). -/
abbrev ab (a : EReal) : EReal := FloatOps.absf (F := Ideal) (φ := .f32) a

/-- The L1 distance of two rows of `n` entries, summed from the zero constant. -/
def l1 {n : Nat} (f g : Fin n → EReal) : EReal := zc + ∑ k : Fin n, ab (f k - g k)

/-- A 28×28 map read through a border of one padding entry on every side. -/
def padAt (f : Fin 28 → Fin 28 → EReal) (i j : Fin 30) : EReal :=
  if h : 1 ≤ i.val ∧ i.val ≤ 28 ∧ 1 ≤ j.val ∧ j.val ≤ 28 then f ⟨i.val - 1, by omega⟩ ⟨j.val - 1, by omega⟩ else pz

/-- Window position `(h + kh, w + kw)` of the padded 30×30 map. -/
abbrev sh (h : Fin 28) (k : Fin 3) : Fin 30 := ⟨h.val + k.val, by omega⟩

/-- Nine taps subtracted one after the other from the zero constant, rows first. -/
def nine (t : Fin 3 → Fin 3 → EReal) : EReal :=
  ((((((((zc - t 0 0) - t 0 1) - t 0 2) - t 1 0) - t 1 1) - t 1 2) - t 2 0) - t 2 1) - t 2 2

/-- Scale as a product with the reciprocal square root. -/
def scaleMul (g v : EReal) : EReal := g * Ideal.rsqrt (v + ep)
/-- Scale as a quotient by the square root. -/
def scaleDiv (g v : EReal) : EReal := Ideal.div g (Ideal.sqrt (v + ep))

/-- Scale and shift by a given scale `i`. -/
def bn (i b m a : EReal) : EReal := a * i + (b - m * i)

theorem scaleMul_eq_scaleDiv (g v : EReal) (h : 0 < v + ep) : scaleMul g v = scaleDiv g v := by
  unfold scaleMul scaleDiv
  generalize v + ep = y at h
  induction y using EReal.rec with
  | bot => exact absurd h (by simp)
  | top =>
    show g * 0 = Ideal.div g ⊤
    unfold Ideal.div
    rw [if_neg (by simp), EReal.inv_top]
  | coe r =>
    have hr : 0 < r := by exact_mod_cast h
    have hs : Real.sqrt r ≠ 0 := (Real.sqrt_pos.2 hr).ne'
    show g * (if r < 0 then (⊥ : EReal) else if r = 0 then (⊤ : EReal) else (((Real.sqrt r)⁻¹ : ℝ) : EReal))
      = Ideal.div g (if r < 0 then (⊥ : EReal) else ((Real.sqrt r : ℝ) : EReal))
    rw [if_neg (not_lt.2 hr.le), if_neg hr.ne', if_neg (not_lt.2 hr.le)]
    unfold Ideal.div
    rw [if_neg (by exact_mod_cast hs), EReal.coe_inv]

section Block

variable (X : Fin 256 → Fin 28 → Fin 28 → EReal)
  (W1 : Fin 64 → Fin 256 → EReal) (WP : Fin 64 → Fin 3 → Fin 3 → EReal)
  (W2 : Fin 64 → Fin 64 → Fin 3 → Fin 3 → EReal) (W3 : Fin 256 → Fin 64 → EReal)
  (I1 B1 M1 I2 B2 M2 : Fin 64 → EReal) (I3 B3 M3 : Fin 256 → EReal)

def a1 (c : Fin 64) (h w : Fin 28) : EReal := zc - l1 (fun k => X k h w) (fun k => W1 c k)

def a2 (c : Fin 64) (h w : Fin 28) : EReal :=
  nine fun kh kw => ab (padAt (a1 X W1 c) (sh h kh) (sh w kw) - WP c kh kw)

def r2 (c : Fin 64) (h w : Fin 28) : EReal := max (bn (I1 c) (B1 c) (M1 c) (a2 X W1 WP c h w)) zc

def a3 (c : Fin 64) (h w : Fin 28) : EReal :=
  nine fun kh kw => l1 (fun k => padAt (r2 X W1 WP I1 B1 M1 k) (sh h kh) (sh w kw)) (fun k => W2 c k kh kw)

def r3 (c : Fin 64) (h w : Fin 28) : EReal := max (bn (I2 c) (B2 c) (M2 c) (a3 X W1 WP W2 I1 B1 M1 c h w)) zc

def a4 (c : Fin 256) (h w : Fin 28) : EReal :=
  zc - l1 (fun k => r3 X W1 WP W2 I1 B1 M1 I2 B2 M2 k h w) (fun k => W3 c k)

def out (c : Fin 256) (h w : Fin 28) : EReal :=
  max (bn (I3 c) (B3 c) (M3 c) (a4 X W1 WP W2 W3 I1 B1 M1 I2 B2 M2 c h w) + X c h w) zc

end Block

/-! ## The whole result, from the seventeen argument arrays in their own layouts -/

open Idealize.ShloMosaic.ValueIdx

/-- A float array of rank four / rank one at the extended reals. -/
abbrev A4 (a b c d : Nat) : Type := (⟨4, ![a, b, c, d]⟩ : Shape).Idx → EReal
abbrev A1 (a : Nat) : Type := (⟨1, ![a]⟩ : Shape).Idx → EReal

/-- Entry `(b, c, h, w)` of the block's result: the per-sample function at sample `b` of `x` (channels second),
    the weights read in their own layouts (output channel first, a unit axis where the layer has one), and the
    scales `sc g v` made from each normalisation's weight and variance. -/
def result (sc : EReal → EReal → EReal) (x : A4 8 256 28 28) (w1 : A4 64 256 1 1) (wp : A4 64 1 3 3) (w2 : A4 64 64 3 3)
    (w3 : A4 256 64 1 1) (g1 b1 m1 v1 g2 b2 m2 v2 : A1 64) (g3 b3 m3 v3 : A1 256)
    (b : Fin 8) (c : Fin 256) (h w : Fin 28) : EReal :=
  out (fun k h w => x (ix4 b k h w)) (fun c k => w1 (ix4 c k (0 : Fin 1) (0 : Fin 1))) (fun c kh kw => wp (ix4 c (0 : Fin 1) kh kw))
    (fun c k kh kw => w2 (ix4 c k kh kw)) (fun c k => w3 (ix4 c k (0 : Fin 1) (0 : Fin 1)))
    (fun c => sc (g1 (ix1 c)) (v1 (ix1 c))) (fun c => b1 (ix1 c)) (fun c => m1 (ix1 c))
    (fun c => sc (g2 (ix1 c)) (v2 (ix1 c))) (fun c => b2 (ix1 c)) (fun c => m2 (ix1 c))
    (fun c => sc (g3 (ix1 c)) (v3 (ix1 c))) (fun c => b3 (ix1 c)) (fun c => m3 (ix1 c)) c h w

/-- The result as one array (sample, channel, row, column). -/
def resultArr (sc : EReal → EReal → EReal) (x : A4 8 256 28 28) (w1 : A4 64 256 1 1) (wp : A4 64 1 3 3) (w2 : A4 64 64 3 3)
    (w3 : A4 256 64 1 1) (g1 b1 m1 v1 g2 b2 m2 v2 : A1 64) (g3 b3 m3 v3 : A1 256) : A4 8 256 28 28 :=
  fun i => result sc x w1 wp w2 w3 g1 b1 m1 v1 g2 b2 m2 v2 g3 b3 m3 v3
    ⟨(i 0).val, (i 0).isLt⟩ ⟨(i 1).val, (i 1).isLt⟩ ⟨(i 2).val, (i 2).isLt⟩ ⟨(i 3).val, (i 3).isLt⟩

theorem resultArr_ix4 (sc : EReal → EReal → EReal) (x : A4 8 256 28 28) (w1 : A4 64 256 1 1) (wp : A4 64 1 3 3) (w2 : A4 64 64 3 3)
    (w3 : A4 256 64 1 1) (g1 b1 m1 v1 g2 b2 m2 v2 : A1 64) (g3 b3 m3 v3 : A1 256) (b : Fin 8) (c : Fin 256) (h w : Fin 28) :
    resultArr sc x w1 wp w2 w3 g1 b1 m1 v1 g2 b2 m2 v2 g3 b3 m3 v3 (ix4 b c h w)
      = result sc x w1 wp w2 w3 g1 b1 m1 v1 g2 b2 m2 v2 g3 b3 m3 v3 b c h w := rfl

/-- Where every variance plus ε is positive, the product spelling and the quotient spelling of the three scales give
    one result. -/
theorem resultArr_scale (x : A4 8 256 28 28) (w1 : A4 64 256 1 1) (wp : A4 64 1 3 3) (w2 : A4 64 64 3 3)
    (w3 : A4 256 64 1 1) (g1 b1 m1 v1 g2 b2 m2 v2 : A1 64) (g3 b3 m3 v3 : A1 256)
    (h1 : ∀ c : Fin 64, 0 < v1 (ix1 c) + ep) (h2 : ∀ c : Fin 64, 0 < v2 (ix1 c) + ep) (h3 : ∀ c : Fin 256, 0 < v3 (ix1 c) + ep) :
    resultArr scaleMul x w1 wp w2 w3 g1 b1 m1 v1 g2 b2 m2 v2 g3 b3 m3 v3
      = resultArr scaleDiv x w1 wp w2 w3 g1 b1 m1 v1 g2 b2 m2 v2 g3 b3 m3 v3 := by
  funext i
  unfold resultArr result
  rw [show (fun c : Fin 64 => scaleMul (g1 (ix1 c)) (v1 (ix1 c))) = fun c => scaleDiv (g1 (ix1 c)) (v1 (ix1 c)) from
        funext fun c => scaleMul_eq_scaleDiv _ _ (h1 c),
      show (fun c : Fin 64 => scaleMul (g2 (ix1 c)) (v2 (ix1 c))) = fun c => scaleDiv (g2 (ix1 c)) (v2 (ix1 c)) from
        funext fun c => scaleMul_eq_scaleDiv _ _ (h2 c),
      show (fun c : Fin 256 => scaleMul (g3 (ix1 c)) (v3 (ix1 c))) = fun c => scaleDiv (g3 (ix1 c)) (v3 (ix1 c)) from
        funext fun c => scaleMul_eq_scaleDiv _ _ (h3 c)]

end Cert.ResAdd

end
-- ==== Proof.KDefs.lean ====
/-
  The kernel body's stages as vector-level functions of what it loads, in the order the body computes them:
  the 1×1 L1 stage over 256 channels in four chunks of sixteen output channels, the zero border by four
  concatenations, the depthwise nine taps, the scale-shift-clamp over 64 channels, the 3×3 L1 stage with each
  tap in two chunks of thirty-two output channels, the 1×1 L1 stage into 256 channels in eight chunks, and the
  last scale-shift with the residual and the clamp. `payload` is their composition on the block's loads, and
  `payload_eq` says the frame's stored block is that composition.
-/
import proofs.«165038_j41480794144828_1_alg».proof.Proof.Gen.KernelIdeal.Frame
import proofs.«165038_j41480794144828_1_alg».proof.Proof.Spec

set_option maxRecDepth 16384

noncomputable section

namespace Cert.ResAdd.K

open Idealize.ShloMosaic Idealize.ShloMosaic.TcCoe Cert.KernelIdeal Cert.KernelIdeal.Gen

/-- A float vector at the extended reals. -/
abbrev V (s : Shape) : Type := FVec Ideal s .f32

/-- The zero splat the body subtracts from and clamps at. -/
abbrev zsplat (s : Shape) : V s := broadcast s (Scalar.ofBits (F := Ideal) .f32 0x00000000#32)

/-- Sixteen output channels (weight rows `o … o+15`) of the L1 distance over 256 input channels. -/
def chunk16 (xs : V S28x28x256) (wm : V S64x256) (o : Nat) (hs : S64x256.Slices ![o, 0] S16x256) : V S28x28x16 :=
  multiReduction .add [3] S28x28x16
    (absf (subf (broadcastTo S28x28x16x256 (shapeCast S28x28x1x256 xs shapeCasts_S28x28x256_S28x28x1x256) broadcasts_S28x28x1x256_S28x28x16x256)
      (broadcastTo S28x28x16x256 (shapeCast S1x1x16x256 (extractStridedSlice S16x256 ![o, 0] wm hs) shapeCasts_S16x256_S1x1x16x256) broadcasts_S1x1x16x256_S28x28x16x256)))
    0x00000000#32 reduces_S28x28x16x256_S28x28x16 (.inl rfl) rfl

/-- Thirty-two output channels (weight rows `o … o+31` of a 64-row matrix) of the L1 distance over 64 input channels. -/
def chunk32 (xs : V S28x28x64) (wm : V S64x64) (o : Nat) (hs : S64x64.Slices ![o, 0] S32x64) : V S28x28x32 :=
  multiReduction .add [3] S28x28x32
    (absf (subf (broadcastTo S28x28x32x64 (shapeCast S28x28x1x64 xs shapeCasts_S28x28x64_S28x28x1x64) broadcasts_S28x28x1x64_S28x28x32x64)
      (broadcastTo S28x28x32x64 (shapeCast S1x1x32x64 (extractStridedSlice S32x64 ![o, 0] wm hs) shapeCasts_S32x64_S1x1x32x64) broadcasts_S1x1x32x64_S28x28x32x64)))
    0x00000000#32 reduces_S28x28x32x64_S28x28x32 (.inl rfl) rfl

/-- The same over a 256-row weight matrix. -/
def chunk32w (xs : V S28x28x64) (wm : V S256x64) (o : Nat) (hs : S256x64.Slices ![o, 0] S32x64) : V S28x28x32 :=
  multiReduction .add [3] S28x28x32
    (absf (subf (broadcastTo S28x28x32x64 (shapeCast S28x28x1x64 xs shapeCasts_S28x28x64_S28x28x1x64) broadcasts_S28x28x1x64_S28x28x32x64)
      (broadcastTo S28x28x32x64 (shapeCast S1x1x32x64 (extractStridedSlice S32x64 ![o, 0] wm hs) shapeCasts_S32x64_S1x1x32x64) broadcasts_S1x1x32x64_S28x28x32x64)))
    0x00000000#32 reduces_S28x28x32x64_S28x28x32 (.inl rfl) rfl

/-- Stage 1: zero minus the L1 distances to the 64 rows of the first weight matrix. -/
def kA1 (xb : V S28x28x256) (w1m : V S64x256) : V S28x28x64 :=
  subf (zsplat S28x28x64)
    (concatenate S28x28x64 2 [⟨S28x28x16, chunk16 xb w1m 0 slices_S64x256_o0_0_S16x256⟩, ⟨S28x28x16, chunk16 xb w1m 16 slices_S64x256_o16_0_S16x256⟩,
      ⟨S28x28x16, chunk16 xb w1m 32 slices_S64x256_o32_0_S16x256⟩, ⟨S28x28x16, chunk16 xb w1m 48 slices_S64x256_o48_0_S16x256⟩]
      concatenates_S28x28x16_S28x28x16_S28x28x16_S28x28x16_S28x28x64_d2)

/-- The padding entry. -/
abbrev pzK : Ideal .f32 := Scalar.sitofp (F := Ideal) .f32 (0#32 : BitVec 32)

/-- A border of one padding entry around a 28×28×64 map: a row above, a row below, a column left, a column right. -/
def kPad (a : V S28x28x64) : V S30x30x64 :=
  concatenate S30x30x64 1 [⟨S30x29x64,
      concatenate S30x29x64 1 [⟨S30x1x64, broadcast S30x1x64 pzK⟩, ⟨S30x28x64,
        concatenate S30x28x64 0 [⟨S29x28x64,
          concatenate S29x28x64 0 [⟨S1x28x64, broadcast S1x28x64 pzK⟩, ⟨S28x28x64, a⟩] concatenates_S1x28x64_S28x28x64_S29x28x64_d0⟩,
          ⟨S1x28x64, broadcast S1x28x64 pzK⟩] concatenates_S29x28x64_S1x28x64_S30x28x64_d0⟩]
        concatenates_S30x1x64_S30x28x64_S30x29x64_d1⟩,
    ⟨S30x1x64, broadcast S30x1x64 pzK⟩] concatenates_S30x29x64_S30x1x64_S30x30x64_d1

/-- A 64-vector as a 28×28×64 map constant over the pixels. -/
def bc64 (v : V S64) : V S28x28x64 := broadcastTo S28x28x64 (shapeCast S1x1x64 v shapeCasts_S64_S1x1x64) broadcasts_S1x1x64_S28x28x64
def bc256 (v : V S256) : V S28x28x256 := broadcastTo S28x28x256 (shapeCast S1x1x256 v shapeCasts_S256_S1x1x256) broadcasts_S1x1x256_S28x28x256

/-- One depthwise tap: the window at offset `off` of the padded map against the tap's 64 weights. -/
def tapDW (p : V S30x30x64) (off : Fin 3 → Nat) (hs : S30x30x64.Slices off S28x28x64) (t : Vec Ideal S1x1x64 .f32) : V S28x28x64 :=
  absf (subf (extractStridedSlice S28x28x64 off p hs) (bc64 (shapeCast S64 t shapeCasts_S1x1x64_S64)))

/-- Stage 2: the nine depthwise taps subtracted one after the other from zero. -/
def kA2 (p : V S30x30x64) (t00 t01 t02 t10 t11 t12 t20 t21 t22 : Vec Ideal S1x1x64 .f32) : V S28x28x64 :=
  subf (subf (subf (subf (subf (subf (subf (subf (subf (zsplat S28x28x64)
    (tapDW p ![0, 0, 0] slices_S30x30x64_o0_0_0_S28x28x64 t00)) (tapDW p ![0, 1, 0] slices_S30x30x64_o0_1_0_S28x28x64 t01))
    (tapDW p ![0, 2, 0] slices_S30x30x64_o0_2_0_S28x28x64 t02)) (tapDW p ![1, 0, 0] slices_S30x30x64_o1_0_0_S28x28x64 t10))
    (tapDW p ![1, 1, 0] slices_S30x30x64_o1_1_0_S28x28x64 t11)) (tapDW p ![1, 2, 0] slices_S30x30x64_o1_2_0_S28x28x64 t12))
    (tapDW p ![2, 0, 0] slices_S30x30x64_o2_0_0_S28x28x64 t20)) (tapDW p ![2, 1, 0] slices_S30x30x64_o2_1_0_S28x28x64 t21))
    (tapDW p ![2, 2, 0] slices_S30x30x64_o2_2_0_S28x28x64 t22)

/-- The per-channel scale: the weight times the reciprocal square root of variance plus ε. -/
def sc64 (g v : V S64) : V S64 := mulf g (rsqrt (addf v (broadcast S64 (Scalar.ofBits (F := Ideal) .f32 0x3727C5AC#32))))
def sc256 (g v : V S256) : V S256 := mulf g (rsqrt (addf v (broadcast S256 (Scalar.ofBits (F := Ideal) .f32 0x3727C5AC#32))))

/-- Scale, shift and clamp at zero over 64 channels. -/
def kBN64 (a : V S28x28x64) (g b m v : V S64) : V S28x28x64 :=
  maximumf (addf (mulf a (bc64 (sc64 g v))) (bc64 (subf b (mulf m (sc64 g v))))) (zsplat S28x28x64)

/-- One 3×3 tap: the L1 distances of the window at `off` to the 64 rows of the tap's 64×64 weights, in two chunks. -/
def tap3 (p : V S30x30x64) (off : Fin 3 → Nat) (hs : S30x30x64.Slices off S28x28x64) (u : Vec Ideal S1x1x64x64 .f32) : V S28x28x64 :=
  concatenate S28x28x64 2
    [⟨S28x28x32, chunk32 (extractStridedSlice S28x28x64 off p hs) (shapeCast S64x64 u shapeCasts_S1x1x64x64_S64x64) 0 slices_S64x64_o0_0_S32x64⟩,
     ⟨S28x28x32, chunk32 (extractStridedSlice S28x28x64 off p hs) (shapeCast S64x64 u shapeCasts_S1x1x64x64_S64x64) 32 slices_S64x64_o32_0_S32x64⟩]
    concatenates_S28x28x32_S28x28x32_S28x28x64_d2

/-- Stage 3: the nine 3×3 taps subtracted one after the other from zero. -/
def kA3 (p : V S30x30x64) (u00 u01 u02 u10 u11 u12 u20 u21 u22 : Vec Ideal S1x1x64x64 .f32) : V S28x28x64 :=
  subf (subf (subf (subf (subf (subf (subf (subf (subf (zsplat S28x28x64)
    (tap3 p ![0, 0, 0] slices_S30x30x64_o0_0_0_S28x28x64 u00)) (tap3 p ![0, 1, 0] slices_S30x30x64_o0_1_0_S28x28x64 u01))
    (tap3 p ![0, 2, 0] slices_S30x30x64_o0_2_0_S28x28x64 u02)) (tap3 p ![1, 0, 0] slices_S30x30x64_o1_0_0_S28x28x64 u10))
    (tap3 p ![1, 1, 0] slices_S30x30x64_o1_1_0_S28x28x64 u11)) (tap3 p ![1, 2, 0] slices_S30x30x64_o1_2_0_S28x28x64 u12))
    (tap3 p ![2, 0, 0] slices_S30x30x64_o2_0_0_S28x28x64 u20)) (tap3 p ![2, 1, 0] slices_S30x30x64_o2_1_0_S28x28x64 u21))
    (tap3 p ![2, 2, 0] slices_S30x30x64_o2_2_0_S28x28x64 u22)

/-- Stage 4: zero minus the L1 distances to the 256 rows of the last weight matrix, in eight chunks. -/
def kA4 (a : V S28x28x64) (w3m : V S256x64) : V S28x28x256 :=
  subf (zsplat S28x28x256)
    (concatenate S28x28x256 2 [⟨S28x28x32, chunk32w a w3m 0 slices_S256x64_o0_0_S32x64⟩, ⟨S28x28x32, chunk32w a w3m 32 slices_S256x64_o32_0_S32x64⟩,
      ⟨S28x28x32, chunk32w a w3m 64 slices_S256x64_o64_0_S32x64⟩, ⟨S28x28x32, chunk32w a w3m 96 slices_S256x64_o96_0_S32x64⟩,
      ⟨S28x28x32, chunk32w a w3m 128 slices_S256x64_o128_0_S32x64⟩, ⟨S28x28x32, chunk32w a w3m 160 slices_S256x64_o160_0_S32x64⟩,
      ⟨S28x28x32, chunk32w a w3m 192 slices_S256x64_o192_0_S32x64⟩, ⟨S28x28x32, chunk32w a w3m 224 slices_S256x64_o224_0_S32x64⟩]
      concatenates_S28x28x32_S28x28x32_S28x28x32_S28x28x32_S28x28x32_S28x28x32_S28x28x32_S28x28x32_S28x28x256_d2)

/-- The last scale and shift over 256 channels, the residual added, clamped at zero. -/
def kOut (a4 : V S28x28x256) (g b m v : V S256) (xb : V S28x28x256) : V S28x28x256 :=
  maximumf (addf (addf (mulf a4 (bc256 (sc256 g v))) (bc256 (subf b (mulf m (sc256 g v))))) xb) (zsplat S28x28x256)

section Payload

variable (x0 : Vec Ideal S1x28x28x256 .f32) (x1 : Vec Ideal S64x256 .f32) (x2 : Vec Ideal S3x3x64 .f32) (x3 : Vec Ideal S3x3x64x64 .f32)
  (x4 : Vec Ideal S256x64 .f32) (x5 x6 x7 x8 x9 x10 x11 x12 : Vec Ideal S64 .f32) (x13 x14 x15 x16 : Vec Ideal S256 .f32)

/-- The sample's block, 28×28 pixels by 256 channels. -/
def xblk : V S28x28x256 := shapeCast S28x28x256 (View.ld x0 r0_0) shapeCasts_S1x28x28x256_S28x28x256

/-- The map after the depthwise stage's scale, shift and clamp. -/
def h2 : V S28x28x64 :=
  kBN64 (kA2 (kPad (kA1 (xblk x0) (shapeCast S64x256 (View.ld x1 r0_1) shapeCasts_S64x256_S64x256)))
      (View.ld x2 r0_2) (View.ld x2 r0_3) (View.ld x2 r0_4) (View.ld x2 r0_5) (View.ld x2 r0_6) (View.ld x2 r0_7) (View.ld x2 r0_8) (View.ld x2 r0_9) (View.ld x2 r0_10))
    (View.ld x5 r0_11) (View.ld x6 r0_11) (View.ld x7 r0_11) (View.ld x8 r0_11)

/-- The map after the 3×3 stage's scale, shift and clamp. -/
def h3 : V S28x28x64 :=
  kBN64 (kA3 (kPad (h2 x0 x1 x2 x5 x6 x7 x8))
      (View.ld x3 r0_12) (View.ld x3 r0_13) (View.ld x3 r0_14) (View.ld x3 r0_15) (View.ld x3 r0_16) (View.ld x3 r0_17) (View.ld x3 r0_18) (View.ld x3 r0_19) (View.ld x3 r0_20))
    (View.ld x9 r0_11) (View.ld x10 r0_11) (View.ld x11 r0_11) (View.ld x12 r0_11)

/-- What the body stores: the block's result, with the leading unit axis put back. -/
def payload : Vec Ideal S1x28x28x256 .f32 :=
  shapeCast S1x28x28x256
    (kOut (kA4 (h3 x0 x1 x2 x3 x5 x6 x7 x8 x9 x10 x11 x12) (shapeCast S256x64 (View.ld x4 r0_21) shapeCasts_S256x64_S256x64))
      (View.ld x13 r0_22) (View.ld x14 r0_22) (View.ld x15 r0_22) (View.ld x16 r0_22) (xblk x0))
    shapeCasts_S28x28x256_S1x28x28x256

/-- The frame's stored block is the composition of the stages. -/
theorem payload_eq : out0_17 x0 x1 x2 x3 x4 x5 x6 x7 x8 x9 x10 x11 x12 x13 x14 x15 x16
    = View.canon [⟨r0_0, payload x0 x1 x2 x3 x4 x5 x6 x7 x8 x9 x10 x11 x12 x13 x14 x15 x16⟩] := by
  unfold out0_17
  rfl

end Payload

end Cert.ResAdd.K

end
-- ==== Proof.KMix.lean ====
/-
  The L1-distance stages of the block, read at an index.

  A chunk sums |x − w| over the input channels for a run of consecutive output channels: its value at
  (row, column, j) is the L1 distance, started from the zero constant, between the map's channel vector at that
  pixel and weight row `o + j`. The sum the chunk takes carries no starting term; the zero constant is the real
  zero, so adding it in front changes nothing. A 1×1 stage lays its chunks side by side along the channel axis, so
  at output channel `c` it reads the chunk whose run holds `c`, at `c` less the run's start, and subtracts that
  from the zero constant. A 3×3 tap does the same on the window of the padded map shifted by (kh, kw), against
  the tap's own 64×64 weights, and the 3×3 stage subtracts its nine taps one after the other from the zero constant.
-/
import proofs.«165038_j41480794144828_1_alg».proof.Proof.KDefs
import proofs.«165038_j41480794144828_1_alg».proof.Proof.Spec
import Idealize.ShloMosaic.Lib.ValueIdx
import Idealize.ShloMosaic.Lib.ValueIdxCoords
import Idealize.ShloMosaic.Lib.Pipeline.Value
import Idealize.ShloMosaic.PureOps.Ideal.Laws

set_option maxRecDepth 16384

noncomputable section

namespace Cert.ResAdd.K

open Idealize.ShloMosaic Idealize.ShloMosaic.TcCoe Idealize.ShloMosaic.ValueIdx Cert.KernelIdeal Cert.KernelIdeal.Gen Cert.ResAdd

/-- The zero constant is the extended real zero, so a sum started from it is the bare sum. -/
private theorem zc_eq_zero : zc = 0 := Ideal.ofBits_zero_f32

/-! ## The two operands of a chunk, read at (row, column, output channel, input channel) -/

/-- The map, given a unit axis and repeated over sixteen output channels, reads the map at (row, column, input channel). -/
private theorem act16 (xs : V S28x28x256) (h w : Fin 28) (j : Fin 16) (k : Fin 256) :
    broadcastTo S28x28x16x256 (shapeCast S28x28x1x256 xs shapeCasts_S28x28x256_S28x28x1x256) broadcasts_S28x28x1x256_S28x28x16x256 (ix4 h w j k)
      = xs (ix3 h w k) := by
  refine (broadcastTo_apply _ broadcasts_S28x28x1x256_S28x28x16x256 (ix4 h w j k) (ix4 h w (0 : Fin 1) k) (fun a => match a with
    | ⟨0, _⟩ => rfl
    | ⟨1, _⟩ => rfl
    | ⟨2, _⟩ => rfl
    | ⟨3, _⟩ => rfl)).trans ?_
  exact shapeCast_apply xs shapeCasts_S28x28x256_S28x28x1x256 (ix4 h w (0 : Fin 1) k) (ix3 h w k)
    (by rw [Shape.rowMajor_val_three, Shape.rowMajor_val_four]
        show (h.val * 28 + w.val) * 256 + k.val = ((h.val * 28 + w.val) * 1 + 0) * 256 + k.val
        omega)

/-- Sixteen weight rows from row `o` on, given two unit axes and repeated over the pixels, read the weight at
    (row `o + j`, input channel). -/
private theorem wt16 (wm : V S64x256) (o : Nat) (hs : S64x256.Slices ![o, 0] S16x256) (h w : Fin 28) (j : Fin 16) (k : Fin 256)
    (c : Fin 64) (hc : c.val = o + j.val) :
    broadcastTo S28x28x16x256 (shapeCast S1x1x16x256 (extractStridedSlice S16x256 ![o, 0] wm hs) shapeCasts_S16x256_S1x1x16x256) broadcasts_S1x1x16x256_S28x28x16x256 (ix4 h w j k)
      = wm (ix2 c k) := by
  refine (broadcastTo_apply _ broadcasts_S1x1x16x256_S28x28x16x256 (ix4 h w j k) (ix4 (0 : Fin 1) (0 : Fin 1) j k) (fun a => match a with
    | ⟨0, _⟩ => rfl
    | ⟨1, _⟩ => rfl
    | ⟨2, _⟩ => rfl
    | ⟨3, _⟩ => rfl)).trans ?_
  refine (shapeCast_apply _ shapeCasts_S16x256_S1x1x16x256 (ix4 (0 : Fin 1) (0 : Fin 1) j k) (ix2 j k)
    (by rw [Shape.rowMajor_val_two, Shape.rowMajor_val_four]
        show j.val * 256 + k.val = ((0 * 1 + 0) * 16 + j.val) * 256 + k.val
        omega)).trans ?_
  exact extractStridedSlice_apply ![o, 0] wm hs (ix2 j k) (ix2 c k) (fun a => match a with
    | ⟨0, _⟩ => by show c.val = o + j.val; exact hc
    | ⟨1, _⟩ => by show k.val = 0 + k.val; omega)

/-- The same reading of the map over thirty-two output channels and 64 input channels. -/
private theorem act32 (xs : V S28x28x64) (h w : Fin 28) (j : Fin 32) (k : Fin 64) :
    broadcastTo S28x28x32x64 (shapeCast S28x28x1x64 xs shapeCasts_S28x28x64_S28x28x1x64) broadcasts_S28x28x1x64_S28x28x32x64 (ix4 h w j k)
      = xs (ix3 h w k) := by
  refine (broadcastTo_apply _ broadcasts_S28x28x1x64_S28x28x32x64 (ix4 h w j k) (ix4 h w (0 : Fin 1) k) (fun a => match a with
    | ⟨0, _⟩ => rfl
    | ⟨1, _⟩ => rfl
    | ⟨2, _⟩ => rfl
    | ⟨3, _⟩ => rfl)).trans ?_
  exact shapeCast_apply xs shapeCasts_S28x28x64_S28x28x1x64 (ix4 h w (0 : Fin 1) k) (ix3 h w k)
    (by rw [Shape.rowMajor_val_three, Shape.rowMajor_val_four]
        show (h.val * 28 + w.val) * 64 + k.val = ((h.val * 28 + w.val) * 1 + 0) * 64 + k.val
        omega)

/-- Thirty-two weight rows from row `o` on of a matrix of `n` rows read the weight at (row `o + j`, input channel). -/
private theorem wt32 {n : Nat} (wm : V ⟨2, ![n, 64]⟩) (o : Nat) (hs : (⟨2, ![n, 64]⟩ : Shape).Slices ![o, 0] S32x64) (h w : Fin 28) (j : Fin 32) (k : Fin 64)
    (c : Fin n) (hc : c.val = o + j.val) :
    broadcastTo S28x28x32x64 (shapeCast S1x1x32x64 (extractStridedSlice S32x64 ![o, 0] wm hs) shapeCasts_S32x64_S1x1x32x64) broadcasts_S1x1x32x64_S28x28x32x64 (ix4 h w j k)
      = wm (ix2 c k) := by
  refine (broadcastTo_apply _ broadcasts_S1x1x32x64_S28x28x32x64 (ix4 h w j k) (ix4 (0 : Fin 1) (0 : Fin 1) j k) (fun a => match a with
    | ⟨0, _⟩ => rfl
    | ⟨1, _⟩ => rfl
    | ⟨2, _⟩ => rfl
    | ⟨3, _⟩ => rfl)).trans ?_
  refine (shapeCast_apply _ shapeCasts_S32x64_S1x1x32x64 (ix4 (0 : Fin 1) (0 : Fin 1) j k) (ix2 j k)
    (by rw [Shape.rowMajor_val_two, Shape.rowMajor_val_four]
        show j.val * 64 + k.val = ((0 * 1 + 0) * 32 + j.val) * 64 + k.val
        omega)).trans ?_
  exact extractStridedSlice_apply ![o, 0] wm hs (ix2 j k) (ix2 c k) (fun a => match a with
    | ⟨0, _⟩ => by show c.val = o + j.val; exact hc
    | ⟨1, _⟩ => by show k.val = 0 + k.val; omega)

/-! ## A chunk at an index: the lane sum over the input channels is the L1 distance -/

theorem chunk16_apply (xs : V S28x28x256) (wm : V S64x256) (o : Nat) (hs : S64x256.Slices ![o, 0] S16x256)
    (h w : Fin 28) (j : Fin 16) (c : Fin 64) (hc : c.val = o + j.val) :
    chunk16 xs wm o hs (ix3 h w j) = l1 (fun k : Fin 256 => xs (ix3 h w k)) (fun k => wm (ix2 c k)) := by
  unfold chunk16
  refine (Ideal.multiReduction_add_single _ _ reduces_S28x28x16x256_S28x28x16 _ _ (ix3 h w j)).trans ?_
  unfold l1
  rw [zc_eq_zero, zero_add]
  refine Finset.sum_congr rfl fun (k : Fin 256) _ => ?_
  have hl : reduces_S28x28x16x256_S28x28x16.lift (ix3 h w j) k = ix4 h w j k :=
    funext fun a => match a with
      | ⟨0, _⟩ => Fin.ext rfl
      | ⟨1, _⟩ => Fin.ext rfl
      | ⟨2, _⟩ => Fin.ext rfl
      | ⟨3, _⟩ => Fin.ext rfl
  rw [hl]
  show ab (_ - _) = _
  rw [act16, wt16 wm o hs h w j k c hc]

theorem chunk32_apply (xs : V S28x28x64) (wm : V S64x64) (o : Nat) (hs : S64x64.Slices ![o, 0] S32x64)
    (h w : Fin 28) (j : Fin 32) (c : Fin 64) (hc : c.val = o + j.val) :
    chunk32 xs wm o hs (ix3 h w j) = l1 (fun k : Fin 64 => xs (ix3 h w k)) (fun k => wm (ix2 c k)) := by
  unfold chunk32
  refine (Ideal.multiReduction_add_single _ _ reduces_S28x28x32x64_S28x28x32 _ _ (ix3 h w j)).trans ?_
  unfold l1
  rw [zc_eq_zero, zero_add]
  refine Finset.sum_congr rfl fun (k : Fin 64) _ => ?_
  have hl : reduces_S28x28x32x64_S28x28x32.lift (ix3 h w j) k = ix4 h w j k :=
    funext fun a => match a with
      | ⟨0, _⟩ => Fin.ext rfl
      | ⟨1, _⟩ => Fin.ext rfl
      | ⟨2, _⟩ => Fin.ext rfl
      | ⟨3, _⟩ => Fin.ext rfl
  rw [hl]
  show ab (_ - _) = _
  rw [act32, wt32 wm o hs h w j k c hc]

theorem chunk32w_apply (xs : V S28x28x64) (wm : V S256x64) (o : Nat) (hs : S256x64.Slices ![o, 0] S32x64)
    (h w : Fin 28) (j : Fin 32) (c : Fin 256) (hc : c.val = o + j.val) :
    chunk32w xs wm o hs (ix3 h w j) = l1 (fun k : Fin 64 => xs (ix3 h w k)) (fun k => wm (ix2 c k)) := by
  unfold chunk32w
  refine (Ideal.multiReduction_add_single _ _ reduces_S28x28x32x64_S28x28x32 _ _ (ix3 h w j)).trans ?_
  unfold l1
  rw [zc_eq_zero, zero_add]
  refine Finset.sum_congr rfl fun (k : Fin 64) _ => ?_
  have hl : reduces_S28x28x32x64_S28x28x32.lift (ix3 h w j) k = ix4 h w j k :=
    funext fun a => match a with
      | ⟨0, _⟩ => Fin.ext rfl
      | ⟨1, _⟩ => Fin.ext rfl
      | ⟨2, _⟩ => Fin.ext rfl
      | ⟨3, _⟩ => Fin.ext rfl
  rw [hl]
  show ab (_ - _) = _
  rw [act32, wt32 wm o hs h w j k c hc]

/-! ## The 1×1 stages: the chunk holding an output channel, read at that channel -/

theorem kA1_apply (xb : V S28x28x256) (w1m : V S64x256) (h w : Fin 28) (c : Fin 64) :
    kA1 xb w1m (ix3 h w c) = zc - l1 (fun k : Fin 256 => xb (ix3 h w k)) (fun k => w1m (ix2 c k)) := by
  unfold kA1
  refine congrArg (zc - ·) ?_
  have hc := c.isLt
  rcases (by omega : c.val < 16 ∨ (16 ≤ c.val ∧ c.val < 32) ∨ (32 ≤ c.val ∧ c.val < 48) ∨ 48 ≤ c.val) with h0 | h0 | h0 | h0
  · -- output channels 0 … 15: piece 0
    refine (concatenate_apply_piece _ _ _ (ix3 h w c) 0 (by show 0 < 4; omega) S28x28x16
      (chunk16 xb w1m 0 slices_S64x256_o0_0_S16x256) rfl rfl 0 rfl (ix3 h w (⟨c.val - 0, by omega⟩ : Fin 16))
      (fun b => match b with
      | ⟨0, _⟩ => fun _ => rfl
      | ⟨1, _⟩ => fun _ => rfl
      | ⟨2, _⟩ => fun hne => absurd rfl hne)
      (by show 0 + (c.val - 0) = c.val; omega)).trans ?_
    exact chunk16_apply xb w1m 0 _ h w ⟨c.val - 0, _⟩ c (by show c.val = 0 + (c.val - 0); omega)
  · -- output channels 16 … 31: piece 1
    refine (concatenate_apply_piece _ _ _ (ix3 h w c) 1 (by show 1 < 4; omega) S28x28x16
      (chunk16 xb w1m 16 slices_S64x256_o16_0_S16x256) rfl rfl 16 rfl (ix3 h w (⟨c.val - 16, by omega⟩ : Fin 16))
      (fun b => match b with
      | ⟨0, _⟩ => fun _ => rfl
      | ⟨1, _⟩ => fun _ => rfl
      | ⟨2, _⟩ => fun hne => absurd rfl hne)
      (by show 16 + (c.val - 16) = c.val; omega)).trans ?_
    exact chunk16_apply xb w1m 16 _ h w ⟨c.val - 16, _⟩ c (by show c.val = 16 + (c.val - 16); omega)
  · -- output channels 32 … 47: piece 2
    refine (concatenate_apply_piece _ _ _ (ix3 h w c) 2 (by show 2 < 4; omega) S28x28x16
      (chunk16 xb w1m 32 slices_S64x256_o32_0_S16x256) rfl rfl 32 rfl (ix3 h w (⟨c.val - 32, by omega⟩ : Fin 16))
      (fun b => match b with
      | ⟨0, _⟩ => fun _ => rfl
      | ⟨1, _⟩ => fun _ => rfl
      | ⟨2, _⟩ => fun hne => absurd rfl hne)
      (by show 32 + (c.val - 32) = c.val; omega)).trans ?_
    exact chunk16_apply xb w1m 32 _ h w ⟨c.val - 32, _⟩ c (by show c.val = 32 + (c.val - 32); omega)
  · -- output channels 48 … 63: piece 3
    refine (concatenate_apply_piece _ _ _ (ix3 h w c) 3 (by show 3 < 4; omega) S28x28x16
      (chunk16 xb w1m 48 slices_S64x256_o48_0_S16x256) rfl rfl 48 rfl (ix3 h w (⟨c.val - 48, by omega⟩ : Fin 16))
      (fun b => match b with
      | ⟨0, _⟩ => fun _ => rfl
      | ⟨1, _⟩ => fun _ => rfl
      | ⟨2, _⟩ => fun hne => absurd rfl hne)
      (by show 48 + (c.val - 48) = c.val; omega)).trans ?_
    exact chunk16_apply xb w1m 48 _ h w ⟨c.val - 48, _⟩ c (by show c.val = 48 + (c.val - 48); omega)

theorem kA4_apply (a : V S28x28x64) (w3m : V S256x64) (h w : Fin 28) (c : Fin 256) :
    kA4 a w3m (ix3 h w c) = zc - l1 (fun k : Fin 64 => a (ix3 h w k)) (fun k => w3m (ix2 c k)) := by
  unfold kA4
  refine congrArg (zc - ·) ?_
  have hc := c.isLt
  rcases (by omega : c.val < 32 ∨ (32 ≤ c.val ∧ c.val < 64) ∨ (64 ≤ c.val ∧ c.val < 96) ∨ (96 ≤ c.val ∧ c.val < 128) ∨ (128 ≤ c.val ∧ c.val < 160) ∨ (160 ≤ c.val ∧ c.val < 192) ∨ (192 ≤ c.val ∧ c.val < 224) ∨ 224 ≤ c.val) with h0 | h0 | h0 | h0 | h0 | h0 | h0 | h0
  · -- output channels 0 … 31: piece 0
    refine (concatenate_apply_piece _ _ _ (ix3 h w c) 0 (by show 0 < 8; omega) S28x28x32
      (chunk32w a w3m 0 slices_S256x64_o0_0_S32x64) rfl rfl 0 rfl (ix3 h w (⟨c.val - 0, by omega⟩ : Fin 32))
      (fun b => match b with
      | ⟨0, _⟩ => fun _ => rfl
      | ⟨1, _⟩ => fun _ => rfl
      | ⟨2, _⟩ => fun hne => absurd rfl hne)
      (by show 0 + (c.val - 0) = c.val; omega)).trans ?_
    exact chunk32w_apply a w3m 0 _ h w ⟨c.val - 0, _⟩ c (by show c.val = 0 + (c.val - 0); omega)
  · -- output channels 32 … 63: piece 1
    refine (concatenate_apply_piece _ _ _ (ix3 h w c) 1 (by show 1 < 8; omega) S28x28x32
      (chunk32w a w3m 32 slices_S256x64_o32_0_S32x64) rfl rfl 32 rfl (ix3 h w (⟨c.val - 32, by omega⟩ : Fin 32))
      (fun b => match b with
      | ⟨0, _⟩ => fun _ => rfl
      | ⟨1, _⟩ => fun _ => rfl
      | ⟨2, _⟩ => fun hne => absurd rfl hne)
      (by show 32 + (c.val - 32) = c.val; omega)).trans ?_
    exact chunk32w_apply a w3m 32 _ h w ⟨c.val - 32, _⟩ c (by show c.val = 32 + (c.val - 32); omega)
  · -- output channels 64 … 95: piece 2
    refine (concatenate_apply_piece _ _ _ (ix3 h w c) 2 (by show 2 < 8; omega) S28x28x32
      (chunk32w a w3m 64 slices_S256x64_o64_0_S32x64) rfl rfl 64 rfl (ix3 h w (⟨c.val - 64, by omega⟩ : Fin 32))
      (fun b => match b with
      | ⟨0, _⟩ => fun _ => rfl
      | ⟨1, _⟩ => fun _ => rfl
      | ⟨2, _⟩ => fun hne => absurd rfl hne)
      (by show 64 + (c.val - 64) = c.val; omega)).trans ?_
    exact chunk32w_apply a w3m 64 _ h w ⟨c.val - 64, _⟩ c (by show c.val = 64 + (c.val - 64); omega)
  · -- output channels 96 … 127: piece 3
    refine (concatenate_apply_piece _ _ _ (ix3 h w c) 3 (by show 3 < 8; omega) S28x28x32
      (chunk32w a w3m 96 slices_S256x64_o96_0_S32x64) rfl rfl 96 rfl (ix3 h w (⟨c.val - 96, by omega⟩ : Fin 32))
      (fun b => match b with
      | ⟨0, _⟩ => fun _ => rfl
      | ⟨1, _⟩ => fun _ => rfl
      | ⟨2, _⟩ => fun hne => absurd rfl hne)
      (by show 96 + (c.val - 96) = c.val; omega)).trans ?_
    exact chunk32w_apply a w3m 96 _ h w ⟨c.val - 96, _⟩ c (by show c.val = 96 + (c.val - 96); omega)
  · -- output channels 128 … 159: piece 4
    refine (concatenate_apply_piece _ _ _ (ix3 h w c) 4 (by show 4 < 8; omega) S28x28x32
      (chunk32w a w3m 128 slices_S256x64_o128_0_S32x64) rfl rfl 128 rfl (ix3 h w (⟨c.val - 128, by omega⟩ : Fin 32))
      (fun b => match b with
      | ⟨0, _⟩ => fun _ => rfl
      | ⟨1, _⟩ => fun _ => rfl
      | ⟨2, _⟩ => fun hne => absurd rfl hne)
      (by show 128 + (c.val - 128) = c.val; omega)).trans ?_
    exact chunk32w_apply a w3m 128 _ h w ⟨c.val - 128, _⟩ c (by show c.val = 128 + (c.val - 128); omega)
  · -- output channels 160 … 191: piece 5
    refine (concatenate_apply_piece _ _ _ (ix3 h w c) 5 (by show 5 < 8; omega) S28x28x32
      (chunk32w a w3m 160 slices_S256x64_o160_0_S32x64) rfl rfl 160 rfl (ix3 h w (⟨c.val - 160, by omega⟩ : Fin 32))
      (fun b => match b with
      | ⟨0, _⟩ => fun _ => rfl
      | ⟨1, _⟩ => fun _ => rfl
      | ⟨2, _⟩ => fun hne => absurd rfl hne)
      (by show 160 + (c.val - 160) = c.val; omega)).trans ?_
    exact chunk32w_apply a w3m 160 _ h w ⟨c.val - 160, _⟩ c (by show c.val = 160 + (c.val - 160); omega)
  · -- output channels 192 … 223: piece 6
    refine (concatenate_apply_piece _ _ _ (ix3 h w c) 6 (by show 6 < 8; omega) S28x28x32
      (chunk32w a w3m 192 slices_S256x64_o192_0_S32x64) rfl rfl 192 rfl (ix3 h w (⟨c.val - 192, by omega⟩ : Fin 32))
      (fun b => match b with
      | ⟨0, _⟩ => fun _ => rfl
      | ⟨1, _⟩ => fun _ => rfl
      | ⟨2, _⟩ => fun hne => absurd rfl hne)
      (by show 192 + (c.val - 192) = c.val; omega)).trans ?_
    exact chunk32w_apply a w3m 192 _ h w ⟨c.val - 192, _⟩ c (by show c.val = 192 + (c.val - 192); omega)
  · -- output channels 224 … 255: piece 7
    refine (concatenate_apply_piece _ _ _ (ix3 h w c) 7 (by show 7 < 8; omega) S28x28x32
      (chunk32w a w3m 224 slices_S256x64_o224_0_S32x64) rfl rfl 224 rfl (ix3 h w (⟨c.val - 224, by omega⟩ : Fin 32))
      (fun b => match b with
      | ⟨0, _⟩ => fun _ => rfl
      | ⟨1, _⟩ => fun _ => rfl
      | ⟨2, _⟩ => fun hne => absurd rfl hne)
      (by show 224 + (c.val - 224) = c.val; omega)).trans ?_
    exact chunk32w_apply a w3m 224 _ h w ⟨c.val - 224, _⟩ c (by show c.val = 224 + (c.val - 224); omega)

/-! ## One 3×3 tap: the window of the padded map and the tap's weights, then the two chunks -/

/-- The window at offset (kh, kw) of the padded map reads the padded map at (row + kh, column + kw). -/
private theorem win_apply (p : V S30x30x64) (off : Fin 3 → Nat) (hs : S30x30x64.Slices off S28x28x64)
    (kh kw : Fin 3) (hoff : off = ![kh.val, kw.val, 0]) (h w : Fin 28) (k : Fin 64) :
    extractStridedSlice S28x28x64 off p hs (ix3 h w k) = p (ix3 (sh h kh) (sh w kw) k) := by
  subst hoff
  exact extractStridedSlice_apply _ p hs (ix3 h w k) (ix3 (sh h kh) (sh w kw) k) (fun a => match a with
    | ⟨0, _⟩ => by show h.val + kh.val = kh.val + h.val; omega
    | ⟨1, _⟩ => by show w.val + kw.val = kw.val + w.val; omega
    | ⟨2, _⟩ => by show k.val = 0 + k.val; omega)

/-- A tap's weights with the two unit axes dropped read the weights at (0, 0, output channel, input channel). -/
private theorem tapw_apply (u : Vec Ideal S1x1x64x64 .f32) (c k : Fin 64) :
    shapeCast S64x64 u shapeCasts_S1x1x64x64_S64x64 (ix2 c k) = u (ix4 (0 : Fin 1) (0 : Fin 1) c k) :=
  shapeCast_apply u shapeCasts_S1x1x64x64_S64x64 (ix2 c k) (ix4 (0 : Fin 1) (0 : Fin 1) c k)
    (by rw [Shape.rowMajor_val_two, Shape.rowMajor_val_four]
        show ((0 * 1 + 0) * 64 + c.val) * 64 + k.val = c.val * 64 + k.val
        omega)

theorem tap3_apply (p : V S30x30x64) (off : Fin 3 → Nat) (hs : S30x30x64.Slices off S28x28x64) (u : Vec Ideal S1x1x64x64 .f32)
    (kh kw : Fin 3) (hoff : off = ![kh.val, kw.val, 0]) (h w : Fin 28) (c : Fin 64) :
    tap3 p off hs u (ix3 h w c) = l1 (fun k : Fin 64 => p (ix3 (sh h kh) (sh w kw) k)) (fun k => u (ix4 (0 : Fin 1) (0 : Fin 1) c k)) := by
  unfold tap3
  have hc := c.isLt
  have hfin : l1 (fun k : Fin 64 => extractStridedSlice S28x28x64 off p hs (ix3 h w k))
        (fun k => shapeCast S64x64 u shapeCasts_S1x1x64x64_S64x64 (ix2 c k))
      = l1 (fun k : Fin 64 => p (ix3 (sh h kh) (sh w kw) k)) (fun k => u (ix4 (0 : Fin 1) (0 : Fin 1) c k)) := by
    rw [funext fun k => win_apply p off hs kh kw hoff h w k, funext fun k => tapw_apply u c k]
  refine Eq.trans ?_ hfin
  by_cases h0 : c.val < 32
  · -- output channels 0 … 31: the first chunk
    refine (concatenate_pair_apply_left (t := S28x28x64) (s₁ := S28x28x32) (s₂ := S28x28x32) _ _ _ _ (ix3 h w c) rfl (ix3 h w (⟨c.val, h0⟩ : Fin 32))
      (fun b => match b with
        | ⟨0, _⟩ => rfl
        | ⟨1, _⟩ => rfl
        | ⟨2, _⟩ => rfl)).trans ?_
    exact chunk32_apply _ _ 0 _ h w ⟨c.val, h0⟩ c (by show c.val = 0 + c.val; omega)
  · -- output channels 32 … 63: the second chunk
    refine (concatenate_pair_apply_right (t := S28x28x64) (s₁ := S28x28x32) (s₂ := S28x28x32) _ _ _ _ (ix3 h w c) rfl rfl (ix3 h w (⟨c.val - 32, by omega⟩ : Fin 32))
      (fun b => match b with
      | ⟨0, _⟩ => fun _ => rfl
      | ⟨1, _⟩ => fun _ => rfl
      | ⟨2, _⟩ => fun hne => absurd rfl hne)
      (by show (c.val - 32) + 32 = c.val; omega)).trans ?_
    exact chunk32_apply _ _ 32 _ h w ⟨c.val - 32, _⟩ c (by show c.val = 32 + (c.val - 32); omega)

/-! ## The 3×3 stage: nine taps subtracted one after the other -/

theorem kA3_apply (p : V S30x30x64) (u00 u01 u02 u10 u11 u12 u20 u21 u22 : Vec Ideal S1x1x64x64 .f32) (h w : Fin 28) (c : Fin 64) :
    kA3 p u00 u01 u02 u10 u11 u12 u20 u21 u22 (ix3 h w c)
      = nine (fun kh kw => l1 (fun k : Fin 64 => p (ix3 (sh h kh) (sh w kw) k))
          (fun k => (![![u00, u01, u02], ![u10, u11, u12], ![u20, u21, u22]] kh kw) (ix4 (0 : Fin 1) (0 : Fin 1) c k))) := by
  unfold kA3 nine
  simp only [subf_apply, broadcast_apply]
  rw [tap3_apply p ![0, 0, 0] slices_S30x30x64_o0_0_0_S28x28x64 u00 0 0 rfl h w c,
    tap3_apply p ![0, 1, 0] slices_S30x30x64_o0_1_0_S28x28x64 u01 0 1 rfl h w c,
    tap3_apply p ![0, 2, 0] slices_S30x30x64_o0_2_0_S28x28x64 u02 0 2 rfl h w c,
    tap3_apply p ![1, 0, 0] slices_S30x30x64_o1_0_0_S28x28x64 u10 1 0 rfl h w c,
    tap3_apply p ![1, 1, 0] slices_S30x30x64_o1_1_0_S28x28x64 u11 1 1 rfl h w c,
    tap3_apply p ![1, 2, 0] slices_S30x30x64_o1_2_0_S28x28x64 u12 1 2 rfl h w c,
    tap3_apply p ![2, 0, 0] slices_S30x30x64_o2_0_0_S28x28x64 u20 2 0 rfl h w c,
    tap3_apply p ![2, 1, 0] slices_S30x30x64_o2_1_0_S28x28x64 u21 2 1 rfl h w c,
    tap3_apply p ![2, 2, 0] slices_S30x30x64_o2_2_0_S28x28x64 u22 2 2 rfl h w c]
  rfl

end Cert.ResAdd.K

end
-- ==== Proof.KPadTap.lean ====
/-
  The kernel's zero border and its depthwise 3×3 stage, read at an index.

  The border is four nested two-piece concatenations: a padding column on the right, a padding column on the
  left, a padding row below, a padding row above. At an index (i, j, c) each concatenation sends the index into
  one of its two pieces according to the coordinate on its axis, so the padded map is the padding value on the
  frame and the inner map at (i - 1, j - 1, c) inside. A depthwise tap at offset (kh, kw) reads the padded map at
  (h + kh, w + kw, c) against the tap's weight for channel c, and the stage subtracts the nine taps in order.
-/
import proofs.«165038_j41480794144828_1_alg».proof.Proof.KDefs
import proofs.«165038_j41480794144828_1_alg».proof.Proof.Spec
import Idealize.ShloMosaic.Lib.ValueIdx
import Idealize.ShloMosaic.Lib.ValueIdxCoords
import Idealize.ShloMosaic.Lib.Pipeline.Value
import Idealize.ShloMosaic.PureOps.Ideal.Laws

set_option maxRecDepth 16384

noncomputable section

namespace Cert.ResAdd.K

open Idealize.ShloMosaic Idealize.ShloMosaic.TcCoe Idealize.ShloMosaic.ValueIdx Cert.KernelIdeal Cert.KernelIdeal.Gen Cert.ResAdd

/-- The padded map at (i, j, c): the inner map at (i - 1, j - 1, c) inside the frame, the padding value on it.
    Columns first (axis 1: the last column, then the first), then rows (axis 0: the last row, then the first). -/
theorem kPad_apply (a : V S28x28x64) (i j : Fin 30) (c : Fin 64) :
    kPad a (ix3 i j c) = padAt (fun h w => a (ix3 h w c)) i j := by
  unfold kPad padAt
  by_cases hj29 : j.val = 29
  · -- the last column is the right piece of the outermost concatenation
    have hne : ¬ (1 ≤ i.val ∧ i.val ≤ 28 ∧ 1 ≤ j.val ∧ j.val ≤ 28) := by omega
    rw [dif_neg hne]
    exact concatenate_pair_apply_right _ _ _ concatenates_S30x29x64_S30x1x64_S30x30x64_d1 (ix3 i j c) rfl rfl
      (ix3 i (0 : Fin 1) c)
      (fun b => match b with | ⟨0, _⟩ => fun _ => rfl | ⟨1, _⟩ => fun hb => absurd rfl hb | ⟨2, _⟩ => fun _ => rfl)
      (by show 0 + 29 = j.val; omega)
  · have hj' : j.val < 29 := by omega
    refine (concatenate_pair_apply_left _ _ _ concatenates_S30x29x64_S30x1x64_S30x30x64_d1 (ix3 i j c) rfl
      (ix3 i (⟨j.val, hj'⟩ : Fin 29) c) (fun b => match b with | ⟨0, _⟩ => rfl | ⟨1, _⟩ => rfl | ⟨2, _⟩ => rfl)).trans ?_
    by_cases hj0 : j.val = 0
    · -- the first column is the left piece of the second concatenation
      have hne : ¬ (1 ≤ i.val ∧ i.val ≤ 28 ∧ 1 ≤ j.val ∧ j.val ≤ 28) := by omega
      rw [dif_neg hne]
      exact concatenate_pair_apply_left _ _ _ concatenates_S30x1x64_S30x28x64_S30x29x64_d1 _ rfl
        (ix3 i (0 : Fin 1) c)
        (fun b => match b with | ⟨0, _⟩ => rfl | ⟨1, _⟩ => by show 0 = j.val; omega | ⟨2, _⟩ => rfl)
    · have hj1 : j.val - 1 < 28 := by omega
      refine (concatenate_pair_apply_right _ _ _ concatenates_S30x1x64_S30x28x64_S30x29x64_d1 _ rfl rfl
        (ix3 i (⟨j.val - 1, hj1⟩ : Fin 28) c)
        (fun b => match b with | ⟨0, _⟩ => fun _ => rfl | ⟨1, _⟩ => fun hb => absurd rfl hb | ⟨2, _⟩ => fun _ => rfl)
        (by show j.val - 1 + 1 = j.val; omega)).trans ?_
      by_cases hi29 : i.val = 29
      · -- the last row is the right piece of the third concatenation
        have hne : ¬ (1 ≤ i.val ∧ i.val ≤ 28 ∧ 1 ≤ j.val ∧ j.val ≤ 28) := by omega
        rw [dif_neg hne]
        exact concatenate_pair_apply_right _ _ _ concatenates_S29x28x64_S1x28x64_S30x28x64_d0 _ rfl rfl
          (ix3 (0 : Fin 1) (⟨j.val - 1, hj1⟩ : Fin 28) c)
          (fun b => match b with | ⟨0, _⟩ => fun hb => absurd rfl hb | ⟨1, _⟩ => fun _ => rfl | ⟨2, _⟩ => fun _ => rfl)
          (by show 0 + 29 = i.val; omega)
      · have hi' : i.val < 29 := by omega
        refine (concatenate_pair_apply_left _ _ _ concatenates_S29x28x64_S1x28x64_S30x28x64_d0 _ rfl
          (ix3 (⟨i.val, hi'⟩ : Fin 29) (⟨j.val - 1, hj1⟩ : Fin 28) c)
          (fun b => match b with | ⟨0, _⟩ => rfl | ⟨1, _⟩ => rfl | ⟨2, _⟩ => rfl)).trans ?_
        by_cases hi0 : i.val = 0
        · -- the first row is the left piece of the innermost concatenation
          have hne : ¬ (1 ≤ i.val ∧ i.val ≤ 28 ∧ 1 ≤ j.val ∧ j.val ≤ 28) := by omega
          rw [dif_neg hne]
          exact concatenate_pair_apply_left _ _ _ concatenates_S1x28x64_S28x28x64_S29x28x64_d0 _ rfl
            (ix3 (0 : Fin 1) (⟨j.val - 1, hj1⟩ : Fin 28) c)
            (fun b => match b with | ⟨0, _⟩ => by show 0 = i.val; omega | ⟨1, _⟩ => rfl | ⟨2, _⟩ => rfl)
        · -- inside the frame: the inner map, one row up and one column left
          have hi1 : i.val - 1 < 28 := by omega
          have hin : 1 ≤ i.val ∧ i.val ≤ 28 ∧ 1 ≤ j.val ∧ j.val ≤ 28 := by omega
          rw [dif_pos hin]
          exact concatenate_pair_apply_right _ _ _ concatenates_S1x28x64_S28x28x64_S29x28x64_d0 _ rfl rfl
            (ix3 (⟨i.val - 1, hi1⟩ : Fin 28) (⟨j.val - 1, hj1⟩ : Fin 28) c)
            (fun b => match b with | ⟨0, _⟩ => fun hb => absurd rfl hb | ⟨1, _⟩ => fun _ => rfl | ⟨2, _⟩ => fun _ => rfl)
            (by show i.val - 1 + 1 = i.val; omega)

/-- A 64-vector spread over the pixels reads, at (h, w, c), its entry c: the broadcast reads the unit axes at 0,
    and the cast to 1×1×64 keeps the row-major position. -/
private theorem bc64_apply' (v : V S64) (h w : Fin 28) (c : Fin 64) : bc64 v (ix3 h w c) = v (ix1 c) := by
  unfold bc64
  refine (broadcastTo_apply _ broadcasts_S1x1x64_S28x28x64 (ix3 h w c) (ix3 (0 : Fin 1) (0 : Fin 1) c)
    (fun a => match a with
      | ⟨0, _⟩ => by show 0 = if (1 : Nat) = 1 then 0 else h.val; rw [if_pos rfl]
      | ⟨1, _⟩ => by show 0 = if (1 : Nat) = 1 then 0 else w.val; rw [if_pos rfl]
      | ⟨2, _⟩ => by show c.val = if (64 : Nat) = 1 then 0 else c.val; rw [if_neg (by decide)])).trans ?_
  exact shapeCast_apply v shapeCasts_S64_S1x1x64 (ix3 (0 : Fin 1) (0 : Fin 1) c) (ix1 c)
    (by rw [Shape.rowMajor_val_one, Shape.rowMajor_val_three]; show c.val = (0 * 1 + 0) * 64 + c.val; omega)

/-- One depthwise tap at (h, w, c): the absolute difference of the padded map at (h + kh, w + kw, c) and the
    tap's weight for channel c. -/
theorem tapDW_apply (p : V S30x30x64) (off : Fin 3 → Nat) (hs : S30x30x64.Slices off S28x28x64) (t : Vec Ideal S1x1x64 .f32)
    (kh kw : Fin 3) (hoff : off = ![kh.val, kw.val, 0]) (h w : Fin 28) (c : Fin 64) :
    tapDW p off hs t (ix3 h w c) = ab (p (ix3 (sh h kh) (sh w kw) c) - t (ix3 (0 : Fin 1) (0 : Fin 1) c)) := by
  subst hoff
  unfold tapDW
  show ab (extractStridedSlice S28x28x64 _ p hs (ix3 h w c) - bc64 (shapeCast S64 t shapeCasts_S1x1x64_S64) (ix3 h w c)) = _
  rw [bc64_apply', extractStridedSlice_apply _ p hs (ix3 h w c) (ix3 (sh h kh) (sh w kw) c) (fun a => match a with
      | ⟨0, _⟩ => by show h.val + kh.val = kh.val + h.val; omega
      | ⟨1, _⟩ => by show w.val + kw.val = kw.val + w.val; omega
      | ⟨2, _⟩ => by show c.val = 0 + c.val; omega),
    shapeCast_apply t shapeCasts_S1x1x64_S64 (ix1 c) (ix3 (0 : Fin 1) (0 : Fin 1) c)
      (by rw [Shape.rowMajor_val_one, Shape.rowMajor_val_three]; show (0 * 1 + 0) * 64 + c.val = c.val; omega)]

/-- The depthwise stage at (h, w, c): the nine taps subtracted from the zero constant, rows first. -/
theorem kA2_apply (p : V S30x30x64) (t00 t01 t02 t10 t11 t12 t20 t21 t22 : Vec Ideal S1x1x64 .f32) (h w : Fin 28) (c : Fin 64) :
    kA2 p t00 t01 t02 t10 t11 t12 t20 t21 t22 (ix3 h w c)
      = nine (fun kh kw => ab (p (ix3 (sh h kh) (sh w kw) c)
          - (![![t00, t01, t02], ![t10, t11, t12], ![t20, t21, t22]] kh kw) (ix3 (0 : Fin 1) (0 : Fin 1) c))) := by
  have e00 := tapDW_apply p _ slices_S30x30x64_o0_0_0_S28x28x64 t00 0 0 rfl h w c
  have e01 := tapDW_apply p _ slices_S30x30x64_o0_1_0_S28x28x64 t01 0 1 rfl h w c
  have e02 := tapDW_apply p _ slices_S30x30x64_o0_2_0_S28x28x64 t02 0 2 rfl h w c
  have e10 := tapDW_apply p _ slices_S30x30x64_o1_0_0_S28x28x64 t10 1 0 rfl h w c
  have e11 := tapDW_apply p _ slices_S30x30x64_o1_1_0_S28x28x64 t11 1 1 rfl h w c
  have e12 := tapDW_apply p _ slices_S30x30x64_o1_2_0_S28x28x64 t12 1 2 rfl h w c
  have e20 := tapDW_apply p _ slices_S30x30x64_o2_0_0_S28x28x64 t20 2 0 rfl h w c
  have e21 := tapDW_apply p _ slices_S30x30x64_o2_1_0_S28x28x64 t21 2 1 rfl h w c
  have e22 := tapDW_apply p _ slices_S30x30x64_o2_2_0_S28x28x64 t22 2 2 rfl h w c
  unfold kA2 nine
  simp only [subf_apply]
  rw [e00, e01, e02, e10, e11, e12, e20, e21, e22]
  rfl

end Cert.ResAdd.K

end
-- ==== Proof.KBn.lean ====
/-
  The per-channel scale, shift and clamp stages of the block and what the block loads, read at an index.
  A 64- or 256-vector spread over the 28×28 pixels reads its own entry at the channel; the scale is the
  weight times the reciprocal square root of variance plus ε; the two clamp stages read, entry by entry,
  as the specification's `bn` under a maximum with the zero constant. A load through a rectangle that is
  the whole buffer is the buffer; a load through a one-tap rectangle of the 3×3 weights reads the tap's
  entry at offsets (kh, kw).
-/
import proofs.«165038_j41480794144828_1_alg».proof.Proof.KDefs
import proofs.«165038_j41480794144828_1_alg».proof.Proof.Spec
import Idealize.ShloMosaic.Lib.ValueIdx
import Idealize.ShloMosaic.Lib.ValueIdxCoords
import Idealize.ShloMosaic.Lib.ValueLayout
import Idealize.ShloMosaic.Lib.Pipeline.Value
import Idealize.ShloMosaic.PureOps.Ideal.Laws

set_option maxRecDepth 16384

noncomputable section

namespace Cert.ResAdd.K

open Idealize.ShloMosaic Idealize.ShloMosaic.TcCoe Idealize.ShloMosaic.ValueIdx Cert.KernelIdeal Cert.KernelIdeal.Gen Cert.ResAdd

/-! ## A channel vector spread over the pixels -/

/-- Entry (h, w, c) of a 64-vector spread over the pixels is the vector's entry c: the broadcast reads
    (0, 0, c) of the 1×1×64 view, whose row-major position is c. -/
theorem bc64_apply (v : V S64) (h w : Fin 28) (c : Fin 64) : bc64 v (ix3 h w c) = v (ix1 c) := by
  unfold bc64
  refine (broadcastTo_apply _ broadcasts_S1x1x64_S28x28x64 (ix3 h w c) (ix3 (0 : Fin 1) (0 : Fin 1) c) (fun a => match a with
    | ⟨0, _⟩ => by show 0 = if (1 : Nat) = 1 then 0 else h.val; rw [if_pos rfl]
    | ⟨1, _⟩ => by show 0 = if (1 : Nat) = 1 then 0 else w.val; rw [if_pos rfl]
    | ⟨2, _⟩ => by show c.val = if (64 : Nat) = 1 then 0 else c.val; rw [if_neg (by decide)])).trans ?_
  exact shapeCast_apply v shapeCasts_S64_S1x1x64 _ (ix1 c) (by
    rw [Shape.rowMajor_val_one, Shape.rowMajor_val_three]
    show c.val = (0 * 1 + 0) * 64 + c.val
    omega)

/-- The same for a 256-vector. -/
theorem bc256_apply (v : V S256) (h w : Fin 28) (c : Fin 256) : bc256 v (ix3 h w c) = v (ix1 c) := by
  unfold bc256
  refine (broadcastTo_apply _ broadcasts_S1x1x256_S28x28x256 (ix3 h w c) (ix3 (0 : Fin 1) (0 : Fin 1) c) (fun a => match a with
    | ⟨0, _⟩ => by show 0 = if (1 : Nat) = 1 then 0 else h.val; rw [if_pos rfl]
    | ⟨1, _⟩ => by show 0 = if (1 : Nat) = 1 then 0 else w.val; rw [if_pos rfl]
    | ⟨2, _⟩ => by show c.val = if (256 : Nat) = 1 then 0 else c.val; rw [if_neg (by decide)])).trans ?_
  exact shapeCast_apply v shapeCasts_S256_S1x1x256 _ (ix1 c) (by
    rw [Shape.rowMajor_val_one, Shape.rowMajor_val_three]
    show c.val = (0 * 1 + 0) * 256 + c.val
    omega)

/-! ## The per-channel scale -/

/-- Entry c of the scale is the weight's entry times the reciprocal square root of the variance's entry plus ε:
    product, reciprocal root, sum and splat all act entry by entry. -/
theorem sc64_apply (g v : V S64) (c : Fin 64) : sc64 g v (ix1 c) = scaleMul (g (ix1 c)) (v (ix1 c)) := rfl

theorem sc256_apply (g v : V S256) (c : Fin 256) : sc256 g v (ix1 c) = scaleMul (g (ix1 c)) (v (ix1 c)) := rfl

/-! ## Scale, shift and clamp -/

/-- Entry (h, w, c) of the 64-channel stage: the map's entry times the scale at c, plus the shift
    b c − m c · scale c, under a maximum with the zero constant. -/
theorem kBN64_apply (a : V S28x28x64) (g b m v : V S64) (h w : Fin 28) (c : Fin 64) :
    kBN64 a g b m v (ix3 h w c) = max (bn (scaleMul (g (ix1 c)) (v (ix1 c))) (b (ix1 c)) (m (ix1 c)) (a (ix3 h w c))) zc := by
  unfold kBN64 bn
  show max (a (ix3 h w c) * bc64 (sc64 g v) (ix3 h w c) + bc64 (subf b (mulf m (sc64 g v))) (ix3 h w c)) zc = _
  rw [bc64_apply, bc64_apply, sc64_apply]
  rfl

/-- Entry (h, w, c) of the last stage: the same scale and shift over 256 channels, the residual's entry added,
    under a maximum with the zero constant. -/
theorem kOut_apply (a4 : V S28x28x256) (g b m v : V S256) (xb : V S28x28x256) (h w : Fin 28) (c : Fin 256) :
    kOut a4 g b m v xb (ix3 h w c)
      = max (bn (scaleMul (g (ix1 c)) (v (ix1 c))) (b (ix1 c)) (m (ix1 c)) (a4 (ix3 h w c)) + xb (ix3 h w c)) zc := by
  unfold kOut bn
  show max (a4 (ix3 h w c) * bc256 (sc256 g v) (ix3 h w c) + bc256 (subf b (mulf m (sc256 g v))) (ix3 h w c) + xb (ix3 h w c)) zc = _
  rw [bc256_apply, bc256_apply, sc256_apply]
  rfl

/-! ## The loads -/

/-- Entry (h, w, k) of the sample's block is entry (0, h, w, k) of the loaded 1×28×28×256 buffer: the load is
    through the whole buffer, and dropping the leading unit axis keeps the row-major position. -/
theorem xblk_apply (x0 : Vec Ideal S1x28x28x256 .f32) (h w : Fin 28) (k : Fin 256) : xblk x0 (ix3 h w k) = x0 (ix4 (0 : Fin 1) h w k) := by
  unfold xblk
  rw [View.ld_unit_zero (by funext a; fin_cases a <;> rfl)]
  exact shapeCast_1abc_abc_apply x0 shapeCasts_S1x28x28x256_S28x28x256 h w k

/-- The first weight matrix is loaded whole, and a cast to its own shape changes nothing. -/
theorem ld_w1 (x1 : Vec Ideal S64x256 .f32) : shapeCast S64x256 (View.ld x1 r0_1) shapeCasts_S64x256_S64x256 = x1 := by
  rw [View.ld_unit_zero (by funext a; fin_cases a <;> rfl)]
  exact shapeCast_self x1 _

/-- The last weight matrix likewise. -/
theorem ld_w3 (x4 : Vec Ideal S256x64 .f32) : shapeCast S256x64 (View.ld x4 r0_21) shapeCasts_S256x64_S256x64 = x4 := by
  rw [View.ld_unit_zero (by funext a; fin_cases a <;> rfl)]
  exact shapeCast_self x4 _

/-- A 64-vector is loaded whole. -/
theorem ld_v64 (v : Vec Ideal S64 .f32) : View.ld v r0_11 = v :=
  View.ld_unit_zero (by funext a; fin_cases a <;> rfl) _ v

/-- A 256-vector is loaded whole. -/
theorem ld_v256 (v : Vec Ideal S256 .f32) : View.ld v r0_22 = v :=
  View.ld_unit_zero (by funext a; fin_cases a <;> rfl) _ v

/-- Entry (0, 0, c) of the depthwise tap loaded at (kh, kw) is entry (kh, kw, c) of the 3×3×64 weights: on each
    axis the rectangle's offset plus the unit-stride coordinate is the weights' coordinate. -/
theorem ldP_apply (x2 : Vec Ideal S3x3x64 .f32) (kh kw : Fin 3) (c : Fin 64) :
    (![![View.ld x2 r0_2, View.ld x2 r0_3, View.ld x2 r0_4], ![View.ld x2 r0_5, View.ld x2 r0_6, View.ld x2 r0_7],
       ![View.ld x2 r0_8, View.ld x2 r0_9, View.ld x2 r0_10]] kh kw) (ix3 (0 : Fin 1) (0 : Fin 1) c) = x2 (ix3 kh kw c) := by
  fin_cases kh <;> fin_cases kw <;>
    exact congrArg x2 (funext fun a => Fin.ext (match a with
      | ⟨0, _⟩ => rfl
      | ⟨1, _⟩ => rfl
      | ⟨2, _⟩ => by show 0 + 1 * c.val = c.val; omega))

/-- Entry (0, 0, c, k) of the 3×3 tap loaded at (kh, kw) is entry (kh, kw, c, k) of the 3×3×64×64 weights. -/
theorem ldU_apply (x3 : Vec Ideal S3x3x64x64 .f32) (kh kw : Fin 3) (c k : Fin 64) :
    (![![View.ld x3 r0_12, View.ld x3 r0_13, View.ld x3 r0_14], ![View.ld x3 r0_15, View.ld x3 r0_16, View.ld x3 r0_17],
       ![View.ld x3 r0_18, View.ld x3 r0_19, View.ld x3 r0_20]] kh kw) (ix4 (0 : Fin 1) (0 : Fin 1) c k) = x3 (ix4 kh kw c k) := by
  fin_cases kh <;> fin_cases kw <;>
    exact congrArg x3 (funext fun a => Fin.ext (match a with
      | ⟨0, _⟩ => rfl
      | ⟨1, _⟩ => rfl
      | ⟨2, _⟩ => by show 0 + 1 * c.val = c.val; omega
      | ⟨3, _⟩ => by show 0 + 1 * k.val = k.val; omega))

end Cert.ResAdd.K

end
-- ==== Proof.KBlock.lean ====
/-
  Entry (0, h, w, c) of the block the body stores is the per-sample function of the block's loaded buffers, read
  in the kernel's layouts: pixels before channels for the sample, output channel before input channel for the two
  1×1 weight matrices, taps before channels for the two 3×3 weights, and the scale spelled as a product.
  The stages are read from the last one inwards: the clamp of the residual sum, the 1×1 stage over the second
  clamped map, that map as the clamp of the scaled 3×3 stage over the padded first clamped map, and so on down
  to the sample's block itself.
-/
import proofs.«165038_j41480794144828_1_alg».proof.Proof.KDefs
import proofs.«165038_j41480794144828_1_alg».proof.Proof.KMix
import proofs.«165038_j41480794144828_1_alg».proof.Proof.KPadTap
import proofs.«165038_j41480794144828_1_alg».proof.Proof.KBn
import proofs.«165038_j41480794144828_1_alg».proof.Proof.Spec
import Idealize.ShloMosaic.Lib.ValueIdx
import Idealize.ShloMosaic.Lib.ValueLayout
import Idealize.ShloMosaic.Lib.Pipeline.Value

set_option maxRecDepth 16384

noncomputable section

namespace Cert.ResAdd.K

open Idealize.ShloMosaic Idealize.ShloMosaic.TcCoe Idealize.ShloMosaic.ValueIdx Cert.KernelIdeal Cert.KernelIdeal.Gen Cert.ResAdd

variable (x0 : Vec Ideal S1x28x28x256 .f32) (x1 : Vec Ideal S64x256 .f32) (x2 : Vec Ideal S3x3x64 .f32) (x3 : Vec Ideal S3x3x64x64 .f32)
  (x4 : Vec Ideal S256x64 .f32) (x5 x6 x7 x8 x9 x10 x11 x12 : Vec Ideal S64 .f32) (x13 x14 x15 x16 : Vec Ideal S256 .f32)

/-- The first-stage map of the block is the specification's, at the block's sample and first weights. -/
theorem kA1_blk (h w : Fin 28) (c : Fin 64) :
    kA1 (xblk x0) (shapeCast S64x256 (View.ld x1 r0_1) shapeCasts_S64x256_S64x256) (ix3 h w c)
      = a1 (fun k h w => x0 (ix4 (0 : Fin 1) h w k)) (fun c k => x1 (ix2 c k)) c h w := by
  rw [kA1_apply, ld_w1]
  simp only [xblk_apply]
  rfl

/-- The map after the depthwise stage's scale, shift and clamp. -/
theorem h2_apply (h w : Fin 28) (c : Fin 64) :
    h2 x0 x1 x2 x5 x6 x7 x8 (ix3 h w c)
      = r2 (fun k h w => x0 (ix4 (0 : Fin 1) h w k)) (fun c k => x1 (ix2 c k)) (fun c kh kw => x2 (ix3 kh kw c))
          (fun c => scaleMul (x5 (ix1 c)) (x8 (ix1 c))) (fun c => x6 (ix1 c)) (fun c => x7 (ix1 c)) c h w := by
  unfold h2
  rw [kBN64_apply, kA2_apply, ld_v64 x5, ld_v64 x6, ld_v64 x7, ld_v64 x8]
  unfold r2 a2
  refine congrArg (fun t => max (bn (scaleMul (x5 (ix1 c)) (x8 (ix1 c))) (x6 (ix1 c)) (x7 (ix1 c)) (nine t)) zc)
    (funext fun kh => funext fun kw => ?_)
  rw [kPad_apply, ldP_apply]
  simp only [kA1_blk]

/-- The map after the 3×3 stage's scale, shift and clamp. -/
theorem h3_apply (h w : Fin 28) (c : Fin 64) :
    h3 x0 x1 x2 x3 x5 x6 x7 x8 x9 x10 x11 x12 (ix3 h w c)
      = r3 (fun k h w => x0 (ix4 (0 : Fin 1) h w k)) (fun c k => x1 (ix2 c k)) (fun c kh kw => x2 (ix3 kh kw c))
          (fun c k kh kw => x3 (ix4 kh kw c k))
          (fun c => scaleMul (x5 (ix1 c)) (x8 (ix1 c))) (fun c => x6 (ix1 c)) (fun c => x7 (ix1 c))
          (fun c => scaleMul (x9 (ix1 c)) (x12 (ix1 c))) (fun c => x10 (ix1 c)) (fun c => x11 (ix1 c)) c h w := by
  unfold h3
  rw [kBN64_apply, kA3_apply, ld_v64 x9, ld_v64 x10, ld_v64 x11, ld_v64 x12]
  unfold r3 a3
  refine congrArg (fun t => max (bn (scaleMul (x9 (ix1 c)) (x12 (ix1 c))) (x10 (ix1 c)) (x11 (ix1 c)) (nine t)) zc)
    (funext fun kh => funext fun kw => ?_)
  refine congrArg₂ l1 (funext fun k => ?_) (funext fun k => ldU_apply x3 kh kw c k)
  rw [kPad_apply]
  simp only [h2_apply]

/-- The per-sample function at the block's buffers. -/
def blockOut (c : Fin 256) (h w : Fin 28) : EReal :=
  Cert.ResAdd.out (fun k h w => x0 (ix4 (0 : Fin 1) h w k)) (fun c k => x1 (ix2 c k)) (fun c kh kw => x2 (ix3 kh kw c))
    (fun c k kh kw => x3 (ix4 kh kw c k)) (fun c k => x4 (ix2 c k))
    (fun c => scaleMul (x5 (ix1 c)) (x8 (ix1 c))) (fun c => x6 (ix1 c)) (fun c => x7 (ix1 c))
    (fun c => scaleMul (x9 (ix1 c)) (x12 (ix1 c))) (fun c => x10 (ix1 c)) (fun c => x11 (ix1 c))
    (fun c => scaleMul (x13 (ix1 c)) (x16 (ix1 c))) (fun c => x14 (ix1 c)) (fun c => x15 (ix1 c)) c h w

theorem out0_17_apply (h w : Fin 28) (c : Fin 256) :
    out0_17 x0 x1 x2 x3 x4 x5 x6 x7 x8 x9 x10 x11 x12 x13 x14 x15 x16 (ix4 (0 : Fin 1) h w c)
      = blockOut x0 x1 x2 x3 x4 x5 x6 x7 x8 x9 x10 x11 x12 x13 x14 x15 x16 c h w := by
  have hz : (![0, 0, 0, 0] : Fin S1x28x28x256.rank → Nat) = fun _ => 0 := by
    funext a; match a with | ⟨0, _⟩ => rfl | ⟨1, _⟩ => rfl | ⟨2, _⟩ => rfl | ⟨3, _⟩ => rfl
  rw [payload_eq, View.canon_unit_zero hz]
  unfold payload
  rw [shapeCast_abc_1abc_apply]
  rw [kOut_apply, kA4_apply, ld_w3, ld_v256 x13, ld_v256 x14, ld_v256 x15, ld_v256 x16]
  unfold blockOut Cert.ResAdd.out a4
  simp only [h3_apply, xblk_apply]

end Cert.ResAdd.K

end
-- ==== Proof.KRun.lean ====
/-
  The run of the idealized kernel with its result array named: every execution of the program terminates with the
  result buffer holding the specification's array (sample, channel, row, column) and the seventeen arguments unchanged.
  The weights and the sample reach the region through transposes and reshapes; each is read here at an index, the
  region's blocks are read off them, each grid point's stored block is the per-sample function at that sample, the
  eight blocks cover the region's array, and the transpose after the region carries it to the result's layout.
-/
import proofs.«165038_j41480794144828_1_alg».proof.Proof.KBlock
import proofs.«165038_j41480794144828_1_alg».proof.Proof.Spec
import proofs.«165038_j41480794144828_1_alg».proof.Proof.Gen.KernelIdeal.Frame
import Idealize.ShloMosaic.Lib.ValueIdx
import Idealize.ShloMosaic.Lib.ValueIdxCoords
import Idealize.ShloMosaic.Lib.Pipeline.Value
import Idealize.ShloMosaic.Lib.StableHlo.Run

set_option maxRecDepth 16384

noncomputable section

namespace Cert.ResAdd.K

open Idealize.ShloMosaic Idealize.ShloMosaic.TcCoe Idealize.ShloMosaic.ValueIdx Idealize.SL.Sem Cert.KernelIdeal Cert.KernelIdeal.Gen Cert.ResAdd
open Idealize.ShloMosaic.StableHlo
open Idealize.ShloMosaic.Pipeline (Dat Cfg Window)

/-- The kernel's result: entry (b, c, h, w) is the per-sample function at sample b. -/
def kres (m : (ℓ : Loc nD τ sig) → Buf (Elt Ideal) ℓ) (c : Dev nD) : Buf (Elt Ideal) ((c.tc : Thread nD τ).loc main_v7) :=
  resultArr scaleMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

namespace KRun

variable (m : (ℓ : Loc nD τ sig) → Buf (Elt Ideal) ℓ) (ρ : Dev nD → PrngReg)

/-! ## The arrays the region finds, read off the arguments -/

/-- The sample array as the region finds it: the argument with channels moved last. -/
theorem v0_eq (c : Dev nD) :
    (Gen.V m c main_v0 : S8x28x28x256.Idx → EReal)
      = transpose S8x28x28x256 [0, 2, 3, 1] (m ((c.tc : Thread nD τ).loc main_arg0)) transposes_S8x256x28x28_S8x28x28x256_0_2_3_1 := by
  show StableHlo.after hostOps0 (fun b => m (c, b)) (Proc.devRef .tc main_v0) = _
  after_results

/-- The first 1×1 weight as the region finds it: the argument without its two unit axes. -/
theorem v1_eq (c : Dev nD) :
    (Gen.V m c main_v1 : S64x256.Idx → EReal)
      = shapeCast S64x256 (m ((c.tc : Thread nD τ).loc main_arg1)) shapeCasts_S64x256x1x1_S64x256 := by
  show StableHlo.after hostOps0 (fun b => m (c, b)) (Proc.devRef .tc main_v1) = _
  after_results
  rfl

/-- The depthwise weight as the region finds it: the argument without its unit axis, taps moved first. -/
theorem v3_eq (c : Dev nD) :
    (Gen.V m c main_v3 : S3x3x64.Idx → EReal)
      = transpose S3x3x64 [1, 2, 0] (shapeCast S64x3x3 (m ((c.tc : Thread nD τ).loc main_arg2)) shapeCasts_S64x1x3x3_S64x3x3)
          transposes_S64x3x3_S3x3x64_1_2_0 := by
  show StableHlo.after hostOps0 (fun b => m (c, b)) (Proc.devRef .tc main_v3) = _
  after_results
  rfl

/-- The 3×3 weight as the region finds it: the argument with taps moved first. -/
theorem v4_eq (c : Dev nD) :
    (Gen.V m c main_v4 : S3x3x64x64.Idx → EReal)
      = transpose S3x3x64x64 [2, 3, 0, 1] (m ((c.tc : Thread nD τ).loc main_arg3)) transposes_S64x64x3x3_S3x3x64x64_2_3_0_1 := by
  show StableHlo.after hostOps0 (fun b => m (c, b)) (Proc.devRef .tc main_v4) = _
  after_results

/-- The last 1×1 weight as the region finds it: the argument without its two unit axes. -/
theorem v5_eq (c : Dev nD) :
    (Gen.V m c main_v5 : S256x64.Idx → EReal)
      = shapeCast S256x64 (m ((c.tc : Thread nD τ).loc main_arg4)) shapeCasts_S256x64x1x1_S256x64 := by
  show StableHlo.after hostOps0 (fun b => m (c, b)) (Proc.devRef .tc main_v5) = _
  after_results
  rfl

/-! ## The same, index by index -/

theorem v0_apply (c : Dev nD) (b : Fin 8) (h w : Fin 28) (k : Fin 256) :
    (Gen.V m c main_v0 : S8x28x28x256.Idx → EReal) (ix4 b h w k)
      = (m ((c.tc : Thread nD τ).loc main_arg0) : S8x256x28x28.Idx → EReal) (ix4 b k h w) := by
  rw [v0_eq]
  exact transpose_apply _ _ _ _ _ (fun a => match a with | ⟨0, _⟩ => rfl | ⟨1, _⟩ => rfl | ⟨2, _⟩ => rfl | ⟨3, _⟩ => rfl)

theorem v1_apply (c : Dev nD) (o : Fin 64) (k : Fin 256) :
    (Gen.V m c main_v1 : S64x256.Idx → EReal) (ix2 o k)
      = (m ((c.tc : Thread nD τ).loc main_arg1) : S64x256x1x1.Idx → EReal) (ix4 o k (0 : Fin 1) (0 : Fin 1)) := by
  rw [v1_eq]
  refine shapeCast_apply _ _ _ _ ?_
  show (S64x256x1x1.rowMajor (ix4 o k (0 : Fin 1) (0 : Fin 1))).val = (S64x256.rowMajor (ix2 o k)).val
  rw [Shape.rowMajor_val_four, Shape.rowMajor_val_two]
  show ((o.val * 256 + k.val) * 1 + 0) * 1 + 0 = o.val * 256 + k.val
  omega

theorem v3_apply (c : Dev nD) (kh kw : Fin 3) (o : Fin 64) :
    (Gen.V m c main_v3 : S3x3x64.Idx → EReal) (ix3 kh kw o)
      = (m ((c.tc : Thread nD τ).loc main_arg2) : S64x1x3x3.Idx → EReal) (ix4 o (0 : Fin 1) kh kw) := by
  rw [v3_eq]
  refine (transpose_apply _ _ _ _ (ix3 o kh kw) (fun a => match a with | ⟨0, _⟩ => rfl | ⟨1, _⟩ => rfl | ⟨2, _⟩ => rfl)).trans ?_
  refine shapeCast_apply _ _ _ _ ?_
  show (S64x1x3x3.rowMajor (ix4 o (0 : Fin 1) kh kw)).val = (S64x3x3.rowMajor (ix3 o kh kw)).val
  rw [Shape.rowMajor_val_four, Shape.rowMajor_val_three]
  show ((o.val * 1 + 0) * 3 + kh.val) * 3 + kw.val = (o.val * 3 + kh.val) * 3 + kw.val
  omega

theorem v4_apply (c : Dev nD) (kh kw : Fin 3) (o k : Fin 64) :
    (Gen.V m c main_v4 : S3x3x64x64.Idx → EReal) (ix4 kh kw o k)
      = (m ((c.tc : Thread nD τ).loc main_arg3) : S64x64x3x3.Idx → EReal) (ix4 o k kh kw) := by
  rw [v4_eq]
  exact transpose_apply _ _ _ _ _ (fun a => match a with | ⟨0, _⟩ => rfl | ⟨1, _⟩ => rfl | ⟨2, _⟩ => rfl | ⟨3, _⟩ => rfl)

theorem v5_apply (c : Dev nD) (o : Fin 256) (k : Fin 64) :
    (Gen.V m c main_v5 : S256x64.Idx → EReal) (ix2 o k)
      = (m ((c.tc : Thread nD τ).loc main_arg4) : S256x64x1x1.Idx → EReal) (ix4 o k (0 : Fin 1) (0 : Fin 1)) := by
  rw [v5_eq]
  refine shapeCast_apply _ _ _ _ ?_
  show (S256x64x1x1.rowMajor (ix4 o k (0 : Fin 1) (0 : Fin 1))).val = (S256x64.rowMajor (ix2 o k)).val
  rw [Shape.rowMajor_val_four, Shape.rowMajor_val_two]
  show ((o.val * 64 + k.val) * 1 + 0) * 1 + 0 = o.val * 64 + k.val
  omega

/-! ## The windows' blocks at a grid point -/

theorem lt8 (t : Fin cfg0.N) : t.val < 8 := by
  exact lt_of_lt_of_eq t.isLt N_0

/-- The sample window and the result window take block `t` of the leading axis at point `t`. -/
theorem idx_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx_17 : ∀ t : Fin cfg0.N, win0_17.index t (0 : Fin 4) = t.val ∧ win0_17.index t (1 : Fin 4) = 0
    ∧ win0_17.index t (2 : Fin 4) = 0 ∧ win0_17.index t (3 : Fin 4) = 0 :=
  (by decide +kernel : ∀ t : Fin grid0.N, _)

theorem blk0_apply (c : Dev nD) (t : Fin cfg0.N) (h w : Fin 28) (k : Fin 256) :
    (iblk m c 0 t : S1x28x28x256.Idx → EReal) (ix4 (0 : Fin 1) h w k)
      = (Gen.V m c main_v0 : S8x28x28x256.Idx → EReal) (ix4 (⟨t.val, lt8 t⟩ : Fin 8) h w k) := by
  obtain ⟨e0, e1, e2, e3⟩ := idx_0 t
  unfold iblk
  rw [View.read_apply]
  show Gen.V m c main_v0 _ = Gen.V m c main_v0 _
  congr 1
  funext a
  apply Fin.ext
  match a with
  | ⟨0, _⟩ => show win0_0.index t (0 : Fin 4) * 1 + 1 * 0 = t.val; omega
  | ⟨1, _⟩ => show win0_0.index t (1 : Fin 4) * 28 + 1 * h.val = h.val; omega
  | ⟨2, _⟩ => show win0_0.index t (2 : Fin 4) * 28 + 1 * w.val = w.val; omega
  | ⟨3, _⟩ => show win0_0.index t (3 : Fin 4) * 256 + 1 * k.val = k.val; omega

/-- Every other window is its whole array at every point. -/
theorem idx_whole : ∀ t : Fin cfg0.N, (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 1) = 0)
    ∧ (win0_6.index t (0 : Fin 1) = 0)
    ∧ (win0_7.index t (0 : Fin 1) = 0)
    ∧ (win0_8.index t (0 : Fin 1) = 0)
    ∧ (win0_9.index t (0 : Fin 1) = 0)
    ∧ (win0_10.index t (0 : Fin 1) = 0)
    ∧ (win0_11.index t (0 : Fin 1) = 0)
    ∧ (win0_12.index t (0 : Fin 1) = 0)
    ∧ (win0_13.index t (0 : Fin 1) = 0)
    ∧ (win0_14.index t (0 : Fin 1) = 0)
    ∧ (win0_15.index t (0 : Fin 1) = 0)
    ∧ (win0_16.index t (0 : Fin 1) = 0) :=
  (by decide +kernel : ∀ t : Fin grid0.N, _)

theorem blk1_eq (c : Dev nD) (t : Fin cfg0.N) :
    (iblk m c 1 t : S64x256.Idx → EReal) = (Gen.V m c main_v1 : S64x256.Idx → EReal) := by
  obtain ⟨e0, e1⟩ := (idx_whole t).1
  funext y
  unfold iblk
  rw [View.read_apply]
  show Gen.V m c main_v1 _ = Gen.V m c main_v1 _
  congr 1
  funext a
  apply Fin.ext
  match a with
  | ⟨0, _⟩ => show win0_1.index t (0 : Fin 2) * 64 + 1 * (y 0).val = (y 0).val; omega
  | ⟨1, _⟩ => show win0_1.index t (1 : Fin 2) * 256 + 1 * (y 1).val = (y 1).val; omega

theorem blk2_eq (c : Dev nD) (t : Fin cfg0.N) :
    (iblk m c 2 t : S3x3x64.Idx → EReal) = (Gen.V m c main_v3 : S3x3x64.Idx → EReal) := by
  obtain ⟨e0, e1, e2⟩ := (idx_whole t).2.1
  funext y
  unfold iblk
  rw [View.read_apply]
  show Gen.V m c main_v3 _ = Gen.V m c main_v3 _
  congr 1
  funext a
  apply Fin.ext
  match a with
  | ⟨0, _⟩ => show win0_2.index t (0 : Fin 3) * 3 + 1 * (y 0).val = (y 0).val; omega
  | ⟨1, _⟩ => show win0_2.index t (1 : Fin 3) * 3 + 1 * (y 1).val = (y 1).val; omega
  | ⟨2, _⟩ => show win0_2.index t (2 : Fin 3) * 64 + 1 * (y 2).val = (y 2).val; omega

theorem blk3_eq (c : Dev nD) (t : Fin cfg0.N) :
    (iblk m c 3 t : S3x3x64x64.Idx → EReal) = (Gen.V m c main_v4 : S3x3x64x64.Idx → EReal) := by
  obtain ⟨e0, e1, e2, e3⟩ := (idx_whole t).2.2.1
  funext y
  unfold iblk
  rw [View.read_apply]
  show Gen.V m c main_v4 _ = Gen.V m c main_v4 _
  congr 1
  funext a
  apply Fin.ext
  match a with
  | ⟨0, _⟩ => show win0_3.index t (0 : Fin 4) * 3 + 1 * (y 0).val = (y 0).val; omega
  | ⟨1, _⟩ => show win0_3.index t (1 : Fin 4) * 3 + 1 * (y 1).val = (y 1).val; omega
  | ⟨2, _⟩ => show win0_3.index t (2 : Fin 4) * 64 + 1 * (y 2).val = (y 2).val; omega
  | ⟨3, _⟩ => show win0_3.index t (3 : Fin 4) * 64 + 1 * (y 3).val = (y 3).val; omega

theorem blk4_eq (c : Dev nD) (t : Fin cfg0.N) :
    (iblk m c 4 t : S256x64.Idx → EReal) = (Gen.V m c main_v5 : S256x64.Idx → EReal) := by
  obtain ⟨e0, e1⟩ := (idx_whole t).2.2.2.1
  funext y
  unfold iblk
  rw [View.read_apply]
  show Gen.V m c main_v5 _ = Gen.V m c main_v5 _
  congr 1
  funext a
  apply Fin.ext
  match a with
  | ⟨0, _⟩ => show win0_4.index t (0 : Fin 2) * 256 + 1 * (y 0).val = (y 0).val; omega
  | ⟨1, _⟩ => show win0_4.index t (1 : Fin 2) * 64 + 1 * (y 1).val = (y 1).val; omega

theorem blk5_eq (c : Dev nD) (t : Fin cfg0.N) :
    (iblk m c 5 t : S64.Idx → EReal) = (Gen.V m c main_arg5 : S64.Idx → EReal) := by
  obtain e0 := (idx_whole t).2.2.2.2.1
  funext y
  unfold iblk
  rw [View.read_apply]
  show Gen.V m c main_arg5 _ = Gen.V m c main_arg5 _
  congr 1
  funext a
  apply Fin.ext
  match a with
  | ⟨0, _⟩ => show win0_5.index t (0 : Fin 1) * 64 + 1 * (y 0).val = (y 0).val; omega

theorem blk5_arg (c : Dev nD) (t : Fin cfg0.N) :
    (iblk m c 5 t : S64.Idx → EReal) = (m ((c.tc : Thread nD τ).loc main_arg5) : S64.Idx → EReal) :=
  (blk5_eq m c t).trans (V_main_arg5 m c)

theorem blk6_eq (c : Dev nD) (t : Fin cfg0.N) :
    (iblk m c 6 t : S64.Idx → EReal) = (Gen.V m c main_arg6 : S64.Idx → EReal) := by
  obtain e0 := (idx_whole t).2.2.2.2.2.1
  funext y
  unfold iblk
  rw [View.read_apply]
  show Gen.V m c main_arg6 _ = Gen.V m c main_arg6 _
  congr 1
  funext a
  apply Fin.ext
  match a with
  | ⟨0, _⟩ => show win0_6.index t (0 : Fin 1) * 64 + 1 * (y 0).val = (y 0).val; omega

theorem blk6_arg (c : Dev nD) (t : Fin cfg0.N) :
    (iblk m c 6 t : S64.Idx → EReal) = (m ((c.tc : Thread nD τ).loc main_arg6) : S64.Idx → EReal) :=
  (blk6_eq m c t).trans (V_main_arg6 m c)

theorem blk7_eq (c : Dev nD) (t : Fin cfg0.N) :
    (iblk m c 7 t : S64.Idx → EReal) = (Gen.V m c main_arg7 : S64.Idx → EReal) := by
  obtain e0 := (idx_whole t).2.2.2.2.2.2.1
  funext y
  unfold iblk
  rw [View.read_apply]
  show Gen.V m c main_arg7 _ = Gen.V m c main_arg7 _
  congr 1
  funext a
  apply Fin.ext
  match a with
  | ⟨0, _⟩ => show win0_7.index t (0 : Fin 1) * 64 + 1 * (y 0).val = (y 0).val; omega

theorem blk7_arg (c : Dev nD) (t : Fin cfg0.N) :
    (iblk m c 7 t : S64.Idx → EReal) = (m ((c.tc : Thread nD τ).loc main_arg7) : S64.Idx → EReal) :=
  (blk7_eq m c t).trans (V_main_arg7 m c)

theorem blk8_eq (c : Dev nD) (t : Fin cfg0.N) :
    (iblk m c 8 t : S64.Idx → EReal) = (Gen.V m c main_arg8 : S64.Idx → EReal) := by
  obtain e0 := (idx_whole t).2.2.2.2.2.2.2.1
  funext y
  unfold iblk
  rw [View.read_apply]
  show Gen.V m c main_arg8 _ = Gen.V m c main_arg8 _
  congr 1
  funext a
  apply Fin.ext
  match a with
  | ⟨0, _⟩ => show win0_8.index t (0 : Fin 1) * 64 + 1 * (y 0).val = (y 0).val; omega

theorem blk8_arg (c : Dev nD) (t : Fin cfg0.N) :
    (iblk m c 8 t : S64.Idx → EReal) = (m ((c.tc : Thread nD τ).loc main_arg8) : S64.Idx → EReal) :=
  (blk8_eq m c t).trans (V_main_arg8 m c)

theorem blk9_eq (c : Dev nD) (t : Fin cfg0.N) :
    (iblk m c 9 t : S64.Idx → EReal) = (Gen.V m c main_arg9 : S64.Idx → EReal) := by
  obtain e0 := (idx_whole t).2.2.2.2.2.2.2.2.1
  funext y
  unfold iblk
  rw [View.read_apply]
  show Gen.V m c main_arg9 _ = Gen.V m c main_arg9 _
  congr 1
  funext a
  apply Fin.ext
  match a with
  | ⟨0, _⟩ => show win0_9.index t (0 : Fin 1) * 64 + 1 * (y 0).val = (y 0).val; omega

theorem blk9_arg (c : Dev nD) (t : Fin cfg0.N) :
    (iblk m c 9 t : S64.Idx → EReal) = (m ((c.tc : Thread nD τ).loc main_arg9) : S64.Idx → EReal) :=
  (blk9_eq m c t).trans (V_main_arg9 m c)

theorem blk10_eq (c : Dev nD) (t : Fin cfg0.N) :
    (iblk m c 10 t : S64.Idx → EReal) = (Gen.V m c main_arg10 : S64.Idx → EReal) := by
  obtain e0 := (idx_whole t).2.2.2.2.2.2.2.2.2.1
  funext y
  unfold iblk
  rw [View.read_apply]
  show Gen.V m c main_arg10 _ = Gen.V m c main_arg10 _
  congr 1
  funext a
  apply Fin.ext
  match a with
  | ⟨0, _⟩ => show win0_10.index t (0 : Fin 1) * 64 + 1 * (y 0).val = (y 0).val; omega

theorem blk10_arg (c : Dev nD) (t : Fin cfg0.N) :
    (iblk m c 10 t : S64.Idx → EReal) = (m ((c.tc : Thread nD τ).loc main_arg10) : S64.Idx → EReal) :=
  (blk10_eq m c t).trans (V_main_arg10 m c)

theorem blk11_eq (c : Dev nD) (t : Fin cfg0.N) :
    (iblk m c 11 t : S64.Idx → EReal) = (Gen.V m c main_arg11 : S64.Idx → EReal) := by
  obtain e0 := (idx_whole t).2.2.2.2.2.2.2.2.2.2.1
  funext y
  unfold iblk
  rw [View.read_apply]
  show Gen.V m c main_arg11 _ = Gen.V m c main_arg11 _
  congr 1
  funext a
  apply Fin.ext
  match a with
  | ⟨0, _⟩ => show win0_11.index t (0 : Fin 1) * 64 + 1 * (y 0).val = (y 0).val; omega

theorem blk11_arg (c : Dev nD) (t : Fin cfg0.N) :
    (iblk m c 11 t : S64.Idx → EReal) = (m ((c.tc : Thread nD τ).loc main_arg11) : S64.Idx → EReal) :=
  (blk11_eq m c t).trans (V_main_arg11 m c)

theorem blk12_eq (c : Dev nD) (t : Fin cfg0.N) :
    (iblk m c 12 t : S64.Idx → EReal) = (Gen.V m c main_arg12 : S64.Idx → EReal) := by
  obtain e0 := (idx_whole t).2.2.2.2.2.2.2.2.2.2.2.1
  funext y
  unfold iblk
  rw [View.read_apply]
  show Gen.V m c main_arg12 _ = Gen.V m c main_arg12 _
  congr 1
  funext a
  apply Fin.ext
  match a with
  | ⟨0, _⟩ => show win0_12.index t (0 : Fin 1) * 64 + 1 * (y 0).val = (y 0).val; omega

theorem blk12_arg (c : Dev nD) (t : Fin cfg0.N) :
    (iblk m c 12 t : S64.Idx → EReal) = (m ((c.tc : Thread nD τ).loc main_arg12) : S64.Idx → EReal) :=
  (blk12_eq m c t).trans (V_main_arg12 m c)

theorem blk13_eq (c : Dev nD) (t : Fin cfg0.N) :
    (iblk m c 13 t : S256.Idx → EReal) = (Gen.V m c main_arg13 : S256.Idx → EReal) := by
  obtain e0 := (idx_whole t).2.2.2.2.2.2.2.2.2.2.2.2.1
  funext y
  unfold iblk
  rw [View.read_apply]
  show Gen.V m c main_arg13 _ = Gen.V m c main_arg13 _
  congr 1
  funext a
  apply Fin.ext
  match a with
  | ⟨0, _⟩ => show win0_13.index t (0 : Fin 1) * 256 + 1 * (y 0).val = (y 0).val; omega

theorem blk13_arg (c : Dev nD) (t : Fin cfg0.N) :
    (iblk m c 13 t : S256.Idx → EReal) = (m ((c.tc : Thread nD τ).loc main_arg13) : S256.Idx → EReal) :=
  (blk13_eq m c t).trans (V_main_arg13 m c)

theorem blk14_eq (c : Dev nD) (t : Fin cfg0.N) :
    (iblk m c 14 t : S256.Idx → EReal) = (Gen.V m c main_arg14 : S256.Idx → EReal) := by
  obtain e0 := (idx_whole t).2.2.2.2.2.2.2.2.2.2.2.2.2.1
  funext y
  unfold iblk
  rw [View.read_apply]
  show Gen.V m c main_arg14 _ = Gen.V m c main_arg14 _
  congr 1
  funext a
  apply Fin.ext
  match a with
  | ⟨0, _⟩ => show win0_14.index t (0 : Fin 1) * 256 + 1 * (y 0).val = (y 0).val; omega

theorem blk14_arg (c : Dev nD) (t : Fin cfg0.N) :
    (iblk m c 14 t : S256.Idx → EReal) = (m ((c.tc : Thread nD τ).loc main_arg14) : S256.Idx → EReal) :=
  (blk14_eq m c t).trans (V_main_arg14 m c)

theorem blk15_eq (c : Dev nD) (t : Fin cfg0.N) :
    (iblk m c 15 t : S256.Idx → EReal) = (Gen.V m c main_arg15 : S256.Idx → EReal) := by
  obtain e0 := (idx_whole t).2.2.2.2.2.2.2.2.2.2.2.2.2.2.1
  funext y
  unfold iblk
  rw [View.read_apply]
  show Gen.V m c main_arg15 _ = Gen.V m c main_arg15 _
  congr 1
  funext a
  apply Fin.ext
  match a with
  | ⟨0, _⟩ => show win0_15.index t (0 : Fin 1) * 256 + 1 * (y 0).val = (y 0).val; omega

theorem blk15_arg (c : Dev nD) (t : Fin cfg0.N) :
    (iblk m c 15 t : S256.Idx → EReal) = (m ((c.tc : Thread nD τ).loc main_arg15) : S256.Idx → EReal) :=
  (blk15_eq m c t).trans (V_main_arg15 m c)

theorem blk16_eq (c : Dev nD) (t : Fin cfg0.N) :
    (iblk m c 16 t : S256.Idx → EReal) = (Gen.V m c main_arg16 : S256.Idx → EReal) := by
  obtain e0 := (idx_whole t).2.2.2.2.2.2.2.2.2.2.2.2.2.2.2
  funext y
  unfold iblk
  rw [View.read_apply]
  show Gen.V m c main_arg16 _ = Gen.V m c main_arg16 _
  congr 1
  funext a
  apply Fin.ext
  match a with
  | ⟨0, _⟩ => show win0_16.index t (0 : Fin 1) * 256 + 1 * (y 0).val = (y 0).val; omega

theorem blk16_arg (c : Dev nD) (t : Fin cfg0.N) :
    (iblk m c 16 t : S256.Idx → EReal) = (m ((c.tc : Thread nD τ).loc main_arg16) : S256.Idx → EReal) :=
  (blk16_eq m c t).trans (V_main_arg16 m c)

/-! ## What each grid point stores -/

/-- The region's array: entry (b, h, w, c) is the per-sample function at sample b (channels last). -/
def regionArr (c : Dev nD) : S8x28x28x256.Idx → EReal := fun i =>
  result scaleMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    ⟨(i 0).val, (i 0).isLt⟩ ⟨(i 3).val, (i 3).isLt⟩ ⟨(i 1).val, (i 1).isLt⟩ ⟨(i 2).val, (i 2).isLt⟩

theorem regionArr_ix4 (c : Dev nD) (b : Fin 8) (h w : Fin 28) (o : Fin 256) :
    regionArr m c (ix4 b h w o) = result scaleMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b o h w := rfl

/-- Equal accessors give equal values of the per-sample function. -/
theorem out_congr {X X' : Fin 256 → Fin 28 → Fin 28 → EReal} {W1 W1' : Fin 64 → Fin 256 → EReal} {WP WP' : Fin 64 → Fin 3 → Fin 3 → EReal}
    {W2 W2' : Fin 64 → Fin 64 → Fin 3 → Fin 3 → EReal} {W3 W3' : Fin 256 → Fin 64 → EReal}
    {I1 I1' B1 B1' M1 M1' I2 I2' B2 B2' M2 M2' : Fin 64 → EReal} {I3 I3' B3 B3' M3 M3' : Fin 256 → EReal}
    (hX : X = X') (hW1 : W1 = W1') (hWP : WP = WP') (hW2 : W2 = W2') (hW3 : W3 = W3')
    (hI1 : I1 = I1') (hB1 : B1 = B1') (hM1 : M1 = M1') (hI2 : I2 = I2') (hB2 : B2 = B2') (hM2 : M2 = M2')
    (hI3 : I3 = I3') (hB3 : B3 = B3') (hM3 : M3 = M3') (o : Fin 256) (h w : Fin 28) :
    Cert.ResAdd.out X W1 WP W2 W3 I1 B1 M1 I2 B2 M2 I3 B3 M3 o h w
      = Cert.ResAdd.out X' W1' WP' W2' W3' I1' B1' M1' I2' B2' M2' I3' B3' M3' o h w := by
  subst hX hW1 hWP hW2 hW3 hI1 hB1 hM1 hI2 hB2 hM2 hI3 hB3 hM3
  rfl

/-- The per-sample function at point `t`'s blocks is the specification's at sample `t`. -/
theorem blockOut_eq (c : Dev nD) (t : Fin cfg0.N) (h w : Fin 28) (o : Fin 256) :
    blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) o h w
      = result scaleMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (⟨t.val, lt8 t⟩ : Fin 8) o h w := by
  unfold blockOut result
  refine out_congr ?_ ?_ ?_ ?_ ?_ ?_ ?_ ?_ ?_ ?_ ?_ ?_ ?_ ?_ o h w
  · funext k h w
    exact (blk0_apply m c t h w k).trans (v0_apply m c _ h w k)
  · funext o k
    rw [blk1_eq]
    exact v1_apply m c o k
  · funext o kh kw
    rw [blk2_eq]
    exact v3_apply m c kh kw o
  · funext o k kh kw
    rw [blk3_eq]
    exact v4_apply m c kh kw o k
  · funext o k
    rw [blk4_eq]
    exact v5_apply m c o k
  · rw [blk5_arg, blk8_arg]
  · rw [blk6_arg]
  · rw [blk7_arg]
  · rw [blk9_arg, blk12_arg]
  · rw [blk10_arg]
  · rw [blk11_arg]
  · rw [blk13_arg, blk16_arg]
  · rw [blk14_arg]
  · rw [blk15_arg]

/-- Point `t`'s block of the region's array, read at (0, h, w, c), is its entry at sample `t`. -/
theorem regionArr_blk (c : Dev nD) (t : Fin cfg0.N) (h w : Fin 28) (o : Fin 256) :
    (((cfg0.win 17).blk t).view.read (Elt Ideal) (regionArr m c) : S1x28x28x256.Idx → EReal) (ix4 (0 : Fin 1) h w o)
      = regionArr m c (ix4 (⟨t.val, lt8 t⟩ : Fin 8) h w o) := by
  obtain ⟨e0, e1, e2, e3⟩ := idx_17 t
  rw [View.read_apply]
  refine congrArg (regionArr m c) ?_
  funext a
  apply Fin.ext
  match a with
  | ⟨0, _⟩ => show win0_17.index t (0 : Fin 4) * 1 + 1 * 0 = t.val; omega
  | ⟨1, _⟩ => show win0_17.index t (1 : Fin 4) * 28 + 1 * h.val = h.val; omega
  | ⟨2, _⟩ => show win0_17.index t (2 : Fin 4) * 28 + 1 * w.val = w.val; omega
  | ⟨3, _⟩ => show win0_17.index t (3 : Fin 4) * 256 + 1 * o.val = o.val; omega

/-- What point `t` writes back is block `t` of the region's array. -/
theorem flushed_eq (c : Dev nD) (t : Fin cfg0.N) :
    (dats m 0 c).flushed 17 t = ((cfg0.win 17).blk t).view.read (Elt Ideal) (regionArr m c) := by
  show (cfg0.win 17).cut (grid0.coords t) ((dats m 0 c).after 17 t) = _
  rw [after0_17]
  funext j
  obtain ⟨u, h, w, o, rfl⟩ : ∃ (u : Fin 1) (h w : Fin 28) (o : Fin 256), j = (ix4 u h w o : S1x28x28x256.Idx) :=
    ⟨j 0, j 1, j 2, j 3, eq_ix4 (n0 := 1) (n1 := 28) (n2 := 28) (n3 := 256) j⟩
  obtain rfl : u = 0 := Subsingleton.elim _ _
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix4 (0 : Fin 1) h w o) = _
  refine (out0_17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) h w o).trans ?_
  rw [blockOut_eq]
  exact (regionArr_blk m c t h w o).symm

/-! ## The eight blocks cover the region's array -/

/-- An index is in point `t`'s block iff each coordinate is in the block's range on its axis. -/
theorem mem_blk17 (t : Fin cfg0.N) (i : S8x28x28x256.Idx) :
    i ∈ ((cfg0.win 17).blk t).view.set ↔ ∀ a : Fin 4, win0_17.index t a * S1x28x28x256.size a ≤ (i a).val
      ∧ (i a).val < win0_17.index t a * S1x28x28x256.size a + S1x28x28x256.size a := by
  show i ∈ ((View.whole main_v6).slice (win0_17.rect t)).set ↔ _
  rw [View.set_slice_whole, Rect.mem_set_unit]
  exact Iff.rfl

/-- The point of sample `b` covers every entry of sample `b`. -/
theorem cover17 (i : S8x28x28x256.Idx) :
    ∃ t : Fin cfg0.N, (cfg0.win 17).flush t = true ∧ i ∈ ((cfg0.win 17).blk t).view.set := by
  have h0 : (i 0).val < 8 := (i 0).isLt
  have h1 : (i 1).val < 28 := (i 1).isLt
  have h2 : (i 2).val < 28 := (i 2).isLt
  have h3 : (i 3).val < 256 := (i 3).isLt
  refine ⟨⟨(i 0).val, lt_of_lt_of_eq h0 N_0.symm⟩, flush0_17 _, ?_⟩
  rw [mem_blk17]
  obtain ⟨e0, e1, e2, e3⟩ := idx_17 ⟨(i 0).val, lt_of_lt_of_eq h0 N_0.symm⟩
  intro a
  match a with
  | ⟨0, _⟩ =>
    show win0_17.index _ (0 : Fin 4) * 1 ≤ (i 0).val ∧ (i 0).val < win0_17.index _ (0 : Fin 4) * 1 + 1
    rw [e0]; show (i 0).val * 1 ≤ (i 0).val ∧ (i 0).val < (i 0).val * 1 + 1; omega
  | ⟨1, _⟩ =>
    show win0_17.index _ (1 : Fin 4) * 28 ≤ (i 1).val ∧ (i 1).val < win0_17.index _ (1 : Fin 4) * 28 + 28
    rw [e1]; omega
  | ⟨2, _⟩ =>
    show win0_17.index _ (2 : Fin 4) * 28 ≤ (i 2).val ∧ (i 2).val < win0_17.index _ (2 : Fin 4) * 28 + 28
    rw [e2]; omega
  | ⟨3, _⟩ =>
    show win0_17.index _ (3 : Fin 4) * 256 ≤ (i 3).val ∧ (i 3).val < win0_17.index _ (3 : Fin 4) * 256 + 256
    rw [e3]; omega

/-- So the region's array ends holding the per-sample function at every sample. -/
theorem final17 (c : Dev nD) : (dats m 0 c).arrAt 17 cfg0.N = regionArr m c :=
  (dats m 0 c).arrAt_eq_of_cover 17 (regionArr m c) (fun t _ => flushed_eq m c t) cover17

/-! ## The transpose after the region -/

/-- The result buffer after the last transpose: the region's array with channels moved second. -/
theorem tail_v7 (c : Dev nD) : Pipeline.afterTail₀ cfgs (dats m) 0 (V0 m) [hostOps1] c main_v7 = kres m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = regionArr m c :=
    (Pipeline.withArrays_arr spec0 launch0.win.arr_inj c _ _ 17).trans (final17 m c)
  rw [e]
  funext i
  obtain ⟨b, o, h, w, rfl⟩ : ∃ (b : Fin 8) (o : Fin 256) (h w : Fin 28), i = (ix4 b o h w : S8x256x28x28.Idx) :=
    ⟨i 0, i 1, i 2, i 3, eq_ix4 (n0 := 8) (n1 := 256) (n2 := 28) (n3 := 28) i⟩
  refine (transpose_apply _ _ _ _ (ix4 b h w o)
    (fun a => match a with | ⟨0, _⟩ => rfl | ⟨1, _⟩ => rfl | ⟨2, _⟩ => rfl | ⟨3, _⟩ => rfl)).trans ?_
  rw [regionArr_ix4]
  exact (resultArr_ix4 scaleMul _ _ _ _ _ _ _ _ _ _ _ _ _ _ _ _ _ b o h w).symm

end KRun

/-! ## The run -/

set_option maxHeartbeats 1080000 in
/-- Every execution of the program terminates with the result buffer at the specification's array and the arguments
    as launched: the frame run, the result read through the cover and the last transpose, each argument kept. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).2 main_v7 (Pipeline.mem_restRefs_of main_v7 (by decide) (by decide))).trans (KRun.tail_v7 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c)))⟩) (run_main m ρ)

end Cert.ResAdd.K

end
-- ==== Proof.RefOps.lean ====
import proofs.«165038_j41480794144828_1_alg».proof.Proof.Gen.ReferenceIdeal
import Idealize.ShloMosaic.Lib.StableHlo.Run
noncomputable section
namespace Cert.ResAdd.RefOps
open Cert.ReferenceIdeal Cert.ReferenceIdeal.Gen Idealize.ShloMosaic Idealize.ShloMosaic.TcCoe Idealize.SL.Sem Idealize.ShloMosaic.StableHlo
variable {F : FTy → Type} [FloatOps F]

-- operations 0 to 20 of the 322
abbrev seg1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x256x28x28, .f32⟩) main_arg0) (TRef.of (T := ⟨S_, .f32⟩) main_call0_v0) (TRef.of (T := ⟨S8x256x28x28, .f32⟩) main_v0) (fun x v => pad S8x256x28x28 ![0, 0, 0, 0] ![0, 0, 0, 0] ![0, 0, 0, 0] x v pads_S8x256x28x28_S8x256x28x28_000_000_000_000 h_S_),
    reshape main_arg1 main_v1 rfl shapeCasts_S64x256x1x1_S1x64x256x1x1,
    nullary main_cst (constant S_ .f32 0x00000000#32),
    unary main_cst main_v2 (broadcastInDim S8x64x28x28 ![] bcast_S_S8x64x28x28 : (⟨S_, .f32⟩ : BufTy).Contents (Elt F) → (⟨S8x64x28x28, .f32⟩ : BufTy).Contents (Elt F)),
    unary main_v0 main_v3 ((extractStridedSlice S8x256x28x28 ![0, 0, 0, 0] · slices_S8x256x28x28_S8x256x28x28_0_0_0_0) : (⟨S8x256x28x28, .f32⟩ : BufTy).Contents (Elt F) → (⟨S8x256x28x28, .f32⟩ : BufTy).Contents (Elt F)),
    reshape main_v3 main_v4 rfl shapeCasts_S8x256x28x28_S8x1x1x256x28x28,
    reshape main_v1 main_v5 rfl shapeCasts_S1x64x256x1x1_S1x64x256,
    unary main_v5 main_v6 (broadcastInDim S1x1x64x256x1x1 ![1, 2, 3] bcast_S1x64x256_S1x1x64x256x1x1_1_2_3 : (⟨S1x64x256, .f32⟩ : BufTy).Contents (Elt F) → (⟨S1x1x64x256x1x1, .f32⟩ : BufTy).Contents (Elt F)),
    unary main_v4 main_v7 (broadcastInDim S8x1x64x256x28x28 ![0, 1, 2, 3, 4, 5] bcast_S8x1x1x256x28x28_S8x1x64x256x28x28_0_1_2_3_4_5 : (⟨S8x1x1x256x28x28, .f32⟩ : BufTy).Contents (Elt F) → (⟨S8x1x64x256x28x28, .f32⟩ : BufTy).Contents (Elt F)),
    unary main_v6 main_v8 (broadcastInDim S8x1x64x256x28x28 ![0, 1, 2, 3, 4, 5] bcast_S1x1x64x256x1x1_S8x1x64x256x28x28_0_1_2_3_4_5 : (⟨S1x1x64x256x1x1, .f32⟩ : BufTy).Contents (Elt F) → (⟨S8x1x64x256x28x28, .f32⟩ : BufTy).Contents (Elt F)),
    binary main_v7 main_v8 main_v9 (subf : (⟨S8x1x64x256x28x28, .f32⟩ : BufTy).Contents (Elt F) → (⟨S8x1x64x256x28x28, .f32⟩ : BufTy).Contents (Elt F) → (⟨S8x1x64x256x28x28, .f32⟩ : BufTy).Contents (Elt F)),
    unary main_v9 main_v10 (Host.absf : (⟨S8x1x64x256x28x28, .f32⟩ : BufTy).Contents (Elt F) → (⟨S8x1x64x256x28x28, .f32⟩ : BufTy).Contents (Elt F)),
    nullary main_cst_0 (constant S_ .f32 0x00000000#32),
    binary main_v10 main_cst_0 main_v11 ((fun x v => Host.reduceAdd x v reducesTo_S8x1x64x256x28x28_S8x1x64x28x28_d3 h_S_) : (⟨S8x1x64x256x28x28, .f32⟩ : BufTy).Contents (Elt F) → (⟨S_, .f32⟩ : BufTy).Contents (Elt F) → (⟨S8x1x64x28x28, .f32⟩ : BufTy).Contents (Elt F)),
    reshape main_v11 main_v12 rfl shapeCasts_S8x1x64x28x28_S8x64x28x28,
    binary main_v2 main_v12 main_v13 (subf : (⟨S8x64x28x28, .f32⟩ : BufTy).Contents (Elt F) → (⟨S8x64x28x28, .f32⟩ : BufTy).Contents (Elt F) → (⟨S8x64x28x28, .f32⟩ : BufTy).Contents (Elt F)),
    nullary main_c_1 (constantI S_ 32 0#32),
    TRef.unary (TRef.of (T := ⟨S_, .i32⟩) main_c_1) (TRef.of (T := ⟨S_, .f32⟩) main_call1_v0) (sitofp .f32),
    TRef.binary (TRef.of (T := ⟨S8x64x28x28, .f32⟩) main_v13) (TRef.of (T := ⟨S_, .f32⟩) main_call1_v0) (TRef.of (T := ⟨S8x64x30x30, .f32⟩) main_v14) (fun x v => pad S8x64x30x30 ![0, 0, 1, 1] ![0, 0, 1, 1] ![0, 0, 0, 0] x v pads_S8x64x28x28_S8x64x30x30_000_000_110_110 h_S_) ]
abbrev wr1 : List (Ref sig .tc) := [main_c, main_call0_v0, main_v0, main_v1, main_cst, main_v2, main_v3, main_v4, main_v5, main_v6, main_v7, main_v8, main_v9, main_v10, main_cst_0, main_v11, main_v12, main_v13, main_c_1, main_call1_v0, main_v14]

-- operations 21 to 23 of the 322
abbrev seg2 : List (HloOp τ sig (Elt F)) :=
  [ reshape main_arg2 main_v15 rfl shapeCasts_S64x1x3x3_S64x1x1x3x3,
    nullary main_cst_2 (constant S_ .f32 0x00000000#32),
    unary main_cst_2 main_v16 (broadcastInDim S8x64x28x28 ![] bcast_S_S8x64x28x28 : (⟨S_, .f32⟩ : BufTy).Contents (Elt F) → (⟨S8x64x28x28, .f32⟩ : BufTy).Contents (Elt F)) ]
abbrev wr2 : List (Ref sig .tc) := [main_v15, main_cst_2, main_v16]

-- operations 24 to 35 of the 322
abbrev seg3 : List (HloOp τ sig (Elt F)) :=
  [ unary main_v14 main_v17 ((extractStridedSlice S8x64x28x28 ![0, 0, 0, 0] · slices_S8x64x30x30_S8x64x28x28_0_0_0_0) : (⟨S8x64x30x30, .f32⟩ : BufTy).Contents (Elt F) → (⟨S8x64x28x28, .f32⟩ : BufTy).Contents (Elt F)),
    reshape main_v17 main_v18 rfl shapeCasts_S8x64x28x28_S8x64x1x1x28x28,
    unary main_v15 main_v19 ((extractStridedSlice S64x1x1x1x1 ![0, 0, 0, 0, 0] · slices_S64x1x1x3x3_S64x1x1x1x1_0_0_0_0_0) : (⟨S64x1x1x3x3, .f32⟩ : BufTy).Contents (Elt F) → (⟨S64x1x1x1x1, .f32⟩ : BufTy).Contents (Elt F)),
    reshape main_v19 main_v20 rfl shapeCasts_S64x1x1x1x1_S64x1x1,
    unary main_v20 main_v21 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v21 main_v22 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v18 main_v22 main_v23 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v23 main_v24 (Host.absf : (⟨S8x64x1x1x28x28, .f32⟩ : BufTy).Contents (Elt F) → (⟨S8x64x1x1x28x28, .f32⟩ : BufTy).Contents (Elt F)),
    nullary main_cst_3 (constant S_ .f32 0x00000000#32),
    binary main_v24 main_cst_3 main_v25 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v25 main_v26 rfl shapeCasts_S8x64x1x28x28_S8x64x28x28,
    binary main_v16 main_v26 main_v27 (subf : (⟨S8x64x28x28, .f32⟩ : BufTy).Contents (Elt F) → (⟨S8x64x28x28, .f32⟩ : BufTy).Contents (Elt F) → (⟨S8x64x28x28, .f32⟩ : BufTy).Contents (Elt F)) ]
abbrev wr3 : List (Ref sig .tc) := [main_v17, main_v18, main_v19, main_v20, main_v21, main_v22, main_v23, main_v24, main_cst_3, main_v25, main_v26, main_v27]

-- operations 36 to 47 of the 322
abbrev seg4 : List (HloOp τ sig (Elt F)) :=
  [ unary main_v14 main_v28 ((extractStridedSlice S8x64x28x28 ![0, 0, 0, 1] · slices_S8x64x30x30_S8x64x28x28_0_0_0_1) : (⟨S8x64x30x30, .f32⟩ : BufTy).Contents (Elt F) → (⟨S8x64x28x28, .f32⟩ : BufTy).Contents (Elt F)),
    reshape main_v28 main_v29 rfl shapeCasts_S8x64x28x28_S8x64x1x1x28x28,
    unary main_v15 main_v30 ((extractStridedSlice S64x1x1x1x1 ![0, 0, 0, 0, 1] · slices_S64x1x1x3x3_S64x1x1x1x1_0_0_0_0_1) : (⟨S64x1x1x3x3, .f32⟩ : BufTy).Contents (Elt F) → (⟨S64x1x1x1x1, .f32⟩ : BufTy).Contents (Elt F)),
    reshape main_v30 main_v31 rfl shapeCasts_S64x1x1x1x1_S64x1x1,
    unary main_v31 main_v32 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v32 main_v33 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v29 main_v33 main_v34 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v34 main_v35 (Host.absf : (⟨S8x64x1x1x28x28, .f32⟩ : BufTy).Contents (Elt F) → (⟨S8x64x1x1x28x28, .f32⟩ : BufTy).Contents (Elt F)),
    nullary main_cst_4 (constant S_ .f32 0x00000000#32),
    binary main_v35 main_cst_4 main_v36 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v36 main_v37 rfl shapeCasts_S8x64x1x28x28_S8x64x28x28,
    binary main_v27 main_v37 main_v38 (subf : (⟨S8x64x28x28, .f32⟩ : BufTy).Contents (Elt F) → (⟨S8x64x28x28, .f32⟩ : BufTy).Contents (Elt F) → (⟨S8x64x28x28, .f32⟩ : BufTy).Contents (Elt F)) ]
abbrev wr4 : List (Ref sig .tc) := [main_v28, main_v29, main_v30, main_v31, main_v32, main_v33, main_v34, main_v35, main_cst_4, main_v36, main_v37, main_v38]

-- operations 48 to 59 of the 322
abbrev seg5 : List (HloOp τ sig (Elt F)) :=
  [ unary main_v14 main_v39 ((extractStridedSlice S8x64x28x28 ![0, 0, 0, 2] · slices_S8x64x30x30_S8x64x28x28_0_0_0_2) : (⟨S8x64x30x30, .f32⟩ : BufTy).Contents (Elt F) → (⟨S8x64x28x28, .f32⟩ : BufTy).Contents (Elt F)),
    reshape main_v39 main_v40 rfl shapeCasts_S8x64x28x28_S8x64x1x1x28x28,
    unary main_v15 main_v41 ((extractStridedSlice S64x1x1x1x1 ![0, 0, 0, 0, 2] · slices_S64x1x1x3x3_S64x1x1x1x1_0_0_0_0_2) : (⟨S64x1x1x3x3, .f32⟩ : BufTy).Contents (Elt F) → (⟨S64x1x1x1x1, .f32⟩ : BufTy).Contents (Elt F)),
    reshape main_v41 main_v42 rfl shapeCasts_S64x1x1x1x1_S64x1x1,
    unary main_v42 main_v43 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v43 main_v44 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v40 main_v44 main_v45 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v45 main_v46 (Host.absf : (⟨S8x64x1x1x28x28, .f32⟩ : BufTy).Contents (Elt F) → (⟨S8x64x1x1x28x28, .f32⟩ : BufTy).Contents (Elt F)),
    nullary main_cst_5 (constant S_ .f32 0x00000000#32),
    binary main_v46 main_cst_5 main_v47 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v47 main_v48 rfl shapeCasts_S8x64x1x28x28_S8x64x28x28,
    binary main_v38 main_v48 main_v49 (subf : (⟨S8x64x28x28, .f32⟩ : BufTy).Contents (Elt F) → (⟨S8x64x28x28, .f32⟩ : BufTy).Contents (Elt F) → (⟨S8x64x28x28, .f32⟩ : BufTy).Contents (Elt F)) ]
abbrev wr5 : List (Ref sig .tc) := [main_v39, main_v40, main_v41, main_v42, main_v43, main_v44, main_v45, main_v46, main_cst_5, main_v47, main_v48, main_v49]

-- operations 60 to 71 of the 322
abbrev seg6 : List (HloOp τ sig (Elt F)) :=
  [ unary main_v14 main_v50 ((extractStridedSlice S8x64x28x28 ![0, 0, 1, 0] · slices_S8x64x30x30_S8x64x28x28_0_0_1_0) : (⟨S8x64x30x30, .f32⟩ : BufTy).Contents (Elt F) → (⟨S8x64x28x28, .f32⟩ : BufTy).Contents (Elt F)),
    reshape main_v50 main_v51 rfl shapeCasts_S8x64x28x28_S8x64x1x1x28x28,
    unary main_v15 main_v52 ((extractStridedSlice S64x1x1x1x1 ![0, 0, 0, 1, 0] · slices_S64x1x1x3x3_S64x1x1x1x1_0_0_0_1_0) : (⟨S64x1x1x3x3, .f32⟩ : BufTy).Contents (Elt F) → (⟨S64x1x1x1x1, .f32⟩ : BufTy).Contents (Elt F)),
    reshape main_v52 main_v53 rfl shapeCasts_S64x1x1x1x1_S64x1x1,
    unary main_v53 main_v54 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v54 main_v55 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v51 main_v55 main_v56 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v56 main_v57 (Host.absf : (⟨S8x64x1x1x28x28, .f32⟩ : BufTy).Contents (Elt F) → (⟨S8x64x1x1x28x28, .f32⟩ : BufTy).Contents (Elt F)),
    nullary main_cst_6 (constant S_ .f32 0x00000000#32),
    binary main_v57 main_cst_6 main_v58 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v58 main_v59 rfl shapeCasts_S8x64x1x28x28_S8x64x28x28,
    binary main_v49 main_v59 main_v60 (subf : (⟨S8x64x28x28, .f32⟩ : BufTy).Contents (Elt F) → (⟨S8x64x28x28, .f32⟩ : BufTy).Contents (Elt F) → (⟨S8x64x28x28, .f32⟩ : BufTy).Contents (Elt F)) ]
abbrev wr6 : List (Ref sig .tc) := [main_v50, main_v51, main_v52, main_v53, main_v54, main_v55, main_v56, main_v57, main_cst_6, main_v58, main_v59, main_v60]

-- operations 72 to 83 of the 322
abbrev seg7 : List (HloOp τ sig (Elt F)) :=
  [ unary main_v14 main_v61 ((extractStridedSlice S8x64x28x28 ![0, 0, 1, 1] · slices_S8x64x30x30_S8x64x28x28_0_0_1_1) : (⟨S8x64x30x30, .f32⟩ : BufTy).Contents (Elt F) → (⟨S8x64x28x28, .f32⟩ : BufTy).Contents (Elt F)),
    reshape main_v61 main_v62 rfl shapeCasts_S8x64x28x28_S8x64x1x1x28x28,
    unary main_v15 main_v63 ((extractStridedSlice S64x1x1x1x1 ![0, 0, 0, 1, 1] · slices_S64x1x1x3x3_S64x1x1x1x1_0_0_0_1_1) : (⟨S64x1x1x3x3, .f32⟩ : BufTy).Contents (Elt F) → (⟨S64x1x1x1x1, .f32⟩ : BufTy).Contents (Elt F)),
    reshape main_v63 main_v64 rfl shapeCasts_S64x1x1x1x1_S64x1x1,
    unary main_v64 main_v65 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v65 main_v66 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v62 main_v66 main_v67 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v67 main_v68 (Host.absf : (⟨S8x64x1x1x28x28, .f32⟩ : BufTy).Contents (Elt F) → (⟨S8x64x1x1x28x28, .f32⟩ : BufTy).Contents (Elt F)),
    nullary main_cst_7 (constant S_ .f32 0x00000000#32),
    binary main_v68 main_cst_7 main_v69 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v69 main_v70 rfl shapeCasts_S8x64x1x28x28_S8x64x28x28,
    binary main_v60 main_v70 main_v71 (subf : (⟨S8x64x28x28, .f32⟩ : BufTy).Contents (Elt F) → (⟨S8x64x28x28, .f32⟩ : BufTy).Contents (Elt F) → (⟨S8x64x28x28, .f32⟩ : BufTy).Contents (Elt F)) ]
abbrev wr7 : List (Ref sig .tc) := [main_v61, main_v62, main_v63, main_v64, main_v65, main_v66, main_v67, main_v68, main_cst_7, main_v69, main_v70, main_v71]

-- operations 84 to 95 of the 322
abbrev seg8 : List (HloOp τ sig (Elt F)) :=
  [ unary main_v14 main_v72 ((extractStridedSlice S8x64x28x28 ![0, 0, 1, 2] · slices_S8x64x30x30_S8x64x28x28_0_0_1_2) : (⟨S8x64x30x30, .f32⟩ : BufTy).Contents (Elt F) → (⟨S8x64x28x28, .f32⟩ : BufTy).Contents (Elt F)),
    reshape main_v72 main_v73 rfl shapeCasts_S8x64x28x28_S8x64x1x1x28x28,
    unary main_v15 main_v74 ((extractStridedSlice S64x1x1x1x1 ![0, 0, 0, 1, 2] · slices_S64x1x1x3x3_S64x1x1x1x1_0_0_0_1_2) : (⟨S64x1x1x3x3, .f32⟩ : BufTy).Contents (Elt F) → (⟨S64x1x1x1x1, .f32⟩ : BufTy).Contents (Elt F)),
    reshape main_v74 main_v75 rfl shapeCasts_S64x1x1x1x1_S64x1x1,
    unary main_v75 main_v76 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v76 main_v77 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v73 main_v77 main_v78 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v78 main_v79 (Host.absf : (⟨S8x64x1x1x28x28, .f32⟩ : BufTy).Contents (Elt F) → (⟨S8x64x1x1x28x28, .f32⟩ : BufTy).Contents (Elt F)),
    nullary main_cst_8 (constant S_ .f32 0x00000000#32),
    binary main_v79 main_cst_8 main_v80 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v80 main_v81 rfl shapeCasts_S8x64x1x28x28_S8x64x28x28,
    binary main_v71 main_v81 main_v82 (subf : (⟨S8x64x28x28, .f32⟩ : BufTy).Contents (Elt F) → (⟨S8x64x28x28, .f32⟩ : BufTy).Contents (Elt F) → (⟨S8x64x28x28, .f32⟩ : BufTy).Contents (Elt F)) ]
abbrev wr8 : List (Ref sig .tc) := [main_v72, main_v73, main_v74, main_v75, main_v76, main_v77, main_v78, main_v79, main_cst_8, main_v80, main_v81, main_v82]

-- operations 96 to 107 of the 322
abbrev seg9 : List (HloOp τ sig (Elt F)) :=
  [ unary main_v14 main_v83 ((extractStridedSlice S8x64x28x28 ![0, 0, 2, 0] · slices_S8x64x30x30_S8x64x28x28_0_0_2_0) : (⟨S8x64x30x30, .f32⟩ : BufTy).Contents (Elt F) → (⟨S8x64x28x28, .f32⟩ : BufTy).Contents (Elt F)),
    reshape main_v83 main_v84 rfl shapeCasts_S8x64x28x28_S8x64x1x1x28x28,
    unary main_v15 main_v85 ((extractStridedSlice S64x1x1x1x1 ![0, 0, 0, 2, 0] · slices_S64x1x1x3x3_S64x1x1x1x1_0_0_0_2_0) : (⟨S64x1x1x3x3, .f32⟩ : BufTy).Contents (Elt F) → (⟨S64x1x1x1x1, .f32⟩ : BufTy).Contents (Elt F)),
    reshape main_v85 main_v86 rfl shapeCasts_S64x1x1x1x1_S64x1x1,
    unary main_v86 main_v87 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v87 main_v88 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v84 main_v88 main_v89 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v89 main_v90 (Host.absf : (⟨S8x64x1x1x28x28, .f32⟩ : BufTy).Contents (Elt F) → (⟨S8x64x1x1x28x28, .f32⟩ : BufTy).Contents (Elt F)),
    nullary main_cst_9 (constant S_ .f32 0x00000000#32),
    binary main_v90 main_cst_9 main_v91 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v91 main_v92 rfl shapeCasts_S8x64x1x28x28_S8x64x28x28,
    binary main_v82 main_v92 main_v93 (subf : (⟨S8x64x28x28, .f32⟩ : BufTy).Contents (Elt F) → (⟨S8x64x28x28, .f32⟩ : BufTy).Contents (Elt F) → (⟨S8x64x28x28, .f32⟩ : BufTy).Contents (Elt F)) ]
abbrev wr9 : List (Ref sig .tc) := [main_v83, main_v84, main_v85, main_v86, main_v87, main_v88, main_v89, main_v90, main_cst_9, main_v91, main_v92, main_v93]

-- operations 108 to 119 of the 322
abbrev seg10 : List (HloOp τ sig (Elt F)) :=
  [ unary main_v14 main_v94 ((extractStridedSlice S8x64x28x28 ![0, 0, 2, 1] · slices_S8x64x30x30_S8x64x28x28_0_0_2_1) : (⟨S8x64x30x30, .f32⟩ : BufTy).Contents (Elt F) → (⟨S8x64x28x28, .f32⟩ : BufTy).Contents (Elt F)),
    reshape main_v94 main_v95 rfl shapeCasts_S8x64x28x28_S8x64x1x1x28x28,
    unary main_v15 main_v96 ((extractStridedSlice S64x1x1x1x1 ![0, 0, 0, 2, 1] · slices_S64x1x1x3x3_S64x1x1x1x1_0_0_0_2_1) : (⟨S64x1x1x3x3, .f32⟩ : BufTy).Contents (Elt F) → (⟨S64x1x1x1x1, .f32⟩ : BufTy).Contents (Elt F)),
    reshape main_v96 main_v97 rfl shapeCasts_S64x1x1x1x1_S64x1x1,
    unary main_v97 main_v98 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v98 main_v99 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v95 main_v99 main_v100 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v100 main_v101 (Host.absf : (⟨S8x64x1x1x28x28, .f32⟩ : BufTy).Contents (Elt F) → (⟨S8x64x1x1x28x28, .f32⟩ : BufTy).Contents (Elt F)),
    nullary main_cst_10 (constant S_ .f32 0x00000000#32),
    binary main_v101 main_cst_10 main_v102 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v102 main_v103 rfl shapeCasts_S8x64x1x28x28_S8x64x28x28,
    binary main_v93 main_v103 main_v104 (subf : (⟨S8x64x28x28, .f32⟩ : BufTy).Contents (Elt F) → (⟨S8x64x28x28, .f32⟩ : BufTy).Contents (Elt F) → (⟨S8x64x28x28, .f32⟩ : BufTy).Contents (Elt F)) ]
abbrev wr10 : List (Ref sig .tc) := [main_v94, main_v95, main_v96, main_v97, main_v98, main_v99, main_v100, main_v101, main_cst_10, main_v102, main_v103, main_v104]

-- operations 120 to 131 of the 322
abbrev seg11 : List (HloOp τ sig (Elt F)) :=
  [ unary main_v14 main_v105 ((extractStridedSlice S8x64x28x28 ![0, 0, 2, 2] · slices_S8x64x30x30_S8x64x28x28_0_0_2_2) : (⟨S8x64x30x30, .f32⟩ : BufTy).Contents (Elt F) → (⟨S8x64x28x28, .f32⟩ : BufTy).Contents (Elt F)),
    reshape main_v105 main_v106 rfl shapeCasts_S8x64x28x28_S8x64x1x1x28x28,
    unary main_v15 main_v107 ((extractStridedSlice S64x1x1x1x1 ![0, 0, 0, 2, 2] · slices_S64x1x1x3x3_S64x1x1x1x1_0_0_0_2_2) : (⟨S64x1x1x3x3, .f32⟩ : BufTy).Contents (Elt F) → (⟨S64x1x1x1x1, .f32⟩ : BufTy).Contents (Elt F)),
    reshape main_v107 main_v108 rfl shapeCasts_S64x1x1x1x1_S64x1x1,
    unary main_v108 main_v109 (broadcastInDim S1x64x1x1x1x1 ![1, 2, 3] bcast_S64x1x1_S1x64x1x1x1x1_1_2_3 : (⟨S64x1x1, .f32⟩ : BufTy).Contents (Elt F) → (⟨S1x64x1x1x1x1, .f32⟩ : BufTy).Contents (Elt F)),
    unary main_v109 main_v110 (broadcastInDim S8x64x1x1x28x28 ![0, 1, 2, 3, 4, 5] bcast_S1x64x1x1x1x1_S8x64x1x1x28x28_0_1_2_3_4_5 : (⟨S1x64x1x1x1x1, .f32⟩ : BufTy).Contents (Elt F) → (⟨S8x64x1x1x28x28, .f32⟩ : BufTy).Contents (Elt F)),
    binary main_v106 main_v110 main_v111 (subf : (⟨S8x64x1x1x28x28, .f32⟩ : BufTy).Contents (Elt F) → (⟨S8x64x1x1x28x28, .f32⟩ : BufTy).Contents (Elt F) → (⟨S8x64x1x1x28x28, .f32⟩ : BufTy).Contents (Elt F)),
    unary main_v111 main_v112 (Host.absf : (⟨S8x64x1x1x28x28, .f32⟩ : BufTy).Contents (Elt F) → (⟨S8x64x1x1x28x28, .f32⟩ : BufTy).Contents (Elt F)),
    nullary main_cst_11 (constant S_ .f32 0x00000000#32),
    binary main_v112 main_cst_11 main_v113 ((fun x v => Host.reduceAdd x v reducesTo_S8x64x1x1x28x28_S8x64x1x28x28_d3 h_S_) : (⟨S8x64x1x1x28x28, .f32⟩ : BufTy).Contents (Elt F) → (⟨S_, .f32⟩ : BufTy).Contents (Elt F) → (⟨S8x64x1x28x28, .f32⟩ : BufTy).Contents (Elt F)),
    reshape main_v113 main_v114 rfl shapeCasts_S8x64x1x28x28_S8x64x28x28,
    binary main_v104 main_v114 main_v115 (subf : (⟨S8x64x28x28, .f32⟩ : BufTy).Contents (Elt F) → (⟨S8x64x28x28, .f32⟩ : BufTy).Contents (Elt F) → (⟨S8x64x28x28, .f32⟩ : BufTy).Contents (Elt F)) ]
abbrev wr11 : List (Ref sig .tc) := [main_v105, main_v106, main_v107, main_v108, main_v109, main_v110, main_v111, main_v112, main_cst_11, main_v113, main_v114, main_v115]

-- operations 132 to 150 of the 322
abbrev seg12 : List (HloOp τ sig (Elt F)) :=
  [ nullary main_cst_12 (constant S_ .f32 0x3727C5AC#32),
    unary main_cst_12 main_v116 (broadcastInDim S64 ![] bcast_S_S64 : (⟨S_, .f32⟩ : BufTy).Contents (Elt F) → (⟨S64, .f32⟩ : BufTy).Contents (Elt F)),
    binary main_arg8 main_v116 main_v117 (addf : (⟨S64, .f32⟩ : BufTy).Contents (Elt F) → (⟨S64, .f32⟩ : BufTy).Contents (Elt F) → (⟨S64, .f32⟩ : BufTy).Contents (Elt F)),
    unary main_v117 main_v118 (Host.sqrt : (⟨S64, .f32⟩ : BufTy).Contents (Elt F) → (⟨S64, .f32⟩ : BufTy).Contents (Elt F)),
    binary main_arg5 main_v118 main_v119 (Host.divf : (⟨S64, .f32⟩ : BufTy).Contents (Elt F) → (⟨S64, .f32⟩ : BufTy).Contents (Elt F) → (⟨S64, .f32⟩ : BufTy).Contents (Elt F)),
    unary main_v119 main_v120 (broadcastInDim S1x64x1x1 ![1] bcast_S64_S1x64x1x1_1 : (⟨S64, .f32⟩ : BufTy).Contents (Elt F) → (⟨S1x64x1x1, .f32⟩ : BufTy).Contents (Elt F)),
    unary main_v120 main_v121 (broadcastInDim S8x64x28x28 ![0, 1, 2, 3] bcast_S1x64x1x1_S8x64x28x28_0_1_2_3 : (⟨S1x64x1x1, .f32⟩ : BufTy).Contents (Elt F) → (⟨S8x64x28x28, .f32⟩ : BufTy).Contents (Elt F)),
    binary main_v115 main_v121 main_v122 (mulf : (⟨S8x64x28x28, .f32⟩ : BufTy).Contents (Elt F) → (⟨S8x64x28x28, .f32⟩ : BufTy).Contents (Elt F) → (⟨S8x64x28x28, .f32⟩ : BufTy).Contents (Elt F)),
    binary main_arg7 main_v119 main_v123 (mulf : (⟨S64, .f32⟩ : BufTy).Contents (Elt F) → (⟨S64, .f32⟩ : BufTy).Contents (Elt F) → (⟨S64, .f32⟩ : BufTy).Contents (Elt F)),
    binary main_arg6 main_v123 main_v124 (subf : (⟨S64, .f32⟩ : BufTy).Contents (Elt F) → (⟨S64, .f32⟩ : BufTy).Contents (Elt F) → (⟨S64, .f32⟩ : BufTy).Contents (Elt F)),
    unary main_v124 main_v125 (broadcastInDim S1x64x1x1 ![1] bcast_S64_S1x64x1x1_1 : (⟨S64, .f32⟩ : BufTy).Contents (Elt F) → (⟨S1x64x1x1, .f32⟩ : BufTy).Contents (Elt F)),
    unary main_v125 main_v126 (broadcastInDim S8x64x28x28 ![0, 1, 2, 3] bcast_S1x64x1x1_S8x64x28x28_0_1_2_3 : (⟨S1x64x1x1, .f32⟩ : BufTy).Contents (Elt F) → (⟨S8x64x28x28, .f32⟩ : BufTy).Contents (Elt F)),
    binary main_v122 main_v126 main_v127 (addf : (⟨S8x64x28x28, .f32⟩ : BufTy).Contents (Elt F) → (⟨S8x64x28x28, .f32⟩ : BufTy).Contents (Elt F) → (⟨S8x64x28x28, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x64x28x28, .f32⟩) main_call2_v0) (broadcastInDim S8x64x28x28 ![] bcast_S_S8x64x28x28),
    TRef.binary (TRef.of (T := ⟨S8x64x28x28, .f32⟩) main_v127) (TRef.of (T := ⟨S8x64x28x28, .f32⟩) main_call2_v0) (TRef.of (T := ⟨S8x64x28x28, .f32⟩) main_v128) maximumf,
    nullary main_c_13 (constantI S_ 32 0#32),
    TRef.unary (TRef.of (T := ⟨S_, .i32⟩) main_c_13) (TRef.of (T := ⟨S_, .f32⟩) main_call3_v0) (sitofp .f32),
    TRef.binary (TRef.of (T := ⟨S8x64x28x28, .f32⟩) main_v128) (TRef.of (T := ⟨S_, .f32⟩) main_call3_v0) (TRef.of (T := ⟨S8x64x30x30, .f32⟩) main_v129) (fun x v => pad S8x64x30x30 ![0, 0, 1, 1] ![0, 0, 1, 1] ![0, 0, 0, 0] x v pads_S8x64x28x28_S8x64x30x30_000_000_110_110 h_S_) ]
abbrev wr12 : List (Ref sig .tc) := [main_cst_12, main_v116, main_v117, main_v118, main_v119, main_v120, main_v121, main_v122, main_v123, main_v124, main_v125, main_v126, main_v127, main_call2_cst, main_call2_v0, main_v128, main_c_13, main_call3_v0, main_v129]

-- operations 151 to 153 of the 322
abbrev seg13 : List (HloOp τ sig (Elt F)) :=
  [ reshape main_arg3 main_v130 rfl shapeCasts_S64x64x3x3_S1x64x64x3x3,
    nullary main_cst_14 (constant S_ .f32 0x00000000#32),
    unary main_cst_14 main_v131 (broadcastInDim S8x64x28x28 ![] bcast_S_S8x64x28x28 : (⟨S_, .f32⟩ : BufTy).Contents (Elt F) → (⟨S8x64x28x28, .f32⟩ : BufTy).Contents (Elt F)) ]
abbrev wr13 : List (Ref sig .tc) := [main_v130, main_cst_14, main_v131]

-- operations 154 to 166 of the 322
abbrev seg14 : List (HloOp τ sig (Elt F)) :=
  [ unary main_v129 main_v132 ((extractStridedSlice S8x64x28x28 ![0, 0, 0, 0] · slices_S8x64x30x30_S8x64x28x28_0_0_0_0) : (⟨S8x64x30x30, .f32⟩ : BufTy).Contents (Elt F) → (⟨S8x64x28x28, .f32⟩ : BufTy).Contents (Elt F)),
    reshape main_v132 main_v133 rfl shapeCasts_S8x64x28x28_S8x1x1x64x28x28,
    unary main_v130 main_v134 ((extractStridedSlice S1x64x64x1x1 ![0, 0, 0, 0, 0] · slices_S1x64x64x3x3_S1x64x64x1x1_0_0_0_0_0) : (⟨S1x64x64x3x3, .f32⟩ : BufTy).Contents (Elt F) → (⟨S1x64x64x1x1, .f32⟩ : BufTy).Contents (Elt F)),
    reshape main_v134 main_v135 rfl shapeCasts_S1x64x64x1x1_S1x64x64,
    unary main_v135 main_v136 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v133 main_v137 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v136 main_v138 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v137 main_v138 main_v139 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v139 main_v140 (Host.absf : (⟨S8x1x64x64x28x28, .f32⟩ : BufTy).Contents (Elt F) → (⟨S8x1x64x64x28x28, .f32⟩ : BufTy).Contents (Elt F)),
    nullary main_cst_15 (constant S_ .f32 0x00000000#32),
    binary main_v140 main_cst_15 main_v141 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v141 main_v142 rfl shapeCasts_S8x1x64x28x28_S8x64x28x28,
    binary main_v131 main_v142 main_v143 (subf : (⟨S8x64x28x28, .f32⟩ : BufTy).Contents (Elt F) → (⟨S8x64x28x28, .f32⟩ : BufTy).Contents (Elt F) → (⟨S8x64x28x28, .f32⟩ : BufTy).Contents (Elt F)) ]
abbrev wr14 : List (Ref sig .tc) := [main_v132, main_v133, main_v134, main_v135, main_v136, main_v137, main_v138, main_v139, main_v140, main_cst_15, main_v141, main_v142, main_v143]

-- operations 167 to 179 of the 322
abbrev seg15 : List (HloOp τ sig (Elt F)) :=
  [ unary main_v129 main_v144 ((extractStridedSlice S8x64x28x28 ![0, 0, 0, 1] · slices_S8x64x30x30_S8x64x28x28_0_0_0_1) : (⟨S8x64x30x30, .f32⟩ : BufTy).Contents (Elt F) → (⟨S8x64x28x28, .f32⟩ : BufTy).Contents (Elt F)),
    reshape main_v144 main_v145 rfl shapeCasts_S8x64x28x28_S8x1x1x64x28x28,
    unary main_v130 main_v146 ((extractStridedSlice S1x64x64x1x1 ![0, 0, 0, 0, 1] · slices_S1x64x64x3x3_S1x64x64x1x1_0_0_0_0_1) : (⟨S1x64x64x3x3, .f32⟩ : BufTy).Contents (Elt F) → (⟨S1x64x64x1x1, .f32⟩ : BufTy).Contents (Elt F)),
    reshape main_v146 main_v147 rfl shapeCasts_S1x64x64x1x1_S1x64x64,
    unary main_v147 main_v148 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v145 main_v149 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v148 main_v150 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v149 main_v150 main_v151 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v151 main_v152 (Host.absf : (⟨S8x1x64x64x28x28, .f32⟩ : BufTy).Contents (Elt F) → (⟨S8x1x64x64x28x28, .f32⟩ : BufTy).Contents (Elt F)),
    nullary main_cst_16 (constant S_ .f32 0x00000000#32),
    binary main_v152 main_cst_16 main_v153 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v153 main_v154 rfl shapeCasts_S8x1x64x28x28_S8x64x28x28,
    binary main_v143 main_v154 main_v155 (subf : (⟨S8x64x28x28, .f32⟩ : BufTy).Contents (Elt F) → (⟨S8x64x28x28, .f32⟩ : BufTy).Contents (Elt F) → (⟨S8x64x28x28, .f32⟩ : BufTy).Contents (Elt F)) ]
abbrev wr15 : List (Ref sig .tc) := [main_v144, main_v145, main_v146, main_v147, main_v148, main_v149, main_v150, main_v151, main_v152, main_cst_16, main_v153, main_v154, main_v155]

-- operations 180 to 192 of the 322
abbrev seg16 : List (HloOp τ sig (Elt F)) :=
  [ unary main_v129 main_v156 ((extractStridedSlice S8x64x28x28 ![0, 0, 0, 2] · slices_S8x64x30x30_S8x64x28x28_0_0_0_2) : (⟨S8x64x30x30, .f32⟩ : BufTy).Contents (Elt F) → (⟨S8x64x28x28, .f32⟩ : BufTy).Contents (Elt F)),
    reshape main_v156 main_v157 rfl shapeCasts_S8x64x28x28_S8x1x1x64x28x28,
    unary main_v130 main_v158 ((extractStridedSlice S1x64x64x1x1 ![0, 0, 0, 0, 2] · slices_S1x64x64x3x3_S1x64x64x1x1_0_0_0_0_2) : (⟨S1x64x64x3x3, .f32⟩ : BufTy).Contents (Elt F) → (⟨S1x64x64x1x1, .f32⟩ : BufTy).Contents (Elt F)),
    reshape main_v158 main_v159 rfl shapeCasts_S1x64x64x1x1_S1x64x64,
    unary main_v159 main_v160 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v157 main_v161 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v160 main_v162 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v161 main_v162 main_v163 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v163 main_v164 (Host.absf : (⟨S8x1x64x64x28x28, .f32⟩ : BufTy).Contents (Elt F) → (⟨S8x1x64x64x28x28, .f32⟩ : BufTy).Contents (Elt F)),
    nullary main_cst_17 (constant S_ .f32 0x00000000#32),
    binary main_v164 main_cst_17 main_v165 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v165 main_v166 rfl shapeCasts_S8x1x64x28x28_S8x64x28x28,
    binary main_v155 main_v166 main_v167 (subf : (⟨S8x64x28x28, .f32⟩ : BufTy).Contents (Elt F) → (⟨S8x64x28x28, .f32⟩ : BufTy).Contents (Elt F) → (⟨S8x64x28x28, .f32⟩ : BufTy).Contents (Elt F)) ]
abbrev wr16 : List (Ref sig .tc) := [main_v156, main_v157, main_v158, main_v159, main_v160, main_v161, main_v162, main_v163, main_v164, main_cst_17, main_v165, main_v166, main_v167]

-- operations 193 to 205 of the 322
abbrev seg17 : List (HloOp τ sig (Elt F)) :=
  [ unary main_v129 main_v168 ((extractStridedSlice S8x64x28x28 ![0, 0, 1, 0] · slices_S8x64x30x30_S8x64x28x28_0_0_1_0) : (⟨S8x64x30x30, .f32⟩ : BufTy).Contents (Elt F) → (⟨S8x64x28x28, .f32⟩ : BufTy).Contents (Elt F)),
    reshape main_v168 main_v169 rfl shapeCasts_S8x64x28x28_S8x1x1x64x28x28,
    unary main_v130 main_v170 ((extractStridedSlice S1x64x64x1x1 ![0, 0, 0, 1, 0] · slices_S1x64x64x3x3_S1x64x64x1x1_0_0_0_1_0) : (⟨S1x64x64x3x3, .f32⟩ : BufTy).Contents (Elt F) → (⟨S1x64x64x1x1, .f32⟩ : BufTy).Contents (Elt F)),
    reshape main_v170 main_v171 rfl shapeCasts_S1x64x64x1x1_S1x64x64,
    unary main_v171 main_v172 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v169 main_v173 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v172 main_v174 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v173 main_v174 main_v175 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v175 main_v176 (Host.absf : (⟨S8x1x64x64x28x28, .f32⟩ : BufTy).Contents (Elt F) → (⟨S8x1x64x64x28x28, .f32⟩ : BufTy).Contents (Elt F)),
    nullary main_cst_18 (constant S_ .f32 0x00000000#32),
    binary main_v176 main_cst_18 main_v177 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v177 main_v178 rfl shapeCasts_S8x1x64x28x28_S8x64x28x28,
    binary main_v167 main_v178 main_v179 (subf : (⟨S8x64x28x28, .f32⟩ : BufTy).Contents (Elt F) → (⟨S8x64x28x28, .f32⟩ : BufTy).Contents (Elt F) → (⟨S8x64x28x28, .f32⟩ : BufTy).Contents (Elt F)) ]
abbrev wr17 : List (Ref sig .tc) := [main_v168, main_v169, main_v170, main_v171, main_v172, main_v173, main_v174, main_v175, main_v176, main_cst_18, main_v177, main_v178, main_v179]

-- operations 206 to 218 of the 322
abbrev seg18 : List (HloOp τ sig (Elt F)) :=
  [ unary main_v129 main_v180 ((extractStridedSlice S8x64x28x28 ![0, 0, 1, 1] · slices_S8x64x30x30_S8x64x28x28_0_0_1_1) : (⟨S8x64x30x30, .f32⟩ : BufTy).Contents (Elt F) → (⟨S8x64x28x28, .f32⟩ : BufTy).Contents (Elt F)),
    reshape main_v180 main_v181 rfl shapeCasts_S8x64x28x28_S8x1x1x64x28x28,
    unary main_v130 main_v182 ((extractStridedSlice S1x64x64x1x1 ![0, 0, 0, 1, 1] · slices_S1x64x64x3x3_S1x64x64x1x1_0_0_0_1_1) : (⟨S1x64x64x3x3, .f32⟩ : BufTy).Contents (Elt F) → (⟨S1x64x64x1x1, .f32⟩ : BufTy).Contents (Elt F)),
    reshape main_v182 main_v183 rfl shapeCasts_S1x64x64x1x1_S1x64x64,
    unary main_v183 main_v184 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v181 main_v185 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v184 main_v186 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v185 main_v186 main_v187 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v187 main_v188 (Host.absf : (⟨S8x1x64x64x28x28, .f32⟩ : BufTy).Contents (Elt F) → (⟨S8x1x64x64x28x28, .f32⟩ : BufTy).Contents (Elt F)),
    nullary main_cst_19 (constant S_ .f32 0x00000000#32),
    binary main_v188 main_cst_19 main_v189 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v189 main_v190 rfl shapeCasts_S8x1x64x28x28_S8x64x28x28,
    binary main_v179 main_v190 main_v191 (subf : (⟨S8x64x28x28, .f32⟩ : BufTy).Contents (Elt F) → (⟨S8x64x28x28, .f32⟩ : BufTy).Contents (Elt F) → (⟨S8x64x28x28, .f32⟩ : BufTy).Contents (Elt F)) ]
abbrev wr18 : List (Ref sig .tc) := [main_v180, main_v181, main_v182, main_v183, main_v184, main_v185, main_v186, main_v187, main_v188, main_cst_19, main_v189, main_v190, main_v191]

-- operations 219 to 231 of the 322
abbrev seg19 : List (HloOp τ sig (Elt F)) :=
  [ unary main_v129 main_v192 ((extractStridedSlice S8x64x28x28 ![0, 0, 1, 2] · slices_S8x64x30x30_S8x64x28x28_0_0_1_2) : (⟨S8x64x30x30, .f32⟩ : BufTy).Contents (Elt F) → (⟨S8x64x28x28, .f32⟩ : BufTy).Contents (Elt F)),
    reshape main_v192 main_v193 rfl shapeCasts_S8x64x28x28_S8x1x1x64x28x28,
    unary main_v130 main_v194 ((extractStridedSlice S1x64x64x1x1 ![0, 0, 0, 1, 2] · slices_S1x64x64x3x3_S1x64x64x1x1_0_0_0_1_2) : (⟨S1x64x64x3x3, .f32⟩ : BufTy).Contents (Elt F) → (⟨S1x64x64x1x1, .f32⟩ : BufTy).Contents (Elt F)),
    reshape main_v194 main_v195 rfl shapeCasts_S1x64x64x1x1_S1x64x64,
    unary main_v195 main_v196 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v193 main_v197 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v196 main_v198 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v197 main_v198 main_v199 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v199 main_v200 (Host.absf : (⟨S8x1x64x64x28x28, .f32⟩ : BufTy).Contents (Elt F) → (⟨S8x1x64x64x28x28, .f32⟩ : BufTy).Contents (Elt F)),
    nullary main_cst_20 (constant S_ .f32 0x00000000#32),
    binary main_v200 main_cst_20 main_v201 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v201 main_v202 rfl shapeCasts_S8x1x64x28x28_S8x64x28x28,
    binary main_v191 main_v202 main_v203 (subf : (⟨S8x64x28x28, .f32⟩ : BufTy).Contents (Elt F) → (⟨S8x64x28x28, .f32⟩ : BufTy).Contents (Elt F) → (⟨S8x64x28x28, .f32⟩ : BufTy).Contents (Elt F)) ]
abbrev wr19 : List (Ref sig .tc) := [main_v192, main_v193, main_v194, main_v195, main_v196, main_v197, main_v198, main_v199, main_v200, main_cst_20, main_v201, main_v202, main_v203]

-- operations 232 to 244 of the 322
abbrev seg20 : List (HloOp τ sig (Elt F)) :=
  [ unary main_v129 main_v204 ((extractStridedSlice S8x64x28x28 ![0, 0, 2, 0] · slices_S8x64x30x30_S8x64x28x28_0_0_2_0) : (⟨S8x64x30x30, .f32⟩ : BufTy).Contents (Elt F) → (⟨S8x64x28x28, .f32⟩ : BufTy).Contents (Elt F)),
    reshape main_v204 main_v205 rfl shapeCasts_S8x64x28x28_S8x1x1x64x28x28,
    unary main_v130 main_v206 ((extractStridedSlice S1x64x64x1x1 ![0, 0, 0, 2, 0] · slices_S1x64x64x3x3_S1x64x64x1x1_0_0_0_2_0) : (⟨S1x64x64x3x3, .f32⟩ : BufTy).Contents (Elt F) → (⟨S1x64x64x1x1, .f32⟩ : BufTy).Contents (Elt F)),
    reshape main_v206 main_v207 rfl shapeCasts_S1x64x64x1x1_S1x64x64,
    unary main_v207 main_v208 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v205 main_v209 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v208 main_v210 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v209 main_v210 main_v211 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v211 main_v212 (Host.absf : (⟨S8x1x64x64x28x28, .f32⟩ : BufTy).Contents (Elt F) → (⟨S8x1x64x64x28x28, .f32⟩ : BufTy).Contents (Elt F)),
    nullary main_cst_21 (constant S_ .f32 0x00000000#32),
    binary main_v212 main_cst_21 main_v213 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v213 main_v214 rfl shapeCasts_S8x1x64x28x28_S8x64x28x28,
    binary main_v203 main_v214 main_v215 (subf : (⟨S8x64x28x28, .f32⟩ : BufTy).Contents (Elt F) → (⟨S8x64x28x28, .f32⟩ : BufTy).Contents (Elt F) → (⟨S8x64x28x28, .f32⟩ : BufTy).Contents (Elt F)) ]
abbrev wr20 : List (Ref sig .tc) := [main_v204, main_v205, main_v206, main_v207, main_v208, main_v209, main_v210, main_v211, main_v212, main_cst_21, main_v213, main_v214, main_v215]

-- operations 245 to 257 of the 322
abbrev seg21 : List (HloOp τ sig (Elt F)) :=
  [ unary main_v129 main_v216 ((extractStridedSlice S8x64x28x28 ![0, 0, 2, 1] · slices_S8x64x30x30_S8x64x28x28_0_0_2_1) : (⟨S8x64x30x30, .f32⟩ : BufTy).Contents (Elt F) → (⟨S8x64x28x28, .f32⟩ : BufTy).Contents (Elt F)),
    reshape main_v216 main_v217 rfl shapeCasts_S8x64x28x28_S8x1x1x64x28x28,
    unary main_v130 main_v218 ((extractStridedSlice S1x64x64x1x1 ![0, 0, 0, 2, 1] · slices_S1x64x64x3x3_S1x64x64x1x1_0_0_0_2_1) : (⟨S1x64x64x3x3, .f32⟩ : BufTy).Contents (Elt F) → (⟨S1x64x64x1x1, .f32⟩ : BufTy).Contents (Elt F)),
    reshape main_v218 main_v219 rfl shapeCasts_S1x64x64x1x1_S1x64x64,
    unary main_v219 main_v220 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v217 main_v221 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v220 main_v222 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v221 main_v222 main_v223 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v223 main_v224 (Host.absf : (⟨S8x1x64x64x28x28, .f32⟩ : BufTy).Contents (Elt F) → (⟨S8x1x64x64x28x28, .f32⟩ : BufTy).Contents (Elt F)),
    nullary main_cst_22 (constant S_ .f32 0x00000000#32),
    binary main_v224 main_cst_22 main_v225 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v225 main_v226 rfl shapeCasts_S8x1x64x28x28_S8x64x28x28,
    binary main_v215 main_v226 main_v227 (subf : (⟨S8x64x28x28, .f32⟩ : BufTy).Contents (Elt F) → (⟨S8x64x28x28, .f32⟩ : BufTy).Contents (Elt F) → (⟨S8x64x28x28, .f32⟩ : BufTy).Contents (Elt F)) ]
abbrev wr21 : List (Ref sig .tc) := [main_v216, main_v217, main_v218, main_v219, main_v220, main_v221, main_v222, main_v223, main_v224, main_cst_22, main_v225, main_v226, main_v227]

-- operations 258 to 270 of the 322
abbrev seg22 : List (HloOp τ sig (Elt F)) :=
  [ unary main_v129 main_v228 ((extractStridedSlice S8x64x28x28 ![0, 0, 2, 2] · slices_S8x64x30x30_S8x64x28x28_0_0_2_2) : (⟨S8x64x30x30, .f32⟩ : BufTy).Contents (Elt F) → (⟨S8x64x28x28, .f32⟩ : BufTy).Contents (Elt F)),
    reshape main_v228 main_v229 rfl shapeCasts_S8x64x28x28_S8x1x1x64x28x28,
    unary main_v130 main_v230 ((extractStridedSlice S1x64x64x1x1 ![0, 0, 0, 2, 2] · slices_S1x64x64x3x3_S1x64x64x1x1_0_0_0_2_2) : (⟨S1x64x64x3x3, .f32⟩ : BufTy).Contents (Elt F) → (⟨S1x64x64x1x1, .f32⟩ : BufTy).Contents (Elt F)),
    reshape main_v230 main_v231 rfl shapeCasts_S1x64x64x1x1_S1x64x64,
    unary main_v231 main_v232 (broadcastInDim S1x1x64x64x1x1 ![1, 2, 3] bcast_S1x64x64_S1x1x64x64x1x1_1_2_3 : (⟨S1x64x64, .f32⟩ : BufTy).Contents (Elt F) → (⟨S1x1x64x64x1x1, .f32⟩ : BufTy).Contents (Elt F)),
    unary main_v229 main_v233 (broadcastInDim S8x1x64x64x28x28 ![0, 1, 2, 3, 4, 5] bcast_S8x1x1x64x28x28_S8x1x64x64x28x28_0_1_2_3_4_5 : (⟨S8x1x1x64x28x28, .f32⟩ : BufTy).Contents (Elt F) → (⟨S8x1x64x64x28x28, .f32⟩ : BufTy).Contents (Elt F)),
    unary main_v232 main_v234 (broadcastInDim S8x1x64x64x28x28 ![0, 1, 2, 3, 4, 5] bcast_S1x1x64x64x1x1_S8x1x64x64x28x28_0_1_2_3_4_5 : (⟨S1x1x64x64x1x1, .f32⟩ : BufTy).Contents (Elt F) → (⟨S8x1x64x64x28x28, .f32⟩ : BufTy).Contents (Elt F)),
    binary main_v233 main_v234 main_v235 (subf : (⟨S8x1x64x64x28x28, .f32⟩ : BufTy).Contents (Elt F) → (⟨S8x1x64x64x28x28, .f32⟩ : BufTy).Contents (Elt F) → (⟨S8x1x64x64x28x28, .f32⟩ : BufTy).Contents (Elt F)),
    unary main_v235 main_v236 (Host.absf : (⟨S8x1x64x64x28x28, .f32⟩ : BufTy).Contents (Elt F) → (⟨S8x1x64x64x28x28, .f32⟩ : BufTy).Contents (Elt F)),
    nullary main_cst_23 (constant S_ .f32 0x00000000#32),
    binary main_v236 main_cst_23 main_v237 ((fun x v => Host.reduceAdd x v reducesTo_S8x1x64x64x28x28_S8x1x64x28x28_d3 h_S_) : (⟨S8x1x64x64x28x28, .f32⟩ : BufTy).Contents (Elt F) → (⟨S_, .f32⟩ : BufTy).Contents (Elt F) → (⟨S8x1x64x28x28, .f32⟩ : BufTy).Contents (Elt F)),
    reshape main_v237 main_v238 rfl shapeCasts_S8x1x64x28x28_S8x64x28x28,
    binary main_v227 main_v238 main_v239 (subf : (⟨S8x64x28x28, .f32⟩ : BufTy).Contents (Elt F) → (⟨S8x64x28x28, .f32⟩ : BufTy).Contents (Elt F) → (⟨S8x64x28x28, .f32⟩ : BufTy).Contents (Elt F)) ]
abbrev wr22 : List (Ref sig .tc) := [main_v228, main_v229, main_v230, main_v231, main_v232, main_v233, main_v234, main_v235, main_v236, main_cst_23, main_v237, main_v238, main_v239]

-- operations 271 to 289 of the 322
abbrev seg23 : List (HloOp τ sig (Elt F)) :=
  [ nullary main_cst_24 (constant S_ .f32 0x3727C5AC#32),
    unary main_cst_24 main_v240 (broadcastInDim S64 ![] bcast_S_S64 : (⟨S_, .f32⟩ : BufTy).Contents (Elt F) → (⟨S64, .f32⟩ : BufTy).Contents (Elt F)),
    binary main_arg12 main_v240 main_v241 (addf : (⟨S64, .f32⟩ : BufTy).Contents (Elt F) → (⟨S64, .f32⟩ : BufTy).Contents (Elt F) → (⟨S64, .f32⟩ : BufTy).Contents (Elt F)),
    unary main_v241 main_v242 (Host.sqrt : (⟨S64, .f32⟩ : BufTy).Contents (Elt F) → (⟨S64, .f32⟩ : BufTy).Contents (Elt F)),
    binary main_arg9 main_v242 main_v243 (Host.divf : (⟨S64, .f32⟩ : BufTy).Contents (Elt F) → (⟨S64, .f32⟩ : BufTy).Contents (Elt F) → (⟨S64, .f32⟩ : BufTy).Contents (Elt F)),
    unary main_v243 main_v244 (broadcastInDim S1x64x1x1 ![1] bcast_S64_S1x64x1x1_1 : (⟨S64, .f32⟩ : BufTy).Contents (Elt F) → (⟨S1x64x1x1, .f32⟩ : BufTy).Contents (Elt F)),
    unary main_v244 main_v245 (broadcastInDim S8x64x28x28 ![0, 1, 2, 3] bcast_S1x64x1x1_S8x64x28x28_0_1_2_3 : (⟨S1x64x1x1, .f32⟩ : BufTy).Contents (Elt F) → (⟨S8x64x28x28, .f32⟩ : BufTy).Contents (Elt F)),
    binary main_v239 main_v245 main_v246 (mulf : (⟨S8x64x28x28, .f32⟩ : BufTy).Contents (Elt F) → (⟨S8x64x28x28, .f32⟩ : BufTy).Contents (Elt F) → (⟨S8x64x28x28, .f32⟩ : BufTy).Contents (Elt F)),
    binary main_arg11 main_v243 main_v247 (mulf : (⟨S64, .f32⟩ : BufTy).Contents (Elt F) → (⟨S64, .f32⟩ : BufTy).Contents (Elt F) → (⟨S64, .f32⟩ : BufTy).Contents (Elt F)),
    binary main_arg10 main_v247 main_v248 (subf : (⟨S64, .f32⟩ : BufTy).Contents (Elt F) → (⟨S64, .f32⟩ : BufTy).Contents (Elt F) → (⟨S64, .f32⟩ : BufTy).Contents (Elt F)),
    unary main_v248 main_v249 (broadcastInDim S1x64x1x1 ![1] bcast_S64_S1x64x1x1_1 : (⟨S64, .f32⟩ : BufTy).Contents (Elt F) → (⟨S1x64x1x1, .f32⟩ : BufTy).Contents (Elt F)),
    unary main_v249 main_v250 (broadcastInDim S8x64x28x28 ![0, 1, 2, 3] bcast_S1x64x1x1_S8x64x28x28_0_1_2_3 : (⟨S1x64x1x1, .f32⟩ : BufTy).Contents (Elt F) → (⟨S8x64x28x28, .f32⟩ : BufTy).Contents (Elt F)),
    binary main_v246 main_v250 main_v251 (addf : (⟨S8x64x28x28, .f32⟩ : BufTy).Contents (Elt F) → (⟨S8x64x28x28, .f32⟩ : BufTy).Contents (Elt F) → (⟨S8x64x28x28, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x64x28x28, .f32⟩) main_call4_v0) (broadcastInDim S8x64x28x28 ![] bcast_S_S8x64x28x28),
    TRef.binary (TRef.of (T := ⟨S8x64x28x28, .f32⟩) main_v251) (TRef.of (T := ⟨S8x64x28x28, .f32⟩) main_call4_v0) (TRef.of (T := ⟨S8x64x28x28, .f32⟩) main_v252) maximumf,
    nullary main_c_25 (constantI S_ 32 0#32),
    TRef.unary (TRef.of (T := ⟨S_, .i32⟩) main_c_25) (TRef.of (T := ⟨S_, .f32⟩) main_call5_v0) (sitofp .f32),
    TRef.binary (TRef.of (T := ⟨S8x64x28x28, .f32⟩) main_v252) (TRef.of (T := ⟨S_, .f32⟩) main_call5_v0) (TRef.of (T := ⟨S8x64x28x28, .f32⟩) main_v253) (fun x v => pad S8x64x28x28 ![0, 0, 0, 0] ![0, 0, 0, 0] ![0, 0, 0, 0] x v pads_S8x64x28x28_S8x64x28x28_000_000_000_000 h_S_) ]
abbrev wr23 : List (Ref sig .tc) := [main_cst_24, main_v240, main_v241, main_v242, main_v243, main_v244, main_v245, main_v246, main_v247, main_v248, main_v249, main_v250, main_v251, main_call4_cst, main_call4_v0, main_v252, main_c_25, main_call5_v0, main_v253]

-- operations 290 to 304 of the 322
abbrev seg24 : List (HloOp τ sig (Elt F)) :=
  [ reshape main_arg4 main_v254 rfl shapeCasts_S256x64x1x1_S1x256x64x1x1,
    nullary main_cst_26 (constant S_ .f32 0x00000000#32),
    unary main_cst_26 main_v255 (broadcastInDim S8x256x28x28 ![] bcast_S_S8x256x28x28 : (⟨S_, .f32⟩ : BufTy).Contents (Elt F) → (⟨S8x256x28x28, .f32⟩ : BufTy).Contents (Elt F)),
    unary main_v253 main_v256 ((extractStridedSlice S8x64x28x28 ![0, 0, 0, 0] · slices_S8x64x28x28_S8x64x28x28_0_0_0_0) : (⟨S8x64x28x28, .f32⟩ : BufTy).Contents (Elt F) → (⟨S8x64x28x28, .f32⟩ : BufTy).Contents (Elt F)),
    reshape main_v256 main_v257 rfl shapeCasts_S8x64x28x28_S8x1x1x64x28x28,
    reshape main_v254 main_v258 rfl shapeCasts_S1x256x64x1x1_S1x256x64,
    unary main_v258 main_v259 (broadcastInDim S1x1x256x64x1x1 ![1, 2, 3] bcast_S1x256x64_S1x1x256x64x1x1_1_2_3 : (⟨S1x256x64, .f32⟩ : BufTy).Contents (Elt F) → (⟨S1x1x256x64x1x1, .f32⟩ : BufTy).Contents (Elt F)),
    unary main_v257 main_v260 (broadcastInDim S8x1x256x64x28x28 ![0, 1, 2, 3, 4, 5] bcast_S8x1x1x64x28x28_S8x1x256x64x28x28_0_1_2_3_4_5 : (⟨S8x1x1x64x28x28, .f32⟩ : BufTy).Contents (Elt F) → (⟨S8x1x256x64x28x28, .f32⟩ : BufTy).Contents (Elt F)),
    unary main_v259 main_v261 (broadcastInDim S8x1x256x64x28x28 ![0, 1, 2, 3, 4, 5] bcast_S1x1x256x64x1x1_S8x1x256x64x28x28_0_1_2_3_4_5 : (⟨S1x1x256x64x1x1, .f32⟩ : BufTy).Contents (Elt F) → (⟨S8x1x256x64x28x28, .f32⟩ : BufTy).Contents (Elt F)),
    binary main_v260 main_v261 main_v262 (subf : (⟨S8x1x256x64x28x28, .f32⟩ : BufTy).Contents (Elt F) → (⟨S8x1x256x64x28x28, .f32⟩ : BufTy).Contents (Elt F) → (⟨S8x1x256x64x28x28, .f32⟩ : BufTy).Contents (Elt F)),
    unary main_v262 main_v263 (Host.absf : (⟨S8x1x256x64x28x28, .f32⟩ : BufTy).Contents (Elt F) → (⟨S8x1x256x64x28x28, .f32⟩ : BufTy).Contents (Elt F)),
    nullary main_cst_27 (constant S_ .f32 0x00000000#32),
    binary main_v263 main_cst_27 main_v264 ((fun x v => Host.reduceAdd x v reducesTo_S8x1x256x64x28x28_S8x1x256x28x28_d3 h_S_) : (⟨S8x1x256x64x28x28, .f32⟩ : BufTy).Contents (Elt F) → (⟨S_, .f32⟩ : BufTy).Contents (Elt F) → (⟨S8x1x256x28x28, .f32⟩ : BufTy).Contents (Elt F)),
    reshape main_v264 main_v265 rfl shapeCasts_S8x1x256x28x28_S8x256x28x28,
    binary main_v255 main_v265 main_v266 (subf : (⟨S8x256x28x28, .f32⟩ : BufTy).Contents (Elt F) → (⟨S8x256x28x28, .f32⟩ : BufTy).Contents (Elt F) → (⟨S8x256x28x28, .f32⟩ : BufTy).Contents (Elt F)) ]
abbrev wr24 : List (Ref sig .tc) := [main_v254, main_cst_26, main_v255, main_v256, main_v257, main_v258, main_v259, main_v260, main_v261, main_v262, main_v263, main_cst_27, main_v264, main_v265, main_v266]

-- operations 305 to 321 of the 322
abbrev seg25 : List (HloOp τ sig (Elt F)) :=
  [ nullary main_cst_28 (constant S_ .f32 0x3727C5AC#32),
    unary main_cst_28 main_v267 (broadcastInDim S256 ![] bcast_S_S256 : (⟨S_, .f32⟩ : BufTy).Contents (Elt F) → (⟨S256, .f32⟩ : BufTy).Contents (Elt F)),
    binary main_arg16 main_v267 main_v268 (addf : (⟨S256, .f32⟩ : BufTy).Contents (Elt F) → (⟨S256, .f32⟩ : BufTy).Contents (Elt F) → (⟨S256, .f32⟩ : BufTy).Contents (Elt F)),
    unary main_v268 main_v269 (Host.sqrt : (⟨S256, .f32⟩ : BufTy).Contents (Elt F) → (⟨S256, .f32⟩ : BufTy).Contents (Elt F)),
    binary main_arg13 main_v269 main_v270 (Host.divf : (⟨S256, .f32⟩ : BufTy).Contents (Elt F) → (⟨S256, .f32⟩ : BufTy).Contents (Elt F) → (⟨S256, .f32⟩ : BufTy).Contents (Elt F)),
    unary main_v270 main_v271 (broadcastInDim S1x256x1x1 ![1] bcast_S256_S1x256x1x1_1 : (⟨S256, .f32⟩ : BufTy).Contents (Elt F) → (⟨S1x256x1x1, .f32⟩ : BufTy).Contents (Elt F)),
    unary main_v271 main_v272 (broadcastInDim S8x256x28x28 ![0, 1, 2, 3] bcast_S1x256x1x1_S8x256x28x28_0_1_2_3 : (⟨S1x256x1x1, .f32⟩ : BufTy).Contents (Elt F) → (⟨S8x256x28x28, .f32⟩ : BufTy).Contents (Elt F)),
    binary main_v266 main_v272 main_v273 (mulf : (⟨S8x256x28x28, .f32⟩ : BufTy).Contents (Elt F) → (⟨S8x256x28x28, .f32⟩ : BufTy).Contents (Elt F) → (⟨S8x256x28x28, .f32⟩ : BufTy).Contents (Elt F)),
    binary main_arg15 main_v270 main_v274 (mulf : (⟨S256, .f32⟩ : BufTy).Contents (Elt F) → (⟨S256, .f32⟩ : BufTy).Contents (Elt F) → (⟨S256, .f32⟩ : BufTy).Contents (Elt F)),
    binary main_arg14 main_v274 main_v275 (subf : (⟨S256, .f32⟩ : BufTy).Contents (Elt F) → (⟨S256, .f32⟩ : BufTy).Contents (Elt F) → (⟨S256, .f32⟩ : BufTy).Contents (Elt F)),
    unary main_v275 main_v276 (broadcastInDim S1x256x1x1 ![1] bcast_S256_S1x256x1x1_1 : (⟨S256, .f32⟩ : BufTy).Contents (Elt F) → (⟨S1x256x1x1, .f32⟩ : BufTy).Contents (Elt F)),
    unary main_v276 main_v277 (broadcastInDim S8x256x28x28 ![0, 1, 2, 3] bcast_S1x256x1x1_S8x256x28x28_0_1_2_3 : (⟨S1x256x1x1, .f32⟩ : BufTy).Contents (Elt F) → (⟨S8x256x28x28, .f32⟩ : BufTy).Contents (Elt F)),
    binary main_v273 main_v277 main_v278 (addf : (⟨S8x256x28x28, .f32⟩ : BufTy).Contents (Elt F) → (⟨S8x256x28x28, .f32⟩ : BufTy).Contents (Elt F) → (⟨S8x256x28x28, .f32⟩ : BufTy).Contents (Elt F)),
    binary main_v278 main_arg0 main_v279 (addf : (⟨S8x256x28x28, .f32⟩ : BufTy).Contents (Elt F) → (⟨S8x256x28x28, .f32⟩ : BufTy).Contents (Elt F) → (⟨S8x256x28x28, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x256x28x28, .f32⟩) main_call6_v0) (broadcastInDim S8x256x28x28 ![] bcast_S_S8x256x28x28),
    TRef.binary (TRef.of (T := ⟨S8x256x28x28, .f32⟩) main_v279) (TRef.of (T := ⟨S8x256x28x28, .f32⟩) main_call6_v0) (TRef.of (T := ⟨S8x256x28x28, .f32⟩) main_v280) maximumf ]
abbrev wr25 : List (Ref sig .tc) := [main_cst_28, main_v267, main_v268, main_v269, main_v270, main_v271, main_v272, main_v273, main_v274, main_v275, main_v276, main_v277, main_v278, main_v279, main_call6_cst, main_call6_v0, main_v280]

end Cert.ResAdd.RefOps
end
-- ==== Proof.RefStretches.lean ====
import proofs.«165038_j41480794144828_1_alg».proof.Proof.RefOps
import proofs.«165038_j41480794144828_1_alg».proof.Proof.RefRead
import Idealize.ShloMosaic.Lib.StableHlo.Run
set_option maxRecDepth 16384
noncomputable section
namespace Cert.ResAdd.R
open Idealize.ShloMosaic Idealize.ShloMosaic.TcCoe Idealize.SL.Sem Idealize.ShloMosaic.StableHlo Cert.ReferenceIdeal Cert.ReferenceIdeal.Gen Cert.ReferenceIdeal.Read Cert.ResAdd.RefOps
variable {F : FTy → Type} [FloatOps F]

/-! ### Stretch 1: operations 0 to 20 -/

theorem seg1_sub : (seg1 (F := F)).Forall fun op => op.bufs ⊆ tcRefs τ sig :=
  ⟨nullary_bufs_sub .., unary_bufs_sub .., binary_bufs_sub .., reshape_bufs_sub .., nullary_bufs_sub .., unary_bufs_sub .., unary_bufs_sub .., reshape_bufs_sub .., reshape_bufs_sub .., unary_bufs_sub .., unary_bufs_sub .., unary_bufs_sub .., binary_bufs_sub .., unary_bufs_sub .., nullary_bufs_sub .., binary_bufs_sub .., reshape_bufs_sub .., binary_bufs_sub .., nullary_bufs_sub .., unary_bufs_sub .., binary_bufs_sub ..⟩

theorem seg1_fresh : ∀ op ∈ (seg1 (F := F)), op.fresh = ∅ := by
  intro _ h; (repeat (cases h with | head => rfl | tail _ h => ?_)); exact nomatch h

theorem seg1_writes : ∀ op ∈ (seg1 (F := F)), op.writes ⊆ (wr1.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg1_keep (V : Valuation τ sig (Elt F)) {r : Ref sig .tc} (hr : r ∉ wr1) :
    after seg1 V (Proc.devRef .tc r) = V (Proc.devRef .tc r) :=
  after_of_writes_sub seg1 V (List.forall_iff_forall_mem.mpr seg1_writes) hr

theorem seg1_main_v14 (V : Valuation τ sig (Elt F)) (x0 : (⟨S8x256x28x28, .f32⟩ : BufTy).Contents (Elt F)) (x1 : (⟨S64x256x1x1, .f32⟩ : BufTy).Contents (Elt F))
    (ha0 : V (Proc.devRef .tc main_arg0) = x0)
    (ha1 : V (Proc.devRef .tc main_arg1) = x1) :
    after seg1 V (Proc.devRef .tc main_v14) = val_main_v14 x0 x1 := by
  subst ha0 ha1
  after_results
  rfl

/-! ### Stretch 2: operations 21 to 23 -/

theorem seg2_sub : (seg2 (F := F)).Forall fun op => op.bufs ⊆ tcRefs τ sig :=
  ⟨reshape_bufs_sub .., nullary_bufs_sub .., unary_bufs_sub ..⟩

theorem seg2_fresh : ∀ op ∈ (seg2 (F := F)), op.fresh = ∅ := by
  intro _ h; (repeat (cases h with | head => rfl | tail _ h => ?_)); exact nomatch h

theorem seg2_writes : ∀ op ∈ (seg2 (F := F)), op.writes ⊆ (wr2.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg2_keep (V : Valuation τ sig (Elt F)) {r : Ref sig .tc} (hr : r ∉ wr2) :
    after seg2 V (Proc.devRef .tc r) = V (Proc.devRef .tc r) :=
  after_of_writes_sub seg2 V (List.forall_iff_forall_mem.mpr seg2_writes) hr

theorem seg2_main_v15 (V : Valuation τ sig (Elt F)) (x2 : (⟨S64x1x3x3, .f32⟩ : BufTy).Contents (Elt F))
    (ha2 : V (Proc.devRef .tc main_arg2) = x2) :
    after seg2 V (Proc.devRef .tc main_v15) = val_main_v15 x2 := by
  subst ha2
  after_results
  rfl

theorem seg2_main_v16 (V : Valuation τ sig (Elt F)) :
    after seg2 V (Proc.devRef .tc main_v16) = val_main_v16 (F := F) := by
  after_results
  rfl

/-! ### Stretch 4: operations 36 to 47 -/

theorem seg4_sub : (seg4 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg4_fresh : ∀ op ∈ (seg4 (F := F)), op.fresh = ∅ := by
  intro _ h; (repeat (cases h with | head => rfl | tail _ h => ?_)); exact nomatch h

theorem seg4_writes : ∀ op ∈ (seg4 (F := F)), op.writes ⊆ (wr4.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg4_keep (V : Valuation τ sig (Elt F)) {r : Ref sig .tc} (hr : r ∉ wr4) :
    after seg4 V (Proc.devRef .tc r) = V (Proc.devRef .tc r) :=
  after_of_writes_sub seg4 V (List.forall_iff_forall_mem.mpr seg4_writes) hr

theorem seg4_main_v38 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v27 : V (Proc.devRef .tc main_v27) = val_main_v27 x0 x1 x2)
    (h_v14 : V (Proc.devRef .tc main_v14) = val_main_v14 x0 x1)
    (h_v15 : V (Proc.devRef .tc main_v15) = val_main_v15 x2) :
    after seg4 V (Proc.devRef .tc main_v38) = val_main_v38 x0 x1 x2 := by
  after_results
  rw [h_v27, h_v14, h_v15]
  rfl

/-! ### Stretch 5: operations 48 to 59 -/

theorem seg5_sub : (seg5 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg5_fresh : ∀ op ∈ (seg5 (F := F)), op.fresh = ∅ := by
  intro _ h; (repeat (cases h with | head => rfl | tail _ h => ?_)); exact nomatch h

theorem seg5_writes : ∀ op ∈ (seg5 (F := F)), op.writes ⊆ (wr5.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg5_keep (V : Valuation τ sig (Elt F)) {r : Ref sig .tc} (hr : r ∉ wr5) :
    after seg5 V (Proc.devRef .tc r) = V (Proc.devRef .tc r) :=
  after_of_writes_sub seg5 V (List.forall_iff_forall_mem.mpr seg5_writes) hr

theorem seg5_main_v49 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v38 : V (Proc.devRef .tc main_v38) = val_main_v38 x0 x1 x2)
    (h_v14 : V (Proc.devRef .tc main_v14) = val_main_v14 x0 x1)
    (h_v15 : V (Proc.devRef .tc main_v15) = val_main_v15 x2) :
    after seg5 V (Proc.devRef .tc main_v49) = val_main_v49 x0 x1 x2 := by
  after_results
  rw [h_v38, h_v14, h_v15]
  rfl

/-! ### Stretch 6: operations 60 to 71 -/

theorem seg6_sub : (seg6 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg6_fresh : ∀ op ∈ (seg6 (F := F)), op.fresh = ∅ := by
  intro _ h; (repeat (cases h with | head => rfl | tail _ h => ?_)); exact nomatch h

theorem seg6_writes : ∀ op ∈ (seg6 (F := F)), op.writes ⊆ (wr6.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg6_keep (V : Valuation τ sig (Elt F)) {r : Ref sig .tc} (hr : r ∉ wr6) :
    after seg6 V (Proc.devRef .tc r) = V (Proc.devRef .tc r) :=
  after_of_writes_sub seg6 V (List.forall_iff_forall_mem.mpr seg6_writes) hr

theorem seg6_main_v60 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v49 : V (Proc.devRef .tc main_v49) = val_main_v49 x0 x1 x2)
    (h_v14 : V (Proc.devRef .tc main_v14) = val_main_v14 x0 x1)
    (h_v15 : V (Proc.devRef .tc main_v15) = val_main_v15 x2) :
    after seg6 V (Proc.devRef .tc main_v60) = val_main_v60 x0 x1 x2 := by
  after_results
  rw [h_v49, h_v14, h_v15]
  rfl

/-! ### Stretch 7: operations 72 to 83 -/

theorem seg7_sub : (seg7 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg7_fresh : ∀ op ∈ (seg7 (F := F)), op.fresh = ∅ := by
  intro _ h; (repeat (cases h with | head => rfl | tail _ h => ?_)); exact nomatch h

theorem seg7_writes : ∀ op ∈ (seg7 (F := F)), op.writes ⊆ (wr7.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg7_keep (V : Valuation τ sig (Elt F)) {r : Ref sig .tc} (hr : r ∉ wr7) :
    after seg7 V (Proc.devRef .tc r) = V (Proc.devRef .tc r) :=
  after_of_writes_sub seg7 V (List.forall_iff_forall_mem.mpr seg7_writes) hr

theorem seg7_main_v71 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v60 : V (Proc.devRef .tc main_v60) = val_main_v60 x0 x1 x2)
    (h_v14 : V (Proc.devRef .tc main_v14) = val_main_v14 x0 x1)
    (h_v15 : V (Proc.devRef .tc main_v15) = val_main_v15 x2) :
    after seg7 V (Proc.devRef .tc main_v71) = val_main_v71 x0 x1 x2 := by
  after_results
  rw [h_v60, h_v14, h_v15]
  rfl

/-! ### Stretch 8: operations 84 to 95 -/

theorem seg8_sub : (seg8 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg8_fresh : ∀ op ∈ (seg8 (F := F)), op.fresh = ∅ := by
  intro _ h; (repeat (cases h with | head => rfl | tail _ h => ?_)); exact nomatch h

theorem seg8_writes : ∀ op ∈ (seg8 (F := F)), op.writes ⊆ (wr8.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg8_keep (V : Valuation τ sig (Elt F)) {r : Ref sig .tc} (hr : r ∉ wr8) :
    after seg8 V (Proc.devRef .tc r) = V (Proc.devRef .tc r) :=
  after_of_writes_sub seg8 V (List.forall_iff_forall_mem.mpr seg8_writes) hr

theorem seg8_main_v82 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v71 : V (Proc.devRef .tc main_v71) = val_main_v71 x0 x1 x2)
    (h_v14 : V (Proc.devRef .tc main_v14) = val_main_v14 x0 x1)
    (h_v15 : V (Proc.devRef .tc main_v15) = val_main_v15 x2) :
    after seg8 V (Proc.devRef .tc main_v82) = val_main_v82 x0 x1 x2 := by
  after_results
  rw [h_v71, h_v14, h_v15]
  rfl

/-! ### Stretch 9: operations 96 to 107 -/

theorem seg9_sub : (seg9 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg9_fresh : ∀ op ∈ (seg9 (F := F)), op.fresh = ∅ := by
  intro _ h; (repeat (cases h with | head => rfl | tail _ h => ?_)); exact nomatch h

theorem seg9_writes : ∀ op ∈ (seg9 (F := F)), op.writes ⊆ (wr9.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg9_keep (V : Valuation τ sig (Elt F)) {r : Ref sig .tc} (hr : r ∉ wr9) :
    after seg9 V (Proc.devRef .tc r) = V (Proc.devRef .tc r) :=
  after_of_writes_sub seg9 V (List.forall_iff_forall_mem.mpr seg9_writes) hr

theorem seg9_main_v93 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v82 : V (Proc.devRef .tc main_v82) = val_main_v82 x0 x1 x2)
    (h_v14 : V (Proc.devRef .tc main_v14) = val_main_v14 x0 x1)
    (h_v15 : V (Proc.devRef .tc main_v15) = val_main_v15 x2) :
    after seg9 V (Proc.devRef .tc main_v93) = val_main_v93 x0 x1 x2 := by
  after_results
  rw [h_v82, h_v14, h_v15]
  rfl

/-! ### Stretch 10: operations 108 to 119 -/

theorem seg10_sub : (seg10 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg10_fresh : ∀ op ∈ (seg10 (F := F)), op.fresh = ∅ := by
  intro _ h; (repeat (cases h with | head => rfl | tail _ h => ?_)); exact nomatch h

theorem seg10_writes : ∀ op ∈ (seg10 (F := F)), op.writes ⊆ (wr10.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg10_keep (V : Valuation τ sig (Elt F)) {r : Ref sig .tc} (hr : r ∉ wr10) :
    after seg10 V (Proc.devRef .tc r) = V (Proc.devRef .tc r) :=
  after_of_writes_sub seg10 V (List.forall_iff_forall_mem.mpr seg10_writes) hr

theorem seg10_main_v104 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v93 : V (Proc.devRef .tc main_v93) = val_main_v93 x0 x1 x2)
    (h_v14 : V (Proc.devRef .tc main_v14) = val_main_v14 x0 x1)
    (h_v15 : V (Proc.devRef .tc main_v15) = val_main_v15 x2) :
    after seg10 V (Proc.devRef .tc main_v104) = val_main_v104 x0 x1 x2 := by
  after_results
  rw [h_v93, h_v14, h_v15]
  rfl

/-! ### Stretch 11: operations 120 to 131 -/

theorem seg11_sub : (seg11 (F := F)).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., nullary_bufs_sub .., binary_bufs_sub .., reshape_bufs_sub .., binary_bufs_sub ..⟩

theorem seg11_fresh : ∀ op ∈ (seg11 (F := F)), op.fresh = ∅ := by
  intro _ h; (repeat (cases h with | head => rfl | tail _ h => ?_)); exact nomatch h

theorem seg11_writes : ∀ op ∈ (seg11 (F := F)), op.writes ⊆ (wr11.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg11_keep (V : Valuation τ sig (Elt F)) {r : Ref sig .tc} (hr : r ∉ wr11) :
    after seg11 V (Proc.devRef .tc r) = V (Proc.devRef .tc r) :=
  after_of_writes_sub seg11 V (List.forall_iff_forall_mem.mpr seg11_writes) hr

theorem seg11_main_v115 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F))
    (h_v104 : V (Proc.devRef .tc main_v104) = val_main_v104 x0 x1 x2)
    (h_v14 : V (Proc.devRef .tc main_v14) = val_main_v14 x0 x1)
    (h_v15 : V (Proc.devRef .tc main_v15) = val_main_v15 x2) :
    after seg11 V (Proc.devRef .tc main_v115) = val_main_v115 x0 x1 x2 := by
  after_results
  rw [h_v104, h_v14, h_v15]
  rfl

/-! ### Stretch 12: operations 132 to 150 -/

theorem seg12_sub : (seg12 (F := F)).Forall fun op => op.bufs ⊆ tcRefs τ sig :=
  ⟨nullary_bufs_sub .., unary_bufs_sub .., binary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

theorem seg12_fresh : ∀ op ∈ (seg12 (F := F)), op.fresh = ∅ := by
  intro _ h; (repeat (cases h with | head => rfl | tail _ h => ?_)); exact nomatch h

theorem seg12_writes : ∀ op ∈ (seg12 (F := F)), op.writes ⊆ (wr12.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg12_keep (V : Valuation τ sig (Elt F)) {r : Ref sig .tc} (hr : r ∉ wr12) :
    after seg12 V (Proc.devRef .tc r) = V (Proc.devRef .tc r) :=
  after_of_writes_sub seg12 V (List.forall_iff_forall_mem.mpr seg12_writes) hr

theorem seg12_main_v129 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (ha5 : V (Proc.devRef .tc main_arg5) = x5)
    (ha6 : V (Proc.devRef .tc main_arg6) = x6)
    (ha7 : V (Proc.devRef .tc main_arg7) = x7)
    (ha8 : V (Proc.devRef .tc main_arg8) = x8)
    (h_v115 : V (Proc.devRef .tc main_v115) = val_main_v115 x0 x1 x2) :
    after seg12 V (Proc.devRef .tc main_v129) = val_main_v129 x0 x1 x2 x5 x6 x7 x8 := by
  subst ha5 ha6 ha7 ha8
  after_results
  rw [h_v115]
  rfl

/-! ### Stretch 13: operations 151 to 153 -/

theorem seg13_sub : (seg13 (F := F)).Forall fun op => op.bufs ⊆ tcRefs τ sig :=
  ⟨reshape_bufs_sub .., nullary_bufs_sub .., unary_bufs_sub ..⟩

theorem seg13_fresh : ∀ op ∈ (seg13 (F := F)), op.fresh = ∅ := by
  intro _ h; (repeat (cases h with | head => rfl | tail _ h => ?_)); exact nomatch h

theorem seg13_writes : ∀ op ∈ (seg13 (F := F)), op.writes ⊆ (wr13.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg13_keep (V : Valuation τ sig (Elt F)) {r : Ref sig .tc} (hr : r ∉ wr13) :
    after seg13 V (Proc.devRef .tc r) = V (Proc.devRef .tc r) :=
  after_of_writes_sub seg13 V (List.forall_iff_forall_mem.mpr seg13_writes) hr

theorem seg13_main_v130 (V : Valuation τ sig (Elt F)) (x3 : (⟨S64x64x3x3, .f32⟩ : BufTy).Contents (Elt F))
    (ha3 : V (Proc.devRef .tc main_arg3) = x3) :
    after seg13 V (Proc.devRef .tc main_v130) = val_main_v130 x3 := by
  subst ha3
  after_results
  rfl

theorem seg13_main_v131 (V : Valuation τ sig (Elt F)) :
    after seg13 V (Proc.devRef .tc main_v131) = val_main_v131 (F := F) := by
  after_results
  rfl

/-! ### Stretch 14: operations 154 to 166 -/

theorem seg14_sub : (seg14 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg14_fresh : ∀ op ∈ (seg14 (F := F)), op.fresh = ∅ := by
  intro _ h; (repeat (cases h with | head => rfl | tail _ h => ?_)); exact nomatch h

theorem seg14_writes : ∀ op ∈ (seg14 (F := F)), op.writes ⊆ (wr14.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg14_keep (V : Valuation τ sig (Elt F)) {r : Ref sig .tc} (hr : r ∉ wr14) :
    after seg14 V (Proc.devRef .tc r) = V (Proc.devRef .tc r) :=
  after_of_writes_sub seg14 V (List.forall_iff_forall_mem.mpr seg14_writes) hr

theorem seg14_main_v143 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v131 : V (Proc.devRef .tc main_v131) = val_main_v131 (F := F))
    (h_v129 : V (Proc.devRef .tc main_v129) = val_main_v129 x0 x1 x2 x5 x6 x7 x8)
    (h_v130 : V (Proc.devRef .tc main_v130) = val_main_v130 x3) :
    after seg14 V (Proc.devRef .tc main_v143) = val_main_v143 x0 x1 x2 x3 x5 x6 x7 x8 := by
  after_results
  rw [h_v131, h_v129, h_v130]
  rfl

/-! ### Stretch 15: operations 167 to 179 -/

theorem seg15_sub : (seg15 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg15_fresh : ∀ op ∈ (seg15 (F := F)), op.fresh = ∅ := by
  intro _ h; (repeat (cases h with | head => rfl | tail _ h => ?_)); exact nomatch h

theorem seg15_writes : ∀ op ∈ (seg15 (F := F)), op.writes ⊆ (wr15.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg15_keep (V : Valuation τ sig (Elt F)) {r : Ref sig .tc} (hr : r ∉ wr15) :
    after seg15 V (Proc.devRef .tc r) = V (Proc.devRef .tc r) :=
  after_of_writes_sub seg15 V (List.forall_iff_forall_mem.mpr seg15_writes) hr

theorem seg15_main_v155 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v143 : V (Proc.devRef .tc main_v143) = val_main_v143 x0 x1 x2 x3 x5 x6 x7 x8)
    (h_v129 : V (Proc.devRef .tc main_v129) = val_main_v129 x0 x1 x2 x5 x6 x7 x8)
    (h_v130 : V (Proc.devRef .tc main_v130) = val_main_v130 x3) :
    after seg15 V (Proc.devRef .tc main_v155) = val_main_v155 x0 x1 x2 x3 x5 x6 x7 x8 := by
  after_results
  rw [h_v143, h_v129, h_v130]
  rfl

/-! ### Stretch 16: operations 180 to 192 -/

theorem seg16_sub : (seg16 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg16_fresh : ∀ op ∈ (seg16 (F := F)), op.fresh = ∅ := by
  intro _ h; (repeat (cases h with | head => rfl | tail _ h => ?_)); exact nomatch h

theorem seg16_writes : ∀ op ∈ (seg16 (F := F)), op.writes ⊆ (wr16.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg16_keep (V : Valuation τ sig (Elt F)) {r : Ref sig .tc} (hr : r ∉ wr16) :
    after seg16 V (Proc.devRef .tc r) = V (Proc.devRef .tc r) :=
  after_of_writes_sub seg16 V (List.forall_iff_forall_mem.mpr seg16_writes) hr

theorem seg16_main_v167 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v155 : V (Proc.devRef .tc main_v155) = val_main_v155 x0 x1 x2 x3 x5 x6 x7 x8)
    (h_v129 : V (Proc.devRef .tc main_v129) = val_main_v129 x0 x1 x2 x5 x6 x7 x8)
    (h_v130 : V (Proc.devRef .tc main_v130) = val_main_v130 x3) :
    after seg16 V (Proc.devRef .tc main_v167) = val_main_v167 x0 x1 x2 x3 x5 x6 x7 x8 := by
  after_results
  rw [h_v155, h_v129, h_v130]
  rfl

/-! ### Stretch 17: operations 193 to 205 -/

theorem seg17_sub : (seg17 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg17_fresh : ∀ op ∈ (seg17 (F := F)), op.fresh = ∅ := by
  intro _ h; (repeat (cases h with | head => rfl | tail _ h => ?_)); exact nomatch h

theorem seg17_writes : ∀ op ∈ (seg17 (F := F)), op.writes ⊆ (wr17.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg17_keep (V : Valuation τ sig (Elt F)) {r : Ref sig .tc} (hr : r ∉ wr17) :
    after seg17 V (Proc.devRef .tc r) = V (Proc.devRef .tc r) :=
  after_of_writes_sub seg17 V (List.forall_iff_forall_mem.mpr seg17_writes) hr

theorem seg17_main_v179 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v167 : V (Proc.devRef .tc main_v167) = val_main_v167 x0 x1 x2 x3 x5 x6 x7 x8)
    (h_v129 : V (Proc.devRef .tc main_v129) = val_main_v129 x0 x1 x2 x5 x6 x7 x8)
    (h_v130 : V (Proc.devRef .tc main_v130) = val_main_v130 x3) :
    after seg17 V (Proc.devRef .tc main_v179) = val_main_v179 x0 x1 x2 x3 x5 x6 x7 x8 := by
  after_results
  rw [h_v167, h_v129, h_v130]
  rfl

/-! ### Stretch 18: operations 206 to 218 -/

theorem seg18_sub : (seg18 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg18_fresh : ∀ op ∈ (seg18 (F := F)), op.fresh = ∅ := by
  intro _ h; (repeat (cases h with | head => rfl | tail _ h => ?_)); exact nomatch h

theorem seg18_writes : ∀ op ∈ (seg18 (F := F)), op.writes ⊆ (wr18.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg18_keep (V : Valuation τ sig (Elt F)) {r : Ref sig .tc} (hr : r ∉ wr18) :
    after seg18 V (Proc.devRef .tc r) = V (Proc.devRef .tc r) :=
  after_of_writes_sub seg18 V (List.forall_iff_forall_mem.mpr seg18_writes) hr

theorem seg18_main_v191 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v179 : V (Proc.devRef .tc main_v179) = val_main_v179 x0 x1 x2 x3 x5 x6 x7 x8)
    (h_v129 : V (Proc.devRef .tc main_v129) = val_main_v129 x0 x1 x2 x5 x6 x7 x8)
    (h_v130 : V (Proc.devRef .tc main_v130) = val_main_v130 x3) :
    after seg18 V (Proc.devRef .tc main_v191) = val_main_v191 x0 x1 x2 x3 x5 x6 x7 x8 := by
  after_results
  rw [h_v179, h_v129, h_v130]
  rfl

/-! ### Stretch 19: operations 219 to 231 -/

theorem seg19_sub : (seg19 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg19_fresh : ∀ op ∈ (seg19 (F := F)), op.fresh = ∅ := by
  intro _ h; (repeat (cases h with | head => rfl | tail _ h => ?_)); exact nomatch h

theorem seg19_writes : ∀ op ∈ (seg19 (F := F)), op.writes ⊆ (wr19.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg19_keep (V : Valuation τ sig (Elt F)) {r : Ref sig .tc} (hr : r ∉ wr19) :
    after seg19 V (Proc.devRef .tc r) = V (Proc.devRef .tc r) :=
  after_of_writes_sub seg19 V (List.forall_iff_forall_mem.mpr seg19_writes) hr

theorem seg19_main_v203 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v191 : V (Proc.devRef .tc main_v191) = val_main_v191 x0 x1 x2 x3 x5 x6 x7 x8)
    (h_v129 : V (Proc.devRef .tc main_v129) = val_main_v129 x0 x1 x2 x5 x6 x7 x8)
    (h_v130 : V (Proc.devRef .tc main_v130) = val_main_v130 x3) :
    after seg19 V (Proc.devRef .tc main_v203) = val_main_v203 x0 x1 x2 x3 x5 x6 x7 x8 := by
  after_results
  rw [h_v191, h_v129, h_v130]
  rfl

/-! ### Stretch 20: operations 232 to 244 -/

theorem seg20_sub : (seg20 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg20_fresh : ∀ op ∈ (seg20 (F := F)), op.fresh = ∅ := by
  intro _ h; (repeat (cases h with | head => rfl | tail _ h => ?_)); exact nomatch h

theorem seg20_writes : ∀ op ∈ (seg20 (F := F)), op.writes ⊆ (wr20.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg20_keep (V : Valuation τ sig (Elt F)) {r : Ref sig .tc} (hr : r ∉ wr20) :
    after seg20 V (Proc.devRef .tc r) = V (Proc.devRef .tc r) :=
  after_of_writes_sub seg20 V (List.forall_iff_forall_mem.mpr seg20_writes) hr

theorem seg20_main_v215 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v203 : V (Proc.devRef .tc main_v203) = val_main_v203 x0 x1 x2 x3 x5 x6 x7 x8)
    (h_v129 : V (Proc.devRef .tc main_v129) = val_main_v129 x0 x1 x2 x5 x6 x7 x8)
    (h_v130 : V (Proc.devRef .tc main_v130) = val_main_v130 x3) :
    after seg20 V (Proc.devRef .tc main_v215) = val_main_v215 x0 x1 x2 x3 x5 x6 x7 x8 := by
  after_results
  rw [h_v203, h_v129, h_v130]
  rfl

/-! ### Stretch 21: operations 245 to 257 -/

theorem seg21_sub : (seg21 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg21_fresh : ∀ op ∈ (seg21 (F := F)), op.fresh = ∅ := by
  intro _ h; (repeat (cases h with | head => rfl | tail _ h => ?_)); exact nomatch h

theorem seg21_writes : ∀ op ∈ (seg21 (F := F)), op.writes ⊆ (wr21.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg21_keep (V : Valuation τ sig (Elt F)) {r : Ref sig .tc} (hr : r ∉ wr21) :
    after seg21 V (Proc.devRef .tc r) = V (Proc.devRef .tc r) :=
  after_of_writes_sub seg21 V (List.forall_iff_forall_mem.mpr seg21_writes) hr

theorem seg21_main_v227 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v215 : V (Proc.devRef .tc main_v215) = val_main_v215 x0 x1 x2 x3 x5 x6 x7 x8)
    (h_v129 : V (Proc.devRef .tc main_v129) = val_main_v129 x0 x1 x2 x5 x6 x7 x8)
    (h_v130 : V (Proc.devRef .tc main_v130) = val_main_v130 x3) :
    after seg21 V (Proc.devRef .tc main_v227) = val_main_v227 x0 x1 x2 x3 x5 x6 x7 x8 := by
  after_results
  rw [h_v215, h_v129, h_v130]
  rfl

/-! ### Stretch 22: operations 258 to 270 -/

theorem seg22_sub : (seg22 (F := F)).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg22_fresh : ∀ op ∈ (seg22 (F := F)), op.fresh = ∅ := by
  intro _ h; (repeat (cases h with | head => rfl | tail _ h => ?_)); exact nomatch h

theorem seg22_writes : ∀ op ∈ (seg22 (F := F)), op.writes ⊆ (wr22.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg22_keep (V : Valuation τ sig (Elt F)) {r : Ref sig .tc} (hr : r ∉ wr22) :
    after seg22 V (Proc.devRef .tc r) = V (Proc.devRef .tc r) :=
  after_of_writes_sub seg22 V (List.forall_iff_forall_mem.mpr seg22_writes) hr

theorem seg22_main_v239 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F))
    (h_v227 : V (Proc.devRef .tc main_v227) = val_main_v227 x0 x1 x2 x3 x5 x6 x7 x8)
    (h_v129 : V (Proc.devRef .tc main_v129) = val_main_v129 x0 x1 x2 x5 x6 x7 x8)
    (h_v130 : V (Proc.devRef .tc main_v130) = val_main_v130 x3) :
    after seg22 V (Proc.devRef .tc main_v239) = val_main_v239 x0 x1 x2 x3 x5 x6 x7 x8 := by
  after_results
  rw [h_v227, h_v129, h_v130]
  rfl

/-! ### Stretch 23: operations 271 to 289 -/

theorem seg23_sub : (seg23 (F := F)).Forall fun op => op.bufs ⊆ tcRefs τ sig :=
  ⟨nullary_bufs_sub .., unary_bufs_sub .., binary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

theorem seg23_fresh : ∀ op ∈ (seg23 (F := F)), op.fresh = ∅ := by
  intro _ h; (repeat (cases h with | head => rfl | tail _ h => ?_)); exact nomatch h

theorem seg23_writes : ∀ op ∈ (seg23 (F := F)), op.writes ⊆ (wr23.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg23_keep (V : Valuation τ sig (Elt F)) {r : Ref sig .tc} (hr : r ∉ wr23) :
    after seg23 V (Proc.devRef .tc r) = V (Proc.devRef .tc r) :=
  after_of_writes_sub seg23 V (List.forall_iff_forall_mem.mpr seg23_writes) hr

theorem seg23_main_v253 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64, .f32⟩ : BufTy).Contents (Elt F))
    (ha9 : V (Proc.devRef .tc main_arg9) = x9)
    (ha10 : V (Proc.devRef .tc main_arg10) = x10)
    (ha11 : V (Proc.devRef .tc main_arg11) = x11)
    (ha12 : V (Proc.devRef .tc main_arg12) = x12)
    (h_v239 : V (Proc.devRef .tc main_v239) = val_main_v239 x0 x1 x2 x3 x5 x6 x7 x8) :
    after seg23 V (Proc.devRef .tc main_v253) = val_main_v253 x0 x1 x2 x3 x5 x6 x7 x8 x9 x10 x11 x12 := by
  subst ha9 ha10 ha11 ha12
  after_results
  rw [h_v239]
  rfl

/-! ### Stretch 24: operations 290 to 304 -/

theorem seg24_sub : (seg24 (F := F)).Forall fun op => op.bufs ⊆ tcRefs τ sig :=
  ⟨reshape_bufs_sub .., nullary_bufs_sub .., unary_bufs_sub .., unary_bufs_sub .., reshape_bufs_sub .., reshape_bufs_sub .., unary_bufs_sub .., unary_bufs_sub .., unary_bufs_sub .., binary_bufs_sub .., unary_bufs_sub .., nullary_bufs_sub .., binary_bufs_sub .., reshape_bufs_sub .., binary_bufs_sub ..⟩

theorem seg24_fresh : ∀ op ∈ (seg24 (F := F)), op.fresh = ∅ := by
  intro _ h; (repeat (cases h with | head => rfl | tail _ h => ?_)); exact nomatch h

theorem seg24_writes : ∀ op ∈ (seg24 (F := F)), op.writes ⊆ (wr24.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg24_keep (V : Valuation τ sig (Elt F)) {r : Ref sig .tc} (hr : r ∉ wr24) :
    after seg24 V (Proc.devRef .tc r) = V (Proc.devRef .tc r) :=
  after_of_writes_sub seg24 V (List.forall_iff_forall_mem.mpr seg24_writes) hr

theorem seg24_main_v266 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x4 : (⟨S256x64x1x1, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64, .f32⟩ : BufTy).Contents (Elt F))
    (ha4 : V (Proc.devRef .tc main_arg4) = x4)
    (h_v253 : V (Proc.devRef .tc main_v253) = val_main_v253 x0 x1 x2 x3 x5 x6 x7 x8 x9 x10 x11 x12) :
    after seg24 V (Proc.devRef .tc main_v266) = val_main_v266 x0 x1 x2 x3 x4 x5 x6 x7 x8 x9 x10 x11 x12 := by
  subst ha4
  after_results
  rw [h_v253]
  rfl

/-! ### Stretch 25: operations 305 to 321 -/

theorem seg25_sub : (seg25 (F := F)).Forall fun op => op.bufs ⊆ tcRefs τ sig :=
  ⟨nullary_bufs_sub .., unary_bufs_sub .., binary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub ..⟩

theorem seg25_fresh : ∀ op ∈ (seg25 (F := F)), op.fresh = ∅ := by
  intro _ h; (repeat (cases h with | head => rfl | tail _ h => ?_)); exact nomatch h

theorem seg25_writes : ∀ op ∈ (seg25 (F := F)), op.writes ⊆ (wr25.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

theorem seg25_keep (V : Valuation τ sig (Elt F)) {r : Ref sig .tc} (hr : r ∉ wr25) :
    after seg25 V (Proc.devRef .tc r) = V (Proc.devRef .tc r) :=
  after_of_writes_sub seg25 V (List.forall_iff_forall_mem.mpr seg25_writes) hr

theorem seg25_main_v280 (V : Valuation τ sig (Elt F)) (x0 : (⟨S8x256x28x28, .f32⟩ : BufTy).Contents (Elt F)) (x1 : (⟨S64x256x1x1, .f32⟩ : BufTy).Contents (Elt F)) (x2 : (⟨S64x1x3x3, .f32⟩ : BufTy).Contents (Elt F)) (x3 : (⟨S64x64x3x3, .f32⟩ : BufTy).Contents (Elt F)) (x4 : (⟨S256x64x1x1, .f32⟩ : BufTy).Contents (Elt F)) (x5 : (⟨S64, .f32⟩ : BufTy).Contents (Elt F)) (x6 : (⟨S64, .f32⟩ : BufTy).Contents (Elt F)) (x7 : (⟨S64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64, .f32⟩ : BufTy).Contents (Elt F)) (x13 : (⟨S256, .f32⟩ : BufTy).Contents (Elt F)) (x14 : (⟨S256, .f32⟩ : BufTy).Contents (Elt F)) (x15 : (⟨S256, .f32⟩ : BufTy).Contents (Elt F)) (x16 : (⟨S256, .f32⟩ : BufTy).Contents (Elt F))
    (ha0 : V (Proc.devRef .tc main_arg0) = x0)
    (ha13 : V (Proc.devRef .tc main_arg13) = x13)
    (ha14 : V (Proc.devRef .tc main_arg14) = x14)
    (ha15 : V (Proc.devRef .tc main_arg15) = x15)
    (ha16 : V (Proc.devRef .tc main_arg16) = x16)
    (h_v266 : V (Proc.devRef .tc main_v266) = val_main_v266 x0 x1 x2 x3 x4 x5 x6 x7 x8 x9 x10 x11 x12) :
    after seg25 V (Proc.devRef .tc main_v280) = val_main_v280 x0 x1 x2 x3 x4 x5 x6 x7 x8 x9 x10 x11 x12 x13 x14 x15 x16 := by
  subst ha0 ha13 ha14 ha15 ha16
  after_results
  rw [h_v266]
  rfl

end Cert.ResAdd.R
end
-- ==== Proof.RefRun.lean ====
import proofs.«165038_j41480794144828_1_alg».proof.Proof.RefOps
import proofs.«165038_j41480794144828_1_alg».proof.Proof.RefStretches
import proofs.«165038_j41480794144828_1_alg».proof.Proof.RefRead
import Idealize.ShloMosaic.Lib.StableHlo.Run
import Idealize.ShloMosaic.Lib.Pipeline.Regions
set_option maxRecDepth 16384
noncomputable section
namespace Cert.ResAdd.R
open Idealize.ShloMosaic Idealize.ShloMosaic.TcCoe Idealize.SL.Sem Idealize.ShloMosaic.StableHlo Cert.ReferenceIdeal Cert.ReferenceIdeal.Gen Cert.ReferenceIdeal.Read Cert.ResAdd.RefOps

/-!
# The run of the reference program

The reference program is a straight line of 322 operations. Each writes one buffer, once, as a function of
buffers written before it or of the seventeen arguments; nothing writes an argument. So after the line a buffer
holds a fixed function of the arguments: its *named stage* `val_b`, which is the buffer's own operation applied
to the named stages of its operands.

The line is cut at 24 seams into 25 stretches `seg1 … seg25`, placed where few buffers are read across the cut:
after the first convolution's bordered map (`main_v14`), after each of the nine depthwise taps (across them only
the bordered map, the reshaped weights `main_v15` and the running difference are read), after the clamp and border
(`main_v129`), after each of the nine dense 3×3 taps (`main_v129`, the weights `main_v130`, the running
difference), after the second clamp (`main_v253`), after the last convolution (`main_v266`).

For one stretch and ARBITRARY contents `V` before it: if the buffers it reads from before hold their named stages,
then a buffer it writes holds its own afterwards — each operation's result is its function of its operands'
contents, and the named stage unfolds to the same composition; and a buffer it does not write holds what it held.
Chaining these from the launch contents over the 24 seams gives the result buffer `main_v280` at its named stage
and the arguments unchanged, without ever forming the result as one term.
-/

variable {F : FTy → Type} [FloatOps F]

/-! ## Lists of operations run one after the other -/

/-- Running two lists one after the other is running their concatenation. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- What holds of every operation of two lists holds of every operation of their concatenation. -/
private theorem forall_app {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

/-! ## One stretch in full: the first depthwise tap (operations 24 to 35)

A 28×28 window of the bordered map `main_v14`, minus the tap's weight read out of `main_v15`, in absolute value,
summed over a unit axis, and subtracted from the all-zero map `main_v16`: the running difference `main_v27`. -/

/-- Every operation of the stretch touches TensorCore references only. -/
theorem seg3_sub : (seg3 (F := F)).Forall fun op => op.bufs ⊆ tcRefs τ sig :=
  ⟨unary_bufs_sub .., reshape_bufs_sub .., unary_bufs_sub .., reshape_bufs_sub .., unary_bufs_sub .., unary_bufs_sub ..,
   binary_bufs_sub .., unary_bufs_sub .., nullary_bufs_sub .., binary_bufs_sub .., reshape_bufs_sub .., binary_bufs_sub ..⟩

/-- None of them allocates: each determines what it writes. -/
theorem seg3_fresh : ∀ op ∈ (seg3 (F := F)), op.fresh = ∅ := by
  intro _ h; (repeat (cases h with | head => rfl | tail _ h => ?_)); exact nomatch h

/-- Each writes one buffer, and that buffer is in the list `wr3`. -/
theorem seg3_writes : ∀ op ∈ (seg3 (F := F)), op.writes ⊆ (wr3.map (Proc.devRef (τ := τ) .tc)).toFinset := by
  intro _ h
  repeat (cases h with
    | head => exact Finset.singleton_subset_iff.mpr (List.mem_toFinset.mpr (List.mem_map.mpr ⟨_, by decide, rfl⟩))
    | tail _ h => ?_)
  exact nomatch h

/-- So a buffer outside `wr3` holds after the stretch what it held before. -/
theorem seg3_keep (V : Valuation τ sig (Elt F)) {r : Ref sig .tc} (hr : r ∉ wr3) :
    after seg3 V (Proc.devRef .tc r) = V (Proc.devRef .tc r) :=
  after_of_writes_sub seg3 V (List.forall_iff_forall_mem.mpr seg3_writes) hr

/-- After the stretch `main_v27` holds its named stage, when `main_v16`, `main_v14`, `main_v15` held theirs before:
    reading the twelve results back leaves the composition of the twelve functions over those three contents, and the
    named stages `val_main_v27`, `val_main_v26`, … unfold to that composition over `val_main_v16`, `val_main_v14`,
    `val_main_v15`. -/
theorem seg3_main_v27 (V : Valuation τ sig (Elt F))
    (x0 : (⟨S8x256x28x28, .f32⟩ : BufTy).Contents (Elt F)) (x1 : (⟨S64x256x1x1, .f32⟩ : BufTy).Contents (Elt F))
    (x2 : (⟨S64x1x3x3, .f32⟩ : BufTy).Contents (Elt F))
    (h_v16 : V (Proc.devRef .tc main_v16) = val_main_v16 (F := F))
    (h_v14 : V (Proc.devRef .tc main_v14) = val_main_v14 x0 x1)
    (h_v15 : V (Proc.devRef .tc main_v15) = val_main_v15 x2) :
    after seg3 V (Proc.devRef .tc main_v27) = val_main_v27 x0 x1 x2 := by
  after_results
  rw [h_v16, h_v14, h_v15]
  rfl

/-! ## The arguments

No operation writes an argument buffer, so what the arguments hold at launch they hold at every seam. -/

/-- The seventeen arrays the program is launched on. -/
structure Args (F : FTy → Type) where
  x0 : (⟨S8x256x28x28, .f32⟩ : BufTy).Contents (Elt F)
  x1 : (⟨S64x256x1x1, .f32⟩ : BufTy).Contents (Elt F)
  x2 : (⟨S64x1x3x3, .f32⟩ : BufTy).Contents (Elt F)
  x3 : (⟨S64x64x3x3, .f32⟩ : BufTy).Contents (Elt F)
  x4 : (⟨S256x64x1x1, .f32⟩ : BufTy).Contents (Elt F)
  x5 : (⟨S64, .f32⟩ : BufTy).Contents (Elt F)
  x6 : (⟨S64, .f32⟩ : BufTy).Contents (Elt F)
  x7 : (⟨S64, .f32⟩ : BufTy).Contents (Elt F)
  x8 : (⟨S64, .f32⟩ : BufTy).Contents (Elt F)
  x9 : (⟨S64, .f32⟩ : BufTy).Contents (Elt F)
  x10 : (⟨S64, .f32⟩ : BufTy).Contents (Elt F)
  x11 : (⟨S64, .f32⟩ : BufTy).Contents (Elt F)
  x12 : (⟨S64, .f32⟩ : BufTy).Contents (Elt F)
  x13 : (⟨S256, .f32⟩ : BufTy).Contents (Elt F)
  x14 : (⟨S256, .f32⟩ : BufTy).Contents (Elt F)
  x15 : (⟨S256, .f32⟩ : BufTy).Contents (Elt F)
  x16 : (⟨S256, .f32⟩ : BufTy).Contents (Elt F)

/-- The argument buffers hold those arrays. -/
structure ArgsAt (a : Args F) (V : Valuation τ sig (Elt F)) : Prop where
  a0 : V (Proc.devRef .tc main_arg0) = a.x0
  a1 : V (Proc.devRef .tc main_arg1) = a.x1
  a2 : V (Proc.devRef .tc main_arg2) = a.x2
  a3 : V (Proc.devRef .tc main_arg3) = a.x3
  a4 : V (Proc.devRef .tc main_arg4) = a.x4
  a5 : V (Proc.devRef .tc main_arg5) = a.x5
  a6 : V (Proc.devRef .tc main_arg6) = a.x6
  a7 : V (Proc.devRef .tc main_arg7) = a.x7
  a8 : V (Proc.devRef .tc main_arg8) = a.x8
  a9 : V (Proc.devRef .tc main_arg9) = a.x9
  a10 : V (Proc.devRef .tc main_arg10) = a.x10
  a11 : V (Proc.devRef .tc main_arg11) = a.x11
  a12 : V (Proc.devRef .tc main_arg12) = a.x12
  a13 : V (Proc.devRef .tc main_arg13) = a.x13
  a14 : V (Proc.devRef .tc main_arg14) = a.x14
  a15 : V (Proc.devRef .tc main_arg15) = a.x15
  a16 : V (Proc.devRef .tc main_arg16) = a.x16

/-- The argument buffers. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- Operations whose written buffers (all in `W`) include no argument buffer leave the arguments as they were. -/
theorem args_keep {l : List (HloOp τ sig (Elt F))} {W : List (Ref sig .tc)}
    (hW : ∀ op ∈ l, op.writes ⊆ (W.map (Proc.devRef (τ := τ) .tc)).toFinset)
    (hd : ∀ r ∈ argRefs, r ∉ W) {a : Args F} {V : Valuation τ sig (Elt F)} (h : ArgsAt a V) :
    ArgsAt a (after l V) :=
  have keep : ∀ r ∈ argRefs, after l V (Proc.devRef .tc r) = V (Proc.devRef .tc r) := fun r hr =>
    after_of_writes_sub l V (List.forall_iff_forall_mem.mpr hW) (hd r hr)
  ⟨(keep main_arg0 (by decide)).trans h.a0, (keep main_arg1 (by decide)).trans h.a1,
   (keep main_arg2 (by decide)).trans h.a2, (keep main_arg3 (by decide)).trans h.a3,
   (keep main_arg4 (by decide)).trans h.a4, (keep main_arg5 (by decide)).trans h.a5,
   (keep main_arg6 (by decide)).trans h.a6, (keep main_arg7 (by decide)).trans h.a7,
   (keep main_arg8 (by decide)).trans h.a8, (keep main_arg9 (by decide)).trans h.a9,
   (keep main_arg10 (by decide)).trans h.a10, (keep main_arg11 (by decide)).trans h.a11,
   (keep main_arg12 (by decide)).trans h.a12, (keep main_arg13 (by decide)).trans h.a13,
   (keep main_arg14 (by decide)).trans h.a14, (keep main_arg15 (by decide)).trans h.a15,
   (keep main_arg16 (by decide)).trans h.a16⟩

/-! ## The seams -/

/-- The whole line of operations: the stretches in order. -/
abbrev segs : List (HloOp τ sig (Elt F)) :=
  seg1 ++ (seg2 ++ (seg3 ++ (seg4 ++ (seg5 ++ (seg6 ++ (seg7 ++ (seg8 ++ (seg9 ++ (seg10 ++ (seg11 ++ (seg12 ++
  (seg13 ++ (seg14 ++ (seg15 ++ (seg16 ++ (seg17 ++ (seg18 ++ (seg19 ++ (seg20 ++ (seg21 ++ (seg22 ++ (seg23 ++
  (seg24 ++ seg25)))))))))))))))))))))))

/-- From contents whose argument buffers hold `a`: after the whole line the arguments still do, and the result
    buffer holds the last named stage. Seam by seam; `Vk` names the contents after the first `k` stretches, and at
    each seam only the facts about buffers still read later are carried on. -/
theorem after_segs (a : Args F) (V0 : Valuation τ sig (Elt F)) (A0 : ArgsAt a V0) :
    ArgsAt a (after segs V0)
    ∧ after segs V0 (Proc.devRef .tc main_v280)
        = val_main_v280 a.x0 a.x1 a.x2 a.x3 a.x4 a.x5 a.x6 a.x7 a.x8 a.x9 a.x10 a.x11 a.x12 a.x13 a.x14 a.x15 a.x16 := by
  simp only [after_app]
  -- 1: the first convolution and its bordered map
  have A1 := args_keep seg1_writes (by decide) A0
  have p1 := seg1_main_v14 V0 a.x0 a.x1 A0.a0 A0.a1
  generalize after seg1 V0 = V1 at A1 p1 ⊢
  -- 2: the depthwise weights, the zero map
  have A2 := args_keep seg2_writes (by decide) A1
  have p2 := (seg2_keep V1 (r := main_v14) (by decide)).trans p1
  have w2 := seg2_main_v15 V1 a.x2 A1.a2
  have d2 := seg2_main_v16 V1
  generalize after seg2 V1 = V2 at A2 p2 w2 d2 ⊢
  -- 3 … 11: the nine depthwise taps; `p` the bordered map, `w` the weights, `d` the running difference
  have A3 := args_keep seg3_writes (by decide) A2
  have p3 := (seg3_keep V2 (r := main_v14) (by decide)).trans p2
  have w3 := (seg3_keep V2 (r := main_v15) (by decide)).trans w2
  have d3 := seg3_main_v27 V2 a.x0 a.x1 a.x2 d2 p2 w2
  generalize after seg3 V2 = V3 at A3 p3 w3 d3 ⊢
  have A4 := args_keep seg4_writes (by decide) A3
  have p4 := (seg4_keep V3 (r := main_v14) (by decide)).trans p3
  have w4 := (seg4_keep V3 (r := main_v15) (by decide)).trans w3
  have d4 := seg4_main_v38 V3 a.x0 a.x1 a.x2 d3 p3 w3
  generalize after seg4 V3 = V4 at A4 p4 w4 d4 ⊢
  have A5 := args_keep seg5_writes (by decide) A4
  have p5 := (seg5_keep V4 (r := main_v14) (by decide)).trans p4
  have w5 := (seg5_keep V4 (r := main_v15) (by decide)).trans w4
  have d5 := seg5_main_v49 V4 a.x0 a.x1 a.x2 d4 p4 w4
  generalize after seg5 V4 = V5 at A5 p5 w5 d5 ⊢
  have A6 := args_keep seg6_writes (by decide) A5
  have p6 := (seg6_keep V5 (r := main_v14) (by decide)).trans p5
  have w6 := (seg6_keep V5 (r := main_v15) (by decide)).trans w5
  have d6 := seg6_main_v60 V5 a.x0 a.x1 a.x2 d5 p5 w5
  generalize after seg6 V5 = V6 at A6 p6 w6 d6 ⊢
  have A7 := args_keep seg7_writes (by decide) A6
  have p7 := (seg7_keep V6 (r := main_v14) (by decide)).trans p6
  have w7 := (seg7_keep V6 (r := main_v15) (by decide)).trans w6
  have d7 := seg7_main_v71 V6 a.x0 a.x1 a.x2 d6 p6 w6
  generalize after seg7 V6 = V7 at A7 p7 w7 d7 ⊢
  have A8 := args_keep seg8_writes (by decide) A7
  have p8 := (seg8_keep V7 (r := main_v14) (by decide)).trans p7
  have w8 := (seg8_keep V7 (r := main_v15) (by decide)).trans w7
  have d8 := seg8_main_v82 V7 a.x0 a.x1 a.x2 d7 p7 w7
  generalize after seg8 V7 = V8 at A8 p8 w8 d8 ⊢
  have A9 := args_keep seg9_writes (by decide) A8
  have p9 := (seg9_keep V8 (r := main_v14) (by decide)).trans p8
  have w9 := (seg9_keep V8 (r := main_v15) (by decide)).trans w8
  have d9 := seg9_main_v93 V8 a.x0 a.x1 a.x2 d8 p8 w8
  generalize after seg9 V8 = V9 at A9 p9 w9 d9 ⊢
  have A10 := args_keep seg10_writes (by decide) A9
  have p10 := (seg10_keep V9 (r := main_v14) (by decide)).trans p9
  have w10 := (seg10_keep V9 (r := main_v15) (by decide)).trans w9
  have d10 := seg10_main_v104 V9 a.x0 a.x1 a.x2 d9 p9 w9
  generalize after seg10 V9 = V10 at A10 p10 w10 d10 ⊢
  have A11 := args_keep seg11_writes (by decide) A10
  have d11 := seg11_main_v115 V10 a.x0 a.x1 a.x2 d10 p10 w10
  generalize after seg11 V10 = V11 at A11 d11 ⊢
  -- 12: scale, shift, clamp, border
  have A12 := args_keep seg12_writes (by decide) A11
  have q12 := seg12_main_v129 V11 a.x0 a.x1 a.x2 a.x5 a.x6 a.x7 a.x8 A11.a5 A11.a6 A11.a7 A11.a8 d11
  generalize after seg12 V11 = V12 at A12 q12 ⊢
  -- 13: the dense 3×3 weights, the zero map
  have A13 := args_keep seg13_writes (by decide) A12
  have q13 := (seg13_keep V12 (r := main_v129) (by decide)).trans q12
  have u13 := seg13_main_v130 V12 a.x3 A12.a3
  have e13 := seg13_main_v131 V12
  generalize after seg13 V12 = V13 at A13 q13 u13 e13 ⊢
  -- 14 … 22: the nine dense taps; `q` the bordered map, `u` the weights, `e` the running difference
  have A14 := args_keep seg14_writes (by decide) A13
  have q14 := (seg14_keep V13 (r := main_v129) (by decide)).trans q13
  have u14 := (seg14_keep V13 (r := main_v130) (by decide)).trans u13
  have e14 := seg14_main_v143 V13 a.x0 a.x1 a.x2 a.x3 a.x5 a.x6 a.x7 a.x8 e13 q13 u13
  generalize after seg14 V13 = V14 at A14 q14 u14 e14 ⊢
  have A15 := args_keep seg15_writes (by decide) A14
  have q15 := (seg15_keep V14 (r := main_v129) (by decide)).trans q14
  have u15 := (seg15_keep V14 (r := main_v130) (by decide)).trans u14
  have e15 := seg15_main_v155 V14 a.x0 a.x1 a.x2 a.x3 a.x5 a.x6 a.x7 a.x8 e14 q14 u14
  generalize after seg15 V14 = V15 at A15 q15 u15 e15 ⊢
  have A16 := args_keep seg16_writes (by decide) A15
  have q16 := (seg16_keep V15 (r := main_v129) (by decide)).trans q15
  have u16 := (seg16_keep V15 (r := main_v130) (by decide)).trans u15
  have e16 := seg16_main_v167 V15 a.x0 a.x1 a.x2 a.x3 a.x5 a.x6 a.x7 a.x8 e15 q15 u15
  generalize after seg16 V15 = V16 at A16 q16 u16 e16 ⊢
  have A17 := args_keep seg17_writes (by decide) A16
  have q17 := (seg17_keep V16 (r := main_v129) (by decide)).trans q16
  have u17 := (seg17_keep V16 (r := main_v130) (by decide)).trans u16
  have e17 := seg17_main_v179 V16 a.x0 a.x1 a.x2 a.x3 a.x5 a.x6 a.x7 a.x8 e16 q16 u16
  generalize after seg17 V16 = V17 at A17 q17 u17 e17 ⊢
  have A18 := args_keep seg18_writes (by decide) A17
  have q18 := (seg18_keep V17 (r := main_v129) (by decide)).trans q17
  have u18 := (seg18_keep V17 (r := main_v130) (by decide)).trans u17
  have e18 := seg18_main_v191 V17 a.x0 a.x1 a.x2 a.x3 a.x5 a.x6 a.x7 a.x8 e17 q17 u17
  generalize after seg18 V17 = V18 at A18 q18 u18 e18 ⊢
  have A19 := args_keep seg19_writes (by decide) A18
  have q19 := (seg19_keep V18 (r := main_v129) (by decide)).trans q18
  have u19 := (seg19_keep V18 (r := main_v130) (by decide)).trans u18
  have e19 := seg19_main_v203 V18 a.x0 a.x1 a.x2 a.x3 a.x5 a.x6 a.x7 a.x8 e18 q18 u18
  generalize after seg19 V18 = V19 at A19 q19 u19 e19 ⊢
  have A20 := args_keep seg20_writes (by decide) A19
  have q20 := (seg20_keep V19 (r := main_v129) (by decide)).trans q19
  have u20 := (seg20_keep V19 (r := main_v130) (by decide)).trans u19
  have e20 := seg20_main_v215 V19 a.x0 a.x1 a.x2 a.x3 a.x5 a.x6 a.x7 a.x8 e19 q19 u19
  generalize after seg20 V19 = V20 at A20 q20 u20 e20 ⊢
  have A21 := args_keep seg21_writes (by decide) A20
  have q21 := (seg21_keep V20 (r := main_v129) (by decide)).trans q20
  have u21 := (seg21_keep V20 (r := main_v130) (by decide)).trans u20
  have e21 := seg21_main_v227 V20 a.x0 a.x1 a.x2 a.x3 a.x5 a.x6 a.x7 a.x8 e20 q20 u20
  generalize after seg21 V20 = V21 at A21 q21 u21 e21 ⊢
  have A22 := args_keep seg22_writes (by decide) A21
  have e22 := seg22_main_v239 V21 a.x0 a.x1 a.x2 a.x3 a.x5 a.x6 a.x7 a.x8 e21 q21 u21
  generalize after seg22 V21 = V22 at A22 e22 ⊢
  -- 23: scale, shift, clamp
  have A23 := args_keep seg23_writes (by decide) A22
  have r23 := seg23_main_v253 V22 a.x0 a.x1 a.x2 a.x3 a.x5 a.x6 a.x7 a.x8 a.x9 a.x10 a.x11 a.x12
    A22.a9 A22.a10 A22.a11 A22.a12 e22
  generalize after seg23 V22 = V23 at A23 r23 ⊢
  -- 24: the last convolution
  have A24 := args_keep seg24_writes (by decide) A23
  have r24 := seg24_main_v266 V23 a.x0 a.x1 a.x2 a.x3 a.x4 a.x5 a.x6 a.x7 a.x8 a.x9 a.x10 a.x11 a.x12 A23.a4 r23
  generalize after seg24 V23 = V24 at A24 r24 ⊢
  -- 25: scale, shift, the residual sum, the last clamp
  have A25 := args_keep seg25_writes (by decide) A24
  have r25 := seg25_main_v280 V24 a.x0 a.x1 a.x2 a.x3 a.x4 a.x5 a.x6 a.x7 a.x8 a.x9 a.x10 a.x11 a.x12 a.x13 a.x14 a.x15
    a.x16 A24.a0 A24.a13 A24.a14 A24.a15 A24.a16 r24
  exact ⟨A25, r25⟩

/-! ## The run -/

/-- The program is the line of its operations, each a step that binds nothing: both sides unfold to the same steps. -/
theorem main_segs (c : Dev nD) : main (F := F) c = seq segs := by chain_rfl

theorem segs_sub : (segs (F := F)).Forall fun op => op.bufs ⊆ tcRefs τ sig :=
  have s {l : List (HloOp τ sig (Elt F))} (h : l.Forall fun op => op.bufs ⊆ tcRefs τ sig) :
      ∀ op ∈ l, op.bufs ⊆ tcRefs τ sig := List.forall_iff_forall_mem.mp h
  List.forall_iff_forall_mem.mpr
    (forall_app (s seg1_sub) (forall_app (s seg2_sub) (forall_app (s seg3_sub) (forall_app (s seg4_sub)
    (forall_app (s seg5_sub) (forall_app (s seg6_sub) (forall_app (s seg7_sub) (forall_app (s seg8_sub)
    (forall_app (s seg9_sub) (forall_app (s seg10_sub) (forall_app (s seg11_sub) (forall_app (s seg12_sub)
    (forall_app (s seg13_sub) (forall_app (s seg14_sub) (forall_app (s seg15_sub) (forall_app (s seg16_sub)
    (forall_app (s seg17_sub) (forall_app (s seg18_sub) (forall_app (s seg19_sub) (forall_app (s seg20_sub)
    (forall_app (s seg21_sub) (forall_app (s seg22_sub) (forall_app (s seg23_sub) (forall_app (s seg24_sub)
    (s seg25_sub)))))))))))))))))))))))))

theorem segs_fresh : ∀ op ∈ (segs (F := F)), op.fresh = ∅ :=
  forall_app seg1_fresh (forall_app seg2_fresh (forall_app seg3_fresh (forall_app seg4_fresh
  (forall_app seg5_fresh (forall_app seg6_fresh (forall_app seg7_fresh (forall_app seg8_fresh
  (forall_app seg9_fresh (forall_app seg10_fresh (forall_app seg11_fresh (forall_app seg12_fresh
  (forall_app seg13_fresh (forall_app seg14_fresh (forall_app seg15_fresh (forall_app seg16_fresh
  (forall_app seg17_fresh (forall_app seg18_fresh (forall_app seg19_fresh (forall_app seg20_fresh
  (forall_app seg21_fresh (forall_app seg22_fresh (forall_app seg23_fresh (forall_app seg24_fresh
  seg25_fresh)))))))))))))))))))))))

/-- The signature scopes no TensorCore buffer and no semaphore. -/
theorem scopedRefs_none : (Finset.univ.filter fun b : Ref sig .tc => b.isScoped) = ∅ := by decide
theorem scopedSems_none : (Finset.univ.filter fun sm : SemLoc sig => sm.isScoped .tc) = ∅ := by decide

/-- For any float values: every execution of the reference program terminates with the result buffer at the last
    named stage of the launch's arguments, and the arguments as they were. -/
theorem ref_run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v280)
        = val_main_v280 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
      -- the launch's arrays, and that the launch contents' argument buffers hold them
      let a : Args F := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩
      have key := after_segs a (launchContents m c)
        ⟨rfl, rfl, rfl, rfl, rfl, rfl, rfl, rfl, rfl, rfl, rfl, rfl, rfl, rfl, rfl, rfl, rfl⟩
      exact ⟨(h c main_v280).trans key.2, (h c main_arg0).trans key.1.a0, (h c main_arg1).trans key.1.a1,
        (h c main_arg2).trans key.1.a2, (h c main_arg3).trans key.1.a3, (h c main_arg4).trans key.1.a4,
        (h c main_arg5).trans key.1.a5, (h c main_arg6).trans key.1.a6, (h c main_arg7).trans key.1.a7,
        (h c main_arg8).trans key.1.a8, (h c main_arg9).trans key.1.a9, (h c main_arg10).trans key.1.a10,
        (h c main_arg11).trans key.1.a11, (h c main_arg12).trans key.1.a12, (h c main_arg13).trans key.1.a13,
        (h c main_arg14).trans key.1.a14, (h c main_arg15).trans key.1.a15, (h c main_arg16).trans key.1.a16⟩)
    (run_seq scopedRefs_none scopedSems_none defs main (fun _ => segs) main_segs (fun _ => segs_sub) m ρ
      (fun _ => segs_fresh))

/-- The same at the extended reals. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v280)
        = val_main_v280 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ref_run_any m ρ

end Cert.ResAdd.R
end
-- ==== Proof.RPadA1.lean ====
/-
  The reference's four pads read at an index, and its first stage.

  A pad reads the operand where every coordinate lies past the low border and inside the operand's extent, and the
  padding entry elsewhere; with no width on any side it is the operand itself. The padding entry is the integer zero
  converted, which is the specification's padding value. The first stage broadcasts the sample over the 64 output
  channels and the weight over batch and position, subtracts, takes absolute values, sums over the 256 input channels
  from the zero constant, and subtracts the sum from zero: entry (b, c, h, w) is zero minus the L1 distance of the
  sample's column at (b, ·, h, w) and the weight's row c.
-/
import proofs.«165038_j41480794144828_1_alg».proof.Proof.RefRead
import proofs.«165038_j41480794144828_1_alg».proof.Proof.Spec
import Idealize.ShloMosaic.Lib.ValueIdx
import Idealize.ShloMosaic.Lib.ValueIdxCoords
import Idealize.ShloMosaic.Lib.ValueIdxRank6
import Idealize.ShloMosaic.Lib.Pipeline.Value
import Idealize.ShloMosaic.Lib.IdealHost
import Idealize.ShloMosaic.Lib.KernelVsHost
import Idealize.ShloMosaic.PureOps.Ideal.Laws
set_option maxRecDepth 16384
noncomputable section
namespace Cert.ResAdd.R
open Idealize.ShloMosaic Idealize.ShloMosaic.TcCoe Idealize.ShloMosaic.ValueIdx Cert.ReferenceIdeal Cert.ReferenceIdeal.Gen Cert.ReferenceIdeal.Read Cert.ResAdd

/-- The integer zero converted, as the vector operation writes it, is the padding value. -/
theorem sitofp_zero_eq_pz : FloatOps.sitofp (F := Ideal) .f32 (0#32 : BitVec 32) = pz := rfl

/-- A pad by one entry on each side of the two last axes, read at coordinates. -/
theorem pad30_apply (A : FVec Ideal S8x64x28x28 .f32) (pv : FVec Ideal S_ .f32)
    (hp : S8x64x28x28.Pads ![0, 0, 1, 1] ![0, 0, 1, 1] ![0, 0, 0, 0] S8x64x30x30) (hu : 0 < S_.numel)
    (b : Fin 8) (c : Fin 64) (i j : Fin 30) :
    pad S8x64x30x30 ![0, 0, 1, 1] ![0, 0, 1, 1] ![0, 0, 0, 0] A pv hp hu (ix4 b c i j)
      = if h : 1 ≤ i.val ∧ i.val ≤ 28 ∧ 1 ≤ j.val ∧ j.val ≤ 28 then A (ix4 b c ⟨i.val - 1, by omega⟩ ⟨j.val - 1, by omega⟩)
        else pv (Shape.Idx.first hu) := by
  by_cases h : 1 ≤ i.val ∧ i.val ≤ 28 ∧ 1 ≤ j.val ∧ j.val ≤ 28
  · rw [dif_pos h]
    exact pad_apply_of_inside _ _ _ A pv hp hu (ix4 b c i j) (ix4 b c ⟨i.val - 1, by omega⟩ ⟨j.val - 1, by omega⟩)
      (fun a => match a with
        | ⟨0, _⟩ => by show b.val = 0 + b.val * (0 + 1); omega
        | ⟨1, _⟩ => by show c.val = 0 + c.val * (0 + 1); omega
        | ⟨2, _⟩ => by show i.val = 1 + (i.val - 1) * (0 + 1); omega
        | ⟨3, _⟩ => by show j.val = 1 + (j.val - 1) * (0 + 1); omega)
  · rw [dif_neg h]
    by_cases hi : 1 ≤ i.val ∧ i.val ≤ 28
    · exact pad_apply_of_not_inside _ _ _ A pv hp hu (ix4 b c i j) ⟨3, by decide⟩ (by
        show ¬ (1 ≤ j.val ∧ (j.val - 1) % (0 + 1) = 0 ∧ (j.val - 1) / (0 + 1) < 28)
        omega)
    · exact pad_apply_of_not_inside _ _ _ A pv hp hu (ix4 b c i j) ⟨2, by decide⟩ (by
        show ¬ (1 ≤ i.val ∧ (i.val - 1) % (0 + 1) = 0 ∧ (i.val - 1) / (0 + 1) < 28)
        omega)

/-- A pad of no width on any side is the operand. -/
theorem pad0_256 (A : FVec Ideal S8x256x28x28 .f32) (pv : FVec Ideal S_ .f32)
    (hp : S8x256x28x28.Pads ![0, 0, 0, 0] ![0, 0, 0, 0] ![0, 0, 0, 0] S8x256x28x28) (hu : 0 < S_.numel) :
    pad S8x256x28x28 ![0, 0, 0, 0] ![0, 0, 0, 0] ![0, 0, 0, 0] A pv hp hu = A := by
  funext j
  exact pad_apply_of_inside _ _ _ A pv hp hu j j (fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega
    | ⟨3, _⟩ => by show (j 3).val = 0 + (j 3).val * (0 + 1); omega)

theorem pad0_64 (A : FVec Ideal S8x64x28x28 .f32) (pv : FVec Ideal S_ .f32)
    (hp : S8x64x28x28.Pads ![0, 0, 0, 0] ![0, 0, 0, 0] ![0, 0, 0, 0] S8x64x28x28) (hu : 0 < S_.numel) :
    pad S8x64x28x28 ![0, 0, 0, 0] ![0, 0, 0, 0] ![0, 0, 0, 0] A pv hp hu = A := by
  funext j
  exact pad_apply_of_inside _ _ _ A pv hp hu j j (fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega
    | ⟨3, _⟩ => by show (j 3).val = 0 + (j 3).val * (0 + 1); omega)

/-- The reshape that puts two unit axes after the first keeps each entry. -/
private theorem cast4to6_apply {α : Type} (y : S8x256x28x28.Idx → α) (hc : S8x256x28x28.ShapeCasts S8x1x1x256x28x28)
    (b : Fin 8) (k : Fin 256) (h w : Fin 28) :
    shapeCast S8x1x1x256x28x28 y hc (ix6 b (0 : Fin 1) (0 : Fin 1) k h w) = y (ix4 b k h w) := by
  refine shapeCast_apply y hc _ _ ?_
  rw [Shape.rowMajor_val_four, Shape.rowMajor_val_six]
  show ((b.val * 256 + k.val) * 28 + h.val) * 28 + w.val
    = ((((b.val * 1 + 0) * 1 + 0) * 256 + k.val) * 28 + h.val) * 28 + w.val
  omega

/-- The input passes the pad of no width unchanged. -/
theorem ref_x (x0 : FVec Ideal S8x256x28x28 .f32) : val_main_v0 (F := Ideal) x0 = x0 := by
  unfold val_main_v0
  exact pad0_256 x0 _ _ _

/-- The sample's entry the first stage's summand reads at channel k. -/
private theorem ref_a1_x (x0 : FVec Ideal S8x256x28x28 .f32) (b : Fin 8) (c : Fin 64) (h w : Fin 28) (k : Fin 256) :
    val_main_v7 (F := Ideal) x0 (idx_main_v11 (idx_main_v12 (ix4 b c h w)) k) = x0 (ix4 b k h w) := by
  have hb := b.isLt; have hc := c.isLt; have hh := h.isLt; have hw := w.isLt; have hk := k.isLt
  have e : idx_main_v7 (idx_main_v11 (idx_main_v12 (ix4 b c h w)) k) = ix6 b (0 : Fin 1) (0 : Fin 1) k h w :=
    funext fun a => Fin.ext (by
      match a with
      | ⟨0, _⟩ => show (((b.val * 64 + c.val) * 28 + h.val) * 28 + w.val) / 50176 = b.val; omega
      | ⟨1, _⟩ => rfl
      | ⟨2, _⟩ => rfl
      | ⟨3, _⟩ => rfl
      | ⟨4, _⟩ => show (((b.val * 64 + c.val) * 28 + h.val) * 28 + w.val) / 28 % 28 = h.val; omega
      | ⟨5, _⟩ => show (((b.val * 64 + c.val) * 28 + h.val) * 28 + w.val) % 28 = w.val; omega)
  rw [val_main_v7_apply, e]
  unfold val_main_v4
  rw [cast4to6_apply, val_main_v3_apply, ref_x]
  exact congrArg x0 (funext fun a => Fin.ext (by
    match a with | ⟨0, _⟩ => rfl | ⟨1, _⟩ => rfl | ⟨2, _⟩ => rfl | ⟨3, _⟩ => rfl))

/-- The weight's entry the first stage's summand reads at channel k. -/
private theorem ref_a1_w (x1 : FVec Ideal S64x256x1x1 .f32) (b : Fin 8) (c : Fin 64) (h w : Fin 28) (k : Fin 256) :
    val_main_v8 (F := Ideal) x1 (idx_main_v11 (idx_main_v12 (ix4 b c h w)) k) = x1 (ix4 c k (0 : Fin 1) (0 : Fin 1)) := by
  have hb := b.isLt; have hc := c.isLt; have hh := h.isLt; have hw := w.isLt; have hk := k.isLt
  rw [val_main_v8_apply, val_main_v6_apply, val_main_v5_apply, val_main_v1_apply]
  exact congrArg x1 (funext fun a => Fin.ext (by
    match a with
    | ⟨0, _⟩ => show ((((0 * 64 + ((0 * 64 + (((b.val * 64 + c.val) * 28 + h.val) * 28 + w.val) / 784 % 64) * 256 + k.val) / 256 % 64) * 256 + ((0 * 64 + (((b.val * 64 + c.val) * 28 + h.val) * 28 + w.val) / 784 % 64) * 256 + k.val) / 1 % 256) * 1 + 0) * 1 + 0) / 256 = c.val; omega
    | ⟨1, _⟩ => show ((((0 * 64 + ((0 * 64 + (((b.val * 64 + c.val) * 28 + h.val) * 28 + w.val) / 784 % 64) * 256 + k.val) / 256 % 64) * 256 + ((0 * 64 + (((b.val * 64 + c.val) * 28 + h.val) * 28 + w.val) / 784 % 64) * 256 + k.val) / 1 % 256) * 1 + 0) * 1 + 0) / 1 % 256 = k.val; omega
    | ⟨2, _⟩ => rfl
    | ⟨3, _⟩ => rfl))

/-- The first stage: zero minus the L1 distance, over the 256 input channels, of the sample's column and the weight's row. -/
theorem ref_a1 (x0 : FVec Ideal S8x256x28x28 .f32) (x1 : FVec Ideal S64x256x1x1 .f32) (b : Fin 8) (c : Fin 64) (h w : Fin 28) :
    val_main_v13 (F := Ideal) x0 x1 (ix4 b c h w)
      = a1 (fun k h w => x0 (ix4 b k h w)) (fun c k => x1 (ix4 c k (0 : Fin 1) (0 : Fin 1))) c h w := by
  rw [val_main_v13_apply, val_main_v2_apply, val_main_cst_apply, val_main_v12_apply, val_main_v11_apply, val_main_cst_0_apply]
  unfold a1 l1
  refine congrArg (fun s => zc - (zc + s)) (Finset.sum_congr rfl fun k _ => ?_)
  rw [val_main_v10_apply, val_main_v9_apply, ref_a1_x, ref_a1_w]
  rfl

/-- A pad by one entry on each side whose padding entry is the padding value, over an operand read by coordinates,
    is that coordinate map read through its border. -/
private theorem pad30_padAt (A : FVec Ideal S8x64x28x28 .f32) (pv : FVec Ideal S_ .f32)
    (hp : S8x64x28x28.Pads ![0, 0, 1, 1] ![0, 0, 1, 1] ![0, 0, 0, 0] S8x64x30x30) (hu : 0 < S_.numel)
    (hpv : pv (Shape.Idx.first hu) = pz) (R : Fin 8 → Fin 64 → Fin 28 → Fin 28 → EReal)
    (hR : ∀ b c h w, A (ix4 b c h w) = R b c h w) (b : Fin 8) (c : Fin 64) (i j : Fin 30) :
    pad S8x64x30x30 ![0, 0, 1, 1] ![0, 0, 1, 1] ![0, 0, 0, 0] A pv hp hu (ix4 b c i j) = padAt (R b c) i j := by
  unfold padAt
  rw [pad30_apply]
  by_cases h : 1 ≤ i.val ∧ i.val ≤ 28 ∧ 1 ≤ j.val ∧ j.val ≤ 28
  · rw [dif_pos h, dif_pos h, hR]
  · rw [dif_neg h, dif_neg h, hpv]

/-- The first stage's result read through its one-entry border. -/
theorem ref_pad1_of (x0 : FVec Ideal S8x256x28x28 .f32) (x1 : FVec Ideal S64x256x1x1 .f32)
    (A1 : Fin 8 → Fin 64 → Fin 28 → Fin 28 → EReal)
    (hA : ∀ b c h w, val_main_v13 (F := Ideal) x0 x1 (ix4 b c h w) = A1 b c h w) (b : Fin 8) (c : Fin 64) (i j : Fin 30) :
    val_main_v14 (F := Ideal) x0 x1 (ix4 b c i j) = padAt (A1 b c) i j := by
  unfold val_main_v14
  exact pad30_padAt _ _ _ _ rfl A1 hA b c i j

/-- The second stage's clamped result read through its one-entry border. -/
theorem ref_pad2_of (x0 : FVec Ideal S8x256x28x28 .f32) (x1 : FVec Ideal S64x256x1x1 .f32) (x2 : FVec Ideal S64x1x3x3 .f32)
    (x5 x6 x7 x8 : FVec Ideal S64 .f32) (R2 : Fin 8 → Fin 64 → Fin 28 → Fin 28 → EReal)
    (hR : ∀ b c h w, val_main_v128 (F := Ideal) x0 x1 x2 x5 x6 x7 x8 (ix4 b c h w) = R2 b c h w)
    (b : Fin 8) (c : Fin 64) (i j : Fin 30) :
    val_main_v129 (F := Ideal) x0 x1 x2 x5 x6 x7 x8 (ix4 b c i j) = padAt (R2 b c) i j := by
  unfold val_main_v129
  exact pad30_padAt _ _ _ _ rfl R2 hR b c i j

/-- The third stage's clamped result passes the pad of no width unchanged. -/
theorem ref_pad3 (x0 : FVec Ideal S8x256x28x28 .f32) (x1 : FVec Ideal S64x256x1x1 .f32) (x2 : FVec Ideal S64x1x3x3 .f32)
    (x3 : FVec Ideal S64x64x3x3 .f32) (x5 x6 x7 x8 x9 x10 x11 x12 : FVec Ideal S64 .f32) :
    val_main_v253 (F := Ideal) x0 x1 x2 x3 x5 x6 x7 x8 x9 x10 x11 x12
      = val_main_v252 (F := Ideal) x0 x1 x2 x3 x5 x6 x7 x8 x9 x10 x11 x12 := by
  unfold val_main_v253
  exact pad0_64 _ _ _ _

end Cert.ResAdd.R
end
-- ==== Proof.RStage2.lean ====
/-
  The reference's depthwise 3×3 L1 stage and the scale, shift and clamp after it, read at one index.

  For a sample b, channel c and position (h, w): each of the nine taps (kh, kw) contributes the absolute value of the
  padded first-stage map at (h + kh, w + kw) minus the channel's weight at (kh, kw) — a sum over an axis of extent one,
  started from the zero constant, so the term itself; the nine terms are subtracted one after the other from the zero
  constant, rows first; the result is multiplied by the channel's scale (weight over the root of variance plus offset),
  the shift (bias minus mean times scale) is added, and the larger of that and the zero constant is kept.
-/
import proofs.«165038_j41480794144828_1_alg».proof.Proof.RefRead
import proofs.«165038_j41480794144828_1_alg».proof.Proof.Spec
import Idealize.ShloMosaic.Lib.ValueIdx
import Idealize.ShloMosaic.Lib.ValueIdxCoords
import Idealize.ShloMosaic.Lib.ValueIdxRank6
import Idealize.ShloMosaic.Lib.Pipeline.Value
import Idealize.ShloMosaic.Lib.IdealHost
import Idealize.ShloMosaic.PureOps.Ideal.Laws
set_option maxRecDepth 16384
noncomputable section
namespace Cert.ResAdd.R
open Idealize.ShloMosaic Idealize.ShloMosaic.TcCoe Idealize.ShloMosaic.ValueIdx Cert.ReferenceIdeal Cert.ReferenceIdeal.Gen Cert.ReferenceIdeal.Read Cert.ResAdd

section Tap
variable {α : Type}

/-- A rank-4 map seen through two added unit axes: entry (b, c, ·, ·, h, w) is entry (b, c, h, w); the two row-major
    positions agree because a unit axis contributes a factor one and a summand zero. -/
private theorem cast6_apply (y : S8x64x28x28.Idx → α) (hc : S8x64x28x28.ShapeCasts S8x64x1x1x28x28)
    (b : Fin 8) (c : Fin 64) (u v : Fin 1) (h w : Fin 28) :
    shapeCast S8x64x1x1x28x28 y hc (ix6 b c u v h w) = y (ix4 b c h w) := by
  refine shapeCast_apply y hc _ _ ?_
  rw [Shape.rowMajor_val_four, Shape.rowMajor_val_six]
  have := u.isLt; have := v.isLt
  show ((b.val * 64 + c.val) * 28 + h.val) * 28 + w.val
    = ((((b.val * 64 + c.val) * 1 + u.val) * 1 + v.val) * 28 + h.val) * 28 + w.val
  omega

/-- The padded map's window at offset (kh, kw): entry (b, c, h, w) of the slice is entry (b, c, h + kh, w + kw). -/
private theorem win_apply (P : S8x64x30x30.Idx → α) (kh kw : Nat) (hkh : kh < 3) (hkw : kw < 3)
    (hs : S8x64x30x30.Slices ![0, 0, kh, kw] S8x64x28x28) (b : Fin 8) (c : Fin 64) (h w : Fin 28) :
    extractStridedSlice S8x64x28x28 ![0, 0, kh, kw] P hs (ix4 b c h w)
      = P (ix4 b c (⟨h.val + kh, by omega⟩ : Fin 30) (⟨w.val + kw, by omega⟩ : Fin 30)) := by
  refine extractStridedSlice_apply _ P hs _ _ fun a => ?_
  match a with
  | ⟨0, _⟩ => show b.val = 0 + b.val; omega
  | ⟨1, _⟩ => show c.val = 0 + c.val; omega
  | ⟨2, _⟩ => show h.val + kh = kh + h.val; omega
  | ⟨3, _⟩ => show w.val + kw = kw + w.val; omega

/-- The weight array's entry for tap (kh, kw), cut out, squeezed to [64,1,1], and spread over samples and positions:
    entry (b, c, ·, ·, h, w) is the weight of channel c at that tap. -/
private theorem wt_apply (W : S64x1x1x3x3.Idx → α) (kh kw : Nat) (hkh : kh < 3) (hkw : kw < 3)
    (hw : S64x1x1x3x3.Slices ![0, 0, 0, kh, kw] S64x1x1x1x1)
    (hc : S64x1x1x1x1.ShapeCasts S64x1x1)
    (hb1 : S64x1x1.BroadcastsInDim S1x64x1x1x1x1 (![1, 2, 3] : Fin 3 → Fin S1x64x1x1x1x1.rank))
    (hb2 : S1x64x1x1x1x1.BroadcastsInDim S8x64x1x1x28x28 (![0, 1, 2, 3, 4, 5] : Fin 6 → Fin S8x64x1x1x28x28.rank))
    (b : Fin 8) (c : Fin 64) (u v : Fin 1) (h w : Fin 28) :
    broadcastInDim S8x64x1x1x28x28 ![0, 1, 2, 3, 4, 5] hb2
        (broadcastInDim S1x64x1x1x1x1 ![1, 2, 3] hb1
          (shapeCast S64x1x1 (extractStridedSlice S64x1x1x1x1 ![0, 0, 0, kh, kw] W hw) hc)) (ix6 b c u v h w)
      = W (ix5 c (0 : Fin 1) (0 : Fin 1) (⟨kh, hkh⟩ : Fin 3) (⟨kw, hkw⟩ : Fin 3)) := by
  refine (broadcastInDim_apply _ hb2 _ _ (ix6 (0 : Fin 1) c (0 : Fin 1) (0 : Fin 1) (0 : Fin 1) (0 : Fin 1)) fun a => ?_).trans ?_
  · match a with
    | ⟨0, _⟩ => show 0 = if (1 : Nat) = 1 then 0 else b.val; rw [if_pos rfl]
    | ⟨1, _⟩ => show c.val = if (64 : Nat) = 1 then 0 else c.val; rw [if_neg (by decide)]
    | ⟨2, _⟩ => show 0 = if (1 : Nat) = 1 then 0 else u.val; rw [if_pos rfl]
    | ⟨3, _⟩ => show 0 = if (1 : Nat) = 1 then 0 else v.val; rw [if_pos rfl]
    | ⟨4, _⟩ => show 0 = if (1 : Nat) = 1 then 0 else h.val; rw [if_pos rfl]
    | ⟨5, _⟩ => show 0 = if (1 : Nat) = 1 then 0 else w.val; rw [if_pos rfl]
  refine (broadcastInDim_apply _ hb1 _ _ (ix3 c (0 : Fin 1) (0 : Fin 1)) fun a => ?_).trans ?_
  · match a with
    | ⟨0, _⟩ => show c.val = if (64 : Nat) = 1 then 0 else c.val; rw [if_neg (by decide)]
    | ⟨1, _⟩ => show 0 = if (1 : Nat) = 1 then 0 else 0; rw [if_pos rfl]
    | ⟨2, _⟩ => show 0 = if (1 : Nat) = 1 then 0 else 0; rw [if_pos rfl]
  refine (shapeCast_apply _ hc _ (ix5 c (0 : Fin 1) (0 : Fin 1) (0 : Fin 1) (0 : Fin 1)) ?_).trans ?_
  · rw [Shape.rowMajor_val_five, Shape.rowMajor_val_three]
    show (((c.val * 1 + 0) * 1 + 0) * 1 + 0) * 1 + 0 = (c.val * 1 + 0) * 1 + 0
    omega
  refine extractStridedSlice_apply _ W hw _ _ fun a => ?_
  match a with
  | ⟨0, _⟩ => show c.val = 0 + c.val; omega
  | ⟨1, _⟩ => show 0 = 0 + 0; omega
  | ⟨2, _⟩ => show 0 = 0 + 0; omega
  | ⟨3, _⟩ => show kh = kh + 0; omega
  | ⟨4, _⟩ => show kw = kw + 0; omega

end Tap

/-- ONE TAP of the depthwise L1 stage read at (b, c, h, w): the window entry of the padded map minus the tap's weight,
    in absolute value. The sum over the unit axis has one term, and the zero constant it starts from is the real zero,
    so the sum is that term. -/
private theorem tap_apply (P : FVec Ideal S8x64x30x30 .f32) (W : FVec Ideal S64x1x1x3x3 .f32)
    (kh kw : Nat) (hkh : kh < 3) (hkw : kw < 3)
    (hs : S8x64x30x30.Slices ![0, 0, kh, kw] S8x64x28x28)
    (hc6 : S8x64x28x28.ShapeCasts S8x64x1x1x28x28)
    (hw : S64x1x1x3x3.Slices ![0, 0, 0, kh, kw] S64x1x1x1x1)
    (hc3 : S64x1x1x1x1.ShapeCasts S64x1x1)
    (hb1 : S64x1x1.BroadcastsInDim S1x64x1x1x1x1 (![1, 2, 3] : Fin 3 → Fin S1x64x1x1x1x1.rank))
    (hb2 : S1x64x1x1x1x1.BroadcastsInDim S8x64x1x1x28x28 (![0, 1, 2, 3, 4, 5] : Fin 6 → Fin S8x64x1x1x28x28.rank))
    (hr : S8x64x1x1x28x28.ReducesTo [3] S8x64x1x28x28) (h0 : 0 < S_.numel)
    (hc4 : S8x64x1x28x28.ShapeCasts S8x64x28x28)
    (b : Fin 8) (c : Fin 64) (h w : Fin 28) :
    (shapeCast S8x64x28x28
      (Host.reduceAdd
        (Host.absf (subf
          (shapeCast S8x64x1x1x28x28 (extractStridedSlice S8x64x28x28 ![0, 0, kh, kw] P hs) hc6)
          (broadcastInDim S8x64x1x1x28x28 ![0, 1, 2, 3, 4, 5] hb2
            (broadcastInDim S1x64x1x1x1x1 ![1, 2, 3] hb1
              (shapeCast S64x1x1 (extractStridedSlice S64x1x1x1x1 ![0, 0, 0, kh, kw] W hw) hc3))) : FVec Ideal S8x64x1x1x28x28 .f32))
        (constant (F := Ideal) S_ .f32 0x00000000#32) hr h0 : FVec Ideal S8x64x1x28x28 .f32) hc4 : FVec Ideal S8x64x28x28 .f32)
      (ix4 b c h w)
    = ab (P (ix4 b c (⟨h.val + kh, by omega⟩ : Fin 30) (⟨w.val + kw, by omega⟩ : Fin 30))
          - W (ix5 c (0 : Fin 1) (0 : Fin 1) (⟨kh, hkh⟩ : Fin 3) (⟨kw, hkw⟩ : Fin 3))) := by
  have hR : S8x64x1x1x28x28.Reduces [3] S8x64x1x28x28 := by decide
  refine (shapeCast_apply _ hc4 _ (ix5 b c (0 : Fin 1) h w) ?_).trans ?_
  · rw [Shape.rowMajor_val_five, Shape.rowMajor_val_four]
    show (((b.val * 64 + c.val) * 1 + 0) * 28 + h.val) * 28 + w.val = ((b.val * 64 + c.val) * 28 + h.val) * 28 + w.val
    omega
  rw [hostReduceAdd_apply, Ideal.hostReduceAdd_single hr hR]
  have hi : ∀ k : Fin 1, hR.lift (ix5 b c (0 : Fin 1) h w) k = ix6 b c (0 : Fin 1) k h w := fun k =>
    funext fun a => Fin.ext (by
      match a with
      | ⟨0, _⟩ => rfl
      | ⟨1, _⟩ => rfl
      | ⟨2, _⟩ => rfl
      | ⟨3, _⟩ => rfl
      | ⟨4, _⟩ => rfl
      | ⟨5, _⟩ => rfl)
  show Ideal.ofBits .f32 0x00000000#32 + ∑ k : Fin 1, _ = _
  rw [Fin.sum_univ_one, hi, Ideal.ofBits_zero_f32, zero_add]
  show ab (shapeCast S8x64x1x1x28x28 (extractStridedSlice S8x64x28x28 ![0, 0, kh, kw] P hs) hc6 (ix6 b c (0 : Fin 1) (0 : Fin 1) h w)
      - broadcastInDim S8x64x1x1x28x28 ![0, 1, 2, 3, 4, 5] hb2
          (broadcastInDim S1x64x1x1x1x1 ![1, 2, 3] hb1
            (shapeCast S64x1x1 (extractStridedSlice S64x1x1x1x1 ![0, 0, 0, kh, kw] W hw) hc3)) (ix6 b c (0 : Fin 1) (0 : Fin 1) h w)) = _
  rw [cast6_apply, win_apply P kh kw hkh hkw, wt_apply W kh kw hkh hkw]

/-- A per-channel vector spread over samples and positions: entry (b, c, h, w) is the vector's entry c. -/
private theorem chan_apply {α : Type} (y : S64.Idx → α)
    (hb1 : S64.BroadcastsInDim S1x64x1x1 (![1] : Fin 1 → Fin S1x64x1x1.rank))
    (hb2 : S1x64x1x1.BroadcastsInDim S8x64x28x28 (![0, 1, 2, 3] : Fin 4 → Fin S8x64x28x28.rank))
    (b : Fin 8) (c : Fin 64) (h w : Fin 28) :
    broadcastInDim S8x64x28x28 ![0, 1, 2, 3] hb2 (broadcastInDim S1x64x1x1 ![1] hb1 y) (ix4 b c h w) = y (ix1 c) := by
  refine (broadcastInDim_apply _ hb2 _ _ (ix4 (0 : Fin 1) c (0 : Fin 1) (0 : Fin 1)) fun a => ?_).trans ?_
  · match a with
    | ⟨0, _⟩ => show 0 = if (1 : Nat) = 1 then 0 else b.val; rw [if_pos rfl]
    | ⟨1, _⟩ => show c.val = if (64 : Nat) = 1 then 0 else c.val; rw [if_neg (by decide)]
    | ⟨2, _⟩ => show 0 = if (1 : Nat) = 1 then 0 else h.val; rw [if_pos rfl]
    | ⟨3, _⟩ => show 0 = if (1 : Nat) = 1 then 0 else w.val; rw [if_pos rfl]
  refine broadcastInDim_apply _ hb1 y _ _ fun a => ?_
  match a with
  | ⟨0, _⟩ => show c.val = if (64 : Nat) = 1 then 0 else c.val; rw [if_neg (by decide)]

/-- The per-channel scale: the weight over the square root of the variance plus the offset constant. -/
private theorem scale_apply (g v : FVec Ideal S64 .f32) (hb : S_.BroadcastsInDim S64 (![] : Fin 0 → Fin S64.rank)) (c : Fin 64) :
    (Host.divf g (Host.sqrt (addf v (broadcastInDim S64 ![] hb (constant (F := Ideal) S_ .f32 0x3727C5AC#32)))) : FVec Ideal S64 .f32) (ix1 c)
      = scaleDiv (g (ix1 c)) (v (ix1 c)) := by
  show Ideal.div (g (ix1 c)) (Ideal.sqrt (v (ix1 c) + broadcastInDim S64 ![] hb (constant (F := Ideal) S_ .f32 0x3727C5AC#32) (ix1 c))) = _
  rw [broadcastInDim_scalar_apply]
  rfl

/-- Scale, shift and clamp at zero, read at (b, c, h, w): the map's entry times the channel's scale, plus the channel's
    shift (bias minus mean times scale), and the larger of that and the zero constant. -/
private theorem tail_apply (A : FVec Ideal S8x64x28x28 .f32) (g bb m v : FVec Ideal S64 .f32)
    (hb : S_.BroadcastsInDim S64 (![] : Fin 0 → Fin S64.rank))
    (hb1 : S64.BroadcastsInDim S1x64x1x1 (![1] : Fin 1 → Fin S1x64x1x1.rank))
    (hb2 : S1x64x1x1.BroadcastsInDim S8x64x28x28 (![0, 1, 2, 3] : Fin 4 → Fin S8x64x28x28.rank))
    (hz : S_.BroadcastsInDim S8x64x28x28 (![] : Fin 0 → Fin S8x64x28x28.rank))
    (b : Fin 8) (c : Fin 64) (h w : Fin 28) :
    (maximumf
      (addf
        (mulf A (broadcastInDim S8x64x28x28 ![0, 1, 2, 3] hb2 (broadcastInDim S1x64x1x1 ![1] hb1
          (Host.divf g (Host.sqrt (addf v (broadcastInDim S64 ![] hb (constant (F := Ideal) S_ .f32 0x3727C5AC#32))))))))
        (broadcastInDim S8x64x28x28 ![0, 1, 2, 3] hb2 (broadcastInDim S1x64x1x1 ![1] hb1
          (subf bb (mulf m (Host.divf g (Host.sqrt (addf v (broadcastInDim S64 ![] hb (constant (F := Ideal) S_ .f32 0x3727C5AC#32))))))))))
      (broadcastInDim S8x64x28x28 ![] hz (constant (F := Ideal) S_ .f32 0x00000000#32)) : FVec Ideal S8x64x28x28 .f32) (ix4 b c h w)
    = max (bn (scaleDiv (g (ix1 c)) (v (ix1 c))) (bb (ix1 c)) (m (ix1 c)) (A (ix4 b c h w))) zc := by
  rw [maximumf_apply, addf_apply, mulf_apply, chan_apply, chan_apply, scale_apply, subf_apply, mulf_apply, scale_apply,
    broadcastInDim_scalar_apply]
  rfl

/-- The depthwise weights seen through an added unit axis: entry (c, ·, ·, kh, kw) is entry (c, 0, kh, kw). -/
private theorem w5_apply {α : Type} (x : S64x1x3x3.Idx → α) (hc : S64x1x3x3.ShapeCasts S64x1x1x3x3)
    (c : Fin 64) (u v : Fin 1) (kh kw : Fin 3) :
    shapeCast S64x1x1x3x3 x hc (ix5 c u v kh kw) = x (ix4 c (0 : Fin 1) kh kw) := by
  refine shapeCast_apply x hc _ _ ?_
  rw [Shape.rowMajor_val_four, Shape.rowMajor_val_five]
  have := u.isLt; have := v.isLt
  show ((c.val * 1 + 0) * 3 + kh.val) * 3 + kw.val = (((c.val * 1 + u.val) * 1 + v.val) * 3 + kh.val) * 3 + kw.val
  omega

section Stage
variable (x0 : FVec Ideal S8x256x28x28 .f32) (x1 : FVec Ideal S64x256x1x1 .f32) (x2 : FVec Ideal S64x1x3x3 .f32)
  (x5 x6 x7 x8 : FVec Ideal S64 .f32)

/-- One tap over the program's own padded map and weights: the padded map is read through its entries `P1`, the
    five-axis weights through the four-axis argument. -/
private theorem tap_read (P1 : Fin 8 → Fin 64 → Fin 30 → Fin 30 → EReal)
    (hp : ∀ b c i j, val_main_v14 (F := Ideal) x0 x1 (ix4 b c i j) = P1 b c i j)
    (kh kw : Nat) (hkh : kh < 3) (hkw : kw < 3)
    (hs : S8x64x30x30.Slices ![0, 0, kh, kw] S8x64x28x28)
    (hw : S64x1x1x3x3.Slices ![0, 0, 0, kh, kw] S64x1x1x1x1)
    (b : Fin 8) (c : Fin 64) (h w : Fin 28) :
    (shapeCast S8x64x28x28
      (Host.reduceAdd
        (Host.absf (subf
          (shapeCast S8x64x1x1x28x28 (extractStridedSlice S8x64x28x28 ![0, 0, kh, kw] (val_main_v14 (F := Ideal) x0 x1) hs)
            shapeCasts_S8x64x28x28_S8x64x1x1x28x28)
          (broadcastInDim S8x64x1x1x28x28 ![0, 1, 2, 3, 4, 5] bcast_S1x64x1x1x1x1_S8x64x1x1x28x28_0_1_2_3_4_5
            (broadcastInDim S1x64x1x1x1x1 ![1, 2, 3] bcast_S64x1x1_S1x64x1x1x1x1_1_2_3
              (shapeCast S64x1x1 (extractStridedSlice S64x1x1x1x1 ![0, 0, 0, kh, kw] (val_main_v15 (F := Ideal) x2) hw)
                shapeCasts_S64x1x1x1x1_S64x1x1))) : FVec Ideal S8x64x1x1x28x28 .f32))
        (constant (F := Ideal) S_ .f32 0x00000000#32) reducesTo_S8x64x1x1x28x28_S8x64x1x28x28_d3 h_S_ : FVec Ideal S8x64x1x28x28 .f32)
      shapeCasts_S8x64x1x28x28_S8x64x28x28 : FVec Ideal S8x64x28x28 .f32) (ix4 b c h w)
    = ab (P1 b c (⟨h.val + kh, by omega⟩ : Fin 30) (⟨w.val + kw, by omega⟩ : Fin 30)
          - x2 (ix4 c (0 : Fin 1) (⟨kh, hkh⟩ : Fin 3) (⟨kw, hkw⟩ : Fin 3))) := by
  rw [tap_apply _ _ kh kw hkh hkw, hp]
  unfold val_main_v15
  rw [w5_apply]

/-- The running value starts at the zero constant. -/
private theorem v16_read (i : S8x64x28x28.Idx) : val_main_v16 (F := Ideal) i = zc := by
  unfold val_main_v16
  rw [broadcastInDim_scalar_apply]
  rfl

/-- THE STAGE at (b, c, h, w), given the padded first-stage map's entries. -/
theorem ref_r2_of (P1 : Fin 8 → Fin 64 → Fin 30 → Fin 30 → EReal)
    (hp : ∀ b c i j, val_main_v14 (F := Ideal) x0 x1 (ix4 b c i j) = P1 b c i j) (b : Fin 8) (c : Fin 64) (h w : Fin 28) :
    val_main_v128 (F := Ideal) x0 x1 x2 x5 x6 x7 x8 (ix4 b c h w)
      = max (bn (scaleDiv (x5 (ix1 c)) (x8 (ix1 c))) (x6 (ix1 c)) (x7 (ix1 c))
          (nine (fun kh kw => ab (P1 b c (sh h kh) (sh w kw) - x2 (ix4 c (0 : Fin 1) kh kw))))) zc := by
  -- the nine taps' terms
  have t00 : val_main_v26 (F := Ideal) x0 x1 x2 (ix4 b c h w)
      = ab (P1 b c (sh h 0) (sh w 0) - x2 (ix4 c (0 : Fin 1) (0 : Fin 3) (0 : Fin 3))) :=
    tap_read x0 x1 x2 P1 hp 0 0 (by omega) (by omega) slices_S8x64x30x30_S8x64x28x28_0_0_0_0
      slices_S64x1x1x3x3_S64x1x1x1x1_0_0_0_0_0 b c h w
  have t01 : val_main_v37 (F := Ideal) x0 x1 x2 (ix4 b c h w)
      = ab (P1 b c (sh h 0) (sh w 1) - x2 (ix4 c (0 : Fin 1) (0 : Fin 3) (1 : Fin 3))) :=
    tap_read x0 x1 x2 P1 hp 0 1 (by omega) (by omega) slices_S8x64x30x30_S8x64x28x28_0_0_0_1
      slices_S64x1x1x3x3_S64x1x1x1x1_0_0_0_0_1 b c h w
  have t02 : val_main_v48 (F := Ideal) x0 x1 x2 (ix4 b c h w)
      = ab (P1 b c (sh h 0) (sh w 2) - x2 (ix4 c (0 : Fin 1) (0 : Fin 3) (2 : Fin 3))) :=
    tap_read x0 x1 x2 P1 hp 0 2 (by omega) (by omega) slices_S8x64x30x30_S8x64x28x28_0_0_0_2
      slices_S64x1x1x3x3_S64x1x1x1x1_0_0_0_0_2 b c h w
  have t10 : val_main_v59 (F := Ideal) x0 x1 x2 (ix4 b c h w)
      = ab (P1 b c (sh h 1) (sh w 0) - x2 (ix4 c (0 : Fin 1) (1 : Fin 3) (0 : Fin 3))) :=
    tap_read x0 x1 x2 P1 hp 1 0 (by omega) (by omega) slices_S8x64x30x30_S8x64x28x28_0_0_1_0
      slices_S64x1x1x3x3_S64x1x1x1x1_0_0_0_1_0 b c h w
  have t11 : val_main_v70 (F := Ideal) x0 x1 x2 (ix4 b c h w)
      = ab (P1 b c (sh h 1) (sh w 1) - x2 (ix4 c (0 : Fin 1) (1 : Fin 3) (1 : Fin 3))) :=
    tap_read x0 x1 x2 P1 hp 1 1 (by omega) (by omega) slices_S8x64x30x30_S8x64x28x28_0_0_1_1
      slices_S64x1x1x3x3_S64x1x1x1x1_0_0_0_1_1 b c h w
  have t12 : val_main_v81 (F := Ideal) x0 x1 x2 (ix4 b c h w)
      = ab (P1 b c (sh h 1) (sh w 2) - x2 (ix4 c (0 : Fin 1) (1 : Fin 3) (2 : Fin 3))) :=
    tap_read x0 x1 x2 P1 hp 1 2 (by omega) (by omega) slices_S8x64x30x30_S8x64x28x28_0_0_1_2
      slices_S64x1x1x3x3_S64x1x1x1x1_0_0_0_1_2 b c h w
  have t20 : val_main_v92 (F := Ideal) x0 x1 x2 (ix4 b c h w)
      = ab (P1 b c (sh h 2) (sh w 0) - x2 (ix4 c (0 : Fin 1) (2 : Fin 3) (0 : Fin 3))) :=
    tap_read x0 x1 x2 P1 hp 2 0 (by omega) (by omega) slices_S8x64x30x30_S8x64x28x28_0_0_2_0
      slices_S64x1x1x3x3_S64x1x1x1x1_0_0_0_2_0 b c h w
  have t21 : val_main_v103 (F := Ideal) x0 x1 x2 (ix4 b c h w)
      = ab (P1 b c (sh h 2) (sh w 1) - x2 (ix4 c (0 : Fin 1) (2 : Fin 3) (1 : Fin 3))) :=
    tap_read x0 x1 x2 P1 hp 2 1 (by omega) (by omega) slices_S8x64x30x30_S8x64x28x28_0_0_2_1
      slices_S64x1x1x3x3_S64x1x1x1x1_0_0_0_2_1 b c h w
  have t22 : val_main_v114 (F := Ideal) x0 x1 x2 (ix4 b c h w)
      = ab (P1 b c (sh h 2) (sh w 2) - x2 (ix4 c (0 : Fin 1) (2 : Fin 3) (2 : Fin 3))) :=
    tap_read x0 x1 x2 P1 hp 2 2 (by omega) (by omega) slices_S8x64x30x30_S8x64x28x28_0_0_2_2
      slices_S64x1x1x3x3_S64x1x1x1x1_0_0_0_2_2 b c h w
  -- the nine subtractions from the zero constant
  have hn : val_main_v115 (F := Ideal) x0 x1 x2 (ix4 b c h w)
      = nine (fun kh kw => ab (P1 b c (sh h kh) (sh w kw) - x2 (ix4 c (0 : Fin 1) kh kw))) := by
    rw [val_main_v115_apply, val_main_v104_apply, val_main_v93_apply, val_main_v82_apply, val_main_v71_apply, val_main_v60_apply, val_main_v49_apply, val_main_v38_apply, val_main_v27_apply]
    simp only [Ideal.subf_def]
    rw [v16_read, t00, t01, t02, t10, t11, t12, t20, t21, t22]
    rfl
  -- scale, shift, clamp
  refine (tail_apply (val_main_v115 (F := Ideal) x0 x1 x2) x5 x6 x7 x8 bcast_S_S64 bcast_S64_S1x64x1x1_1
    bcast_S1x64x1x1_S8x64x28x28_0_1_2_3 bcast_S_S8x64x28x28 b c h w).trans ?_
  rw [hn]

end Stage
end Cert.ResAdd.R
end
-- ==== Proof.RStage3.lean ====
/-
  The reference's 3×3 L1 stage (64 → 64 channels) and the scale, shift and clamp after it, read at an index.

  The padded second-stage map P (8 × 64 × 30 × 30) is cut into nine 28 × 28 windows, one per tap (kh, kw). Each window is
  regrouped to rank six and repeated along an output-channel axis; the weights' tap is regrouped and repeated over samples
  and positions; the two are subtracted, the absolute value taken, and the 64 input channels summed from the zero
  constant. Read at (b, c, h, w) that is the L1 distance between the rows k ↦ P b k (h + kh) (w + kw) and
  k ↦ W c k kh kw. The nine distances are subtracted one after the other from a zero array; the result is multiplied by
  the channel's scale g / sqrt (v + ε), the shift b − m · scale is added, and the maximum with zero is taken.
-/
import proofs.«165038_j41480794144828_1_alg».proof.Proof.RefRead
import proofs.«165038_j41480794144828_1_alg».proof.Proof.Spec
import Idealize.ShloMosaic.Lib.ValueIdx
import Idealize.ShloMosaic.Lib.ValueIdxCoords
import Idealize.ShloMosaic.Lib.ValueIdxRank6
import Idealize.ShloMosaic.Lib.Pipeline.Value
import Idealize.ShloMosaic.Lib.IdealHost
import Idealize.ShloMosaic.PureOps.Ideal.Laws
set_option maxRecDepth 16384
noncomputable section
namespace Cert.ResAdd.R
open Idealize.ShloMosaic Idealize.ShloMosaic.TcCoe Idealize.ShloMosaic.ValueIdx Cert.ReferenceIdeal Cert.ReferenceIdeal.Gen Cert.ReferenceIdeal.Read Cert.ResAdd

/-- The padded map's window, regrouped to rank six and repeated along the output-channel axis, read at an index:
    the padded map at the input channel and the window position. -/
private theorem r3_slab_apply (P : FVec Ideal S8x64x30x30 .f32) (kh kw : Nat) (hkh : kh < 3) (hkw : kw < 3)
    (hs : S8x64x30x30.Slices ![0, 0, kh, kw] S8x64x28x28)
    (hc : S8x64x28x28.ShapeCasts S8x1x1x64x28x28)
    (hb : S8x1x1x64x28x28.BroadcastsInDim S8x1x64x64x28x28 (![0, 1, 2, 3, 4, 5] : Fin 6 → Fin S8x1x64x64x28x28.rank))
    (b : Fin 8) (u : Fin 1) (c k : Fin 64) (h w : Fin 28) :
    broadcastInDim S8x1x64x64x28x28 ![0, 1, 2, 3, 4, 5] hb
        (shapeCast _ (extractStridedSlice S8x64x28x28 ![0, 0, kh, kw] P hs) hc) (ix6 b u c k h w)
      = P (ix4 b k ⟨h.val + kh, by omega⟩ ⟨w.val + kw, by omega⟩) := by
  refine (broadcastInDim_apply _ hb _ _ (ix6 b (0 : Fin 1) (0 : Fin 1) k h w) (fun a => match a with
    | ⟨0, _⟩ => by show b.val = if (8 : Nat) = 1 then 0 else b.val; rw [if_neg (by decide)]
    | ⟨1, _⟩ => by show 0 = if (1 : Nat) = 1 then 0 else u.val; rw [if_pos rfl]
    | ⟨2, _⟩ => by show 0 = if (1 : Nat) = 1 then 0 else c.val; rw [if_pos rfl]
    | ⟨3, _⟩ => by show k.val = if (64 : Nat) = 1 then 0 else k.val; rw [if_neg (by decide)]
    | ⟨4, _⟩ => by show h.val = if (28 : Nat) = 1 then 0 else h.val; rw [if_neg (by decide)]
    | ⟨5, _⟩ => by show w.val = if (28 : Nat) = 1 then 0 else w.val; rw [if_neg (by decide)])).trans ?_
  refine (shapeCast_apply _ hc _ (ix4 b k h w) (by
    rewrite [Shape.rowMajor_val_four, Shape.rowMajor_val_six]
    show ((b.val * 64 + k.val) * 28 + h.val) * 28 + w.val
      = ((((b.val * 1 + 0) * 1 + 0) * 64 + k.val) * 28 + h.val) * 28 + w.val
    omega)).trans ?_
  exact extractStridedSlice_apply ![0, 0, kh, kw] P hs (ix4 b k h w) _ (fun a => match a with
    | ⟨0, _⟩ => by show b.val = 0 + b.val; omega
    | ⟨1, _⟩ => by show k.val = 0 + k.val; omega
    | ⟨2, _⟩ => by show h.val + kh = kh + h.val; omega
    | ⟨3, _⟩ => by show w.val + kw = kw + w.val; omega)

/-- The weights' tap, regrouped and repeated over samples and positions, read at an index: the weight of the output
    channel, the input channel and the tap. -/
private theorem r3_wt_apply (x3 : FVec Ideal S64x64x3x3 .f32) (kh kw : Nat) (hkh : kh < 3) (hkw : kw < 3)
    (h0 : S64x64x3x3.ShapeCasts S1x64x64x3x3)
    (hw : S1x64x64x3x3.Slices ![0, 0, 0, kh, kw] S1x64x64x1x1)
    (hc : S1x64x64x1x1.ShapeCasts S1x64x64)
    (hb1 : S1x64x64.BroadcastsInDim S1x1x64x64x1x1 (![1, 2, 3] : Fin 3 → Fin S1x1x64x64x1x1.rank))
    (hb2 : S1x1x64x64x1x1.BroadcastsInDim S8x1x64x64x28x28 (![0, 1, 2, 3, 4, 5] : Fin 6 → Fin S8x1x64x64x28x28.rank))
    (b : Fin 8) (u : Fin 1) (c k : Fin 64) (h w : Fin 28) :
    broadcastInDim S8x1x64x64x28x28 ![0, 1, 2, 3, 4, 5] hb2
        (broadcastInDim S1x1x64x64x1x1 ![1, 2, 3] hb1
          (shapeCast _ (extractStridedSlice S1x64x64x1x1 ![0, 0, 0, kh, kw] (shapeCast _ x3 h0) hw) hc)) (ix6 b u c k h w)
      = x3 (ix4 c k ⟨kh, hkh⟩ ⟨kw, hkw⟩) := by
  refine (broadcastInDim_apply _ hb2 _ _ (ix6 (0 : Fin 1) (0 : Fin 1) c k (0 : Fin 1) (0 : Fin 1)) (fun a => match a with
    | ⟨0, _⟩ => by show 0 = if (1 : Nat) = 1 then 0 else b.val; rw [if_pos rfl]
    | ⟨1, _⟩ => by show 0 = if (1 : Nat) = 1 then 0 else u.val; rw [if_pos rfl]
    | ⟨2, _⟩ => by show c.val = if (64 : Nat) = 1 then 0 else c.val; rw [if_neg (by decide)]
    | ⟨3, _⟩ => by show k.val = if (64 : Nat) = 1 then 0 else k.val; rw [if_neg (by decide)]
    | ⟨4, _⟩ => by show 0 = if (1 : Nat) = 1 then 0 else h.val; rw [if_pos rfl]
    | ⟨5, _⟩ => by show 0 = if (1 : Nat) = 1 then 0 else w.val; rw [if_pos rfl])).trans ?_
  refine (broadcastInDim_apply _ hb1 _ _ (ix3 (0 : Fin 1) c k) (fun a => match a with
    | ⟨0, _⟩ => by show 0 = if (1 : Nat) = 1 then 0 else 0; rw [if_pos rfl]
    | ⟨1, _⟩ => by show c.val = if (64 : Nat) = 1 then 0 else c.val; rw [if_neg (by decide)]
    | ⟨2, _⟩ => by show k.val = if (64 : Nat) = 1 then 0 else k.val; rw [if_neg (by decide)])).trans ?_
  refine (shapeCast_apply _ hc _ (ix5 (0 : Fin 1) c k (0 : Fin 1) (0 : Fin 1)) (by
    rewrite [Shape.rowMajor_val_five, Shape.rowMajor_val_three]
    show (((0 * 64 + c.val) * 64 + k.val) * 1 + 0) * 1 + 0 = (0 * 64 + c.val) * 64 + k.val
    omega)).trans ?_
  refine (extractStridedSlice_apply ![0, 0, 0, kh, kw] _ hw _
    (ix5 (0 : Fin 1) c k (⟨kh, hkh⟩ : Fin 3) (⟨kw, hkw⟩ : Fin 3)) (fun a => match a with
    | ⟨0, _⟩ => by show 0 = 0 + 0; omega
    | ⟨1, _⟩ => by show c.val = 0 + c.val; omega
    | ⟨2, _⟩ => by show k.val = 0 + k.val; omega
    | ⟨3, _⟩ => by show kh = kh + 0; omega
    | ⟨4, _⟩ => by show kw = kw + 0; omega)).trans ?_
  exact shapeCast_apply x3 h0 _ (ix4 c k ⟨kh, hkh⟩ ⟨kw, hkw⟩) (by
    rewrite [Shape.rowMajor_val_four, Shape.rowMajor_val_five]
    show ((c.val * 64 + k.val) * 3 + kh) * 3 + kw = (((0 * 64 + c.val) * 64 + k.val) * 3 + kh) * 3 + kw
    omega)

/-- The sum over the input-channel axis from the zero constant, regrouped to rank four, read at an index. -/
private theorem r3_red_apply (Y : FVec Ideal S8x1x64x64x28x28 .f32)
    (hr : S8x1x64x64x28x28.ReducesTo [3] S8x1x64x28x28) (h_ : 0 < S_.numel)
    (hc : S8x1x64x28x28.ShapeCasts S8x64x28x28) (b : Fin 8) (c : Fin 64) (h w : Fin 28) :
    shapeCast _ (Host.reduceAdd Y (constant (F := Ideal) S_ .f32 0x00000000#32) hr h_) hc (ix4 b c h w)
      = zc + ∑ k : Fin 64, Y (ix6 b (0 : Fin 1) c k h w) := by
  refine (shapeCast_apply _ hc _ (ix5 b (0 : Fin 1) c h w) (by
    rewrite [Shape.rowMajor_val_five, Shape.rowMajor_val_four]
    show (((b.val * 1 + 0) * 64 + c.val) * 28 + h.val) * 28 + w.val = ((b.val * 64 + c.val) * 28 + h.val) * 28 + w.val
    omega)).trans ?_
  simp only [Host.reduceAdd, Ideal.hostReduceAdd_def]
  rw [Ideal.hostReduceAdd_single hr (by decide)]
  refine congrArg (_ + ·) (Finset.sum_congr rfl fun k _ => ?_)
  exact congrArg Y (funext fun a => Fin.ext (by
    match a with | ⟨0, _⟩ => rfl | ⟨1, _⟩ => rfl | ⟨2, _⟩ => rfl | ⟨3, _⟩ => rfl | ⟨4, _⟩ => rfl | ⟨5, _⟩ => rfl))

/-- One tap of the 3×3 stage read at an index: the L1 distance, over the 64 input channels, between the padded map's
    window entry and the tap's weights. -/
private theorem r3_tap_apply (P : FVec Ideal S8x64x30x30 .f32) (x3 : FVec Ideal S64x64x3x3 .f32)
    (P2 : Fin 8 → Fin 64 → Fin 30 → Fin 30 → EReal) (hp : ∀ b c i j, P (ix4 b c i j) = P2 b c i j)
    (kh kw : Nat) (hkh : kh < 3) (hkw : kw < 3)
    (hs : S8x64x30x30.Slices ![0, 0, kh, kw] S8x64x28x28)
    (hc : S8x64x28x28.ShapeCasts S8x1x1x64x28x28)
    (hb : S8x1x1x64x28x28.BroadcastsInDim S8x1x64x64x28x28 (![0, 1, 2, 3, 4, 5] : Fin 6 → Fin S8x1x64x64x28x28.rank))
    (h0 : S64x64x3x3.ShapeCasts S1x64x64x3x3)
    (hw : S1x64x64x3x3.Slices ![0, 0, 0, kh, kw] S1x64x64x1x1)
    (hc2 : S1x64x64x1x1.ShapeCasts S1x64x64)
    (hb1 : S1x64x64.BroadcastsInDim S1x1x64x64x1x1 (![1, 2, 3] : Fin 3 → Fin S1x1x64x64x1x1.rank))
    (hb2 : S1x1x64x64x1x1.BroadcastsInDim S8x1x64x64x28x28 (![0, 1, 2, 3, 4, 5] : Fin 6 → Fin S8x1x64x64x28x28.rank))
    (hr : S8x1x64x64x28x28.ReducesTo [3] S8x1x64x28x28) (h_ : 0 < S_.numel)
    (hc3 : S8x1x64x28x28.ShapeCasts S8x64x28x28) (b : Fin 8) (c : Fin 64) (h w : Fin 28) :
    shapeCast _ (Host.reduceAdd (Host.absf (subf
        (broadcastInDim S8x1x64x64x28x28 ![0, 1, 2, 3, 4, 5] hb
          (shapeCast _ (extractStridedSlice S8x64x28x28 ![0, 0, kh, kw] P hs) hc))
        (broadcastInDim S8x1x64x64x28x28 ![0, 1, 2, 3, 4, 5] hb2
          (broadcastInDim S1x1x64x64x1x1 ![1, 2, 3] hb1
            (shapeCast _ (extractStridedSlice S1x64x64x1x1 ![0, 0, 0, kh, kw] (shapeCast _ x3 h0) hw) hc2)))))
        (constant (F := Ideal) S_ .f32 0x00000000#32) hr h_) hc3 (ix4 b c h w)
      = l1 (fun k : Fin 64 => P2 b k ⟨h.val + kh, by omega⟩ ⟨w.val + kw, by omega⟩)
          (fun k => x3 (ix4 c k ⟨kh, hkh⟩ ⟨kw, hkw⟩)) := by
  rw [r3_red_apply]
  unfold l1
  refine congrArg (_ + ·) (Finset.sum_congr rfl fun k _ => ?_)
  refine (congrArg₂ (fun s t : EReal => ab (s - t))
    (r3_slab_apply P kh kw hkh hkw hs hc hb b (0 : Fin 1) c k h w)
    (r3_wt_apply x3 kh kw hkh hkw h0 hw hc2 hb1 hb2 b (0 : Fin 1) c k h w)).trans ?_
  show ab (P _ - _) = _
  rw [hp]

/-- A per-channel vector spread over samples and positions reads its channel's entry. -/
private theorem r3_chan_apply (v : FVec Ideal S64 .f32)
    (hb1 : S64.BroadcastsInDim S1x64x1x1 (![1] : Fin 1 → Fin S1x64x1x1.rank))
    (hb2 : S1x64x1x1.BroadcastsInDim S8x64x28x28 (![0, 1, 2, 3] : Fin 4 → Fin S8x64x28x28.rank))
    (b : Fin 8) (c : Fin 64) (h w : Fin 28) :
    broadcastInDim S8x64x28x28 ![0, 1, 2, 3] hb2 (broadcastInDim S1x64x1x1 ![1] hb1 v) (ix4 b c h w) = v (ix1 c) := by
  refine (broadcastInDim_apply _ hb2 _ _ (ix4 (0 : Fin 1) c (0 : Fin 1) (0 : Fin 1)) (fun a => match a with
    | ⟨0, _⟩ => by show 0 = if (1 : Nat) = 1 then 0 else b.val; rw [if_pos rfl]
    | ⟨1, _⟩ => by show c.val = if (64 : Nat) = 1 then 0 else c.val; rw [if_neg (by decide)]
    | ⟨2, _⟩ => by show 0 = if (1 : Nat) = 1 then 0 else h.val; rw [if_pos rfl]
    | ⟨3, _⟩ => by show 0 = if (1 : Nat) = 1 then 0 else w.val; rw [if_pos rfl])).trans ?_
  exact broadcastInDim_apply _ hb1 _ _ (ix1 c) (fun a => match a with
    | ⟨0, _⟩ => by show c.val = if (64 : Nat) = 1 then 0 else c.val; rw [if_neg (by decide)])

variable (x0 : FVec Ideal S8x256x28x28 .f32) (x1 : FVec Ideal S64x256x1x1 .f32) (x2 : FVec Ideal S64x1x3x3 .f32)
  (x3 : FVec Ideal S64x64x3x3 .f32) (x5 x6 x7 x8 x9 x10 x11 x12 : FVec Ideal S64 .f32)

/-- Tap (0, 0) of the stage at an index. -/
private theorem r3_tap00 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v142 (F := Ideal) x0 x1 x2 x3 x5 x6 x7 x8 (ix4 b c h w)
      = l1 (fun k : Fin 64 => P2 b k (sh h 0) (sh w 0)) (fun k => x3 (ix4 c k 0 0)) := by
  unfold val_main_v142 val_main_v141 val_main_v140 val_main_v139 val_main_v138 val_main_v137 val_main_v136
    val_main_v135 val_main_v134 val_main_v133 val_main_v132 val_main_v130 val_main_cst_15
  exact r3_tap_apply _ x3 P2 hp 0 0 (by omega) (by omega) _ _ _ _ _ _ _ _ _ _ _ b c h w

/-- Tap (0, 1) of the stage at an index. -/
private theorem r3_tap01 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v154 (F := Ideal) x0 x1 x2 x3 x5 x6 x7 x8 (ix4 b c h w)
      = l1 (fun k : Fin 64 => P2 b k (sh h 0) (sh w 1)) (fun k => x3 (ix4 c k 0 1)) := by
  unfold val_main_v154 val_main_v153 val_main_v152 val_main_v151 val_main_v150 val_main_v149 val_main_v148
    val_main_v147 val_main_v146 val_main_v145 val_main_v144 val_main_v130 val_main_cst_16
  exact r3_tap_apply _ x3 P2 hp 0 1 (by omega) (by omega) _ _ _ _ _ _ _ _ _ _ _ b c h w

/-- Tap (0, 2) of the stage at an index. -/
private theorem r3_tap02 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v166 (F := Ideal) x0 x1 x2 x3 x5 x6 x7 x8 (ix4 b c h w)
      = l1 (fun k : Fin 64 => P2 b k (sh h 0) (sh w 2)) (fun k => x3 (ix4 c k 0 2)) := by
  unfold val_main_v166 val_main_v165 val_main_v164 val_main_v163 val_main_v162 val_main_v161 val_main_v160
    val_main_v159 val_main_v158 val_main_v157 val_main_v156 val_main_v130 val_main_cst_17
  exact r3_tap_apply _ x3 P2 hp 0 2 (by omega) (by omega) _ _ _ _ _ _ _ _ _ _ _ b c h w

/-- Tap (1, 0) of the stage at an index. -/
private theorem r3_tap10 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v178 (F := Ideal) x0 x1 x2 x3 x5 x6 x7 x8 (ix4 b c h w)
      = l1 (fun k : Fin 64 => P2 b k (sh h 1) (sh w 0)) (fun k => x3 (ix4 c k 1 0)) := by
  unfold val_main_v178 val_main_v177 val_main_v176 val_main_v175 val_main_v174 val_main_v173 val_main_v172
    val_main_v171 val_main_v170 val_main_v169 val_main_v168 val_main_v130 val_main_cst_18
  exact r3_tap_apply _ x3 P2 hp 1 0 (by omega) (by omega) _ _ _ _ _ _ _ _ _ _ _ b c h w

/-- Tap (1, 1) of the stage at an index. -/
private theorem r3_tap11 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v190 (F := Ideal) x0 x1 x2 x3 x5 x6 x7 x8 (ix4 b c h w)
      = l1 (fun k : Fin 64 => P2 b k (sh h 1) (sh w 1)) (fun k => x3 (ix4 c k 1 1)) := by
  unfold val_main_v190 val_main_v189 val_main_v188 val_main_v187 val_main_v186 val_main_v185 val_main_v184
    val_main_v183 val_main_v182 val_main_v181 val_main_v180 val_main_v130 val_main_cst_19
  exact r3_tap_apply _ x3 P2 hp 1 1 (by omega) (by omega) _ _ _ _ _ _ _ _ _ _ _ b c h w

/-- Tap (1, 2) of the stage at an index. -/
private theorem r3_tap12 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v202 (F := Ideal) x0 x1 x2 x3 x5 x6 x7 x8 (ix4 b c h w)
      = l1 (fun k : Fin 64 => P2 b k (sh h 1) (sh w 2)) (fun k => x3 (ix4 c k 1 2)) := by
  unfold val_main_v202 val_main_v201 val_main_v200 val_main_v199 val_main_v198 val_main_v197 val_main_v196
    val_main_v195 val_main_v194 val_main_v193 val_main_v192 val_main_v130 val_main_cst_20
  exact r3_tap_apply _ x3 P2 hp 1 2 (by omega) (by omega) _ _ _ _ _ _ _ _ _ _ _ b c h w

/-- Tap (2, 0) of the stage at an index. -/
private theorem r3_tap20 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v214 (F := Ideal) x0 x1 x2 x3 x5 x6 x7 x8 (ix4 b c h w)
      = l1 (fun k : Fin 64 => P2 b k (sh h 2) (sh w 0)) (fun k => x3 (ix4 c k 2 0)) := by
  unfold val_main_v214 val_main_v213 val_main_v212 val_main_v211 val_main_v210 val_main_v209 val_main_v208
    val_main_v207 val_main_v206 val_main_v205 val_main_v204 val_main_v130 val_main_cst_21
  exact r3_tap_apply _ x3 P2 hp 2 0 (by omega) (by omega) _ _ _ _ _ _ _ _ _ _ _ b c h w

/-- Tap (2, 1) of the stage at an index. -/
private theorem r3_tap21 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v226 (F := Ideal) x0 x1 x2 x3 x5 x6 x7 x8 (ix4 b c h w)
      = l1 (fun k : Fin 64 => P2 b k (sh h 2) (sh w 1)) (fun k => x3 (ix4 c k 2 1)) := by
  unfold val_main_v226 val_main_v225 val_main_v224 val_main_v223 val_main_v222 val_main_v221 val_main_v220
    val_main_v219 val_main_v218 val_main_v217 val_main_v216 val_main_v130 val_main_cst_22
  exact r3_tap_apply _ x3 P2 hp 2 1 (by omega) (by omega) _ _ _ _ _ _ _ _ _ _ _ b c h w

/-- Tap (2, 2) of the stage at an index. -/
private theorem r3_tap22 (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v238 (F := Ideal) x0 x1 x2 x3 x5 x6 x7 x8 (ix4 b c h w)
      = l1 (fun k : Fin 64 => P2 b k (sh h 2) (sh w 2)) (fun k => x3 (ix4 c k 2 2)) := by
  unfold val_main_v238 val_main_v237 val_main_v236 val_main_v235 val_main_v234 val_main_v233 val_main_v232
    val_main_v231 val_main_v230 val_main_v229 val_main_v228 val_main_v130 val_main_cst_23
  exact r3_tap_apply _ x3 P2 hp 2 2 (by omega) (by omega) _ _ _ _ _ _ _ _ _ _ _ b c h w

/-- The nine taps subtracted one after the other from the zero constant. -/
private theorem r3_acc (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v239 (F := Ideal) x0 x1 x2 x3 x5 x6 x7 x8 (ix4 b c h w)
      = nine (fun kh kw => l1 (fun k : Fin 64 => P2 b k (sh h kh) (sh w kw)) (fun k => x3 (ix4 c k kh kw))) := by
  rw [val_main_v239_apply, val_main_v227_apply, val_main_v215_apply, val_main_v203_apply, val_main_v191_apply,
    val_main_v179_apply, val_main_v167_apply, val_main_v155_apply, val_main_v143_apply, val_main_v131_apply,
    r3_tap22 x0 x1 x2 x3 x5 x6 x7 x8 P2 hp, r3_tap21 x0 x1 x2 x3 x5 x6 x7 x8 P2 hp, r3_tap20 x0 x1 x2 x3 x5 x6 x7 x8 P2 hp,
    r3_tap12 x0 x1 x2 x3 x5 x6 x7 x8 P2 hp, r3_tap11 x0 x1 x2 x3 x5 x6 x7 x8 P2 hp, r3_tap10 x0 x1 x2 x3 x5 x6 x7 x8 P2 hp,
    r3_tap02 x0 x1 x2 x3 x5 x6 x7 x8 P2 hp, r3_tap01 x0 x1 x2 x3 x5 x6 x7 x8 P2 hp, r3_tap00 x0 x1 x2 x3 x5 x6 x7 x8 P2 hp]
  rfl

/-- The scale of a channel: the weight divided by the square root of the variance plus the offset. -/
private theorem r3_scale (c : Fin 64) :
    val_main_v243 (F := Ideal) x9 x12 (ix1 c) = scaleDiv (x9 (ix1 c)) (x12 (ix1 c)) := by
  rw [val_main_v243_apply, val_main_v242_apply, val_main_v241_apply, val_main_v240_apply]
  rfl

/-- The 3×3 L1 stage with its scale, shift and clamp at zero, read at an index. -/
theorem ref_r3_of (P2 : Fin 8 → Fin 64 → Fin 30 → Fin 30 → EReal)
    (hp : ∀ b c i j, val_main_v129 (F := Ideal) x0 x1 x2 x5 x6 x7 x8 (ix4 b c i j) = P2 b c i j)
    (b : Fin 8) (c : Fin 64) (h w : Fin 28) :
    val_main_v252 (F := Ideal) x0 x1 x2 x3 x5 x6 x7 x8 x9 x10 x11 x12 (ix4 b c h w)
      = max (bn (scaleDiv (x9 (ix1 c)) (x12 (ix1 c))) (x10 (ix1 c)) (x11 (ix1 c))
          (nine (fun kh kw => l1 (fun k : Fin 64 => P2 b k (sh h kh) (sh w kw)) (fun k => x3 (ix4 c k kh kw))))) zc := by
  have hmul : val_main_v245 (F := Ideal) x9 x12 (ix4 b c h w) = scaleDiv (x9 (ix1 c)) (x12 (ix1 c)) := by
    unfold val_main_v245 val_main_v244
    exact (r3_chan_apply _ _ _ b c h w).trans (r3_scale x9 x12 c)
  have hadd : val_main_v250 (F := Ideal) x9 x10 x11 x12 (ix4 b c h w)
      = x10 (ix1 c) - x11 (ix1 c) * scaleDiv (x9 (ix1 c)) (x12 (ix1 c)) := by
    unfold val_main_v250 val_main_v249
    refine (r3_chan_apply _ _ _ b c h w).trans ?_
    rw [val_main_v248_apply, val_main_v247_apply, r3_scale x9 x12 c]
    rfl
  rw [val_main_v252_apply, val_main_v251_apply, val_main_v246_apply, hmul, hadd,
    r3_acc x0 x1 x2 x3 x5 x6 x7 x8 P2 hp, val_main_call4_v0_apply]
  rfl

end Cert.ResAdd.R
end
-- ==== Proof.RStage4.lean ====
/-
  The reference's last 1×1 L1 stage (64 → 256 channels), its per-channel scale and shift, the residual and the last
  clamp, read at an index (b, c, h, w):
    out b c h w = max ((z - (z + Σ_k |P3 b k h w - W3 c k|)) · I + (B - M · I) + X b c h w) z,   I = G / sqrt (V + ε).
  Each layout operation of the stage is read at an index written by its coordinates (a reshape keeps the row-major
  position, a broadcast repeats along the new or unit axes, the whole slice is the identity); the sum over the 64 input
  channels is the host's reduce-add over axis 3 from the zero constant; the elementwise operations are the extended
  reals' own.
-/
import proofs.«165038_j41480794144828_1_alg».proof.Proof.RefRead
import proofs.«165038_j41480794144828_1_alg».proof.Proof.Spec
import Idealize.ShloMosaic.Lib.ValueIdx
import Idealize.ShloMosaic.Lib.ValueIdxCoords
import Idealize.ShloMosaic.Lib.ValueIdxRank6
import Idealize.ShloMosaic.Lib.Pipeline.Value
import Idealize.ShloMosaic.Lib.IdealHost
import Idealize.ShloMosaic.PureOps.Ideal.Laws
set_option maxRecDepth 16384
noncomputable section
namespace Cert.ResAdd.R
open Idealize.ShloMosaic Idealize.ShloMosaic.TcCoe Idealize.ShloMosaic.ValueIdx Cert.ReferenceIdeal Cert.ReferenceIdeal.Gen Cert.ReferenceIdeal.Read Cert.ResAdd

/-! Layout operations of the last 1×1 stage, each read at an index given by its coordinates. -/

/-- The whole slice (all offsets zero) reads the same entry. -/
private theorem s4_slice_whole {α : Type} (y : S8x64x28x28.Idx → α) (hs : S8x64x28x28.Slices ![0, 0, 0, 0] S8x64x28x28)
    (b : Fin 8) (k : Fin 64) (h w : Fin 28) :
    extractStridedSlice S8x64x28x28 ![0, 0, 0, 0] y hs (ix4 b k h w) = y (ix4 b k h w) :=
  extractStridedSlice_apply ![0, 0, 0, 0] y hs (ix4 b k h w) (ix4 b k h w) (fun a => match a with
    | ⟨0, _⟩ => by show b.val = 0 + b.val; omega
    | ⟨1, _⟩ => by show k.val = 0 + k.val; omega
    | ⟨2, _⟩ => by show h.val = 0 + h.val; omega
    | ⟨3, _⟩ => by show w.val = 0 + w.val; omega)

/-- [8,64,28,28] → [8,1,1,64,28,28]: two unit axes inserted after the sample axis. -/
private theorem s4_cast46 {α : Type} (y : S8x64x28x28.Idx → α) (hc : S8x64x28x28.ShapeCasts S8x1x1x64x28x28)
    (b : Fin 8) (k : Fin 64) (h w : Fin 28) :
    shapeCast S8x1x1x64x28x28 y hc (ix6 b (0 : Fin 1) (0 : Fin 1) k h w) = y (ix4 b k h w) := by
  refine shapeCast_apply y hc _ _ ?_
  rewrite [Shape.rowMajor_val_four, Shape.rowMajor_val_six]
  have := b.isLt; have := k.isLt; have := h.isLt; have := w.isLt
  show ((b.val * 64 + k.val) * 28 + h.val) * 28 + w.val
    = ((((b.val * 1 + 0) * 1 + 0) * 64 + k.val) * 28 + h.val) * 28 + w.val
  omega

/-- The sample map broadcast along the 256 output channels. -/
private theorem s4_bc_act {α : Type} (y : S8x1x1x64x28x28.Idx → α)
    (hb : S8x1x1x64x28x28.BroadcastsInDim S8x1x256x64x28x28 (![0, 1, 2, 3, 4, 5] : Fin 6 → Fin S8x1x256x64x28x28.rank))
    (b : Fin 8) (c : Fin 256) (k : Fin 64) (h w : Fin 28) :
    broadcastInDim S8x1x256x64x28x28 ![0, 1, 2, 3, 4, 5] hb y (ix6 b (0 : Fin 1) c k h w)
      = y (ix6 b (0 : Fin 1) (0 : Fin 1) k h w) :=
  broadcastInDim_apply _ hb y _ (ix6 b (0 : Fin 1) (0 : Fin 1) k h w) (fun a => match a with
    | ⟨0, _⟩ => by show b.val = if (8 : Nat) = 1 then 0 else b.val; rw [if_neg (by decide)]
    | ⟨1, _⟩ => by show 0 = if (1 : Nat) = 1 then 0 else 0; rw [if_pos rfl]
    | ⟨2, _⟩ => by show 0 = if (1 : Nat) = 1 then 0 else c.val; rw [if_pos rfl]
    | ⟨3, _⟩ => by show k.val = if (64 : Nat) = 1 then 0 else k.val; rw [if_neg (by decide)]
    | ⟨4, _⟩ => by show h.val = if (28 : Nat) = 1 then 0 else h.val; rw [if_neg (by decide)]
    | ⟨5, _⟩ => by show w.val = if (28 : Nat) = 1 then 0 else w.val; rw [if_neg (by decide)])

/-- The weights broadcast along samples, rows and columns. -/
private theorem s4_bc_wt {α : Type} (y : S1x1x256x64x1x1.Idx → α)
    (hb : S1x1x256x64x1x1.BroadcastsInDim S8x1x256x64x28x28 (![0, 1, 2, 3, 4, 5] : Fin 6 → Fin S8x1x256x64x28x28.rank))
    (b : Fin 8) (c : Fin 256) (k : Fin 64) (h w : Fin 28) :
    broadcastInDim S8x1x256x64x28x28 ![0, 1, 2, 3, 4, 5] hb y (ix6 b (0 : Fin 1) c k h w)
      = y (ix6 (0 : Fin 1) (0 : Fin 1) c k (0 : Fin 1) (0 : Fin 1)) :=
  broadcastInDim_apply _ hb y _ (ix6 (0 : Fin 1) (0 : Fin 1) c k (0 : Fin 1) (0 : Fin 1)) (fun a => match a with
    | ⟨0, _⟩ => by show 0 = if (1 : Nat) = 1 then 0 else b.val; rw [if_pos rfl]
    | ⟨1, _⟩ => by show 0 = if (1 : Nat) = 1 then 0 else 0; rw [if_pos rfl]
    | ⟨2, _⟩ => by show c.val = if (256 : Nat) = 1 then 0 else c.val; rw [if_neg (by decide)]
    | ⟨3, _⟩ => by show k.val = if (64 : Nat) = 1 then 0 else k.val; rw [if_neg (by decide)]
    | ⟨4, _⟩ => by show 0 = if (1 : Nat) = 1 then 0 else h.val; rw [if_pos rfl]
    | ⟨5, _⟩ => by show 0 = if (1 : Nat) = 1 then 0 else w.val; rw [if_pos rfl])

/-- [1,256,64] placed on axes 1, 2, 3 of [1,1,256,64,1,1]. -/
private theorem s4_bc_wt3 {α : Type} (y : S1x256x64.Idx → α)
    (hb : S1x256x64.BroadcastsInDim S1x1x256x64x1x1 (![1, 2, 3] : Fin 3 → Fin S1x1x256x64x1x1.rank))
    (c : Fin 256) (k : Fin 64) :
    broadcastInDim S1x1x256x64x1x1 ![1, 2, 3] hb y (ix6 (0 : Fin 1) (0 : Fin 1) c k (0 : Fin 1) (0 : Fin 1))
      = y (ix3 (0 : Fin 1) c k) :=
  broadcastInDim_apply _ hb y _ (ix3 (0 : Fin 1) c k) (fun a => match a with
    | ⟨0, _⟩ => by show 0 = if (1 : Nat) = 1 then 0 else 0; rw [if_pos rfl]
    | ⟨1, _⟩ => by show c.val = if (256 : Nat) = 1 then 0 else c.val; rw [if_neg (by decide)]
    | ⟨2, _⟩ => by show k.val = if (64 : Nat) = 1 then 0 else k.val; rw [if_neg (by decide)])

/-- [1,256,64,1,1] → [1,256,64]: the two trailing unit axes dropped. -/
private theorem s4_cast53 {α : Type} (y : S1x256x64x1x1.Idx → α) (hc : S1x256x64x1x1.ShapeCasts S1x256x64)
    (c : Fin 256) (k : Fin 64) :
    shapeCast S1x256x64 y hc (ix3 (0 : Fin 1) c k) = y (ix5 (0 : Fin 1) c k (0 : Fin 1) (0 : Fin 1)) := by
  refine shapeCast_apply y hc _ _ ?_
  rewrite [Shape.rowMajor_val_five, Shape.rowMajor_val_three]
  have := c.isLt; have := k.isLt
  show (((0 * 256 + c.val) * 64 + k.val) * 1 + 0) * 1 + 0 = (0 * 256 + c.val) * 64 + k.val
  omega

/-- [256,64,1,1] → [1,256,64,1,1]: a leading unit axis added. -/
private theorem s4_cast45 {α : Type} (y : S256x64x1x1.Idx → α) (hc : S256x64x1x1.ShapeCasts S1x256x64x1x1)
    (c : Fin 256) (k : Fin 64) :
    shapeCast S1x256x64x1x1 y hc (ix5 (0 : Fin 1) c k (0 : Fin 1) (0 : Fin 1)) = y (ix4 c k (0 : Fin 1) (0 : Fin 1)) := by
  refine shapeCast_apply y hc _ _ ?_
  rewrite [Shape.rowMajor_val_four, Shape.rowMajor_val_five]
  have := c.isLt; have := k.isLt
  show ((c.val * 64 + k.val) * 1 + 0) * 1 + 0 = (((0 * 256 + c.val) * 64 + k.val) * 1 + 0) * 1 + 0
  omega

/-- [8,1,256,28,28] → [8,256,28,28]: the unit axis dropped. -/
private theorem s4_cast54 {α : Type} (y : S8x1x256x28x28.Idx → α) (hc : S8x1x256x28x28.ShapeCasts S8x256x28x28)
    (b : Fin 8) (c : Fin 256) (h w : Fin 28) :
    shapeCast S8x256x28x28 y hc (ix4 b c h w) = y (ix5 b (0 : Fin 1) c h w) := by
  refine shapeCast_apply y hc _ _ ?_
  rewrite [Shape.rowMajor_val_five, Shape.rowMajor_val_four]
  have := b.isLt; have := c.isLt; have := h.isLt; have := w.isLt
  show (((b.val * 1 + 0) * 256 + c.val) * 28 + h.val) * 28 + w.val = ((b.val * 256 + c.val) * 28 + h.val) * 28 + w.val
  omega

/-- A per-channel vector placed on the channel axis of [1,256,1,1]. -/
private theorem s4_bc_ch1 {α : Type} (y : S256.Idx → α)
    (hb : S256.BroadcastsInDim S1x256x1x1 (![1] : Fin 1 → Fin S1x256x1x1.rank)) (c : Fin 256) :
    broadcastInDim S1x256x1x1 ![1] hb y (ix4 (0 : Fin 1) c (0 : Fin 1) (0 : Fin 1)) = y (ix1 c) :=
  broadcastInDim_apply _ hb y _ (ix1 c) (fun a => match a with
    | ⟨0, _⟩ => by show c.val = if (256 : Nat) = 1 then 0 else c.val; rw [if_neg (by decide)])

/-- [1,256,1,1] broadcast over samples, rows and columns. -/
private theorem s4_bc_ch4 {α : Type} (y : S1x256x1x1.Idx → α)
    (hb : S1x256x1x1.BroadcastsInDim S8x256x28x28 (![0, 1, 2, 3] : Fin 4 → Fin S8x256x28x28.rank))
    (b : Fin 8) (c : Fin 256) (h w : Fin 28) :
    broadcastInDim S8x256x28x28 ![0, 1, 2, 3] hb y (ix4 b c h w) = y (ix4 (0 : Fin 1) c (0 : Fin 1) (0 : Fin 1)) :=
  broadcastInDim_apply _ hb y _ (ix4 (0 : Fin 1) c (0 : Fin 1) (0 : Fin 1)) (fun a => match a with
    | ⟨0, _⟩ => by show 0 = if (1 : Nat) = 1 then 0 else b.val; rw [if_pos rfl]
    | ⟨1, _⟩ => by show c.val = if (256 : Nat) = 1 then 0 else c.val; rw [if_neg (by decide)]
    | ⟨2, _⟩ => by show 0 = if (1 : Nat) = 1 then 0 else h.val; rw [if_pos rfl]
    | ⟨3, _⟩ => by show 0 = if (1 : Nat) = 1 then 0 else w.val; rw [if_pos rfl])

/-- The sum over the 64 input channels (axis 3), from the initial array's entry. -/
private theorem s4_red_ch (y : FVec Ideal S8x1x256x64x28x28 .f32) (init : FVec Ideal S_ .f32)
    (hr : S8x1x256x64x28x28.ReducesTo [3] S8x1x256x28x28) (h0 : 0 < S_.numel)
    (b : Fin 8) (c : Fin 256) (h w : Fin 28) :
    Host.reduceAdd y init hr h0 (ix5 b (0 : Fin 1) c h w)
      = init (Shape.Idx.first h0) + ∑ k : Fin 64, y (ix6 b (0 : Fin 1) c k h w) := by
  rw [hostReduceAdd_apply, Ideal.hostReduceAdd_single hr (by decide)]
  refine congrArg (_ + ·) (Finset.sum_congr rfl fun k _ => ?_)
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The last 1×1 L1 stage over a map P and weights W: zero minus the L1 distance of the sample's 64 channels
    at (h, w) from row c of the weights. -/
private theorem s4_stage_l1 (P : FVec Ideal S8x64x28x28 .f32) (W : FVec Ideal S256x64x1x1 .f32)
    (hs : S8x64x28x28.Slices ![0, 0, 0, 0] S8x64x28x28)
    (hc46 : S8x64x28x28.ShapeCasts S8x1x1x64x28x28)
    (hc45 : S256x64x1x1.ShapeCasts S1x256x64x1x1)
    (hc53 : S1x256x64x1x1.ShapeCasts S1x256x64)
    (hb3 : S1x256x64.BroadcastsInDim S1x1x256x64x1x1 (![1, 2, 3] : Fin 3 → Fin S1x1x256x64x1x1.rank))
    (hba : S8x1x1x64x28x28.BroadcastsInDim S8x1x256x64x28x28 (![0, 1, 2, 3, 4, 5] : Fin 6 → Fin S8x1x256x64x28x28.rank))
    (hbw : S1x1x256x64x1x1.BroadcastsInDim S8x1x256x64x28x28 (![0, 1, 2, 3, 4, 5] : Fin 6 → Fin S8x1x256x64x28x28.rank))
    (hr : S8x1x256x64x28x28.ReducesTo [3] S8x1x256x28x28) (h0 : 0 < S_.numel)
    (hc54 : S8x1x256x28x28.ShapeCasts S8x256x28x28)
    (hz : S_.BroadcastsInDim S8x256x28x28 (![] : Fin 0 → Fin S8x256x28x28.rank))
    (b : Fin 8) (c : Fin 256) (h w : Fin 28) :
    subf (broadcastInDim S8x256x28x28 ![] hz (constant (F := Ideal) S_ .f32 0x00000000#32))
      (shapeCast S8x256x28x28
        (Host.reduceAdd
          (Host.absf (subf
            (broadcastInDim S8x1x256x64x28x28 ![0, 1, 2, 3, 4, 5] hba
              (shapeCast S8x1x1x64x28x28 (extractStridedSlice S8x64x28x28 ![0, 0, 0, 0] P hs) hc46))
            (broadcastInDim S8x1x256x64x28x28 ![0, 1, 2, 3, 4, 5] hbw
              (broadcastInDim S1x1x256x64x1x1 ![1, 2, 3] hb3
                (shapeCast S1x256x64 (shapeCast S1x256x64x1x1 W hc45) hc53)))))
          (constant (F := Ideal) S_ .f32 0x00000000#32) hr h0) hc54) (ix4 b c h w)
      = zc - l1 (fun k : Fin 64 => P (ix4 b k h w)) (fun k => W (ix4 c k (0 : Fin 1) (0 : Fin 1))) := by
  rw [subf_apply, broadcastInDim_scalar_apply, s4_cast54, s4_red_ch]
  unfold l1
  refine congrArg (zc - ·) (congrArg (zc + ·) (Finset.sum_congr rfl fun k _ => ?_))
  show FloatOps.hostAbsf (FloatOps.subf
      (broadcastInDim S8x1x256x64x28x28 ![0, 1, 2, 3, 4, 5] hba
        (shapeCast S8x1x1x64x28x28 (extractStridedSlice S8x64x28x28 ![0, 0, 0, 0] P hs) hc46) (ix6 b (0 : Fin 1) c k h w))
      (broadcastInDim S8x1x256x64x28x28 ![0, 1, 2, 3, 4, 5] hbw
        (broadcastInDim S1x1x256x64x1x1 ![1, 2, 3] hb3
          (shapeCast S1x256x64 (shapeCast S1x256x64x1x1 W hc45) hc53)) (ix6 b (0 : Fin 1) c k h w)))
    = ab (P (ix4 b k h w) - W (ix4 c k (0 : Fin 1) (0 : Fin 1)))
  rw [s4_bc_act, s4_cast46, s4_slice_whole, s4_bc_wt, s4_bc_wt3, s4_cast53, s4_cast45]
  rfl

/-- Scale, shift, residual and clamp at zero, over the stage's result D and the input X. -/
private theorem s4_tail_at (D X : FVec Ideal S8x256x28x28 .f32) (g bb m v : FVec Ideal S256 .f32)
    (hz1 : S_.BroadcastsInDim S256 (![] : Fin 0 → Fin S256.rank))
    (hb1 : S256.BroadcastsInDim S1x256x1x1 (![1] : Fin 1 → Fin S1x256x1x1.rank))
    (hb4 : S1x256x1x1.BroadcastsInDim S8x256x28x28 (![0, 1, 2, 3] : Fin 4 → Fin S8x256x28x28.rank))
    (hz : S_.BroadcastsInDim S8x256x28x28 (![] : Fin 0 → Fin S8x256x28x28.rank))
    (b : Fin 8) (c : Fin 256) (h w : Fin 28) :
    maximumf
      (addf
        (addf
          (mulf D (broadcastInDim S8x256x28x28 ![0, 1, 2, 3] hb4 (broadcastInDim S1x256x1x1 ![1] hb1
            (Host.divf g (Host.sqrt (addf v (broadcastInDim S256 ![] hz1 (constant (F := Ideal) S_ .f32 0x3727C5AC#32))))))))
          (broadcastInDim S8x256x28x28 ![0, 1, 2, 3] hb4 (broadcastInDim S1x256x1x1 ![1] hb1
            (subf bb (mulf m
              (Host.divf g (Host.sqrt (addf v (broadcastInDim S256 ![] hz1 (constant (F := Ideal) S_ .f32 0x3727C5AC#32))))))))))
        X)
      (broadcastInDim S8x256x28x28 ![] hz (constant (F := Ideal) S_ .f32 0x00000000#32)) (ix4 b c h w)
      = max (bn (scaleDiv (g (ix1 c)) (v (ix1 c))) (bb (ix1 c)) (m (ix1 c)) (D (ix4 b c h w)) + X (ix4 b c h w)) zc := by
  rw [maximumf_apply, addf_apply, addf_apply, mulf_apply, broadcastInDim_scalar_apply, s4_bc_ch4, s4_bc_ch1, s4_bc_ch4, s4_bc_ch1]
  unfold bn scaleDiv
  rfl

/-- The reference's result at (b, c, h, w): the last 1×1 L1 stage over the third-stage map, scaled and shifted per
    channel, the input added, clamped at zero. -/
theorem ref_out_of (x0 : FVec Ideal S8x256x28x28 .f32) (x1 : FVec Ideal S64x256x1x1 .f32) (x2 : FVec Ideal S64x1x3x3 .f32) (x3 : FVec Ideal S64x64x3x3 .f32) (x4 : FVec Ideal S256x64x1x1 .f32) (x5 x6 x7 x8 x9 x10 x11 x12 : FVec Ideal S64 .f32) (x13 x14 x15 x16 : FVec Ideal S256 .f32) (P3 : Fin 8 → Fin 64 → Fin 28 → Fin 28 → EReal)
    (hp : ∀ b c h w, val_main_v253 (F := Ideal) x0 x1 x2 x3 x5 x6 x7 x8 x9 x10 x11 x12 (ix4 b c h w) = P3 b c h w) (b : Fin 8) (c : Fin 256) (h w : Fin 28) :
    val_main_v280 (F := Ideal) x0 x1 x2 x3 x4 x5 x6 x7 x8 x9 x10 x11 x12 x13 x14 x15 x16 (ix4 b c h w)
      = max (bn (scaleDiv (x13 (ix1 c)) (x16 (ix1 c))) (x14 (ix1 c)) (x15 (ix1 c))
            (zc - l1 (fun k : Fin 64 => P3 b k h w) (fun k => x4 (ix4 c k (0 : Fin 1) (0 : Fin 1)))) + x0 (ix4 b c h w)) zc := by
  -- operations %254–%266: zero minus the L1 distance over the 64 input channels
  have e266 : val_main_v266 (F := Ideal) x0 x1 x2 x3 x4 x5 x6 x7 x8 x9 x10 x11 x12 (ix4 b c h w)
      = zc - l1 (fun k : Fin 64 => P3 b k h w) (fun k => x4 (ix4 c k (0 : Fin 1) (0 : Fin 1))) := by
    unfold val_main_v266 val_main_v265 val_main_v264 val_main_v263 val_main_v262 val_main_v261 val_main_v260
      val_main_v259 val_main_v258 val_main_v257 val_main_v256 val_main_v255 val_main_v254 val_main_cst_26 val_main_cst_27
    refine (s4_stage_l1 (val_main_v253 (F := Ideal) x0 x1 x2 x3 x5 x6 x7 x8 x9 x10 x11 x12) x4 _ _ _ _ _ _ _ _ _ _ _ b c h w).trans ?_
    simp only [hp]
  -- operations %267–%280: scale and shift per channel, the residual, the clamp
  unfold val_main_v280 val_main_v279 val_main_v278 val_main_v277 val_main_v276 val_main_v275 val_main_v274 val_main_v273
    val_main_v272 val_main_v271 val_main_v270 val_main_v269 val_main_v268 val_main_v267 val_main_cst_28
    val_main_call6_v0 val_main_call6_cst
  refine (s4_tail_at _ x0 x13 x14 x15 x16 _ _ _ _ b c h w).trans ?_
  rw [e266]

end Cert.ResAdd.R
end
-- ==== Proof.RefResult.lean ====
/-
  The reference's result array is the specification's, with the three scales spelled as quotients. The stages are
  chained, each step folding one level of the specification: the first stage's map; its padded map; the depthwise
  stage's clamped map over it; that one's padded map; the 3×3 stage's clamped map over it; the last stage, the
  residual and the clamp.
-/
import proofs.«165038_j41480794144828_1_alg».proof.Proof.RefRead
import proofs.«165038_j41480794144828_1_alg».proof.Proof.RPadA1
import proofs.«165038_j41480794144828_1_alg».proof.Proof.RStage2
import proofs.«165038_j41480794144828_1_alg».proof.Proof.RStage3
import proofs.«165038_j41480794144828_1_alg».proof.Proof.RStage4
import proofs.«165038_j41480794144828_1_alg».proof.Proof.Spec
import Idealize.ShloMosaic.Lib.ValueIdx

set_option maxRecDepth 16384

noncomputable section

namespace Cert.ResAdd.R

open Idealize.ShloMosaic Idealize.ShloMosaic.TcCoe Idealize.ShloMosaic.ValueIdx Cert.ReferenceIdeal Cert.ReferenceIdeal.Gen Cert.ReferenceIdeal.Read Cert.ResAdd

variable (x0 : FVec Ideal S8x256x28x28 .f32) (x1 : FVec Ideal S64x256x1x1 .f32) (x2 : FVec Ideal S64x1x3x3 .f32)
  (x3 : FVec Ideal S64x64x3x3 .f32) (x4 : FVec Ideal S256x64x1x1 .f32) (x5 x6 x7 x8 x9 x10 x11 x12 : FVec Ideal S64 .f32)
  (x13 x14 x15 x16 : FVec Ideal S256 .f32)

/-- The depthwise stage's clamped map is the specification's second clamped map. -/
theorem ref_r2 (b : Fin 8) (c : Fin 64) (h w : Fin 28) :
    val_main_v128 (F := Ideal) x0 x1 x2 x5 x6 x7 x8 (ix4 b c h w)
      = r2 (fun k h w => x0 (ix4 b k h w)) (fun c k => x1 (ix4 c k (0 : Fin 1) (0 : Fin 1))) (fun c kh kw => x2 (ix4 c (0 : Fin 1) kh kw)) (fun c => scaleDiv (x5 (ix1 c)) (x8 (ix1 c))) (fun c => x6 (ix1 c)) (fun c => x7 (ix1 c)) c h w := by
  have hp1 := ref_pad1_of x0 x1 (fun b c h w => a1 (fun k h w => x0 (ix4 b k h w)) (fun c k => x1 (ix4 c k (0 : Fin 1) (0 : Fin 1))) c h w) (ref_a1 x0 x1)
  rw [ref_r2_of x0 x1 x2 x5 x6 x7 x8 _ hp1 b c h w]
  rfl

/-- The 3×3 stage's clamped map is the specification's third clamped map. -/
theorem ref_r3 (b : Fin 8) (c : Fin 64) (h w : Fin 28) :
    val_main_v252 (F := Ideal) x0 x1 x2 x3 x5 x6 x7 x8 x9 x10 x11 x12 (ix4 b c h w)
      = r3 (fun k h w => x0 (ix4 b k h w)) (fun c k => x1 (ix4 c k (0 : Fin 1) (0 : Fin 1))) (fun c kh kw => x2 (ix4 c (0 : Fin 1) kh kw)) (fun c k kh kw => x3 (ix4 c k kh kw)) (fun c => scaleDiv (x5 (ix1 c)) (x8 (ix1 c))) (fun c => x6 (ix1 c)) (fun c => x7 (ix1 c)) (fun c => scaleDiv (x9 (ix1 c)) (x12 (ix1 c))) (fun c => x10 (ix1 c)) (fun c => x11 (ix1 c)) c h w := by
  have hp2 := ref_pad2_of x0 x1 x2 x5 x6 x7 x8
    (fun b c h w => r2 (fun k h w => x0 (ix4 b k h w)) (fun c k => x1 (ix4 c k (0 : Fin 1) (0 : Fin 1))) (fun c kh kw => x2 (ix4 c (0 : Fin 1) kh kw)) (fun c => scaleDiv (x5 (ix1 c)) (x8 (ix1 c))) (fun c => x6 (ix1 c)) (fun c => x7 (ix1 c)) c h w) (ref_r2 x0 x1 x2 x5 x6 x7 x8)
  rw [ref_r3_of x0 x1 x2 x3 x5 x6 x7 x8 x9 x10 x11 x12 _ hp2 b c h w]
  rfl

theorem ref_result : val_main_v280 (F := Ideal) x0 x1 x2 x3 x4 x5 x6 x7 x8 x9 x10 x11 x12 x13 x14 x15 x16 = resultArr scaleDiv x0 x1 x2 x3 x4 x5 x6 x7 x8 x9 x10 x11 x12 x13 x14 x15 x16 := by
  funext i
  obtain ⟨b, c, h, w, rfl⟩ : ∃ (b : Fin 8) (c : Fin 256) (h w : Fin 28), i = ix4 b c h w := ⟨i 0, i 1, i 2, i 3, eq_ix4 i⟩
  rw [resultArr_ix4]
  have hp3 : ∀ (b : Fin 8) (c : Fin 64) (h w : Fin 28),
      val_main_v253 (F := Ideal) x0 x1 x2 x3 x5 x6 x7 x8 x9 x10 x11 x12 (ix4 b c h w)
        = r3 (fun k h w => x0 (ix4 b k h w)) (fun c k => x1 (ix4 c k (0 : Fin 1) (0 : Fin 1))) (fun c kh kw => x2 (ix4 c (0 : Fin 1) kh kw)) (fun c k kh kw => x3 (ix4 c k kh kw)) (fun c => scaleDiv (x5 (ix1 c)) (x8 (ix1 c))) (fun c => x6 (ix1 c)) (fun c => x7 (ix1 c)) (fun c => scaleDiv (x9 (ix1 c)) (x12 (ix1 c))) (fun c => x10 (ix1 c)) (fun c => x11 (ix1 c)) c h w := fun b c h w => by
    rw [ref_pad3]
    exact ref_r3 x0 x1 x2 x3 x5 x6 x7 x8 x9 x10 x11 x12 b c h w
  rw [ref_out_of x0 x1 x2 x3 x4 x5 x6 x7 x8 x9 x10 x11 x12 x13 x14 x15 x16 _ hp3 b c h w]
  rfl

end Cert.ResAdd.R

end
-- ==== Proof.PreV.lean ====
/-
  From the certificate's precondition to "every variance plus ε is positive".

  The precondition is a conjunction, by the one-bit "and", of tests that each reduce a vector of one-bit words by
  "and" from 1. Its last three conjuncts compare, entry by entry, a variance vector plus the constant ε against
  zero by "greater than". A conjunction that is 1 has both sides 1; a reduction by "and" that is 1 met only 1s;
  and a "greater than" word that is 1 says the right side is strictly below the left. The zero word is the
  extended real 0, and ε's word is left as the constant the specification names.
-/
import proofs.«165038_j41480794144828_1_alg».proof.Defs
import proofs.«165038_j41480794144828_1_alg».proof.Proof.Gen.Pre_finite_inputs
import proofs.«165038_j41480794144828_1_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.ResAdd

open Idealize.ShloMosaic Idealize.ShloMosaic.TcCoe Idealize.ShloMosaic.ValueIdx Idealize.SL.Sem Cert.KernelIdeal

/-- The scalar shape has one index. -/
private instance scalarIdx_subsingleton : Subsingleton Cert.Pre_finite_inputs.S_.Idx := ⟨fun _ _ => funext fun d => d.elim0⟩

/-- A "greater than" word equal to 1 says the right side is strictly below the left. -/
private theorem lt_of_ogt_one {x y : EReal} (h : FloatOps.cmpf (F := Ideal) (φ := .f32) .ogt x y = 1#1) : y < x := by
  have h' : BitVec.ofBool (decide (y < x)) = 1#1 := h
  cases hd : decide (y < x) with
  | true => exact of_decide_eq_true hd
  | false => rw [hd] at h'; exact absurd h' (by decide)

/-- An entry of "x greater than the zero splat" equal to 1 says that entry of x is positive. -/
private theorem pos_of_entry {T : Shape} (hb : (⟨0, ![]⟩ : Shape).BroadcastsInDim T ![]) (x : FVec Ideal T .f32) (i : T.Idx)
    (h : cmpf .ogt x (broadcastInDim T ![] hb (constant (F := Ideal) ⟨0, ![]⟩ .f32 0x00000000#32)) i = 1#1) : 0 < x i := by
  have h' : FloatOps.cmpf (F := Ideal) (φ := .f32) .ogt (x i)
      (broadcastInDim T ![] hb (constant (F := Ideal) ⟨0, ![]⟩ .f32 0x00000000#32) i) = 1#1 := h
  rw [broadcastInDim_scalar_apply, constant_apply, Ideal.ofBits_zero_f32] at h'
  exact lt_of_ogt_one h'

/-- The ε splat reads ε everywhere. -/
private theorem eps_entry {T : Shape} (hb : (⟨0, ![]⟩ : Shape).BroadcastsInDim T ![]) (i : T.Idx) :
    broadcastInDim T ![] hb (constant (F := Ideal) ⟨0, ![]⟩ .f32 0x3727C5AC#32) i = ep := by
  rw [broadcastInDim_scalar_apply, constant_apply]

/-- The last part of the predicate: if it is 1 then the three compared vectors are positive at every entry. The
    conjunction of everything tested before (`v83`) is never opened. -/
private theorem part5_pos (a8 a12 : FVec Ideal Cert.Pre_finite_inputs.S64 .f32) (a16 : FVec Ideal Cert.Pre_finite_inputs.S256 .f32)
    (v83 : IVec Cert.Pre_finite_inputs.S_ 1) (v84 : FVec Ideal Cert.Pre_finite_inputs.S64 .f32)
    (h : Cert.Pre_finite_inputs.fn_part5 (F := Ideal) a8 a12 a16 v83 v84 ix0 = 1#1) :
    (∀ k : Fin 64, 0 < a8 (ix1 k) + v84 (ix1 k)) ∧ (∀ k : Fin 64, 0 < a12 (ix1 k) + ep) ∧ (∀ k : Fin 256, 0 < a16 (ix1 k) + ep) := by
  unfold Cert.Pre_finite_inputs.fn_part5 Cert.Pre_finite_inputs.fn_part6 at h
  have h1 : IntOp.andi _ _ = 1#1 := h
  obtain ⟨h95, h100⟩ := IntOp.andi_eq_one.1 h1
  have h2 : IntOp.andi _ _ = 1#1 := h95
  obtain ⟨h89, h94⟩ := IntOp.andi_eq_one.1 h2
  have h3 : IntOp.andi _ _ = 1#1 := h89
  obtain ⟨-, h88⟩ := IntOp.andi_eq_one.1 h3
  refine ⟨fun k => ?_, fun k => ?_, fun k => ?_⟩
  · exact pos_of_entry _ (addf a8 v84) (ix1 k) (Host.reduce_andi_all _ _ _ _ ix0 h88 (ix1 k))
  · have := pos_of_entry _ _ (ix1 k) (Host.reduce_andi_all _ _ _ _ ix0 h94 (ix1 k))
    rw [addf_apply, eps_entry] at this
    exact this
  · have := pos_of_entry _ _ (ix1 k) (Host.reduce_andi_all _ _ _ _ ix0 h100 (ix1 k))
    rw [addf_apply, eps_entry] at this
    exact this

/-- Under the precondition every variance plus ε is positive, for the three normalisations. An entry of an argument
    buffer is an extended real only after its element type is computed, so the order and the sum are named at the
    extended reals outright: each conjunct reads `0 < v (ix1 k) + ep`. -/
theorem var_pos (m : (ℓ : Loc nD τ sig) → Buf (Elt Ideal) ℓ) (hpre : Cert.Pre_KernelIdeal m) (c : Dev nD) :
    (∀ k : Fin 64, @LT.lt EReal _ 0 (@HAdd.hAdd EReal EReal EReal _ (m ((c.tc : Thread nD τ).loc main_arg8) (ix1 k)) ep))
  ∧ (∀ k : Fin 64, @LT.lt EReal _ 0 (@HAdd.hAdd EReal EReal EReal _ (m ((c.tc : Thread nD τ).loc main_arg12) (ix1 k)) ep))
  ∧ (∀ k : Fin 256, @LT.lt EReal _ 0 (@HAdd.hAdd EReal EReal EReal _ (m ((c.tc : Thread nD τ).loc main_arg16) (ix1 k)) ep)) := by
  have h := congrFun (hpre c) ix0
  have h5 : Cert.Pre_finite_inputs.fn_part5 (F := Ideal) (m ((c.tc : Thread nD τ).loc main_arg8)) (m ((c.tc : Thread nD τ).loc main_arg12))
      (m ((c.tc : Thread nD τ).loc main_arg16)) _ _ ix0 = 1#1 := h
  obtain ⟨h8, h12, h16⟩ := part5_pos _ _ _ _ _ h5
  refine ⟨fun k => ?_, h12, h16⟩
  have := h8 k
  rw [eps_entry] at this
  exact this

end Cert.ResAdd

end
-- ==== Proof.lean ====
/- The certificate of the adder-convolution bottleneck block: `Cert.Claim`, that is the three frames, `preserves`
   (no rewrite was recorded, so it is `True`) and `algebraic`.
   The two programs compute, per sample, the same chain — L1 distances to the rows of a weight matrix, a border of
   padding, nine taps subtracted one after the other, a per-channel scale, shift and clamp, the residual — in two
   layouts (channels last and in chunks in the kernel, channels second through rank-six broadcasts in the reference),
   and they spell the scale differently: `g · rsqrt (v + ε)` against `g / sqrt (v + ε)`. On the extended reals those
   agree exactly where `0 < v + ε` (below it the reference's square root has no value), which the precondition states
   for the three variance arrays; nothing else of the precondition is used.
   Both runs are stated at one array, the specification's `resultArr`: the kernel's from its frame run, block by block
   (`K.kernel_run`), the reference's from its operations stage by stage (`R.ref_run`, `R.ref_result`). -/
import proofs.«165038_j41480794144828_1_alg».proof.Defs
import proofs.«165038_j41480794144828_1_alg».proof.Proof.Gen.Kernel
import proofs.«165038_j41480794144828_1_alg».proof.Proof.Gen.Kernel.Skeleton
import proofs.«165038_j41480794144828_1_alg».proof.Proof.Gen.Kernel.Launch
import proofs.«165038_j41480794144828_1_alg».proof.Proof.Gen.Kernel.Points
import proofs.«165038_j41480794144828_1_alg».proof.Proof.Gen.Kernel.Frame
import proofs.«165038_j41480794144828_1_alg».proof.Proof.Gen.KernelIdeal
import proofs.«165038_j41480794144828_1_alg».proof.Proof.Gen.KernelIdeal.Skeleton
import proofs.«165038_j41480794144828_1_alg».proof.Proof.Gen.KernelIdeal.Launch
import proofs.«165038_j41480794144828_1_alg».proof.Proof.Gen.KernelIdeal.Points
import proofs.«165038_j41480794144828_1_alg».proof.Proof.Gen.KernelIdeal.Frame
import proofs.«165038_j41480794144828_1_alg».proof.Proof.Gen.ReferenceIdeal
import proofs.«165038_j41480794144828_1_alg».proof.Proof.Gen.Pre_finite_inputs
import Idealize.ShloMosaic.Adequacy
import Idealize.ShloMosaic.Init

import proofs.«165038_j41480794144828_1_alg».proof.Proof.Spec
import proofs.«165038_j41480794144828_1_alg».proof.Proof.KRun
import proofs.«165038_j41480794144828_1_alg».proof.Proof.RefRun
import proofs.«165038_j41480794144828_1_alg».proof.Proof.RefResult
import proofs.«165038_j41480794144828_1_alg».proof.Proof.PreV

noncomputable section

namespace Cert.Proof

open Idealize.ShloMosaic Idealize.SL.Sem Cert.ResAdd

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ResAdd.R.ref_run m ρ)

/-- Both programs end at the specification's array: the kernel's with the scales as products, the reference's with
    them as quotients of arguments that agree, and where every variance plus ε is positive those are one array. -/
theorem algebraic : Cert.algebraic_KernelIdeal_ReferenceIdeal := by
  intro m ρ m' ρ' hpre hagree
  refine ⟨fun c => Cert.ResAdd.K.kres m c, Cert.ResAdd.K.kernel_run m ρ, ?_⟩
  refine (θ_run Cert.ReferenceIdeal.defs _ _).mono (fun _ h c => ⟨(h c).1.trans ?_, (h c).2⟩) (Cert.ResAdd.R.ref_run m' ρ')
  obtain ⟨h1, h2, h3⟩ := Cert.ResAdd.var_pos m hpre c
  obtain ⟨e0, e1, e2, e3, e4, e5, e6, e7, e8, e9, e10, e11, e12, e13, e14, e15, e16⟩ := hagree c
  rw [Cert.ResAdd.R.ref_result, e0, e1, e2, e3, e4, e5, e6, e7, e8, e9, e10, e11, e12, e13, e14, e15, e16]
  exact (resultArr_scale _ _ _ _ _ _ _ _ _ _ _ _ _ _ _ _ _ h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
